-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_5" .f32 0x3E4CCCCD#32 ((1 / 5 : ℝ) : EReal)
  ∧ IdealRules.named_const.Statement Cert.KernelIdeal.κ "inv_5" .f32 0x3E4CCCCD#32 ((1 / 5 : ℝ) : EReal)
  ∧ IdealRules.named_const.Statement Cert.KernelIdeal.κ "inv_5" .f32 0x3E4CCCCD#32 ((1 / 5 : ℝ) : EReal)
  ∧ IdealRules.named_const.Statement Cert.KernelIdeal.κ "inv_5" .f32 0x3E4CCCCD#32 ((1 / 5 : ℝ) : EReal)
  ∧ IdealRules.named_const.Statement Cert.KernelIdeal.κ "inv_5" .f32 0x3E4CCCCD#32 ((1 / 5 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x25x20x20 : Shape := ⟨4, ![8192, 25, 20, 20]⟩
abbrev S8192x4 : Shape := ⟨2, ![8192, 4]⟩
abbrev S5x2 : Shape := ⟨2, ![5, 2]⟩
abbrev S_ : Shape := ⟨0, ![]⟩
abbrev S8192x2 : Shape := ⟨2, ![8192, 2]⟩

class Facts : Prop where
  bcast_S_S8192x25x20x20 : S_.BroadcastsInDim S8192x25x20x20 (![] : Fin 0 → Fin S8192x25x20x20.rank)
  reducesTo_S8192x25x20x20_S_d0_1_2_3 : S8192x25x20x20.ReducesTo [0, 1, 2, 3] S_
  h_S_ : 0 < S_.numel
  bcast_S_S8192x4 : S_.BroadcastsInDim S8192x4 (![] : Fin 0 → Fin S8192x4.rank)
  reducesTo_S8192x4_S_d0_1 : S8192x4.ReducesTo [0, 1] S_
  bcast_S_S5x2 : S_.BroadcastsInDim S5x2 (![] : Fin 0 → Fin S5x2.rank)
  reducesTo_S5x2_S_d0_1 : S5x2.ReducesTo [0, 1] S_
  slices_S8192x4_S8192x2_0_0 : S8192x4.Slices ![0, 0] S8192x2
  bcast_S_S8192x2 : S_.BroadcastsInDim S8192x2 (![] : Fin 0 → Fin S8192x2.rank)
  reducesTo_S8192x2_S_d0_1 : S8192x2.ReducesTo [0, 1] S_

variable [Facts]

def fn_part1 {F : FTy → Type} [FloatOps F] (main_arg1 : FVec F S8192x4 .f32) (main_v13 : IVec S_ 1) (main_v16 : FVec F S8192x2 .f32) : IVec S_ 1 :=
  let main_v17 : FVec F S8192x2 .f32 := Host.floor main_v16
  let main_cst_5 : FVec F S_ .f32 := constant S_ .f32 0x00000000#32
  let main_v18 : FVec F S8192x2 .f32 := broadcastInDim S8192x2 ![] bcast_S_S8192x2 main_cst_5
  let main_v19 : IVec S8192x2 1 := cmpf .oge main_v17 main_v18
  let main_c_6 : IVec S_ 1 := constantI S_ 1 1#1
  let main_v20 : IVec S_ 1 := (fun x v => Host.reduce IntOp.andi x v reducesTo_S8192x2_S_d0_1 h_S_) main_v19 main_c_6
  let main_v21 : IVec S_ 1 := andi main_v13 main_v20
  let main_v22 : FVec F S8192x2 .f32 := (extractStridedSlice S8192x2 ![0, 0] · slices_S8192x4_S8192x2_0_0) main_arg1
  let main_cst_7 : FVec F S_ .f32 := constant S_ .f32 0x41A00000#32
  let main_v23 : FVec F S8192x2 .f32 := broadcastInDim S8192x2 ![] bcast_S_S8192x2 main_cst_7
  let main_v24 : FVec F S8192x2 .f32 := mulf main_v22 main_v23
  let main_v25 : FVec F S8192x2 .f32 := Host.floor main_v24
  let main_cst_8 : FVec F S_ .f32 := constant S_ .f32 0x41980000#32
  let main_v26 : FVec F S8192x2 .f32 := broadcastInDim S8192x2 ![] bcast_S_S8192x2 main_cst_8
  let main_v27 : IVec S8192x2 1 := cmpf .ole main_v25 main_v26
  let main_c_9 : IVec S_ 1 := constantI S_ 1 1#1
  let main_v28 : IVec S_ 1 := (fun x v => Host.reduce IntOp.andi x v reducesTo_S8192x2_S_d0_1 h_S_) main_v27 main_c_9
  let main_v29 : IVec S_ 1 := andi main_v21 main_v28
  main_v29

def fn {F : FTy → Type} [FloatOps F] (main_arg0 : FVec F S8192x25x20x20 .f32) (main_arg1 : FVec F S8192x4 .f32) (main_arg2 : FVec F S5x2 .f32) : IVec S_ 1 :=
  let main_v0 : FVec F S8192x25x20x20 .f32 := Host.absf main_arg0
  let main_cst : FVec F S_ .f32 := constant S_ .f32 0x7F800000#32
  let main_v1 : FVec F S8192x25x20x20 .f32 := broadcastInDim S8192x25x20x20 ![] bcast_S_S8192x25x20x20 main_cst
  let main_v2 : IVec S8192x25x20x20 1 := cmpf .olt main_v0 main_v1
  let main_c : IVec S_ 1 := constantI S_ 1 1#1
  let main_v3 : IVec S_ 1 := (fun x v => Host.reduce IntOp.andi x v reducesTo_S8192x25x20x20_S_d0_1_2_3 h_S_) main_v2 main_c
  let main_v4 : FVec F S8192x4 .f32 := Host.absf main_arg1
  let main_cst_0 : FVec F S_ .f32 := constant S_ .f32 0x7F800000#32
  let main_v5 : FVec F S8192x4 .f32 := broadcastInDim S8192x4 ![] bcast_S_S8192x4 main_cst_0
  let main_v6 : IVec S8192x4 1 := cmpf .olt main_v4 main_v5
  let main_c_1 : IVec S_ 1 := constantI S_ 1 1#1
  let main_v7 : IVec S_ 1 := (fun x v => Host.reduce IntOp.andi x v reducesTo_S8192x4_S_d0_1 h_S_) main_v6 main_c_1
  let main_v8 : IVec S_ 1 := andi main_v3 main_v7
  let main_v9 : FVec F S5x2 .f32 := Host.absf main_arg2
  let main_cst_2 : FVec F S_ .f32 := constant S_ .f32 0x7F800000#32
  let main_v10 : FVec F S5x2 .f32 := broadcastInDim S5x2 ![] bcast_S_S5x2 main_cst_2
  let main_v11 : IVec S5x2 1 := cmpf .olt main_v9 main_v10
  let main_c_3 : IVec S_ 1 := constantI S_ 1 1#1
  let main_v12 : IVec S_ 1 := (fun x v => Host.reduce IntOp.andi x v reducesTo_S5x2_S_d0_1 h_S_) main_v11 main_c_3
  let main_v13 : IVec S_ 1 := andi main_v8 main_v12
  let main_v14 : FVec F S8192x2 .f32 := (extractStridedSlice S8192x2 ![0, 0] · slices_S8192x4_S8192x2_0_0) main_arg1
  let main_cst_4 : FVec F S_ .f32 := constant S_ .f32 0x41A00000#32
  let main_v15 : FVec F S8192x2 .f32 := broadcastInDim S8192x2 ![] bcast_S_S8192x2 main_cst_4
  let main_v16 : FVec F S8192x2 .f32 := mulf main_v14 main_v15
  fn_part1 (F := F) main_arg1 main_v13 main_v16
-- ==== Kernel.lean ====
abbrev S8192x25x20x20 : Shape := ⟨4, ![8192, 25, 20, 20]⟩
abbrev S8192x4 : Shape := ⟨2, ![8192, 4]⟩
abbrev S5x2 : Shape := ⟨2, ![5, 2]⟩
abbrev S8192x25x400 : Shape := ⟨3, ![8192, 25, 400]⟩
abbrev S1x1 : Shape := ⟨2, ![1, 1]⟩
abbrev S_ : Shape := ⟨0, ![]⟩
abbrev S1 : Shape := ⟨1, ![1]⟩
abbrev S2 : Shape := ⟨1, ![2]⟩
abbrev S1x2 : Shape := ⟨2, ![1, 2]⟩
abbrev S32x1x128 : Shape := ⟨3, ![32, 1, 128]⟩
abbrev S256x25x400 : Shape := ⟨3, ![256, 25, 400]⟩
abbrev S256x4 : Shape := ⟨2, ![256, 4]⟩
abbrev S1x1x128 : Shape := ⟨3, ![1, 1, 128]⟩
abbrev S256x1x400 : Shape := ⟨3, ![256, 1, 400]⟩
abbrev S256x400 : Shape := ⟨2, ![256, 400]⟩
abbrev S1x256x400 : Shape := ⟨3, ![1, 256, 400]⟩
abbrev S1x1x1 : Shape := ⟨3, ![1, 1, 1]⟩
abbrev S256x1 : Shape := ⟨2, ![256, 1]⟩
abbrev S256 : Shape := ⟨1, ![256]⟩
abbrev S1x256x1 : Shape := ⟨3, ![1, 256, 1]⟩
abbrev S1x7 : Shape := ⟨2, ![1, 7]⟩
abbrev S1x121 : Shape := ⟨2, ![1, 121]⟩
abbrev S1x128 : Shape := ⟨2, ![1, 128]⟩
abbrev S32x128 : Shape := ⟨2, ![32, 128]⟩
abbrev S32x7 : Shape := ⟨2, ![32, 7]⟩
abbrev S7 : Shape := ⟨1, ![7]⟩

abbrev nBuf : Space → Nat
  | .hbm => 59
  | .vmem => 7
  | .smem => 0
  | _ => 0

abbrev bufTy : (tb : Table) → Fin (tcTables nBuf tb) → BufTy
  | .hbm, ⟨0, _⟩ => ⟨S8192x25x20x20, .f32⟩
  | .hbm, ⟨1, _⟩ => ⟨S8192x4, .f32⟩
  | .hbm, ⟨2, _⟩ => ⟨S5x2, .f32⟩
  | .hbm, ⟨3, _⟩ => ⟨S8192x25x400, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S1, .f32⟩
  | .hbm, ⟨14, _⟩ => ⟨S2, .f32⟩
  | .hbm, ⟨15, _⟩ => ⟨S1x2, .f32⟩
  | .hbm, ⟨16, _⟩ => ⟨S32x1x128, .f32⟩
  | .hbm, ⟨17, _⟩ => ⟨S32x128, .f32⟩
  | .hbm, ⟨18, _⟩ => ⟨S32x7, .f32⟩
  | .hbm, ⟨19, _⟩ => ⟨S_, .f32⟩
  | .hbm, ⟨20, _⟩ => ⟨S7, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .local _ .vmem, ⟨0, _⟩ => ⟨S1x2, .f32⟩
  | .local _ .vmem, ⟨1, _⟩ => ⟨S256x25x400, .f32⟩
  | .local _ .vmem, ⟨2, _⟩ => ⟨S256x25x400, .f32⟩
  | .local _ .vmem, ⟨3, _⟩ => ⟨S256x4, .f32⟩
  | .local _ .vmem, ⟨4, _⟩ => ⟨S256x4, .f32⟩
  | .local _ .vmem, ⟨5, _⟩ => ⟨S1x1x128, .f32⟩
  | .local _ .vmem, ⟨6, _⟩ => ⟨S1x1x128, .f32⟩
  | _, _ => ⟨S8192x25x20x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x25x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x25x20x20_S8192x25x400 : S8192x25x20x20.ShapeCasts S8192x25x400
  slices_S5x2_S1x1_0_0 : S5x2.Slices ![0, 0] S1x1
  shapeCasts_S1x1_S_ : S1x1.ShapeCasts S_
  slices_S5x2_S1x1_0_1 : S5x2.Slices ![0, 1] S1x1
  bcast_S_S1 : S_.BroadcastsInDim S1 (![] : Fin 0 → Fin S1.rank)
  concatenates_S1_S1_S2_d0 : Shape.Concatenates [S1, S1] S2 0
  shapeCasts_S2_S1x2 : S2.ShapeCasts S1x2
  inb_S1x2_S1x1_0_0 : ∀ a, (![0, 0] : Fin 2 → Nat) a + S1x1.size a ≤ S1x2.size a
  h_S1x1 : 0 < S1x1.numel
  inpos_S1x1_p0_0 : ∀ a, (![0, 0] : Fin 2 → Nat) a < S1x1.size a
  inb_S1x2_S1x1_0_1 : ∀ a, (![0, 1] : Fin 2 → Nat) a + S1x1.size a ≤ S1x2.size a
  inb_S256x25x400_S256x1x400_0_0_0 : ∀ a, (![0, 0, 0] : Fin 3 → Nat) a + S256x1x400.size a ≤ S256x25x400.size a
  h_S256x1x400 : 0 < S256x1x400.numel
  shapeCasts_S256x1x400_S256x400 : S256x1x400.ShapeCasts S256x400
  inb_S256x25x400_S256x1x400_0_5_0 : ∀ a, (![0, 5, 0] : Fin 3 → Nat) a + S256x1x400.size a ≤ S256x25x400.size a
  inb_S256x25x400_S256x1x400_0_10_0 : ∀ a, (![0, 10, 0] : Fin 3 → Nat) a + S256x1x400.size a ≤ S256x25x400.size a
  inb_S256x25x400_S256x1x400_0_15_0 : ∀ a, (![0, 15, 0] : Fin 3 → Nat) a + S256x1x400.size a ≤ S256x25x400.size a
  inb_S256x25x400_S256x1x400_0_20_0 : ∀ a, (![0, 20, 0] : Fin 3 → Nat) a + S256x1x400.size a ≤ S256x25x400.size a
  inb_S256x25x400_S256x1x400_0_1_0 : ∀ a, (![0, 1, 0] : Fin 3 → Nat) a + S256x1x400.size a ≤ S256x25x400.size a
  inb_S256x25x400_S256x1x400_0_6_0 : ∀ a, (![0, 6, 0] : Fin 3 → Nat) a + S256x1x400.size a ≤ S256x25x400.size a
  inb_S256x25x400_S256x1x400_0_11_0 : ∀ a, (![0, 11, 0] : Fin 3 → Nat) a + S256x1x400.size a ≤ S256x25x400.size a
  inb_S256x25x400_S256x1x400_0_16_0 : ∀ a, (![0, 16, 0] : Fin 3 → Nat) a + S256x1x400.size a ≤ S256x25x400.size a
  inb_S256x25x400_S256x1x400_0_21_0 : ∀ a, (![0, 21, 0] : Fin 3 → Nat) a + S256x1x400.size a ≤ S256x25x400.size a
  inb_S256x25x400_S256x1x400_0_2_0 : ∀ a, (![0, 2, 0] : Fin 3 → Nat) a + S256x1x400.size a ≤ S256x25x400.size a
  inb_S256x25x400_S256x1x400_0_7_0 : ∀ a, (![0, 7, 0] : Fin 3 → Nat) a + S256x1x400.size a ≤ S256x25x400.size a
  inb_S256x25x400_S256x1x400_0_12_0 : ∀ a, (![0, 12, 0] : Fin 3 → Nat) a + S256x1x400.size a ≤ S256x25x400.size a
  inb_S256x25x400_S256x1x400_0_17_0 : ∀ a, (![0, 17, 0] : Fin 3 → Nat) a + S256x1x400.size a ≤ S256x25x400.size a
  inb_S256x25x400_S256x1x400_0_22_0 : ∀ a, (![0, 22, 0] : Fin 3 → Nat) a + S256x1x400.size a ≤ S256x25x400.size a
  inb_S256x25x400_S256x1x400_0_3_0 : ∀ a, (![0, 3, 0] : Fin 3 → Nat) a + S256x1x400.size a ≤ S256x25x400.size a
  inb_S256x25x400_S256x1x400_0_8_0 : ∀ a, (![0, 8, 0] : Fin 3 → Nat) a + S256x1x400.size a ≤ S256x25x400.size a
  inb_S256x25x400_S256x1x400_0_13_0 : ∀ a, (![0, 13, 0] : Fin 3 → Nat) a + S256x1x400.size a ≤ S256x25x400.size a
  inb_S256x25x400_S256x1x400_0_18_0 : ∀ a, (![0, 18, 0] : Fin 3 → Nat) a + S256x1x400.size a ≤ S256x25x400.size a
  inb_S256x25x400_S256x1x400_0_23_0 : ∀ a, (![0, 23, 0] : Fin 3 → Nat) a + S256x1x400.size a ≤ S256x25x400.size a
  inb_S256x25x400_S256x1x400_0_4_0 : ∀ a, (![0, 4, 0] : Fin 3 → Nat) a + S256x1x400.size a ≤ S256x25x400.size a
  inb_S256x25x400_S256x1x400_0_9_0 : ∀ a, (![0, 9, 0] : Fin 3 → Nat) a + S256x1x400.size a ≤ S256x25x400.size a
  inb_S256x25x400_S256x1x400_0_14_0 : ∀ a, (![0, 14, 0] : Fin 3 → Nat) a + S256x1x400.size a ≤ S256x25x400.size a
  inb_S256x25x400_S256x1x400_0_19_0 : ∀ a, (![0, 19, 0] : Fin 3 → Nat) a + S256x1x400.size a ≤ S256x25x400.size a
  inb_S256x25x400_S256x1x400_0_24_0 : ∀ a, (![0, 24, 0] : Fin 3 → Nat) a + S256x1x400.size a ≤ S256x25x400.size a
  shapeCasts_S256x400_S1x256x400 : S256x400.ShapeCasts S1x256x400
  reduces_S1x256x400_S1 : S1x256x400.Reduces [1, 2] S1
  shapeCasts_S1_S1x1x1 : S1.ShapeCasts S1x1x1
  inpos_S1x1x1_p0_0_0 : ∀ a, (![0, 0, 0] : Fin 3 → Nat) a < S1x1x1.size a
  inb_S256x4_S256x4_0_0 : ∀ a, (![0, 0] : Fin 2 → Nat) a + S256x4.size a ≤ S256x4.size a
  h_S256x4 : 0 < S256x4.numel
  slices_S256x4_o0_0_S256x1 : S256x4.Slices ![0, 0] S256x1
  slices_S256x4_o0_1_S256x1 : S256x4.Slices ![0, 1] S256x1
  iota_S256x400_d1_w32 : S256x400.Iotas .tc 32 [1]
  broadcasts_S256x1_S256x400 : S256x1.Broadcasts S256x400
  natLt_1_32 : 1 < 32
  reduces_S256x400_S256 : S256x400.Reduces [1] S256
  shapeCasts_S256_S256x1 : S256.ShapeCasts S256x1
  slices_S256x4_o0_2_S256x1 : S256x4.Slices ![0, 2] S256x1
  slices_S256x4_o0_3_S256x1 : S256x4.Slices ![0, 3] S256x1
  shapeCasts_S256x1_S1x256x1 : S256x1.ShapeCasts S1x256x1
  reduces_S1x256x1_S1 : S1x256x1.Reduces [1, 2] S1
  concatenates_S1x1_S1x1_S1x1_S1x1_S1x1_S1x1_S1x1_S1x7_d1 : Shape.Concatenates [S1x1, S1x1, S1x1, S1x1, S1x1, S1x1, S1x1] S1x7 1
  concatenates_S1x7_S1x121_S1x128_d1 : Shape.Concatenates [S1x7, S1x121] S1x128 1
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S32x1x128_S32x128 : S32x1x128.ShapeCasts S32x128
  slices_S32x128_S32x7_0_0 : S32x128.Slices ![0, 0] S32x7
  reducesTo_S32x7_S7_d0 : S32x7.ReducesTo [0] S7
  h_S_ : 0 < S_.numel
  slices_S7_S1_0 : S7.Slices ![0] S1
  shapeCasts_S1_S_ : S1.ShapeCasts S_
  slices_S7_S1_1 : S7.Slices ![1] S1
  slices_S7_S1_2 : S7.Slices ![2] S1
  slices_S7_S1_3 : S7.Slices ![3] S1
  slices_S7_S1_4 : S7.Slices ![4] S1
  slices_S7_S1_5 : S7.Slices ![5] S1
  slices_S7_S1_6 : S7.Slices ![6] S1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2.size a ≤ S1x2.size a
  hwx0_0 : ∀ i : grid0.Coords, EltTy.bits .f32 = 32 ∨ (Rect.block (s := S1x2) S1x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x25x400.size a ≤ S8192x25x400.size a
  hwx0_1 : ∀ i : grid0.Coords, EltTy.bits .f32 = 32 ∨ (Rect.block (s := S8192x25x400) S256x25x400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4.size a ≤ S8192x4.size a
  hwx0_2 : ∀ i : grid0.Coords, EltTy.bits .f32 = 32 ∨ (Rect.block (s := S8192x4) S256x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S32x1x128.size a
  hwx0_3 : ∀ i : grid0.Coords, EltTy.bits .f32 = 32 ∨ (Rect.block (s := S32x1x128) S1x1x128.size (cc0_transform_3 i) (hinb0_3 i)).WholeWords (EltTy.packing .f32)

variable [Facts₀]

abbrev win0_0 : Pipeline.Window sig grid0 :=
  Pipeline.Window.ofSpec (Memref.whole main_v10) S1x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x25x400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x25x20x20 : Shape := ⟨4, ![8192, 25, 20, 20]⟩
abbrev S8192x4 : Shape := ⟨2, ![8192, 4]⟩
abbrev S5x2 : Shape := ⟨2, ![5, 2]⟩
abbrev S4 : Shape := ⟨1, ![4]⟩
abbrev S2 : Shape := ⟨1, ![2]⟩
abbrev S8192x1 : Shape := ⟨2, ![8192, 1]⟩
abbrev S8192 : Shape := ⟨1, ![8192]⟩
abbrev S_ : Shape := ⟨0, ![]⟩
abbrev S8192x25x400 : Shape := ⟨3, ![8192, 25, 400]⟩
abbrev S8192x400x25 : Shape := ⟨3, ![8192, 400, 25]⟩
abbrev S8192x400x5x5 : Shape := ⟨4, ![8192, 400, 5, 5]⟩
abbrev S8192x400x5x1 : Shape := ⟨4, ![8192, 400, 5, 1]⟩
abbrev S8192x400x5 : Shape := ⟨3, ![8192, 400, 5]⟩
abbrev S8192x400 : Shape := ⟨2, ![8192, 400]⟩
abbrev S8192x400x5x4 : Shape := ⟨4, ![8192, 400, 5, 4]⟩
abbrev S8192x400x4 : Shape := ⟨3, ![8192, 400, 4]⟩
abbrev S8192x400x1 : Shape := ⟨3, ![8192, 400, 1]⟩
abbrev S1x1 : Shape := ⟨2, ![1, 1]⟩
abbrev S8192x1x1 : Shape := ⟨3, ![8192, 1, 1]⟩
abbrev S1 : Shape := ⟨1, ![1]⟩
abbrev S1x1x1 : Shape := ⟨3, ![1, 1, 1]⟩
abbrev S8192x1x5 : Shape := ⟨3, ![8192, 1, 5]⟩
abbrev S8192x5 : Shape := ⟨2, ![8192, 5]⟩
abbrev S1x400 : Shape := ⟨2, ![1, 400]⟩
abbrev S1x4 : Shape := ⟨2, ![1, 4]⟩
abbrev S8192x2 : Shape := ⟨2, ![8192, 2]⟩
abbrev S1x2 : Shape := ⟨2, ![1, 2]⟩
abbrev S1x1x4 : Shape := ⟨3, ![1, 1, 4]⟩

abbrev nBuf : Space → Nat
  | .hbm => 366
  | .vmem => 0
  | .smem => 0
  | _ => 0

abbrev hbmTy0_0 (i : Nat) : BufTy := match i % 128 with
  | 0 => ⟨S8192x25x20x20, .f32⟩
  | 1 => ⟨S8192x4, .f32⟩
  | 2 => ⟨S5x2, .f32⟩
  | 3 => ⟨S4, .f32⟩
  | 4 => ⟨S2, .f32⟩
  | 5 => ⟨S2, .f32⟩
  | 6 => ⟨S2, .f32⟩
  | 7 => ⟨S8192x1, .f32⟩
  | 8 => ⟨S8192, .f32⟩
  | 9 => ⟨S_, .f32⟩
  | 10 => ⟨S8192, .f32⟩
  | 11 => ⟨S8192, .f32⟩
  | 12 => ⟨S8192, .f32⟩
  | 13 => ⟨S_, .f32⟩
  | 14 => ⟨S8192, .f32⟩
  | 15 => ⟨S8192, .f32⟩
  | 16 => ⟨S8192x1, .f32⟩
  | 17 => ⟨S8192, .f32⟩
  | 18 => ⟨S_, .f32⟩
  | 19 => ⟨S8192, .f32⟩
  | 20 => ⟨S8192, .f32⟩
  | 21 => ⟨S8192, .f32⟩
  | 22 => ⟨S8192, .f32⟩
  | 23 => ⟨S8192, .i32⟩
  | 24 => ⟨S8192x25x400, .f32⟩
  | 25 => ⟨S8192x400x25, .f32⟩
  | 26 => ⟨S8192x400x5x5, .f32⟩
  | 27 => ⟨S8192x400x5x1, .f32⟩
  | 28 => ⟨S8192x400x5, .f32⟩
  | 29 => ⟨S8192x400x5, .f32⟩
  | 30 => ⟨S8192x400x5, .f32⟩
  | 31 => ⟨S_, .f32⟩
  | 32 => ⟨S8192x400x5, .f32⟩
  | 33 => ⟨S8192x400x5, .f32⟩
  | 34 => ⟨S_, .f32⟩
  | 35 => ⟨S8192x400x5, .f32⟩
  | 36 => ⟨S8192x400x5, .f32⟩
  | 37 => ⟨S_, .f32⟩
  | 38 => ⟨S8192x400, .f32⟩
  | 39 => ⟨S_, .f32⟩
  | 40 => ⟨S8192x400, .f32⟩
  | 41 => ⟨S8192x400, .f32⟩
  | 42 => ⟨S8192x400x5x4, .f32⟩
  | 43 => ⟨S_, .f32⟩
  | 44 => ⟨S8192x400x4, .f32⟩
  | 45 => ⟨S_, .f32⟩
  | 46 => ⟨S8192x400x4, .f32⟩
  | 47 => ⟨S8192x400x4, .f32⟩
  | 48 => ⟨S8192x400x1, .f32⟩
  | 49 => ⟨S8192x400, .f32⟩
  | 50 => ⟨S8192x400, .f32⟩
  | 51 => ⟨S8192x400, .f32⟩
  | 52 => ⟨S_, .f32⟩
  | 53 => ⟨S8192x400, .f32⟩
  | 54 => ⟨S8192x400, .f32⟩
  | 55 => ⟨S_, .f32⟩
  | 56 => ⟨S8192x400, .f32⟩
  | 57 => ⟨S8192x400, .f32⟩
  | 58 => ⟨S8192x400x1, .f32⟩
  | 59 => ⟨S8192x400, .f32⟩
  | 60 => ⟨S8192x400, .f32⟩
  | 61 => ⟨S8192x400, .f32⟩
  | 62 => ⟨S_, .f32⟩
  | 63 => ⟨S8192x400, .f32⟩
  | 64 => ⟨S8192x400, .f32⟩
  | 65 => ⟨S_, .f32⟩
  | 66 => ⟨S8192x400, .f32⟩
  | 67 => ⟨S8192x400, .f32⟩
  | 68 => ⟨S8192x400x1, .f32⟩
  | 69 => ⟨S8192x400, .f32⟩
  | 70 => ⟨S8192x400, .f32⟩
  | 71 => ⟨S1x1, .f32⟩
  | 72 => ⟨S_, .f32⟩
  | 73 => ⟨S8192x400, .f32⟩
  | 74 => ⟨S8192x400, .f32⟩
  | 75 => ⟨S_, .f32⟩
  | 76 => ⟨S8192x400, .f32⟩
  | 77 => ⟨S8192x400, .f32⟩
  | 78 => ⟨S8192x400x1, .f32⟩
  | 79 => ⟨S8192x400, .f32⟩
  | 80 => ⟨S8192x400, .f32⟩
  | 81 => ⟨S1x1, .f32⟩
  | 82 => ⟨S_, .f32⟩
  | 83 => ⟨S8192x400, .f32⟩
  | 84 => ⟨S8192x400, .f32⟩
  | 85 => ⟨S_, .f32⟩
  | 86 => ⟨S8192x400, .f32⟩
  | 87 => ⟨S8192x400, .f32⟩
  | 88 => ⟨S8192x400x1, .f32⟩
  | 89 => ⟨S8192x400x1, .f32⟩
  | 90 => ⟨S8192x400x1, .f32⟩
  | 91 => ⟨S8192x400x1, .f32⟩
  | 92 => ⟨S8192x400x1, .f32⟩
  | 93 => ⟨S8192x400x5, .f32⟩
  | 94 => ⟨S8192x1x1, .i32⟩
  | 95 => ⟨S_, .i32⟩
  | 96 => ⟨S8192x1x1, .i32⟩
  | 97 => ⟨S8192x1x1, .i1⟩
  | 98 => ⟨S_, .i32⟩
  | 99 => ⟨S8192x1x1, .i32⟩
  | 100 => ⟨S8192x1x1, .i32⟩
  | 101 => ⟨S8192x1x1, .i32⟩
  | 102 => ⟨S1, .i32⟩
  | 103 => ⟨S_, .i32⟩
  | 104 => ⟨S8192x1x1, .i32⟩
  | 105 => ⟨S8192x1x1, .i1⟩
  | 106 => ⟨S1x1x1, .i32⟩
  | 107 => ⟨S8192x1x1, .i32⟩
  | 108 => ⟨S8192x1x1, .i1⟩
  | 109 => ⟨S8192x1x1, .i1⟩
  | 110 => ⟨S_, .i1⟩
  | 111 => ⟨S8192x1, .i1⟩
  | 112 => ⟨S8192x1x5, .f32⟩
  | 113 => ⟨S8192x1x5, .i1⟩
  | 114 => ⟨S_, .f32⟩
  | 115 => ⟨S8192x1x5, .f32⟩
  | 116 => ⟨S8192x1x5, .f32⟩
  | 117 => ⟨S8192x5, .f32⟩
  | 118 => ⟨S8192x1, .i32⟩
  | 119 => ⟨S1x400, .i32⟩
  | 120 => ⟨S8192x400, .i32⟩
  | 121 => ⟨S8192x400, .i32⟩
  | 122 => ⟨S8192x400, .i1⟩
  | 123 => ⟨S8192x400, .f32⟩
  | 124 => ⟨S_, .f32⟩
  | 125 => ⟨S8192x400, .f32⟩
  | 126 => ⟨S8192x400, .f32⟩
  | 127 => ⟨S1x4, .f32⟩
  | _ => ⟨S8192x25x20x20, .f32⟩

abbrev hbmTy0_1 (i : Nat) : BufTy := match i % 128 with
  | 0 => ⟨S8192x4, .f32⟩
  | 1 => ⟨S8192x4, .f32⟩
  | 2 => ⟨S8192x1, .f32⟩
  | 3 => ⟨S8192, .f32⟩
  | 4 => ⟨S_, .f32⟩
  | 5 => ⟨S8192, .f32⟩
  | 6 => ⟨S8192, .f32⟩
  | 7 => ⟨S8192x1, .f32⟩
  | 8 => ⟨S8192, .f32⟩
  | 9 => ⟨S_, .f32⟩
  | 10 => ⟨S8192, .f32⟩
  | 11 => ⟨S8192, .f32⟩
  | 12 => ⟨S8192, .f32⟩
  | 13 => ⟨S_, .f32⟩
  | 14 => ⟨S8192, .f32⟩
  | 15 => ⟨S8192, .f32⟩
  | 16 => ⟨S8192x1, .f32⟩
  | 17 => ⟨S8192, .f32⟩
  | 18 => ⟨S_, .f32⟩
  | 19 => ⟨S8192, .f32⟩
  | 20 => ⟨S8192, .f32⟩
  | 21 => ⟨S8192x1, .f32⟩
  | 22 => ⟨S8192, .f32⟩
  | 23 => ⟨S_, .f32⟩
  | 24 => ⟨S8192, .f32⟩
  | 25 => ⟨S8192, .f32⟩
  | 26 => ⟨S8192, .f32⟩
  | 27 => ⟨S_, .f32⟩
  | 28 => ⟨S8192, .f32⟩
  | 29 => ⟨S8192, .f32⟩
  | 30 => ⟨S8192x1, .f32⟩
  | 31 => ⟨S8192, .f32⟩
  | 32 => ⟨S_, .f32⟩
  | 33 => ⟨S8192, .f32⟩
  | 34 => ⟨S8192, .f32⟩
  | 35 => ⟨S8192x1, .f32⟩
  | 36 => ⟨S8192, .f32⟩
  | 37 => ⟨S_, .f32⟩
  | 38 => ⟨S8192, .f32⟩
  | 39 => ⟨S8192, .f32⟩
  | 40 => ⟨S8192, .f32⟩
  | 41 => ⟨S_, .f32⟩
  | 42 => ⟨S8192, .f32⟩
  | 43 => ⟨S8192, .f32⟩
  | 44 => ⟨S8192x1, .f32⟩
  | 45 => ⟨S8192, .f32⟩
  | 46 => ⟨S_, .f32⟩
  | 47 => ⟨S8192, .f32⟩
  | 48 => ⟨S8192, .f32⟩
  | 49 => ⟨S8192x1, .f32⟩
  | 50 => ⟨S8192, .f32⟩
  | 51 => ⟨S_, .f32⟩
  | 52 => ⟨S8192, .f32⟩
  | 53 => ⟨S8192, .f32⟩
  | 54 => ⟨S8192, .f32⟩
  | 55 => ⟨S_, .f32⟩
  | 56 => ⟨S8192, .f32⟩
  | 57 => ⟨S8192, .f32⟩
  | 58 => ⟨S8192x1, .f32⟩
  | 59 => ⟨S8192x1, .f32⟩
  | 60 => ⟨S8192x1, .f32⟩
  | 61 => ⟨S8192x1, .f32⟩
  | 62 => ⟨S8192x4, .f32⟩
  | 63 => ⟨S8192x1, .f32⟩
  | 64 => ⟨S8192, .f32⟩
  | 65 => ⟨S_, .f32⟩
  | 66 => ⟨S8192, .f32⟩
  | 67 => ⟨S8192, .f32⟩
  | 68 => ⟨S8192x1, .f32⟩
  | 69 => ⟨S8192, .f32⟩
  | 70 => ⟨S_, .f32⟩
  | 71 => ⟨S8192, .f32⟩
  | 72 => ⟨S8192, .f32⟩
  | 73 => ⟨S8192, .f32⟩
  | 74 => ⟨S_, .f32⟩
  | 75 => ⟨S8192, .f32⟩
  | 76 => ⟨S8192, .f32⟩
  | 77 => ⟨S8192x1, .f32⟩
  | 78 => ⟨S8192, .f32⟩
  | 79 => ⟨S_, .f32⟩
  | 80 => ⟨S8192, .f32⟩
  | 81 => ⟨S8192, .f32⟩
  | 82 => ⟨S8192x1, .f32⟩
  | 83 => ⟨S8192, .f32⟩
  | 84 => ⟨S_, .f32⟩
  | 85 => ⟨S8192, .f32⟩
  | 86 => ⟨S8192, .f32⟩
  | 87 => ⟨S8192, .f32⟩
  | 88 => ⟨S_, .f32⟩
  | 89 => ⟨S8192, .f32⟩
  | 90 => ⟨S8192, .f32⟩
  | 91 => ⟨S8192x1, .f32⟩
  | 92 => ⟨S8192, .f32⟩
  | 93 => ⟨S_, .f32⟩
  | 94 => ⟨S8192, .f32⟩
  | 95 => ⟨S8192, .f32⟩
  | 96 => ⟨S8192x1, .f32⟩
  | 97 => ⟨S8192, .f32⟩
  | 98 => ⟨S_, .f32⟩
  | 99 => ⟨S8192, .f32⟩
  | 100 => ⟨S8192, .f32⟩
  | 101 => ⟨S8192, .f32⟩
  | 102 => ⟨S_, .f32⟩
  | 103 => ⟨S8192, .f32⟩
  | 104 => ⟨S8192, .f32⟩
  | 105 => ⟨S8192x1, .f32⟩
  | 106 => ⟨S8192, .f32⟩
  | 107 => ⟨S_, .f32⟩
  | 108 => ⟨S8192, .f32⟩
  | 109 => ⟨S8192, .f32⟩
  | 110 => ⟨S8192x1, .f32⟩
  | 111 => ⟨S8192, .f32⟩
  | 112 => ⟨S_, .f32⟩
  | 113 => ⟨S8192, .f32⟩
  | 114 => ⟨S8192, .f32⟩
  | 115 => ⟨S8192, .f32⟩
  | 116 => ⟨S_, .f32⟩
  | 117 => ⟨S8192, .f32⟩
  | 118 => ⟨S8192, .f32⟩
  | 119 => ⟨S8192x1, .f32⟩
  | 120 => ⟨S8192x1, .f32⟩
  | 121 => ⟨S8192x1, .f32⟩
  | 122 => ⟨S8192x1, .f32⟩
  | 123 => ⟨S8192x4, .f32⟩
  | 124 => ⟨S8192x1, .f32⟩
  | 125 => ⟨S8192, .f32⟩
  | 126 => ⟨S8192x1, .f32⟩
  | 127 => ⟨S8192, .f32⟩
  | _ => ⟨S8192x25x20x20, .f32⟩

abbrev hbmTy0_2 (i : Nat) : BufTy := match i % 128 with
  | 0 => ⟨S8192, .f32⟩
  | 1 => ⟨S8192x1, .f32⟩
  | 2 => ⟨S8192, .f32⟩
  | 3 => ⟨S8192x1, .f32⟩
  | 4 => ⟨S8192, .f32⟩
  | 5 => ⟨S8192, .f32⟩
  | 6 => ⟨S8192, .f32⟩
  | 7 => ⟨S_, .f32⟩
  | 8 => ⟨S8192, .f32⟩
  | 9 => ⟨S8192, .f32⟩
  | 10 => ⟨S8192x1, .f32⟩
  | 11 => ⟨S8192, .f32⟩
  | 12 => ⟨S8192x1, .f32⟩
  | 13 => ⟨S8192, .f32⟩
  | 14 => ⟨S8192, .f32⟩
  | 15 => ⟨S8192x1, .f32⟩
  | 16 => ⟨S8192, .f32⟩
  | 17 => ⟨S8192x1, .f32⟩
  | 18 => ⟨S8192, .f32⟩
  | 19 => ⟨S8192, .f32⟩
  | 20 => ⟨S8192, .f32⟩
  | 21 => ⟨S_, .f32⟩
  | 22 => ⟨S8192, .f32⟩
  | 23 => ⟨S8192, .f32⟩
  | 24 => ⟨S8192, .f32⟩
  | 25 => ⟨S8192x1, .f32⟩
  | 26 => ⟨S8192, .f32⟩
  | 27 => ⟨S8192x1, .f32⟩
  | 28 => ⟨S8192, .f32⟩
  | 29 => ⟨S8192, .f32⟩
  | 30 => ⟨S8192x1, .f32⟩
  | 31 => ⟨S8192, .f32⟩
  | 32 => ⟨S8192x1, .f32⟩
  | 33 => ⟨S8192, .f32⟩
  | 34 => ⟨S8192, .f32⟩
  | 35 => ⟨S8192, .f32⟩
  | 36 => ⟨S8192, .f32⟩
  | 37 => ⟨S8192, .f32⟩
  | 38 => ⟨S8192x2, .f32⟩
  | 39 => ⟨S1x2, .f32⟩
  | 40 => ⟨S8192x2, .f32⟩
  | 41 => ⟨S8192x2, .f32⟩
  | 42 => ⟨S8192x2, .f32⟩
  | 43 => ⟨S1x2, .f32⟩
  | 44 => ⟨S8192x2, .f32⟩
  | 45 => ⟨S8192x2, .f32⟩
  | 46 => ⟨S8192x2, .f32⟩
  | 47 => ⟨S8192x2, .f32⟩
  | 48 => ⟨S8192x2, .f32⟩
  | 49 => ⟨S_, .f32⟩
  | 50 => ⟨S_, .f32⟩
  | 51 => ⟨S_, .f32⟩
  | 52 => ⟨S_, .f32⟩
  | 53 => ⟨S8192x2, .f32⟩
  | 54 => ⟨S8192x2, .f32⟩
  | 55 => ⟨S8192x2, .f32⟩
  | 56 => ⟨S8192x2, .f32⟩
  | 57 => ⟨S8192x2, .f32⟩
  | 58 => ⟨S_, .f32⟩
  | 59 => ⟨S_, .f32⟩
  | 60 => ⟨S_, .f32⟩
  | 61 => ⟨S_, .f32⟩
  | 62 => ⟨S_, .f32⟩
  | 63 => ⟨S1x2, .f32⟩
  | 64 => ⟨S2, .f32⟩
  | 65 => ⟨S_, .f32⟩
  | 66 => ⟨S2, .f32⟩
  | 67 => ⟨S2, .f32⟩
  | 68 => ⟨S4, .f32⟩
  | 69 => ⟨S8192x400x4, .f32⟩
  | 70 => ⟨S1x1x4, .f32⟩
  | 71 => ⟨S8192x400x4, .f32⟩
  | 72 => ⟨S8192x400x4, .f32⟩
  | 73 => ⟨S8192x400x4, .f32⟩
  | 74 => ⟨S8192x400x1, .f32⟩
  | 75 => ⟨S8192x400x4, .f32⟩
  | 76 => ⟨S8192x400x4, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S8192x1, .f32⟩
  | 84 => ⟨S8192, .f32⟩
  | 85 => ⟨S8192, .f32⟩
  | 86 => ⟨S8192, .f32⟩
  | 87 => ⟨S_, .f32⟩
  | 88 => ⟨S_, .f32⟩
  | 89 => ⟨S_, .f32⟩
  | 90 => ⟨S_, .f32⟩
  | 91 => ⟨S8192x400x1, .f32⟩
  | 92 => ⟨S8192x400, .f32⟩
  | 93 => ⟨S8192x400, .f32⟩
  | 94 => ⟨S8192x400, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | _ => ⟨S8192x25x20x20, .f32⟩

abbrev hbmTy (i : Nat) : BufTy := match i / 128 with
  | 0 => hbmTy0_0 i
  | 1 => hbmTy0_1 i
  | 2 => hbmTy0_2 i
  | _ => ⟨S8192x25x20x20, .f32⟩

abbrev bufTy : (tb : Table) → Fin (tcTables nBuf tb) → BufTy
  | .hbm, ⟨i, _⟩ => hbmTy i
  | _, _ => ⟨S8192x25x20x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_v0 : Ref sig .tc := ⟨.hbm, 7, rfl⟩
abbrev main_v1 : Ref sig .tc := ⟨.hbm, 8, rfl⟩
abbrev main_cst_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_cst_11 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_16 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_17 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_call0_c : Ref sig .tc := ⟨.hbm, 95, rfl⟩
abbrev main_call0_v0 : Ref sig .tc := ⟨.hbm, 96, rfl⟩
abbrev main_call0_v1 : Ref sig .tc := ⟨.hbm, 97, rfl⟩
abbrev main_call0_c_0 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_call0_c_1 : Ref sig .tc := ⟨.hbm, 102, rfl⟩
abbrev main_call0_c_2 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_v8 : Ref sig .tc := ⟨.hbm, 107, rfl⟩
abbrev main_call0_v9 : Ref sig .tc := ⟨.hbm, 108, rfl⟩
abbrev main_call0_v10 : Ref sig .tc := ⟨.hbm, 109, rfl⟩
abbrev main_call0_c_3 : Ref sig .tc := ⟨.hbm, 110, rfl⟩
abbrev main_call0_v11 : Ref sig .tc := ⟨.hbm, 111, rfl⟩
abbrev main_call0_v12 : Ref sig .tc := ⟨.hbm, 112, rfl⟩
abbrev main_call0_v13 : Ref sig .tc := ⟨.hbm, 113, rfl⟩
abbrev main_call0_cst : Ref sig .tc := ⟨.hbm, 114, rfl⟩
abbrev main_call0_v14 : Ref sig .tc := ⟨.hbm, 115, rfl⟩
abbrev main_v73 : Ref sig .tc := ⟨.hbm, 116, rfl⟩
abbrev main_v74 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_v75 : Ref sig .tc := ⟨.hbm, 123, rfl⟩
abbrev main_cst_18 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_19 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_20 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_21 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_cst_22 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_23 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_24 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_cst_25 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_cst_26 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_cst_27 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_cst_28 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_cst_29 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_cst_30 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_cst_31 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_cst_32 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_cst_33 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_cst_34 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_cst_35 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_cst_36 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_cst_37 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_cst_38 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_cst_39 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_cst_40 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_cst_41 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_cst_42 : Ref sig .tc := ⟨.hbm, 244, rfl⟩
abbrev main_v172 : Ref sig .tc := ⟨.hbm, 245, rfl⟩
abbrev main_v173 : Ref sig .tc := ⟨.hbm, 246, rfl⟩
abbrev main_v174 : Ref sig .tc := ⟨.hbm, 247, rfl⟩
abbrev main_v175 : Ref sig .tc := ⟨.hbm, 248, rfl⟩
abbrev main_v176 : Ref sig .tc := ⟨.hbm, 249, rfl⟩
abbrev main_v177 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_cst_43 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_cst_44 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_v217 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_v221 : Ref sig .tc := ⟨.hbm, 296, rfl⟩
abbrev main_v222 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_cst_45 : Ref sig .tc := ⟨.hbm, 305, rfl⟩
abbrev main_v230 : Ref sig .tc := ⟨.hbm, 306, rfl⟩
abbrev main_cst_46 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_v235 : Ref sig .tc := ⟨.hbm, 312, rfl⟩
abbrev main_v236 : Ref sig .tc := ⟨.hbm, 313, rfl⟩
abbrev main_cst_47 : Ref sig .tc := ⟨.hbm, 314, rfl⟩
abbrev main_v237 : Ref sig .tc := ⟨.hbm, 315, rfl⟩
abbrev main_cst_48 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_cst_49 : Ref sig .tc := ⟨.hbm, 321, rfl⟩
abbrev main_v242 : Ref sig .tc := ⟨.hbm, 322, rfl⟩
abbrev main_v243 : Ref sig .tc := ⟨.hbm, 323, rfl⟩
abbrev main_v244 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_v252 : Ref sig .tc := ⟨.hbm, 332, rfl⟩
abbrev main_cst_50 : Ref sig .tc := ⟨.hbm, 333, rfl⟩
abbrev main_v253 : Ref sig .tc := ⟨.hbm, 334, rfl⟩
abbrev main_cst_51 : Ref sig .tc := ⟨.hbm, 335, rfl⟩
abbrev main_cst_52 : Ref sig .tc := ⟨.hbm, 336, rfl⟩
abbrev main_v254 : Ref sig .tc := ⟨.hbm, 337, rfl⟩
abbrev main_v255 : Ref sig .tc := ⟨.hbm, 338, rfl⟩
abbrev main_v256 : Ref sig .tc := ⟨.hbm, 339, rfl⟩
abbrev main_v257 : Ref sig .tc := ⟨.hbm, 340, rfl⟩
abbrev main_v258 : Ref sig .tc := ⟨.hbm, 341, rfl⟩
abbrev main_v259 : Ref sig .tc := ⟨.hbm, 342, rfl⟩
abbrev main_cst_53 : Ref sig .tc := ⟨.hbm, 343, rfl⟩
abbrev main_v260 : Ref sig .tc := ⟨.hbm, 344, rfl⟩
abbrev main_cst_54 : Ref sig .tc := ⟨.hbm, 345, rfl⟩
abbrev main_v261 : Ref sig .tc := ⟨.hbm, 346, rfl⟩
abbrev main_v262 : Ref sig .tc := ⟨.hbm, 347, rfl⟩
abbrev main_v263 : Ref sig .tc := ⟨.hbm, 348, rfl⟩
abbrev main_v264 : Ref sig .tc := ⟨.hbm, 349, rfl⟩
abbrev main_v265 : Ref sig .tc := ⟨.hbm, 350, rfl⟩
abbrev main_cst_55 : Ref sig .tc := ⟨.hbm, 351, rfl⟩
abbrev main_v266 : Ref sig .tc := ⟨.hbm, 352, rfl⟩
abbrev main_cst_56 : Ref sig .tc := ⟨.hbm, 353, rfl⟩
abbrev main_v267 : Ref sig .tc := ⟨.hbm, 354, rfl⟩
abbrev main_cst_57 : Ref sig .tc := ⟨.hbm, 355, rfl⟩
abbrev main_v268 : Ref sig .tc := ⟨.hbm, 356, rfl⟩
abbrev main_cst_58 : Ref sig .tc := ⟨.hbm, 357, rfl⟩
abbrev main_v269 : Ref sig .tc := ⟨.hbm, 358, rfl⟩
abbrev main_v270 : Ref sig .tc := ⟨.hbm, 359, rfl⟩
abbrev main_cst_59 : Ref sig .tc := ⟨.hbm, 360, rfl⟩
abbrev main_v271 : Ref sig .tc := ⟨.hbm, 361, rfl⟩
abbrev main_v272 : Ref sig .tc := ⟨.hbm, 362, rfl⟩
abbrev main_cst_60 : Ref sig .tc := ⟨.hbm, 363, rfl⟩
abbrev main_v273 : Ref sig .tc := ⟨.hbm, 364, rfl⟩
abbrev main_v274 : Ref sig .tc := ⟨.hbm, 365, rfl⟩

abbrev nD : Nat := 1
abbrev τ : Topo := Topo.v7x

variable {F : FTy → Type} [FloatOps F]

class Facts₀ : Prop where
  slices_S8192x4_S8192x1_0_0 : S8192x4.Slices ![0, 0] S8192x1
  shapeCasts_S8192x1_S8192 : S8192x1.ShapeCasts S8192
  bcast_S_S8192 : S_.BroadcastsInDim S8192 (![] : Fin 0 → Fin S8192.rank)
  slices_S8192x4_S8192x1_0_1 : S8192x4.Slices ![0, 1] S8192x1
  shapeCasts_S8192x25x20x20_S8192x25x400 : S8192x25x20x20.ShapeCasts S8192x25x400
  transposes_S8192x25x400_S8192x400x25_0_2_1 : S8192x25x400.Transposes [0, 2, 1] S8192x400x25
  shapeCasts_S8192x400x25_S8192x400x5x5 : S8192x400x25.ShapeCasts S8192x400x5x5
  slices_S8192x400x5x5_S8192x400x5x1_0_0_0_4 : S8192x400x5x5.Slices ![0, 0, 0, 4] S8192x400x5x1
  shapeCasts_S8192x400x5x1_S8192x400x5 : S8192x400x5x1.ShapeCasts S8192x400x5
  bcast_S_S8192x400x5 : S_.BroadcastsInDim S8192x400x5 (![] : Fin 0 → Fin S8192x400x5.rank)
  reducesTo_S8192x400x5_S8192x400_d2 : S8192x400x5.ReducesTo [2] S8192x400
  h_S_ : 0 < S_.numel
  bcast_S_S8192x400 : S_.BroadcastsInDim S8192x400 (![] : Fin 0 → Fin S8192x400.rank)
  slices_S8192x400x5x5_S8192x400x5x4_0_0_0_0 : S8192x400x5x5.Slices ![0, 0, 0, 0] S8192x400x5x4
  reducesTo_S8192x400x5x4_S8192x400x4_d2 : S8192x400x5x4.ReducesTo [2] S8192x400x4
  bcast_S_S8192x400x4 : S_.BroadcastsInDim S8192x400x4 (![] : Fin 0 → Fin S8192x400x4.rank)
  slices_S8192x400x4_S8192x400x1_0_0_0 : S8192x400x4.Slices ![0, 0, 0] S8192x400x1
  shapeCasts_S8192x400x1_S8192x400 : S8192x400x1.ShapeCasts S8192x400
  slices_S8192x400x4_S8192x400x1_0_0_1 : S8192x400x4.Slices ![0, 0, 1] S8192x400x1
  slices_S8192x400x4_S8192x400x1_0_0_2 : S8192x400x4.Slices ![0, 0, 2] S8192x400x1
  slices_S5x2_S1x1_0_0 : S5x2.Slices ![0, 0] S1x1
  shapeCasts_S1x1_S_ : S1x1.ShapeCasts S_
  slices_S8192x400x4_S8192x400x1_0_0_3 : S8192x400x4.Slices ![0, 0, 3] S8192x400x1
  slices_S5x2_S1x1_0_1 : S5x2.Slices ![0, 1] S1x1
  bcast_S8192x400_S8192x400x1_0_1 : S8192x400.BroadcastsInDim S8192x400x1 (![0, 1] : Fin 2 → Fin S8192x400x1.rank)
  concatenates_S8192x400x1_S8192x400x1_S8192x400x1_S8192x400x1_S8192x400x1_S8192x400x5_d2 : Shape.Concatenates [S8192x400x1, S8192x400x1, S8192x400x1, S8192x400x1, S8192x400x1] S8192x400x5 2
  bcast_S8192_S8192x1x1_0 : S8192.BroadcastsInDim S8192x1x1 (![0] : Fin 1 → Fin S8192x1x1.rank)
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  bcast_S8192x1_S8192x1x5_0_1 : S8192x1.BroadcastsInDim S8192x1x5 (![0, 1] : Fin 2 → Fin S8192x1x5.rank)
  bcast_S_S8192x1x5 : S_.BroadcastsInDim S8192x1x5 (![] : Fin 0 → Fin S8192x1x5.rank)
  shapeCasts_S8192x1x5_S8192x5 : S8192x1x5.ShapeCasts S8192x5
  bcast_S8192_S8192x1_0 : S8192.BroadcastsInDim S8192x1 (![0] : Fin 1 → Fin S8192x1.rank)
  bcast_S8192x1_S8192x400_0_1 : S8192x1.BroadcastsInDim S8192x400 (![0, 1] : Fin 2 → Fin S8192x400.rank)
  bcast_S1x400_S8192x400_0_1 : S1x400.BroadcastsInDim S8192x400 (![0, 1] : Fin 2 → Fin S8192x400.rank)
  bcast_S4_S1x4_1 : S4.BroadcastsInDim S1x4 (![1] : Fin 1 → Fin S1x4.rank)
  bcast_S1x4_S8192x4_0_1 : S1x4.BroadcastsInDim S8192x4 (![0, 1] : Fin 2 → Fin S8192x4.rank)
  slices_S8192x4_S8192x1_0_2 : S8192x4.Slices ![0, 2] S8192x1
  slices_S8192x4_S8192x1_0_3 : S8192x4.Slices ![0, 3] S8192x1
  concatenates_S8192x1_S8192x1_S8192x1_S8192x1_S8192x4_d1 : Shape.Concatenates [S8192x1, S8192x1, S8192x1, S8192x1] S8192x4 1
  slices_S8192x5_S8192x1_0_0 : S8192x5.Slices ![0, 0] S8192x1
  slices_S8192x5_S8192x1_0_2 : S8192x5.Slices ![0, 2] S8192x1
  slices_S8192x5_S8192x1_0_1 : S8192x5.Slices ![0, 1] S8192x1
  slices_S8192x5_S8192x1_0_3 : S8192x5.Slices ![0, 3] S8192x1
  slices_S8192x4_S8192x2_0_0 : S8192x4.Slices ![0, 0] S8192x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  slices_S8192x4_S8192x2_0_2 : S8192x4.Slices ![0, 2] S8192x2
  slices_S8192x5_S8192x2_0_0 : S8192x5.Slices ![0, 0] S8192x2
  reducesTo_S8192x2_S_d0_1 : S8192x2.ReducesTo [0, 1] S_
  slices_S8192x5_S8192x2_0_2 : S8192x5.Slices ![0, 2] S8192x2
  slices_S5x2_S1x2_0_0 : S5x2.Slices ![0, 0] S1x2
  shapeCasts_S1x2_S2 : S1x2.ShapeCasts S2
  bcast_S_S2 : S_.BroadcastsInDim S2 (![] : Fin 0 → Fin S2.rank)
  concatenates_S2_S2_S4_d0 : Shape.Concatenates [S2, S2] S4 0
  slices_S8192x400x5_S8192x400x4_0_0_0 : S8192x400x5.Slices ![0, 0, 0] S8192x400x4
  bcast_S4_S1x1x4_2 : S4.BroadcastsInDim S1x1x4 (![2] : Fin 1 → Fin S1x1x4.rank)
  bcast_S1x1x4_S8192x400x4_0_1_2 : S1x1x4.BroadcastsInDim S8192x400x4 (![0, 1, 2] : Fin 3 → Fin S8192x400x4.rank)
  bcast_S8192x400x1_S8192x400x4_0_1_2 : S8192x400x1.BroadcastsInDim S8192x400x4 (![0, 1, 2] : Fin 3 → Fin S8192x400x4.rank)
  reducesTo_S8192x400x4_S_d0_1_2 : S8192x400x4.ReducesTo [0, 1, 2] S_
  slices_S8192x5_S8192x1_0_4 : S8192x5.Slices ![0, 4] S8192x1
  reducesTo_S8192_S_d0 : S8192.ReducesTo [0] S_
  slices_S8192x400x5_S8192x400x1_0_0_4 : S8192x400x5.Slices ![0, 0, 4] S8192x400x1
  reducesTo_S8192x400_S_d0_1 : S8192x400.ReducesTo [0, 1] S_
  gather_S8192x400x5_S8192x1x1_S8192x1x5_2_1_0_0_1_2_115_wf : GatherDims.WF S8192x400x5 S8192x1x1 S8192x1x5 [2] [1] [0] [1] [0] 2 ![1, 1, 5]

variable [Facts₀]

def gather_S8192x400x5_S8192x1x1_S8192x1x5_2_1_0_0_1_2_115 : GatherDims S8192x400x5 S8192x1x1 S8192x1x5 where
  offsetDims := [2]
  collapsedSliceDims := [1]
  operandBatchingDims := [0]
  startIndicesBatchingDims := [0]
  startIndexMap := [1]
  indexVectorDim := 2
  sliceSizes := ![1, 1, 5]
  wf := gather_S8192x400x5_S8192x1x1_S8192x1x5_2_1_0_0_1_2_115_wf

class Facts : Prop extends Facts₀ where

variable [Facts]
-- ==== Proof.Spec.lean ====
/-
  The loss, written once.

  An image row `b` carries 25 channels over 400 grid cells (cell `c` = 20 * grid row + grid column). Channel `5 * a + f` is
  feature `f` of anchor `a`. Per cell the five anchors are averaged: features 0 and 1 give the box centre through the
  logistic function, features 2 and 3 its width and height through the exponential scaled by anchor box 0 (in pixels), and
  feature 4 the confidence as the mean of the anchors' logistic values. Each row has one object cell `κ b`, read off its label.
  The loss combines five totals: the object cell's centre and size errors against the label, its confidence error against the
  overlap ratio of the two boxes clipped to the image, and over every OTHER cell the distance of the box from the anchor's default
  and the squared confidence — the last two as "all cells minus the object cell".

  Everything is an extended real. The operations are the ones both programs apply (`Ideal.div`, `Ideal.sqrt`, `Ideal.exp`,
  `Ideal.logistic`, max, min); float literals stay as the words both programs print. The definitions are generic in the type of
  rows, so that they read the whole batch and one block of 256 rows alike.
-/
import Idealize.ShloMosaic.PureOps.Ideal
import Idealize.ShloMosaic.Lib.ValueIdx

noncomputable section

namespace Cert.GridLoss

open Idealize.ShloMosaic Idealize.ShloMosaic.ValueIdx

/-- The extended real a 32-bit float word denotes. -/
abbrev wd (b : BitVec 32) : EReal := Ideal.ofBits .f32 b

/-! ## Scalar pieces -/

def sq (x : EReal) : EReal := x * x

/-- The low edge of a box along one axis, clipped at 0: centre `c` in grid units (32 pixels each), extent `w` in pixels. -/
def lowEdge (c w : EReal) : EReal :=
  max (c * wd 0x42000000#32 - Ideal.div w (wd 0x40000000#32)) (wd 0x00000000#32)

/-- The high edge, clipped at 640. -/
def highEdge (c w : EReal) : EReal :=
  min (c * wd 0x42000000#32 + Ideal.div w (wd 0x40000000#32)) (wd 0x44200000#32)

/-- The length two boxes share along one axis (label first, prediction second), never below 0. -/
def overlap (lc lw pc pw : EReal) : EReal :=
  max (min (highEdge lc lw) (highEdge pc pw) - max (lowEdge lc lw) (lowEdge pc pw)) (wd 0x00000000#32)

/-- Shared area over the area of the union: label box `(lx, ly, lw, lh)`, predicted box `(px, py, pw, ph)`. -/
def iou (lx ly lw lh px py pw ph : EReal) : EReal :=
  Ideal.div (overlap lx lw px pw * overlap ly lh py ph)
    (lw * lh + pw * ph - overlap lx lw px pw * overlap ly lh py ph)

def xyTerm (lx ly px py : EReal) : EReal := sq (px - lx) + sq (py - ly)

def whTerm (lw lh pw ph : EReal) : EReal :=
  sq (Ideal.sqrt pw - Ideal.sqrt lw) + sq (Ideal.sqrt ph - Ideal.sqrt lh)

def confTerm (pc i : EReal) : EReal := sq (pc - i)

/-- Squared distance of a cell's box from the default: centre (1/2, 1/2), size the anchor's. -/
def offCentre (x y w h aw ah : EReal) : EReal :=
  sq (x - wd 0x3F000000#32) + sq (y - wd 0x3F000000#32) + sq (w - aw) + sq (h - ah)

/-- The five totals combined, with the weights 2, 1, 5, 1 and the counts 16384 = 2 * 8192, 13074432 = 4 * 3268608,
    8192 and 3268608 = 8192 * 399. -/
def combine (sxy swh sd sco sc : EReal) : EReal :=
  (Ideal.div sxy (wd 0x46800000#32) + Ideal.div swh (wd 0x46800000#32)) * wd 0x40000000#32
    + Ideal.div sd (wd 0x4B478000#32) * wd 0x3F800000#32
    + Ideal.div sco (wd 0x46000000#32) * wd 0x40A00000#32
    + Ideal.div sc (wd 0x4A478000#32) * wd 0x3F800000#32

/-! ## Cells and rows, over any finite type `B` of rows -/

/-- The exact fifth the kernel's averaging constant is read as. -/
def fifth : EReal := ((1 / 5 : ℝ) : EReal)

/-- Channel of feature `f` of anchor `a`. -/
def kof (a f : Fin 5) : Fin 25 := ⟨5 * a.val + f.val, by omega⟩

section Rows

variable {B : Type} [Fintype B]
variable (ch : B → Fin 25 → Fin 400 → EReal) (lab : B → Fin 4 → EReal) (aw ah : EReal) (κ : B → Fin 400)

/-- The anchor-averaged raw feature `f` of cell `c` of row `b`. -/
def rawMean (f : Fin 5) (b : B) (c : Fin 400) : EReal := (∑ a : Fin 5, ch b (kof a f) c) * fifth

def cellX (b : B) (c : Fin 400) : EReal := Ideal.logistic (rawMean ch 0 b c)
def cellY (b : B) (c : Fin 400) : EReal := Ideal.logistic (rawMean ch 1 b c)
def cellW (b : B) (c : Fin 400) : EReal := Ideal.exp (rawMean ch 2 b c) * aw
def cellH (b : B) (c : Fin 400) : EReal := Ideal.exp (rawMean ch 3 b c) * ah
def cellConf (b : B) (c : Fin 400) : EReal := (∑ a : Fin 5, Ideal.logistic (ch b (kof a 4) c)) * fifth

/-- The label's box: centre in grid units, size in pixels. -/
def labX (b : B) : EReal := lab b 0 * wd 0x41A00000#32
def labY (b : B) : EReal := lab b 1 * wd 0x41A00000#32
def labW (b : B) : EReal := lab b 2 * wd 0x44200000#32
def labH (b : B) : EReal := lab b 3 * wd 0x44200000#32

def rowXY (b : B) : EReal := xyTerm (labX lab b) (labY lab b) (cellX ch b (κ b)) (cellY ch b (κ b))

def rowWH (b : B) : EReal := whTerm (labW lab b) (labH lab b) (cellW ch aw b (κ b)) (cellH ch ah b (κ b))

def rowIou (b : B) : EReal :=
  iou (labX lab b) (labY lab b) (labW lab b) (labH lab b)
    (cellX ch b (κ b)) (cellY ch b (κ b)) (cellW ch aw b (κ b)) (cellH ch ah b (κ b))

def rowConf (b : B) : EReal := confTerm (cellConf ch b (κ b)) (rowIou ch lab aw ah κ b)

def cellOff (b : B) (c : Fin 400) : EReal :=
  offCentre (cellX ch b c) (cellY ch b c) (cellW ch aw b c) (cellH ch ah b c) aw ah

def cellConfSq (b : B) (c : Fin 400) : EReal := sq (cellConf ch b c)

/-- The seven sums over a set of rows, in the order the kernel packs them. -/
def sumXY : EReal := ∑ b : B, rowXY ch lab κ b
def sumWH : EReal := ∑ b : B, rowWH ch lab aw ah κ b
def sumConf : EReal := ∑ b : B, rowConf ch lab aw ah κ b
def sumOffAll : EReal := ∑ b : B, ∑ c : Fin 400, cellOff ch aw ah b c
def sumConfSqAll : EReal := ∑ b : B, ∑ c : Fin 400, cellConfSq ch b c
def sumOffObj : EReal := ∑ b : B, cellOff ch aw ah b (κ b)
def sumConfSqObj : EReal := ∑ b : B, cellConfSq ch b (κ b)

/-- The loss of a set of rows. -/
def loss : EReal :=
  combine (sumXY ch lab κ) (sumWH ch lab aw ah κ) (sumOffAll ch aw ah - sumOffObj ch aw ah κ)
    (sumConf ch lab aw ah κ) (sumConfSqAll ch - sumConfSqObj ch κ)

/-- The label's two cell coordinates, as the programs compute them: the floor of the scaled centre. -/
def coord (k : Fin 4) (b : B) : EReal := Ideal.liftRound Int.floor (lab b k * wd 0x41A00000#32)

/-- The object cell as the reference computes it: the float `row * 20 + column`, then converted. -/
def refCellWord (b : B) : BitVec 32 := Ideal.fptosi 32 (coord lab 0 b * wd 0x41A00000#32 + coord lab 1 b)

/-- The object cell as the kernel computes it: each coordinate converted, then `row * 20 + column` on 32-bit words. -/
def kerCellWord (b : B) : BitVec 32 := Ideal.fptosi 32 (coord lab 0 b) * 20#32 + Ideal.fptosi 32 (coord lab 1 b)

/-- `κ` is the object cell of every row, for both programs' ways of computing it. -/
structure CellOf : Prop where
  ref : ∀ b : B, refCellWord lab b = BitVec.ofNat 32 (κ b).val
  ker : ∀ b : B, kerCellWord lab b = BitVec.ofNat 32 (κ b).val

end Rows

/-! ## The whole batch, from the three argument arrays -/

abbrev PredIdx : Type := (⟨4, ![8192, 25, 20, 20]⟩ : Shape).Idx
abbrev LabIdx : Type := (⟨2, ![8192, 4]⟩ : Shape).Idx
abbrev AncIdx : Type := (⟨2, ![5, 2]⟩ : Shape).Idx

/-- An extended real that is a real number. -/
def IsReal (x : EReal) : Prop := ∃ r : ℝ, x = (r : EReal)

/-- Channel `k` of cell `c` of image `b`: the 20 × 20 grid flattened row-major. -/
def predChan (P : PredIdx → EReal) (b : Fin 8192) (k : Fin 25) (c : Fin 400) : EReal :=
  P (ix4 b k ⟨c.val / 20, by omega⟩ ⟨c.val % 20, by omega⟩)

def labRow (L : LabIdx → EReal) (b : Fin 8192) (k : Fin 4) : EReal := L (ix2 b k)

/-- Anchor box 0's width and height in pixels. -/
def ancW (A : AncIdx → EReal) : EReal := A (ix2 0 0) * wd 0x44200000#32
def ancH (A : AncIdx → EReal) : EReal := A (ix2 0 1) * wd 0x44200000#32

/-- The loss of the three argument arrays, given each row's object cell. -/
def lossOf (P : PredIdx → EReal) (L : LabIdx → EReal) (A : AncIdx → EReal) (κ : Fin 8192 → Fin 400) : EReal :=
  loss (predChan P) (labRow L) (ancW A) (ancH A) κ

/-- Every entry of the three arrays is a real number. -/
structure AllReal (P : PredIdx → EReal) (L : LabIdx → EReal) (A : AncIdx → EReal) : Prop where
  pred : ∀ i, IsReal (P i)
  lab : ∀ i, IsReal (L i)
  anc : ∀ i, IsReal (A i)

end Cert.GridLoss

end
-- ==== Proof.Consts.lean ====
/-
  The float words the two programs share, as the numbers they denote.
-/
import proofs.«403400_j21895743275785_4_alg».proof.Proof.Spec

noncomputable section

namespace Cert.GridLoss

open Idealize.ShloMosaic

theorem wd_zero : wd 0x00000000#32 = 0 := by
  simp [wd, Ideal.ofBits, Ideal.ieee]
theorem wd_half : wd 0x3F000000#32 = ((1 / 2 : ℝ) : EReal) := by
  simp [wd, Ideal.ofBits, Ideal.ieee, -EReal.coe_mul]; norm_num
theorem wd_one : wd 0x3F800000#32 = 1 := by
  simp [wd, Ideal.ofBits, Ideal.ieee, -EReal.coe_mul]; norm_num
theorem wd_two : wd 0x40000000#32 = ((2 : ℝ) : EReal) := by
  simp [wd, Ideal.ofBits, Ideal.ieee, -EReal.coe_mul]; norm_num
theorem wd_four : wd 0x40800000#32 = ((4 : ℝ) : EReal) := by
  simp [wd, Ideal.ofBits, Ideal.ieee, -EReal.coe_mul]; norm_num
theorem wd_five : wd 0x40A00000#32 = ((5 : ℝ) : EReal) := by
  simp [wd, Ideal.ofBits, Ideal.ieee, -EReal.coe_mul]; norm_num
theorem wd_nineteen : wd 0x41980000#32 = ((19 : ℝ) : EReal) := by
  simp [wd, Ideal.ofBits, Ideal.ieee, -EReal.coe_mul]; norm_num
theorem wd_twenty : wd 0x41A00000#32 = ((20 : ℝ) : EReal) := by
  simp [wd, Ideal.ofBits, Ideal.ieee, -EReal.coe_mul]; norm_num
theorem wd_thirtytwo : wd 0x42000000#32 = ((32 : ℝ) : EReal) := by
  simp [wd, Ideal.ofBits, Ideal.ieee, -EReal.coe_mul]; norm_num
theorem wd_640 : wd 0x44200000#32 = ((640 : ℝ) : EReal) := by
  simp [wd, Ideal.ofBits, Ideal.ieee, -EReal.coe_mul]; norm_num
theorem wd_8192 : wd 0x46000000#32 = ((8192 : ℝ) : EReal) := by
  simp [wd, Ideal.ofBits, Ideal.ieee, -EReal.coe_mul]; norm_num
theorem wd_16384 : wd 0x46800000#32 = ((16384 : ℝ) : EReal) := by
  simp [wd, Ideal.ofBits, Ideal.ieee, -EReal.coe_mul]; norm_num
/-- 8192 * 399. -/
theorem wd_others : wd 0x4A478000#32 = ((3268608 : ℝ) : EReal) := by
  simp [wd, Ideal.ofBits, Ideal.ieee, -EReal.coe_mul]; norm_num
/-- 4 * 8192 * 399. -/
theorem wd_others4 : wd 0x4B478000#32 = ((13074432 : ℝ) : EReal) := by
  simp [wd, Ideal.ofBits, Ideal.ieee, -EReal.coe_mul]
theorem wd_inf : wd 0x7F800000#32 = ⊤ := by
  simp [wd, Ideal.ofBits, Ideal.ieee]

end Cert.GridLoss

end
-- ==== Proof.PreFacts.lean ====
/-
  What the precondition says of the three argument arrays: every entry is a real number, and every row's two cell coordinates lie
  in the 20 × 20 grid, so that both programs' ways of computing the object cell give one cell `κ b` of the 400.
-/
import proofs.«403400_j21895743275785_4_alg».proof.Pre_finite_inputs
import proofs.«403400_j21895743275785_4_alg».proof.Proof.Gen.Pre_finite_inputs
import proofs.«403400_j21895743275785_4_alg».proof.Proof.Consts
import Idealize.ShloMosaic.Lib.ReduceAll
import Idealize.ShloMosaic.Lib.StableHlo.Predicate

noncomputable section

namespace Cert.GridLoss

open Idealize.ShloMosaic Idealize.ShloMosaic.ValueIdx

namespace PreFacts

/-! ## Words -/

/-- The word arithmetic of the cell: on 32-bit words, row times twenty plus column is the word of the natural number. -/
theorem words_add (x y : ℕ) : BitVec.ofNat 32 x * 20#32 + BitVec.ofNat 32 y = BitVec.ofNat 32 (20 * x + y) := by
  rw [BitVec.ofNat_add, BitVec.ofNat_mul, BitVec.mul_comm]

/-! ## Scalar facts -/

/-- The three comparisons the precondition uses, as the order relations of the extended reals. -/
theorem cmp_olt_iff (x y : EReal) : Ideal.cmp .olt x y = 1#1 ↔ x < y := by
  simp [Ideal.cmp, StableHlo.Predicate.ofBool_eq_one_iff]

theorem cmp_oge_iff (x y : EReal) : Ideal.cmp .oge x y = 1#1 ↔ y ≤ x := by
  simp [Ideal.cmp, StableHlo.Predicate.ofBool_eq_one_iff]

theorem cmp_ole_iff (x y : EReal) : Ideal.cmp .ole x y = 1#1 ↔ x ≤ y := by
  simp [Ideal.cmp, StableHlo.Predicate.ofBool_eq_one_iff]

/-- An extended real whose absolute value lies below the word of +∞ is a real number. -/
theorem isReal_of_abs_lt_inf (x : EReal) (h : Ideal.cmp .olt (max x (-x)) (wd 0x7F800000#32) = 1#1) : IsReal x := by
  rw [wd_inf, cmp_olt_iff] at h
  induction x using EReal.rec with
  | bot => simp at h
  | coe r => exact ⟨r, rfl⟩
  | top => simp at h

/-- Converting a natural number below 2 ^ 31 to a signed 32-bit word does not clamp. -/
theorem fptosi_natCast (m : ℕ) (hm : m < 2 ^ 31) : Ideal.fptosi 32 (((m : ℕ) : ℝ) : EReal) = BitVec.ofNat 32 m := by
  rw [Ideal.fptosi, Ideal.toIntClamped_coe, if_pos (Nat.cast_nonneg m), Int.floor_natCast, ← BitVec.ofInt_natCast]
  congr 1
  have : (m : ℤ) < 2 ^ 31 := by exact_mod_cast hm
  norm_num
  omega

/-- One row: real label entries whose two cell coordinates lie between the words of 0 and 19 give one cell below 400, and both
    ways of computing the cell word give that natural number. -/
theorem cell_of_row {B : Type} (lab : B → Fin 4 → EReal) (b : B) (hr0 : IsReal (lab b 0)) (hr1 : IsReal (lab b 1))
    (hge0 : wd 0x00000000#32 ≤ coord lab 0 b) (hle0 : coord lab 0 b ≤ wd 0x41980000#32)
    (hge1 : wd 0x00000000#32 ≤ coord lab 1 b) (hle1 : coord lab 1 b ≤ wd 0x41980000#32) :
    ∃ n : Fin 400, refCellWord lab b = BitVec.ofNat 32 n.val ∧ kerCellWord lab b = BitVec.ofNat 32 n.val := by
  obtain ⟨r0, e0⟩ := hr0
  obtain ⟨r1, e1⟩ := hr1
  have c0 : coord lab 0 b = (((⌊r0 * 20⌋ : ℤ) : ℝ) : EReal) := by
    rw [coord, e0, wd_twenty, ← EReal.coe_mul, Ideal.liftRound_coe]
  have c1 : coord lab 1 b = (((⌊r1 * 20⌋ : ℤ) : ℝ) : EReal) := by
    rw [coord, e1, wd_twenty, ← EReal.coe_mul, Ideal.liftRound_coe]
  rw [c0, wd_zero] at hge0
  rw [c0, wd_nineteen] at hle0
  rw [c1, wd_zero] at hge1
  rw [c1, wd_nineteen] at hle1
  have ha0 : 0 ≤ ⌊r0 * 20⌋ := by exact_mod_cast EReal.coe_nonneg.1 hge0
  have ha1 : ⌊r0 * 20⌋ ≤ 19 := by exact_mod_cast EReal.coe_le_coe_iff.1 hle0
  have hc0 : 0 ≤ ⌊r1 * 20⌋ := by exact_mod_cast EReal.coe_nonneg.1 hge1
  have hc1 : ⌊r1 * 20⌋ ≤ 19 := by exact_mod_cast EReal.coe_le_coe_iff.1 hle1
  obtain ⟨na, hna⟩ := Int.eq_ofNat_of_zero_le ha0
  obtain ⟨nc, hnc⟩ := Int.eq_ofNat_of_zero_le hc0
  rw [hna, Int.cast_natCast] at c0
  rw [hnc, Int.cast_natCast] at c1
  have hna' : na ≤ 19 := by omega
  have hnc' : nc ≤ 19 := by omega
  refine ⟨⟨20 * na + nc, by omega⟩, ?_, ?_⟩
  · have e : coord lab 0 b * wd 0x41A00000#32 + coord lab 1 b = (((20 * na + nc : ℕ) : ℝ) : EReal) := by
      rw [c0, c1, wd_twenty, ← EReal.coe_mul, ← EReal.coe_add]
      congr 1
      push_cast
      ring
    rw [refCellWord, e, fptosi_natCast _ (by omega)]
  · rw [kerCellWord, c0, c1, fptosi_natCast na (by omega), fptosi_natCast nc (by omega), words_add]

/-! ## The printed predicate, read at an index -/

open Cert.Pre_finite_inputs in
/-- An array all of whose absolute values compare below the word of +∞ has only real entries. -/
theorem real_of_all {s : Shape} {axes : List (Fin s.rank)} (X : FVec Ideal s .f32)
    (hb : S_.BroadcastsInDim s (![] : Fin 0 → Fin s.rank)) (hr : s.ReducesTo axes S_) (hu : 0 < S_.numel)
    (h : Host.reduce IntOp.andi
        (cmpf .olt (Host.absf X) (broadcastInDim s ![] hb (constant (F := Ideal) S_ .f32 0x7F800000#32)))
        (constantI S_ 1 1#1) hr hu ix0 = 1#1) (i : s.Idx) : IsReal (X i) := by
  haveI : Subsingleton S_.Idx := ⟨fun a b => funext fun d => d.elim0⟩
  have hi := Host.reduce_andi_all _ _ hr hu ix0 h i
  rw [cmpf_apply, StableHlo.Predicate.bcast_scalar hb hu] at hi
  exact isReal_of_abs_lt_inf _ hi

open Cert.Pre_finite_inputs in
/-- The floor of the scaled two-column slice of the label array, read at row `b` and column `k < 2`, is that row's
    coordinate `k`. -/
theorem floor_slice_apply (L : FVec Ideal S8192x4 .f32) (hs : S8192x4.Slices ![0, 0] S8192x2)
    (hb : S_.BroadcastsInDim S8192x2 (![] : Fin 0 → Fin S8192x2.rank)) (hu : 0 < S_.numel)
    (b : Fin 8192) (k : Fin 4) (hk : k.val < 2) :
    Host.floor (mulf (extractStridedSlice S8192x2 ![0, 0] L hs)
        (broadcastInDim S8192x2 ![] hb (constant (F := Ideal) S_ .f32 0x41A00000#32))) (ix2 b ⟨k.val, hk⟩)
      = coord (labRow L) k b := by
  have e : extractStridedSlice S8192x2 ![0, 0] L hs (ix2 b ⟨k.val, hk⟩) = L (ix2 b k) := by
    unfold extractStridedSlice
    refine congrArg L (funext fun ax => Fin.ext ?_)
    match ax with
    | ⟨0, _⟩ => exact Nat.zero_add _
    | ⟨1, _⟩ => exact Nat.zero_add _
  show Ideal.liftRound Int.floor (extractStridedSlice S8192x2 ![0, 0] L hs (ix2 b ⟨k.val, hk⟩)
    * broadcastInDim S8192x2 ![] hb (constant (F := Ideal) S_ .f32 0x41A00000#32) (ix2 b ⟨k.val, hk⟩)) = _
  rw [e, StableHlo.Predicate.bcast_scalar hb hu]
  rfl

end PreFacts

open PreFacts

/-! ## The precondition -/

/-- The five conjuncts: the first three make every entry real; the last two put each row's two floored coordinates between 0 and
    19, and each row then has its cell by `cell_of_row`. -/
theorem of_pre [Cert.Pre_finite_inputs.Facts] (P : PredIdx → EReal) (L : LabIdx → EReal) (A : AncIdx → EReal)
    (h : Cert.Pre_finite_inputs.fn (F := Ideal) P L A = fun _ => 1#1) :
    AllReal P L A ∧ ∃ κ : Fin 8192 → Fin 400, CellOf (labRow L) κ := by
  have h0 := congrFun h ValueIdx.ix0
  dsimp only [Cert.Pre_finite_inputs.fn, Cert.Pre_finite_inputs.fn_part1] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  have hL : ∀ i, IsReal (L i) := real_of_all L _ _ _ h2
  refine ⟨⟨real_of_all P _ _ _ h1, hL, real_of_all A _ _ _ h3⟩, ?_⟩
  haveI : Subsingleton Cert.Pre_finite_inputs.S_.Idx := ⟨fun a b => funext fun d => d.elim0⟩
  have ge : ∀ (b : Fin 8192) (k : Fin 4) (hk : k.val < 2), wd 0x00000000#32 ≤ coord (labRow L) k b := fun b k hk => by
    have hi := Host.reduce_andi_all _ _ _ _ ix0 h4 (ix2 b ⟨k.val, hk⟩)
    rw [cmpf_apply, floor_slice_apply L _ _ Cert.Pre_finite_inputs.Facts.h_S_ b k hk,
      StableHlo.Predicate.bcast_scalar _ Cert.Pre_finite_inputs.Facts.h_S_] at hi
    exact (cmp_oge_iff _ _).1 hi
  have le : ∀ (b : Fin 8192) (k : Fin 4) (hk : k.val < 2), coord (labRow L) k b ≤ wd 0x41980000#32 := fun b k hk => by
    have hi := Host.reduce_andi_all _ _ _ _ ix0 h5 (ix2 b ⟨k.val, hk⟩)
    rw [cmpf_apply, floor_slice_apply L _ _ Cert.Pre_finite_inputs.Facts.h_S_ b k hk,
      StableHlo.Predicate.bcast_scalar _ Cert.Pre_finite_inputs.Facts.h_S_] at hi
    exact (cmp_ole_iff _ _).1 hi
  choose κ hκ using fun b : Fin 8192 => cell_of_row (labRow L) b (hL (ix2 b 0)) (hL (ix2 b 1))
    (ge b 0 (by decide)) (le b 0 (by decide)) (ge b 1 (by decide)) (le b 1 (by decide))
  exact ⟨κ, ⟨fun b => (hκ b).1, fun b => (hκ b).2⟩⟩

end Cert.GridLoss

end
-- ==== Proof.Sums.lean ====
/-
  Sums of extended reals regrouped: over the cells but one, over the blocks of 256 rows, and over the index sets of arrays.
-/
import proofs.«403400_j21895743275785_4_alg».proof.Proof.Spec
import Mathlib.Data.EReal.Operations
import Mathlib.Algebra.BigOperators.Group.Finset.Basic
import Mathlib.Algebra.BigOperators.Group.Finset.Sigma

noncomputable section

namespace Cert.GridLoss

open Idealize.ShloMosaic Idealize.ShloMosaic.ValueIdx

/-- Weighting a cell by its indicator and summing picks the cell. -/
theorem sum_mul_indicator (x : Fin 400 → EReal) (k : Fin 400) :
    (∑ c : Fin 400, x c * (if c = k then (1 : EReal) else 0)) = x k := by
  rw [Finset.sum_eq_single k]
  · rw [if_pos rfl, mul_one]
  · intro c _ hc
    rw [if_neg hc, mul_zero]
  · intro h
    exact absurd (Finset.mem_univ k) h

/-- The coercion of the reals into the extended reals goes through a finite sum. -/
theorem coe_sum_real {ι : Type} (s : Finset ι) (r : ι → ℝ) :
    (∑ i ∈ s, ((r i : ℝ) : EReal)) = ((∑ i ∈ s, r i : ℝ) : EReal) := by
  classical
  induction s using Finset.induction_on with
  | empty => simp
  | insert a s ha ih => rw [Finset.sum_insert ha, Finset.sum_insert ha, ih, EReal.coe_add]

/-- With the complementary weight, a row's sum leaves out the one cell: there the weight is `1 - 1 = 0`, elsewhere
    `1 - 0 = 1`. -/
theorem sum_mul_coindicator (x : Fin 400 → EReal) (k : Fin 400) :
    (∑ c : Fin 400, x c * ((1 : EReal) - (if c = k then (1 : EReal) else 0)))
      = ∑ c ∈ (Finset.univ : Finset (Fin 400)).erase k, x c := by
  rw [← Finset.add_sum_erase Finset.univ _ (Finset.mem_univ k)]
  have h11 : (1 : EReal) - 1 = 0 := by
    rw [← EReal.coe_one, ← EReal.coe_sub, sub_self, EReal.coe_zero]
  rw [if_pos rfl, h11, mul_zero, zero_add]
  refine Finset.sum_congr rfl ?_
  intro c hc
  rw [if_neg (Finset.ne_of_mem_erase hc), sub_zero, mul_one]

/-- Summing over every cell but each row's object cell is the whole sum minus the object cells', when those are real. -/
theorem sum_others {B : Type} [Fintype B] (x : B → Fin 400 → EReal) (κ : B → Fin 400) (hx : ∀ b, IsReal (x b (κ b))) :
    (∑ b : B, ∑ c : Fin 400, x b c * ((1 : EReal) - (if c = κ b then (1 : EReal) else 0)))
      = (∑ b : B, ∑ c : Fin 400, x b c) - ∑ b : B, x b (κ b) := by
  choose r hr using hx
  -- each row's whole sum is the object cell plus the others
  have hrow : ∀ b : B, (∑ c : Fin 400, x b c)
      = ((r b : ℝ) : EReal) + ∑ c ∈ (Finset.univ : Finset (Fin 400)).erase (κ b), x b c := by
    intro b
    rw [← hr b]
    exact (Finset.add_sum_erase Finset.univ (x b) (Finset.mem_univ (κ b))).symm
  have hobj : (∑ b : B, x b (κ b)) = ((∑ b : B, r b : ℝ) : EReal) := by
    rw [← coe_sum_real]
    exact Finset.sum_congr rfl (fun b _ => hr b)
  rw [Finset.sum_congr rfl (fun b _ => sum_mul_coindicator (x b) (κ b)),
    Finset.sum_congr rfl (fun b _ => hrow b), Finset.sum_add_distrib, hobj, coe_sum_real,
    EReal.add_sub_cancel_left]

/-- A row number below 8192 is a block of 256 and a place in it. -/
def blockEquiv : Fin 32 × Fin 256 ≃ Fin 8192 where
  toFun p := ⟨256 * p.1.val + p.2.val, by omega⟩
  invFun b := (⟨b.val / 256, by omega⟩, ⟨b.val % 256, by omega⟩)
  left_inv p := by
    obtain ⟨⟨t, ht⟩, ⟨r, hr⟩⟩ := p
    apply Prod.ext
    · apply Fin.ext
      show (256 * t + r) / 256 = t
      omega
    · apply Fin.ext
      show (256 * t + r) % 256 = r
      omega
  right_inv b := by
    apply Fin.ext
    show 256 * (b.val / 256) + b.val % 256 = b.val
    omega

/-- The 8192 rows are 32 blocks of 256. -/
theorem sum_blocks (f : Fin 8192 → EReal) :
    (∑ t : Fin 32, ∑ r : Fin 256, f ⟨256 * t.val + r.val, by omega⟩) = ∑ b : Fin 8192, f b := by
  rw [← Equiv.sum_comp blockEquiv f, Fintype.sum_prod_type]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the index set of a rank-3 array, by coordinates. -/
theorem sum_idx3 {n0 n1 n2 : Nat} (f : (⟨3, ![n0, n1, n2]⟩ : Shape).Idx → EReal) :
    (∑ i, f i) = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl ?_
  intro a _
  rw [Fintype.sum_prod_type]
  rfl

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over the index set of a rank-1 array. -/
theorem sum_idx1 {n : Nat} (f : (⟨1, ![n]⟩ : Shape).Idx → EReal) : (∑ i, f i) = ∑ a : Fin n, f (ix1 a) := by
  rw [← Equiv.sum_comp (idxEquiv1 (n := n)).symm f]
  rfl

/-- A sum over the index set of a rank-2 array, by coordinates (the library's `sum_idx2` restated at the extended reals). -/
theorem sum_idx2' {n0 n1 : Nat} (f : (⟨2, ![n0, n1]⟩ : Shape).Idx → EReal) :
    (∑ i, f i) = ∑ a : Fin n0, ∑ b : Fin n1, f (ix2 a b) := sum_idx2 f

end Cert.GridLoss

end
-- ==== Proof.KerDefs.lean ====
/-
  One grid point's three input blocks read as the specification reads them: channels of cells of rows, label rows, and the anchor
  box in pixels.
-/
import proofs.«403400_j21895743275785_4_alg».proof.Proof.Gen.KernelIdeal.Frame
import proofs.«403400_j21895743275785_4_alg».proof.Proof.Sums
import Idealize.ShloMosaic.Lib.Pipeline.Value
import Idealize.ShloMosaic.PureOps.Ideal.Laws

noncomputable section

namespace Cert.GridLoss.Ker

open Cert.KernelIdeal Cert.KernelIdeal.Gen Idealize.ShloMosaic Idealize.ShloMosaic.ValueIdx

/-- A block of predictions [256, 25, 400] as channels of cells of rows. -/
abbrev tch (x1 : Vec Ideal S256x25x400 .f32) : Fin 256 → Fin 25 → Fin 400 → EReal := fun r k c => x1 (ix3 r k c)
/-- A block of labels [256, 4]. -/
abbrev tlab (x2 : Vec Ideal S256x4 .f32) : Fin 256 → Fin 4 → EReal := fun r k => x2 (ix2 r k)
/-- The anchor box in pixels, as the kernel receives it: a [1, 2] array. -/
abbrev taw (x0 : Vec Ideal S1x2 .f32) : EReal := x0 (ix2 0 0)
abbrev tah (x0 : Vec Ideal S1x2 .f32) : EReal := x0 (ix2 0 1)

end Cert.GridLoss.Ker

end
-- ==== Proof.KerCells.lean ====
/-
  The kernel body's arithmetic per cell, read at an index: the anchor-averaged box of every cell of a block of 256 rows, its
  confidence, its squared distance from the default box and its squared confidence, and the two totals over the block.
-/
import proofs.«403400_j21895743275785_4_alg».proof.Proof.KerDefs
import proofs.«403400_j21895743275785_4_alg».proof.Proof.Consts

noncomputable section

namespace Cert.GridLoss.Ker

open Cert.KernelIdeal Cert.KernelIdeal.Gen Idealize.ShloMosaic Idealize.ShloMosaic.ValueIdx

/-! ## The arrays of the cell level, named -/

/-- The centre's first coordinate of every cell: the five anchors' channels 0, 5, 10, 15, 20 summed, averaged, through the
    logistic function. -/
abbrev arrX (x1 : Vec Ideal S256x25x400 .f32) : FVec Ideal S256x400 .f32 :=
  k0_pay11 (k0_pay4 (View.ld x1 r0_2) (View.ld x1 r0_3) (View.ld x1 r0_4) (View.ld x1 r0_5) (View.ld x1 r0_6))

/-- The centre's second coordinate: channels 1, 6, 11, 16, 21. -/
abbrev arrY (x1 : Vec Ideal S256x25x400 .f32) : FVec Ideal S256x400 .f32 :=
  k0_pay12 (k0_pay7 (k0_pay5 (View.ld x1 r0_7) (View.ld x1 r0_8) (View.ld x1 r0_9)) (k0_pay6 (View.ld x1 r0_10)) (View.ld x1 r0_11))

/-- The width in pixels: channels 2, 7, 12, 17, 22, averaged, through the exponential, times the anchor's width. -/
abbrev arrW (x0 : Vec Ideal S1x2 .f32) (x1 : Vec Ideal S256x25x400 .f32) : FVec Ideal S256x400 .f32 :=
  k0_pay13 (k0_pay2 (View.ld x0 r0_0)) (k0_pay8 (View.ld x1 r0_12) (View.ld x1 r0_13) (View.ld x1 r0_14) (View.ld x1 r0_15) (View.ld x1 r0_16))

/-- The height in pixels: channels 3, 8, 13, 18, 23. -/
abbrev arrH (x0 : Vec Ideal S1x2 .f32) (x1 : Vec Ideal S256x25x400 .f32) : FVec Ideal S256x400 .f32 :=
  k0_pay14 (k0_pay3 (View.ld x0 r0_1)) (k0_pay9 (View.ld x1 r0_17) (View.ld x1 r0_18) (View.ld x1 r0_19) (View.ld x1 r0_20)) (View.ld x1 r0_21)

/-- The five anchors' confidences, each through the logistic function, summed: channels 4, 9, 14, 19, 24. -/
abbrev arrSC (x1 : Vec Ideal S256x25x400 .f32) : FVec Ideal S256x400 .f32 :=
  k0_pay10 (View.ld x1 r0_22) (View.ld x1 r0_23) (View.ld x1 r0_24) (View.ld x1 r0_25) (View.ld x1 r0_26)

/-- The averaging constant as the kernel names it. -/
abbrev inv5 : EReal := Named.named (F := Ideal) Cert.KernelIdeal.κ "inv_5" (φ := .f32) 0x3E4CCCCD#32

/-! ## Loads read at an index -/

/-- One channel of the block, as the kernel loads it and casts it to [256, 400], read at a cell. -/
theorem chan_apply (x1 : Vec Ideal S256x25x400 .f32) (k : Fin 25)
    (inb : ∀ a, (![0, k.val, 0] : Fin 3 → Nat) a + S256x1x400.size a ≤ S256x25x400.size a) (r : Fin 256) (c : Fin 400) :
    shapeCast S256x400 (View.ld x1 (Rect.unit (s := S256x25x400) ![0, k.val, 0] S256x1x400.size inb))
      shapeCasts_S256x1x400_S256x400 (ix2 r c) = x1 (ix3 r k c) := by
  refine (shapeCast_apply _ _ (ix2 r c) (ix3 r (0 : Fin 1) c) ?_).trans ?_
  · rw [Shape.rowMajor_val_three, Shape.rowMajor_val_two]
    show (r.val * 1 + 0) * 400 + c.val = r.val * 400 + c.val
    omega
  · show x1 _ = x1 _
    refine congrArg x1 (funext fun a => Fin.ext ?_)
    match a with
    | ⟨0, _⟩ => show 0 + 1 * r.val = r.val; omega
    | ⟨1, _⟩ => show k.val + 1 * 0 = k.val; omega
    | ⟨2, _⟩ => show 0 + 1 * c.val = c.val; omega

variable (x0 : Vec Ideal S1x2 .f32) (x1 : Vec Ideal S256x25x400 .f32) (r : Fin 256) (c : Fin 400)

/-- The averaging constant is the exact fifth: the table of named constants gives the name that value. -/
theorem inv5_eq : inv5 = fifth :=
  IdealRules.named_const.ideal_named_scalar _ _ _ _ rfl

/-- The anchor's width: the [1, 1] rectangle at (0, 0) of the [1, 2] array, its one element. -/
theorem aw_eq : k0_pay2 (F := Ideal) (View.ld x0 r0_0) = taw x0 := by
  show x0 _ = x0 _
  refine congrArg x0 (funext fun a => Fin.ext ?_)
  match a with
  | ⟨0, _⟩ => rfl
  | ⟨1, _⟩ => rfl

/-- The anchor's height: the rectangle at (0, 1). -/
theorem ah_eq : k0_pay3 (F := Ideal) (View.ld x0 r0_1) = tah x0 := by
  show x0 _ = x0 _
  refine congrArg x0 (funext fun a => Fin.ext ?_)
  match a with
  | ⟨0, _⟩ => rfl
  | ⟨1, _⟩ => rfl

/-! ## The cells' boxes and confidences -/

/-- Channel rectangle `R`'s load, cast to [256, 400], at the cell `(r, c)`. -/
local notation "chn" R => shapeCast S256x400 (View.ld x1 R) shapeCasts_S256x1x400_S256x400 (ix2 r c)

/-- The centre's first coordinate: the mean of channels 0, 5, 10, 15, 20 through the logistic function. -/
theorem arrX_apply : arrX x1 (ix2 r c) = cellX (tch x1) r c := by
  have h0 : (chn r0_2) = x1 (ix3 r 0 c) := chan_apply x1 0 _ r c
  have h1 : (chn r0_3) = x1 (ix3 r 5 c) := chan_apply x1 5 _ r c
  have h2 : (chn r0_4) = x1 (ix3 r 10 c) := chan_apply x1 10 _ r c
  have h3 : (chn r0_5) = x1 (ix3 r 15 c) := chan_apply x1 15 _ r c
  have h4 : (chn r0_6) = x1 (ix3 r 20 c) := chan_apply x1 20 _ r c
  show Ideal.logistic (((chn r0_2) + (chn r0_3) + (chn r0_4) + (chn r0_5) + (chn r0_6)) * inv5) = _
  rw [inv5_eq, h0, h1, h2, h3, h4]
  unfold cellX rawMean
  rw [Fin.sum_univ_five]
  rfl

/-- The centre's second coordinate: channels 1, 6, 11, 16, 21. -/
theorem arrY_apply : arrY x1 (ix2 r c) = cellY (tch x1) r c := by
  have h0 : (chn r0_7) = x1 (ix3 r 1 c) := chan_apply x1 1 _ r c
  have h1 : (chn r0_8) = x1 (ix3 r 6 c) := chan_apply x1 6 _ r c
  have h2 : (chn r0_9) = x1 (ix3 r 11 c) := chan_apply x1 11 _ r c
  have h3 : (chn r0_10) = x1 (ix3 r 16 c) := chan_apply x1 16 _ r c
  have h4 : (chn r0_11) = x1 (ix3 r 21 c) := chan_apply x1 21 _ r c
  show Ideal.logistic (((chn r0_7) + (chn r0_8) + (chn r0_9) + (chn r0_10) + (chn r0_11)) * inv5) = _
  rw [inv5_eq, h0, h1, h2, h3, h4]
  unfold cellY rawMean
  rw [Fin.sum_univ_five]
  rfl

/-- The width: the mean of channels 2, 7, 12, 17, 22 through the exponential, times the anchor's width. -/
theorem arrW_apply : arrW x0 x1 (ix2 r c) = cellW (tch x1) (taw x0) r c := by
  have h0 : (chn r0_12) = x1 (ix3 r 2 c) := chan_apply x1 2 _ r c
  have h1 : (chn r0_13) = x1 (ix3 r 7 c) := chan_apply x1 7 _ r c
  have h2 : (chn r0_14) = x1 (ix3 r 12 c) := chan_apply x1 12 _ r c
  have h3 : (chn r0_15) = x1 (ix3 r 17 c) := chan_apply x1 17 _ r c
  have h4 : (chn r0_16) = x1 (ix3 r 22 c) := chan_apply x1 22 _ r c
  show Ideal.exp (((chn r0_12) + (chn r0_13) + (chn r0_14) + (chn r0_15) + (chn r0_16)) * inv5)
    * k0_pay2 (F := Ideal) (View.ld x0 r0_0) = _
  rw [inv5_eq, aw_eq, h0, h1, h2, h3, h4]
  unfold cellW rawMean
  rw [Fin.sum_univ_five]
  rfl

/-- The height: channels 3, 8, 13, 18, 23, times the anchor's height. -/
theorem arrH_apply : arrH x0 x1 (ix2 r c) = cellH (tch x1) (tah x0) r c := by
  have h0 : (chn r0_17) = x1 (ix3 r 3 c) := chan_apply x1 3 _ r c
  have h1 : (chn r0_18) = x1 (ix3 r 8 c) := chan_apply x1 8 _ r c
  have h2 : (chn r0_19) = x1 (ix3 r 13 c) := chan_apply x1 13 _ r c
  have h3 : (chn r0_20) = x1 (ix3 r 18 c) := chan_apply x1 18 _ r c
  have h4 : (chn r0_21) = x1 (ix3 r 23 c) := chan_apply x1 23 _ r c
  show Ideal.exp (((chn r0_17) + (chn r0_18) + (chn r0_19) + (chn r0_20) + (chn r0_21)) * inv5)
    * k0_pay3 (F := Ideal) (View.ld x0 r0_1) = _
  rw [inv5_eq, ah_eq, h0, h1, h2, h3, h4]
  unfold cellH rawMean
  rw [Fin.sum_univ_five]
  rfl

/-- The confidence: the mean of the logistic values of channels 4, 9, 14, 19, 24. -/
theorem conf_apply : k0_pay15 (F := Ideal) (arrSC x1) inv5 (ix2 r c) = cellConf (tch x1) r c := by
  have h0 : (chn r0_22) = x1 (ix3 r 4 c) := chan_apply x1 4 _ r c
  have h1 : (chn r0_23) = x1 (ix3 r 9 c) := chan_apply x1 9 _ r c
  have h2 : (chn r0_24) = x1 (ix3 r 14 c) := chan_apply x1 14 _ r c
  have h3 : (chn r0_25) = x1 (ix3 r 19 c) := chan_apply x1 19 _ r c
  have h4 : (chn r0_26) = x1 (ix3 r 24 c) := chan_apply x1 24 _ r c
  show (Ideal.logistic (chn r0_22) + Ideal.logistic (chn r0_23) + Ideal.logistic (chn r0_24)
    + Ideal.logistic (chn r0_25) + Ideal.logistic (chn r0_26)) * inv5 = _
  rw [inv5_eq, h0, h1, h2, h3, h4]
  unfold cellConf
  rw [Fin.sum_univ_five]
  rfl

/-- A cell's squared distance from the default box: the centre against (1/2, 1/2), the size against the anchor's. -/
theorem off_apply (a b : EReal) (vx vy vw vh : FVec Ideal S256x400 .f32) (r : Fin 256) (c : Fin 400) :
    k0_pay16 (F := Ideal) a b vx vy vw vh (ix2 r c)
      = offCentre (vx (ix2 r c)) (vy (ix2 r c)) (vw (ix2 r c)) (vh (ix2 r c)) a b := rfl

/-- A cell's squared scaled confidence. -/
theorem confSq_apply (vs : FVec Ideal S256x400 .f32) (s : EReal) (r : Fin 256) (c : Fin 400) :
    k0_pay17 (F := Ideal) vs s (ix2 r c) = sq (vs (ix2 r c) * s) := rfl

/-! ## The two totals over the block -/

/-- The one element of a [1] array, after the cast to [1, 1, 1], the extraction and the splat to [1, 1]. -/
theorem splat_one_apply (w : FVec Ideal S1 .f32) :
    broadcast S1x1 (extractAt ![0, 0, 0] (shapeCast S1x1x1 w shapeCasts_S1_S1x1x1) inpos_S1x1x1_p0_0_0)
      (ix2 (0 : Fin 1) (0 : Fin 1)) = w (ix1 (0 : Fin 1)) := by
  show shapeCast S1x1x1 w shapeCasts_S1_S1x1x1 _ = _
  refine shapeCast_apply _ _ _ (ix1 (0 : Fin 1)) ?_
  rw [Shape.rowMajor_val_one, Shape.rowMajor_val_three]
  rfl

/-- The sum of a [1, 256, 400] array over its two long axes into [1] is the sum over rows and cells: every kept axis has one
    coordinate, so the reduction is the sum over the whole index set, regrouped by coordinates. -/
theorem sum_block_apply (u : FVec Ideal S1x256x400 .f32) (hφ : FKind.Formats .f32)
    (hacc : (0x00000000#32 : BitVec 32) = FKind.add.neutral .f32 hφ) :
    multiReduction (F := Ideal) .add [1, 2] S1 u 0x00000000#32 reduces_S1x256x400_S1 hφ hacc (ix1 (0 : Fin 1))
      = ∑ r : Fin 256, ∑ c : Fin 400, u (ix3 (0 : Fin 1) r c) := by
  have ht : ∀ b : Fin S1.rank, S1.size b = 1 := Fin.forall_fin_one.mpr rfl
  refine (Ideal.multiReduction_add_total u _ reduces_S1x256x400_S1 ht hφ hacc _).trans ?_
  refine (sum_idx3 u).trans ?_
  exact Fin.sum_univ_one _

/-- A [256, 400] array cast to [1, 256, 400], read at an index. -/
theorem lead_one_apply (v : FVec Ideal S256x400 .f32) (r : Fin 256) (c : Fin 400) :
    shapeCast S1x256x400 v shapeCasts_S256x400_S1x256x400 (ix3 (0 : Fin 1) r c) = v (ix2 r c) := by
  refine shapeCast_apply _ _ (ix3 (0 : Fin 1) r c) (ix2 r c) ?_
  rw [Shape.rowMajor_val_two, Shape.rowMajor_val_three]
  show r.val * 400 + c.val = (0 * 256 + r.val) * 400 + c.val
  omega

/-- The total of a [256, 400] array as the kernel takes it — cast to [1, 256, 400], summed over the two long axes into [1]
    from the zero word, cast to [1, 1, 1], its one element splat to [1, 1] — is the sum over rows and cells. -/
theorem total_apply (v : FVec Ideal S256x400 .f32) (hφ : FKind.Formats .f32)
    (hacc : (0x00000000#32 : BitVec 32) = FKind.add.neutral .f32 hφ) :
    broadcast S1x1 (extractAt ![0, 0, 0] (shapeCast S1x1x1 (multiReduction (F := Ideal) .add [1, 2] S1
        (shapeCast S1x256x400 v shapeCasts_S256x400_S1x256x400) 0x00000000#32 reduces_S1x256x400_S1 hφ hacc)
        shapeCasts_S1_S1x1x1) inpos_S1x1x1_p0_0_0) (ix2 (0 : Fin 1) (0 : Fin 1))
      = ∑ r : Fin 256, ∑ c : Fin 400, v (ix2 r c) := by
  refine (splat_one_apply _).trans ?_
  refine (sum_block_apply _ hφ hacc).trans ?_
  exact Finset.sum_congr rfl fun r _ => Finset.sum_congr rfl fun c _ => lead_one_apply v r c

/-- The block's total of the cells' squared distances from the default box. -/
theorem offTotal_apply (a b : EReal) (vx vy vw vh : FVec Ideal S256x400 .f32) :
    k0_pay18 (F := Ideal) a b vx vy vw vh (ix2 (0 : Fin 1) (0 : Fin 1))
      = ∑ r : Fin 256, ∑ c : Fin 400, offCentre (vx (ix2 r c)) (vy (ix2 r c)) (vw (ix2 r c)) (vh (ix2 r c)) a b := by
  unfold k0_pay18
  refine (total_apply (k0_pay16 a b vx vy vw vh) _ _).trans ?_
  exact Finset.sum_congr rfl fun r _ => Finset.sum_congr rfl fun c _ => off_apply a b vx vy vw vh r c

/-- The block's total of the cells' squared scaled confidences. -/
theorem confSqTotal_apply (vs : FVec Ideal S256x400 .f32) (s : EReal) :
    k0_pay19 (F := Ideal) vs s (ix2 (0 : Fin 1) (0 : Fin 1)) = ∑ r : Fin 256, ∑ c : Fin 400, sq (vs (ix2 r c) * s) := by
  unfold k0_pay19
  refine (total_apply (k0_pay17 vs s) _ _).trans ?_
  exact Finset.sum_congr rfl fun r _ => Finset.sum_congr rfl fun c _ => confSq_apply vs s r c

end Cert.GridLoss.Ker

end
-- ==== Proof.KerRows.lean ====
/-
  The kernel body's arithmetic per row of a block of 256, read at an index: the label's box and its clipped edges, the
  indicator of each row's object cell, the lane sum that picks the object cell's value, the sums over the rows, the
  confidence term against the overlap ratio, and the seven lanes of the packed output row.
-/
import proofs.«403400_j21895743275785_4_alg».proof.Proof.KerDefs
import proofs.«403400_j21895743275785_4_alg».proof.Proof.Consts
import Idealize.ShloMosaic.Lib.ValueLayout

noncomputable section

namespace Cert.GridLoss.Ker

open Cert.KernelIdeal Cert.KernelIdeal.Gen Idealize.ShloMosaic Idealize.ShloMosaic.ValueIdx

/-! ## The label's columns, the box edges -/

section Labels

variable (lb : Vec Ideal S256x4 .f32)

theorem labX_apply (r : Fin 256) : k0_pay26 (F := Ideal) lb (ix2 r (0 : Fin 1)) = labX (tlab lb) r := by
  unfold k0_pay26
  show extractStridedSlice S256x1 ![0, 0] lb _ (ix2 r (0 : Fin 1)) * wd 0x41A00000#32 = lb (ix2 r 0) * wd 0x41A00000#32
  rw [slice2_axis1_apply 0 lb _ r 0 0 rfl]

theorem labY_apply (r : Fin 256) : k0_pay27 (F := Ideal) lb (ix2 r (0 : Fin 1)) = labY (tlab lb) r := by
  unfold k0_pay27
  show extractStridedSlice S256x1 ![0, 1] lb _ (ix2 r (0 : Fin 1)) * wd 0x41A00000#32 = lb (ix2 r 1) * wd 0x41A00000#32
  rw [slice2_axis1_apply 1 lb _ r 0 1 rfl]

theorem labW_apply (r : Fin 256) : k0_pay28 (F := Ideal) lb (ix2 r (0 : Fin 1)) = labW (tlab lb) r := by
  unfold k0_pay28
  show extractStridedSlice S256x1 ![0, 2] lb _ (ix2 r (0 : Fin 1)) * wd 0x44200000#32 = lb (ix2 r 2) * wd 0x44200000#32
  rw [slice2_axis1_apply 2 lb _ r 0 2 rfl]

theorem labH_apply (r : Fin 256) : k0_pay29 (F := Ideal) lb (ix2 r (0 : Fin 1)) = labH (tlab lb) r := by
  unfold k0_pay29
  show extractStridedSlice S256x1 ![0, 3] lb _ (ix2 r (0 : Fin 1)) * wd 0x44200000#32 = lb (ix2 r 3) * wd 0x44200000#32
  rw [slice2_axis1_apply 3 lb _ r 0 3 rfl]

end Labels

/-- The clipped edges of a box along one axis, from the column of centres and the column of extents. -/
theorem lowX_apply (c w : FVec Ideal S256x1 .f32) (i : S256x1.Idx) : k0_pay35 (F := Ideal) c w i = lowEdge (c i) (w i) := rfl
theorem lowY_apply (c w : FVec Ideal S256x1 .f32) (i : S256x1.Idx) : k0_pay36 (F := Ideal) c w i = lowEdge (c i) (w i) := rfl
theorem highX_apply (c w : FVec Ideal S256x1 .f32) (i : S256x1.Idx) : k0_pay37 (F := Ideal) c w i = highEdge (c i) (w i) := rfl
theorem highY_apply (c w : FVec Ideal S256x1 .f32) (i : S256x1.Idx) : k0_pay38 (F := Ideal) c w i = highEdge (c i) (w i) := rfl
theorem scale_apply (i : S256x1.Idx) : k0_pay39 (F := Ideal) i = wd 0x42000000#32 := rfl

/-! ## The object cell's indicator -/

section Hot

variable (lb : Vec Ideal S256x4 .f32)

/-- The indicator before the label's cell is named: the lane number compared with the cell word. -/
theorem cellWord_apply (r : Fin 256) (c : Fin 400) :
    k0_pay20 (F := Ideal) lb (ix2 r c)
      = FloatOps.sitofp (F := Ideal) .f32 ((IntOp.cmpi .eq (BitVec.ofNat 32 c.val) (kerCellWord (tlab lb) r)).setWidth 32) := by
  unfold k0_pay20
  show FloatOps.sitofp (F := Ideal) .f32 ((IntOp.cmpi .eq (iota .tc S256x400 32 [1] _ (ix2 r c)) (broadcastTo S256x400 _ _ (ix2 r c))).setWidth 32) = _
  rw [iota_single_apply]
  rw [broadcastTo_apply _ _ (ix2 r c) (ix2 r (0 : Fin 1)) (fun a => by
    match a with
    | ⟨0, _⟩ => rfl
    | ⟨1, _⟩ => rfl)]
  show FloatOps.sitofp (F := Ideal) .f32 ((IntOp.cmpi .eq (BitVec.ofNat 32 c.val)
    (Ideal.fptosi 32 (Ideal.liftRound Int.floor (extractStridedSlice S256x1 ![0, 0] lb _ (ix2 r (0 : Fin 1)) * wd 0x41A00000#32)) * 20#32
      + Ideal.fptosi 32 (Ideal.liftRound Int.floor (extractStridedSlice S256x1 ![0, 1] lb _ (ix2 r (0 : Fin 1)) * wd 0x41A00000#32)))).setWidth 32) = _
  rw [slice2_axis1_apply 0 lb _ r 0 0 rfl, slice2_axis1_apply 1 lb _ r 0 1 rfl]
  rfl

variable (κ : Fin 256 → Fin 400) (hκ : ∀ r : Fin 256, kerCellWord (tlab lb) r = BitVec.ofNat 32 (κ r).val)
include hκ

/-- The indicator of the object cell: 1 in lane `κ r` of row `r`, 0 elsewhere (lane numbers and cells are below 2 ^ 32, so
    equal words are equal cells). -/
theorem hot_apply (r : Fin 256) (c : Fin 400) :
    k0_pay20 (F := Ideal) lb (ix2 r c) = if c = κ r then (1 : EReal) else 0 := by
  rw [cellWord_apply, hκ r]
  show (((((IntOp.cmpi .eq (BitVec.ofNat 32 c.val) (BitVec.ofNat 32 (κ r).val)).setWidth 32).toInt : ℤ) : ℝ) : EReal) = _
  by_cases h : c = κ r
  · rw [if_pos h, h]
    simp [IntOp.cmpi]
  · rw [if_neg h]
    have hne : BitVec.ofNat 32 c.val ≠ BitVec.ofNat 32 (κ r).val := by
      intro e
      have := congrArg BitVec.toNat e
      rw [BitVec.toNat_ofNat, BitVec.toNat_ofNat, Nat.mod_eq_of_lt (by have := c.isLt; omega),
        Nat.mod_eq_of_lt (by have := (κ r).isLt; omega)] at this
      exact h (Fin.ext this)
    have hb : (BitVec.ofNat 32 c.val == BitVec.ofNat 32 (κ r).val) = false := beq_eq_false_iff_ne.mpr hne
    simp [IntOp.cmpi, hb]

end Hot

/-! ## Sums along the lanes of a row, and over the rows -/

/-- The lane sum of a [256, 400] array, cast to a column, at row `r`. -/
theorem laneSum_apply (w : FVec Ideal S256x400 .f32) (h : S256x400.Reduces [1] S256) (hφ : FKind.Formats .f32)
    (hacc : (0x00000000#32 : BitVec 32) = FKind.add.neutral .f32 hφ) (hc : S256.ShapeCasts S256x1) (r : Fin 256) :
    shapeCast S256x1 (multiReduction (F := Ideal) .add [1] S256 w 0x00000000#32 h hφ hacc) hc (ix2 r (0 : Fin 1))
      = ∑ c : Fin 400, w (ix2 r c) := by
  rw [shapeCast_apply _ hc (ix2 r (0 : Fin 1)) (ix1 r) (by
    rw [Shape.rowMajor_val_one, Shape.rowMajor_val_two]
    show r.val = r.val * 1 + 0
    omega)]
  rw [Ideal.multiReduction_add_single]
  refine Finset.sum_congr rfl fun c _ => congrArg w ?_
  funext a
  match a with
  | ⟨0, _⟩ => rfl
  | ⟨1, _⟩ => rfl

/-- The sum of a [1, 256, 1] array over its last two axes, read back as a [1, 1] array: the sum over the 256 rows. -/
theorem rowsTotal_apply (src : FVec Ideal S1x256x1 .f32) (h2 : S1x256x1.Reduces [1, 2] S1) (hφ : FKind.Formats .f32)
    (hacc : (0x00000000#32 : BitVec 32) = FKind.add.neutral .f32 hφ) (h3 : S1.ShapeCasts S1x1x1)
    (h4 : ∀ a, (![0, 0, 0] : Fin 3 → Nat) a < S1x1x1.size a) (i : S1x1.Idx) :
    broadcast S1x1 (extractAt ![0, 0, 0] (shapeCast S1x1x1 (multiReduction (F := Ideal) .add [1, 2] S1 src 0x00000000#32 h2 hφ hacc) h3) h4) i
      = ∑ r : Fin 256, src (ix3 (0 : Fin 1) r (0 : Fin 1)) := by
  show shapeCast S1x1x1 (multiReduction (F := Ideal) .add [1, 2] S1 src 0x00000000#32 h2 hφ hacc) h3 (fun a => ⟨(![0, 0, 0] : Fin 3 → Nat) a, h4 a⟩) = _
  rw [shapeCast_apply _ h3 _ (ix1 (0 : Fin 1)) (by
    rw [Shape.rowMajor_val_one, Shape.rowMajor_val_three]
    rfl)]
  rw [Ideal.multiReduction_add_total src _ h2 (fun b => by match b with | ⟨0, _⟩ => rfl) hφ hacc, sum_idx3]
  rw [Fin.sum_univ_one]
  refine Finset.sum_congr rfl fun r _ => ?_
  rw [Fin.sum_univ_one]

/-- The same of a column [256, 1] cast to [1, 256, 1]. -/
theorem colTotal_apply (col : FVec Ideal S256x1 .f32) (h1 : S256x1.ShapeCasts S1x256x1) (h2 : S1x256x1.Reduces [1, 2] S1)
    (hφ : FKind.Formats .f32) (hacc : (0x00000000#32 : BitVec 32) = FKind.add.neutral .f32 hφ) (h3 : S1.ShapeCasts S1x1x1)
    (h4 : ∀ a, (![0, 0, 0] : Fin 3 → Nat) a < S1x1x1.size a) (i : S1x1.Idx) :
    broadcast S1x1 (extractAt ![0, 0, 0] (shapeCast S1x1x1
        (multiReduction (F := Ideal) .add [1, 2] S1 (shapeCast S1x256x1 col h1) 0x00000000#32 h2 hφ hacc) h3) h4) i
      = ∑ r : Fin 256, col (ix2 r (0 : Fin 1)) := by
  rw [rowsTotal_apply]
  exact Finset.sum_congr rfl fun r _ => shapeCast_ab_1ab_apply col h1 0 r 0

/-! ## The packed row -/

section Pack

variable (p0 p1 p2 p3 p4 p5 p6 : FVec Ideal S1x1 .f32) (z : FVec Ideal S1x121 .f32)
  (h7 : Shape.Concatenates [S1x1, S1x1, S1x1, S1x1, S1x1, S1x1, S1x1] S1x7 1) (h128 : Shape.Concatenates [S1x7, S1x121] S1x128 1)
  (hc : S1x128.ShapeCasts S1x1x128)

/-- A [1, 7] row padded to 128 lanes and cast to [1, 1, 128]: lane `l` below 7 reads the row at `l`. -/
theorem pack_left (v : FVec Ideal S1x7 .f32) (l : Fin 128) (hl : l.val < 7) :
    shapeCast S1x1x128 (concatenate S1x128 1 [⟨S1x7, v⟩, ⟨S1x121, z⟩] h128) hc (ix3 (0 : Fin 1) (0 : Fin 1) l)
      = v (ix2 (0 : Fin 1) (⟨l.val, hl⟩ : Fin 7)) := by
  rw [shapeCast_ab_1ab_apply]
  exact concatenate_pair_apply_left (t := S1x128) (s₁ := S1x7) (s₂ := S1x121) (1 : Fin 2) v z h128 (ix2 (0 : Fin 1) l) rfl
    (ix2 (0 : Fin 1) (⟨l.val, hl⟩ : Fin 7)) (fun b => by
      match b with
      | ⟨0, _⟩ => rfl
      | ⟨1, _⟩ => rfl)

/-! Seven [1, 1] pieces laid side by side: place `k` reads piece `k`. -/

theorem seven_0 : concatenate S1x7 1 [⟨S1x1, p0⟩, ⟨S1x1, p1⟩, ⟨S1x1, p2⟩, ⟨S1x1, p3⟩, ⟨S1x1, p4⟩, ⟨S1x1, p5⟩, ⟨S1x1, p6⟩] h7 (ix2 (0 : Fin 1) (0 : Fin 7))
    = p0 (ix2 (0 : Fin 1) (0 : Fin 1)) :=
  concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7
    (ix2 (0 : Fin 1) (0 : Fin 7)) 0 (by show (0 : Nat) < 7; omega) S1x1 p0 rfl rfl 0 rfl (ix2 (0 : Fin 1) (0 : Fin 1))
    (fun b hb => by
      match b with
      | ⟨0, _⟩ => rfl
      | ⟨1, _⟩ => exact absurd rfl hb) rfl

theorem seven_1 : concatenate S1x7 1 [⟨S1x1, p0⟩, ⟨S1x1, p1⟩, ⟨S1x1, p2⟩, ⟨S1x1, p3⟩, ⟨S1x1, p4⟩, ⟨S1x1, p5⟩, ⟨S1x1, p6⟩] h7 (ix2 (0 : Fin 1) (1 : Fin 7))
    = p1 (ix2 (0 : Fin 1) (0 : Fin 1)) :=
  concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7
    (ix2 (0 : Fin 1) (1 : Fin 7)) 1 (by show (1 : Nat) < 7; omega) S1x1 p1 rfl rfl 1 rfl (ix2 (0 : Fin 1) (0 : Fin 1))
    (fun b hb => by
      match b with
      | ⟨0, _⟩ => rfl
      | ⟨1, _⟩ => exact absurd rfl hb) rfl

theorem seven_2 : concatenate S1x7 1 [⟨S1x1, p0⟩, ⟨S1x1, p1⟩, ⟨S1x1, p2⟩, ⟨S1x1, p3⟩, ⟨S1x1, p4⟩, ⟨S1x1, p5⟩, ⟨S1x1, p6⟩] h7 (ix2 (0 : Fin 1) (2 : Fin 7))
    = p2 (ix2 (0 : Fin 1) (0 : Fin 1)) :=
  concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7
    (ix2 (0 : Fin 1) (2 : Fin 7)) 2 (by show (2 : Nat) < 7; omega) S1x1 p2 rfl rfl 2 rfl (ix2 (0 : Fin 1) (0 : Fin 1))
    (fun b hb => by
      match b with
      | ⟨0, _⟩ => rfl
      | ⟨1, _⟩ => exact absurd rfl hb) rfl

theorem seven_3 : concatenate S1x7 1 [⟨S1x1, p0⟩, ⟨S1x1, p1⟩, ⟨S1x1, p2⟩, ⟨S1x1, p3⟩, ⟨S1x1, p4⟩, ⟨S1x1, p5⟩, ⟨S1x1, p6⟩] h7 (ix2 (0 : Fin 1) (3 : Fin 7))
    = p3 (ix2 (0 : Fin 1) (0 : Fin 1)) :=
  concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7
    (ix2 (0 : Fin 1) (3 : Fin 7)) 3 (by show (3 : Nat) < 7; omega) S1x1 p3 rfl rfl 3 rfl (ix2 (0 : Fin 1) (0 : Fin 1))
    (fun b hb => by
      match b with
      | ⟨0, _⟩ => rfl
      | ⟨1, _⟩ => exact absurd rfl hb) rfl

theorem seven_4 : concatenate S1x7 1 [⟨S1x1, p0⟩, ⟨S1x1, p1⟩, ⟨S1x1, p2⟩, ⟨S1x1, p3⟩, ⟨S1x1, p4⟩, ⟨S1x1, p5⟩, ⟨S1x1, p6⟩] h7 (ix2 (0 : Fin 1) (4 : Fin 7))
    = p4 (ix2 (0 : Fin 1) (0 : Fin 1)) :=
  concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7
    (ix2 (0 : Fin 1) (4 : Fin 7)) 4 (by show (4 : Nat) < 7; omega) S1x1 p4 rfl rfl 4 rfl (ix2 (0 : Fin 1) (0 : Fin 1))
    (fun b hb => by
      match b with
      | ⟨0, _⟩ => rfl
      | ⟨1, _⟩ => exact absurd rfl hb) rfl

theorem seven_5 : concatenate S1x7 1 [⟨S1x1, p0⟩, ⟨S1x1, p1⟩, ⟨S1x1, p2⟩, ⟨S1x1, p3⟩, ⟨S1x1, p4⟩, ⟨S1x1, p5⟩, ⟨S1x1, p6⟩] h7 (ix2 (0 : Fin 1) (5 : Fin 7))
    = p5 (ix2 (0 : Fin 1) (0 : Fin 1)) :=
  concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7
    (ix2 (0 : Fin 1) (5 : Fin 7)) 5 (by show (5 : Nat) < 7; omega) S1x1 p5 rfl rfl 5 rfl (ix2 (0 : Fin 1) (0 : Fin 1))
    (fun b hb => by
      match b with
      | ⟨0, _⟩ => rfl
      | ⟨1, _⟩ => exact absurd rfl hb) rfl

theorem seven_6 : concatenate S1x7 1 [⟨S1x1, p0⟩, ⟨S1x1, p1⟩, ⟨S1x1, p2⟩, ⟨S1x1, p3⟩, ⟨S1x1, p4⟩, ⟨S1x1, p5⟩, ⟨S1x1, p6⟩] h7 (ix2 (0 : Fin 1) (6 : Fin 7))
    = p6 (ix2 (0 : Fin 1) (0 : Fin 1)) :=
  concatenate_apply_piece (t := S1x7) (1 : Fin 2) [⟨S1x1, p0⟩, ⟨S1x1, p1⟩, ⟨S1x1, p2⟩, ⟨S1x1, p3⟩, ⟨S1x1, p4⟩, ⟨S1x1, p5⟩, ⟨S1x1, p6⟩] h7
    (ix2 (0 : Fin 1) (6 : Fin 7)) 6 (by show (6 : Nat) < 7; omega) S1x1 p6 rfl rfl 6 rfl (ix2 (0 : Fin 1) (0 : Fin 1))
    (fun b hb => by
      match b with
      | ⟨0, _⟩ => rfl
      | ⟨1, _⟩ => exact absurd rfl hb) rfl

end Pack

/-! ## The seven lanes of the output block -/

section Lanes

variable (a3 a4 a0 a1 a5 a6 : FVec Ideal S1x1 .f32) (g : FVec Ideal S1x256x1 .f32)

theorem pay1_lane0 : k0_pay1 (F := Ideal) a3 a4 a0 a1 a5 a6 g (ix3 (0 : Fin 1) (0 : Fin 1) (0 : Fin 128)) = a0 (ix2 (0 : Fin 1) (0 : Fin 1)) := by
  unfold k0_pay1
  exact (pack_left _ _ _ _ (0 : Fin 128) (by decide)).trans (seven_0 _ _ _ _ _ _ _ _)

theorem pay1_lane1 : k0_pay1 (F := Ideal) a3 a4 a0 a1 a5 a6 g (ix3 (0 : Fin 1) (0 : Fin 1) (1 : Fin 128)) = a1 (ix2 (0 : Fin 1) (0 : Fin 1)) := by
  unfold k0_pay1
  exact (pack_left _ _ _ _ (1 : Fin 128) (by decide)).trans (seven_1 _ _ _ _ _ _ _ _)

theorem pay1_lane2 : k0_pay1 (F := Ideal) a3 a4 a0 a1 a5 a6 g (ix3 (0 : Fin 1) (0 : Fin 1) (2 : Fin 128))
    = ∑ r : Fin 256, g (ix3 (0 : Fin 1) r (0 : Fin 1)) := by
  unfold k0_pay1
  exact ((pack_left _ _ _ _ (2 : Fin 128) (by decide)).trans (seven_2 _ _ _ _ _ _ _ _)).trans (rowsTotal_apply g _ _ _ _ _ _)

theorem pay1_lane3 : k0_pay1 (F := Ideal) a3 a4 a0 a1 a5 a6 g (ix3 (0 : Fin 1) (0 : Fin 1) (3 : Fin 128)) = a3 (ix2 (0 : Fin 1) (0 : Fin 1)) := by
  unfold k0_pay1
  exact (pack_left _ _ _ _ (3 : Fin 128) (by decide)).trans (seven_3 _ _ _ _ _ _ _ _)

theorem pay1_lane4 : k0_pay1 (F := Ideal) a3 a4 a0 a1 a5 a6 g (ix3 (0 : Fin 1) (0 : Fin 1) (4 : Fin 128)) = a4 (ix2 (0 : Fin 1) (0 : Fin 1)) := by
  unfold k0_pay1
  exact (pack_left _ _ _ _ (4 : Fin 128) (by decide)).trans (seven_4 _ _ _ _ _ _ _ _)

theorem pay1_lane5 : k0_pay1 (F := Ideal) a3 a4 a0 a1 a5 a6 g (ix3 (0 : Fin 1) (0 : Fin 1) (5 : Fin 128)) = a5 (ix2 (0 : Fin 1) (0 : Fin 1)) := by
  unfold k0_pay1
  exact (pack_left _ _ _ _ (5 : Fin 128) (by decide)).trans (seven_5 _ _ _ _ _ _ _ _)

theorem pay1_lane6 : k0_pay1 (F := Ideal) a3 a4 a0 a1 a5 a6 g (ix3 (0 : Fin 1) (0 : Fin 1) (6 : Fin 128)) = a6 (ix2 (0 : Fin 1) (0 : Fin 1)) := by
  unfold k0_pay1
  exact (pack_left _ _ _ _ (6 : Fin 128) (by decide)).trans (seven_6 _ _ _ _ _ _ _ _)

end Lanes

/-! ## Picking the object cell of each row -/

section Pick

variable (κ : Fin 256 → Fin 400) (oh : FVec Ideal S256x400 .f32)
  (hoh : ∀ (r : Fin 256) (c : Fin 400), oh (ix2 r c) = if c = κ r then (1 : EReal) else 0)
include hoh

/-- Weighting a row by the indicator and summing its lanes leaves the object cell's value. -/
theorem pick_apply (v : FVec Ideal S256x400 .f32) (h : S256x400.Reduces [1] S256) (hφ : FKind.Formats .f32)
    (hacc : (0x00000000#32 : BitVec 32) = FKind.add.neutral .f32 hφ) (hc : S256.ShapeCasts S256x1) (r : Fin 256) :
    shapeCast S256x1 (multiReduction (F := Ideal) .add [1] S256 (mulf v oh) 0x00000000#32 h hφ hacc) hc (ix2 r (0 : Fin 1))
      = v (ix2 r (κ r)) := by
  rw [laneSum_apply]
  refine (Finset.sum_congr rfl fun c _ => ?_).trans (sum_mul_indicator (fun c => v (ix2 r c)) (κ r))
  show v (ix2 r c) * oh (ix2 r c) = _
  rw [hoh]

theorem pickY_apply (v : FVec Ideal S256x400 .f32) (r : Fin 256) :
    k0_pay22 (F := Ideal) v oh (ix2 r (0 : Fin 1)) = v (ix2 r (κ r)) := pick_apply κ oh hoh v _ _ _ _ r
theorem pickW_apply (v : FVec Ideal S256x400 .f32) (r : Fin 256) :
    k0_pay23 (F := Ideal) v oh (ix2 r (0 : Fin 1)) = v (ix2 r (κ r)) := pick_apply κ oh hoh v _ _ _ _ r
theorem pickH_apply (v : FVec Ideal S256x400 .f32) (r : Fin 256) :
    k0_pay24 (F := Ideal) v oh (ix2 r (0 : Fin 1)) = v (ix2 r (κ r)) := pick_apply κ oh hoh v _ _ _ _ r
theorem pickC_apply (v : FVec Ideal S256x400 .f32) (r : Fin 256) :
    k0_pay25 (F := Ideal) v oh (ix2 r (0 : Fin 1)) = v (ix2 r (κ r)) := pick_apply κ oh hoh v _ _ _ _ r

/-- The object cells' total of an array: the weighted lane sums, summed over the rows. -/
theorem objTotal_apply (v : FVec Ideal S256x400 .f32) (i : S1x1.Idx) :
    k0_pay33 (F := Ideal) (k0_pay32 v oh) i = ∑ r : Fin 256, v (ix2 r (κ r)) := by
  unfold k0_pay33 k0_pay32
  refine (colTotal_apply _ _ _ _ _ _ _ i).trans (Finset.sum_congr rfl fun r _ => ?_)
  exact pick_apply κ oh hoh v _ _ _ _ r

theorem objTotal'_apply (v : FVec Ideal S256x400 .f32) (i : S1x1.Idx) :
    k0_pay34 (F := Ideal) v oh i = ∑ r : Fin 256, v (ix2 r (κ r)) := by
  unfold k0_pay34
  refine (colTotal_apply _ _ _ _ _ _ _ i).trans (Finset.sum_congr rfl fun r _ => ?_)
  exact pick_apply κ oh hoh v _ _ _ _ r

end Pick

section PickX

variable (lb : Vec Ideal S256x4 .f32) (κ : Fin 256 → Fin 400) (hκ : ∀ r : Fin 256, kerCellWord (tlab lb) r = BitVec.ofNat 32 (κ r).val)
include hκ

/-- The first centre coordinate's column, whose indicator is computed in place. -/
theorem pickX_apply (v : FVec Ideal S256x400 .f32) (r : Fin 256) :
    k0_pay21 (F := Ideal) v lb (ix2 r (0 : Fin 1)) = v (ix2 r (κ r)) :=
  pick_apply κ (k0_pay20 lb) (hot_apply lb κ hκ) v _ _ _ _ r

end PickX

/-! ## The rows' terms -/

section RowTerms

variable (lb : Vec Ideal S256x4 .f32) (κ : Fin 256 → Fin 400) (oh : FVec Ideal S256x400 .f32)
  (hoh : ∀ (r : Fin 256) (c : Fin 400), oh (ix2 r c) = if c = κ r then (1 : EReal) else 0)

/-- The confidence term of row `r`, from the columns of the predicted box and confidence: the label's box first in every
    minimum and maximum, as in the specification. -/
theorem confRow_apply (px py pw ph pc : FVec Ideal S256x1 .f32) (r : Fin 256) :
    k0_pay40 (F := Ideal) px py pw ph pc (k0_pay28 lb) (k0_pay29 lb) (k0_pay35 (k0_pay26 lb) (k0_pay28 lb))
        (k0_pay36 (k0_pay27 lb) (k0_pay29 lb)) (k0_pay37 (k0_pay26 lb) (k0_pay28 lb)) (k0_pay38 (k0_pay27 lb) (k0_pay29 lb))
        k0_pay39 (ix3 (0 : Fin 1) r (0 : Fin 1))
      = confTerm (pc (ix2 r (0 : Fin 1)))
          (iou (labX (tlab lb) r) (labY (tlab lb) r) (labW (tlab lb) r) (labH (tlab lb) r)
            (px (ix2 r (0 : Fin 1))) (py (ix2 r (0 : Fin 1))) (pw (ix2 r (0 : Fin 1))) (ph (ix2 r (0 : Fin 1)))) := by
  unfold k0_pay40
  rw [shapeCast_ab_1ab_apply, ← labX_apply lb r, ← labY_apply lb r, ← labW_apply lb r, ← labH_apply lb r]
  rfl

include hoh

/-- The centre term summed over the rows: the first coordinate's column is given, the second picked here. -/
theorem xyTotal_apply (vy : FVec Ideal S256x400 .f32) (px : FVec Ideal S256x1 .f32) (i : S1x1.Idx) :
    k0_pay30 (F := Ideal) vy lb oh px i
      = ∑ r : Fin 256, xyTerm (labX (tlab lb) r) (labY (tlab lb) r) (px (ix2 r (0 : Fin 1))) (vy (ix2 r (κ r))) := by
  unfold k0_pay30
  refine (colTotal_apply _ _ _ _ _ _ _ i).trans (Finset.sum_congr rfl fun r _ => ?_)
  show (px (ix2 r (0 : Fin 1)) - k0_pay26 (F := Ideal) lb (ix2 r (0 : Fin 1))) * (px (ix2 r (0 : Fin 1)) - k0_pay26 (F := Ideal) lb (ix2 r (0 : Fin 1)))
      + (k0_pay22 (F := Ideal) vy oh (ix2 r (0 : Fin 1)) - k0_pay27 (F := Ideal) lb (ix2 r (0 : Fin 1)))
        * (k0_pay22 (F := Ideal) vy oh (ix2 r (0 : Fin 1)) - k0_pay27 (F := Ideal) lb (ix2 r (0 : Fin 1))) = _
  rw [labX_apply, labY_apply, pickY_apply κ oh hoh]
  rfl

/-- The size term summed over the rows. -/
theorem whTotal_apply (vw vh : FVec Ideal S256x400 .f32) (i : S1x1.Idx) :
    k0_pay31 (F := Ideal) vw vh lb oh i
      = ∑ r : Fin 256, whTerm (labW (tlab lb) r) (labH (tlab lb) r) (vw (ix2 r (κ r))) (vh (ix2 r (κ r))) := by
  unfold k0_pay31
  refine (colTotal_apply _ _ _ _ _ _ _ i).trans (Finset.sum_congr rfl fun r _ => ?_)
  show (Ideal.sqrt (k0_pay23 (F := Ideal) vw oh (ix2 r (0 : Fin 1))) - Ideal.sqrt (k0_pay28 (F := Ideal) lb (ix2 r (0 : Fin 1))))
        * (Ideal.sqrt (k0_pay23 (F := Ideal) vw oh (ix2 r (0 : Fin 1))) - Ideal.sqrt (k0_pay28 (F := Ideal) lb (ix2 r (0 : Fin 1))))
      + (Ideal.sqrt (k0_pay24 (F := Ideal) vh oh (ix2 r (0 : Fin 1))) - Ideal.sqrt (k0_pay29 (F := Ideal) lb (ix2 r (0 : Fin 1))))
        * (Ideal.sqrt (k0_pay24 (F := Ideal) vh oh (ix2 r (0 : Fin 1))) - Ideal.sqrt (k0_pay29 (F := Ideal) lb (ix2 r (0 : Fin 1)))) = _
  rw [labW_apply, labH_apply, pickW_apply κ oh hoh, pickH_apply κ oh hoh]
  rfl

end RowTerms

end Cert.GridLoss.Ker

end
-- ==== Proof.KerTile.lean ====
/-
  What one grid point of the kernel writes: the seven sums of the specification over its block of 256 rows, in the first seven
  lanes of its [1, 1, 128] output block.
-/
import proofs.«403400_j21895743275785_4_alg».proof.Proof.KerDefs
import proofs.«403400_j21895743275785_4_alg».proof.Proof.KerCells
import proofs.«403400_j21895743275785_4_alg».proof.Proof.KerRows

noncomputable section

namespace Cert.GridLoss.Ker

open Cert.KernelIdeal Cert.KernelIdeal.Gen Idealize.ShloMosaic Idealize.ShloMosaic.ValueIdx

variable (x0 : Vec Ideal S1x2 .f32) (x1 : Vec Ideal S256x25x400 .f32) (x2 : Vec Ideal S256x4 .f32)
  (κ : Fin 256 → Fin 400) (hκ : ∀ r : Fin 256, kerCellWord (tlab x2) r = BitVec.ofNat 32 (κ r).val)

/-- The block's one store covers it from offset 0, and the labels are loaded whole: what the grid point leaves is the packed
    row of the seven totals over the named cell arrays. -/
theorem out_eq : out0_3 (F := Ideal) x0 x1 x2
    = k0_pay1 (k0_pay18 (k0_pay2 (View.ld x0 r0_0)) (k0_pay3 (View.ld x0 r0_1)) (arrX x1) (arrY x1) (arrW x0 x1) (arrH x0 x1))
        (k0_pay19 (arrSC x1) inv5)
        (k0_pay30 (arrY x1) x2 (k0_pay20 x2) (k0_pay21 (arrX x1) x2))
        (k0_pay31 (arrW x0 x1) (arrH x0 x1) x2 (k0_pay20 x2))
        (k0_pay33 (k0_pay32 (k0_pay16 (k0_pay2 (View.ld x0 r0_0)) (k0_pay3 (View.ld x0 r0_1)) (arrX x1) (arrY x1) (arrW x0 x1) (arrH x0 x1)) (k0_pay20 x2)))
        (k0_pay34 (k0_pay17 (arrSC x1) inv5) (k0_pay20 x2))
        (k0_pay40 (k0_pay21 (arrX x1) x2) (k0_pay22 (arrY x1) (k0_pay20 x2)) (k0_pay23 (arrW x0 x1) (k0_pay20 x2))
          (k0_pay24 (arrH x0 x1) (k0_pay20 x2)) (k0_pay25 (k0_pay15 (arrSC x1) inv5) (k0_pay20 x2)) (k0_pay28 x2) (k0_pay29 x2)
          (k0_pay35 (k0_pay26 x2) (k0_pay28 x2)) (k0_pay36 (k0_pay27 x2) (k0_pay29 x2)) (k0_pay37 (k0_pay26 x2) (k0_pay28 x2))
          (k0_pay38 (k0_pay27 x2) (k0_pay29 x2)) k0_pay39) := by
  have hz3 : (![0, 0, 0] : Fin 3 → Nat) = fun _ => 0 := by
    funext a
    match a with
    | ⟨0, _⟩ => rfl
    | ⟨1, _⟩ => rfl
    | ⟨2, _⟩ => rfl
  have hz2 : (![0, 0] : Fin 2 → Nat) = fun _ => 0 := by
    funext a
    match a with
    | ⟨0, _⟩ => rfl
    | ⟨1, _⟩ => rfl
  have hl : View.ld x2 r0_27 = x2 := View.ld_unit_zero hz2 _ x2
  unfold out0_3
  rw [View.canon_unit_zero hz3, hl]

include hκ in
theorem tile_xy : out0_3 (F := Ideal) x0 x1 x2 (ix3 0 0 (0 : Fin 128)) = sumXY (tch x1) (tlab x2) κ := by
  rw [out_eq, pay1_lane0, xyTotal_apply x2 κ (k0_pay20 x2) (hot_apply x2 κ hκ)]
  unfold sumXY rowXY
  refine Finset.sum_congr rfl fun r _ => ?_
  rw [pickX_apply x2 κ hκ, arrX_apply, arrY_apply]

include hκ in
theorem tile_wh : out0_3 (F := Ideal) x0 x1 x2 (ix3 0 0 (1 : Fin 128)) = sumWH (tch x1) (tlab x2) (taw x0) (tah x0) κ := by
  rw [out_eq, pay1_lane1, whTotal_apply x2 κ (k0_pay20 x2) (hot_apply x2 κ hκ)]
  unfold sumWH rowWH
  refine Finset.sum_congr rfl fun r _ => ?_
  rw [arrW_apply, arrH_apply]

include hκ in
theorem tile_conf : out0_3 (F := Ideal) x0 x1 x2 (ix3 0 0 (2 : Fin 128)) = sumConf (tch x1) (tlab x2) (taw x0) (tah x0) κ := by
  rw [out_eq, pay1_lane2]
  unfold sumConf rowConf rowIou
  refine Finset.sum_congr rfl fun r _ => ?_
  rw [confRow_apply, pickX_apply x2 κ hκ, pickY_apply κ (k0_pay20 x2) (hot_apply x2 κ hκ),
    pickW_apply κ (k0_pay20 x2) (hot_apply x2 κ hκ), pickH_apply κ (k0_pay20 x2) (hot_apply x2 κ hκ),
    pickC_apply κ (k0_pay20 x2) (hot_apply x2 κ hκ), arrX_apply, arrY_apply, arrW_apply, arrH_apply, conf_apply]

theorem tile_offAll : out0_3 (F := Ideal) x0 x1 x2 (ix3 0 0 (3 : Fin 128)) = sumOffAll (tch x1) (taw x0) (tah x0) := by
  rw [out_eq, pay1_lane3, offTotal_apply, aw_eq, ah_eq]
  unfold sumOffAll cellOff
  refine Finset.sum_congr rfl fun r _ => Finset.sum_congr rfl fun c _ => ?_
  rw [arrX_apply, arrY_apply, arrW_apply, arrH_apply]

theorem tile_confSqAll : out0_3 (F := Ideal) x0 x1 x2 (ix3 0 0 (4 : Fin 128)) = sumConfSqAll (tch x1) := by
  rw [out_eq, pay1_lane4, confSqTotal_apply]
  unfold sumConfSqAll cellConfSq
  refine Finset.sum_congr rfl fun r _ => Finset.sum_congr rfl fun c _ => ?_
  exact congrArg sq (conf_apply x1 r c)

include hκ in
theorem tile_offObj : out0_3 (F := Ideal) x0 x1 x2 (ix3 0 0 (5 : Fin 128)) = sumOffObj (tch x1) (taw x0) (tah x0) κ := by
  rw [out_eq, pay1_lane5, objTotal_apply κ (k0_pay20 x2) (hot_apply x2 κ hκ)]
  unfold sumOffObj cellOff
  refine Finset.sum_congr rfl fun r _ => ?_
  rw [off_apply, aw_eq, ah_eq, arrX_apply, arrY_apply, arrW_apply, arrH_apply]

include hκ in
theorem tile_confSqObj : out0_3 (F := Ideal) x0 x1 x2 (ix3 0 0 (6 : Fin 128)) = sumConfSqObj (tch x1) κ := by
  rw [out_eq, pay1_lane6, objTotal'_apply κ (k0_pay20 x2) (hot_apply x2 κ hκ)]
  unfold sumConfSqObj cellConfSq
  refine Finset.sum_congr rfl fun r _ => ?_
  rw [confSq_apply]
  exact congrArg sq (conf_apply x1 r (κ r))

end Cert.GridLoss.Ker

end
-- ==== Proof.KerRun.lean ====
/-
  The idealized kernel's run: the result buffer ends at the loss of the argument arrays, the arguments unchanged.

  The road. Each input window's block at a grid point is rows 256 t … 256 t + 255 of its array (the anchor window's is
  the whole [1, 2] array), and the arrays the host prepares before the region are the arguments read through a reshape
  (the 20 × 20 grid flattened) and through two scaled entries of the anchors. The output array [32, 1, 128] ends with
  block t at what point t leaves, since the 32 output blocks tile it. The host's operations after the region sum each of
  the first seven lanes over the 32 blocks and combine the totals; with the block sums of the specification in those
  lanes, the totals are the specification's sums over all 8192 rows, and the combination is the loss.
-/
import proofs.«403400_j21895743275785_4_alg».proof.Proof.KerTile
import proofs.«403400_j21895743275785_4_alg».proof.Proof.Sums
import proofs.«403400_j21895743275785_4_alg».proof.Proof.Consts
import Idealize.ShloMosaic.Lib.Pipeline.Value
import Idealize.ShloMosaic.PureOps.Ideal.Laws
import Idealize.ShloMosaic.Lib.StableHlo.Run
import Idealize.ShloMosaic.Lib.IdealHost

noncomputable section

namespace Cert.GridLoss.Ker

open Cert.KernelIdeal Cert.KernelIdeal.Gen Idealize.ShloMosaic Idealize.ShloMosaic.TcCoe Idealize.SL.Sem Idealize.ShloMosaic.ValueIdx

namespace Run

variable (m : (ℓ : Loc nD τ sig) → Buf (Elt Ideal) ℓ)

/-! ## The windows' blocks as rows of their arrays -/

/-- The grid has 32 points. -/
theorem N32 : cfg0.N = 32 := N_0

/-- The windows' index maps over the grid: the anchor window stays at block 0, the three others move with the point along rows. -/
theorem idx_facts : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The prediction window's block at point `t` is rows `256 t …` of the flattened prediction array. -/
theorem blk1_apply (c : Dev nD) (t : Fin cfg0.N) (x : S256x25x400.Idx) (k : S8192x25x400.Idx)
    (h0 : (k 0).val = 256 * t.val + (x 0).val) (h1 : (k 1).val = (x 1).val) (h2 : (k 2).val = (x 2).val) :
    (iblk m c 1 t : Vec Ideal S256x25x400 .f32) x = (V m c main_v0 : S8192x25x400.Idx → EReal) k := by
  obtain ⟨-, -, e0, e1, e2, -⟩ := idx_facts t
  unfold iblk
  rw [View.read_apply]
  show V m c main_v0 _ = V m c main_v0 _
  congr 1
  funext a
  apply Fin.ext
  match a with
  | ⟨0, _⟩ => show win0_1.index t 0 * 256 + 1 * (x 0).val = (k 0).val; rw [e0, h0]; omega
  | ⟨1, _⟩ => show win0_1.index t 1 * 25 + 1 * (x 1).val = (k 1).val; rw [e1, h1]; omega
  | ⟨2, _⟩ => show win0_1.index t 2 * 400 + 1 * (x 2).val = (k 2).val; rw [e2, h2]; omega

/-- The label window's block at point `t` is rows `256 t …` of the label argument. -/
theorem blk2_apply (c : Dev nD) (t : Fin cfg0.N) (x : S256x4.Idx) (k : S8192x4.Idx)
    (h0 : (k 0).val = 256 * t.val + (x 0).val) (h1 : (k 1).val = (x 1).val) :
    (iblk m c 2 t : Vec Ideal S256x4 .f32) x = (m ((c.tc : Thread nD τ).loc main_arg1) : S8192x4.Idx → EReal) k := by
  obtain ⟨-, -, -, -, -, e0, e1, -⟩ := idx_facts t
  unfold iblk
  rw [View.read_apply]
  show V m c main_arg1 _ = _
  rw [V_main_arg1]
  congr 1
  funext a
  apply Fin.ext
  match a with
  | ⟨0, _⟩ => show win0_2.index t 0 * 256 + 1 * (x 0).val = (k 0).val; rw [e0, h0]; omega
  | ⟨1, _⟩ => show win0_2.index t 1 * 4 + 1 * (x 1).val = (k 1).val; rw [e1, h1]; omega

/-- The anchor window's block at every point is the whole [1, 2] array. -/
theorem blk0_apply (c : Dev nD) (t : Fin cfg0.N) (x : S1x2.Idx) :
    (iblk m c 0 t : Vec Ideal S1x2 .f32) x = (V m c main_v10 : S1x2.Idx → EReal) x := by
  obtain ⟨e0, e1, -⟩ := idx_facts t
  unfold iblk
  rw [View.read_apply]
  show V m c main_v10 _ = V m c main_v10 _
  congr 1
  funext a
  apply Fin.ext
  match a with
  | ⟨0, _⟩ => show win0_0.index t 0 * 1 + 1 * (x 0).val = (x 0).val; rw [e0]; omega
  | ⟨1, _⟩ => show win0_0.index t 1 * 2 + 1 * (x 1).val = (x 1).val; rw [e1]; omega

/-- In an array of one element every index sits at place 0. -/
theorem rowMajor_unit {s : Shape} (h : s.numel = 1) (i : s.Idx) : (s.rowMajor i).val = 0 := by
  have := (s.rowMajor i).isLt
  omega

/-! ## The output array, from what each point leaves -/

/-- The grid point whose output block is block `a` of the 32. -/
def pt (a : Fin 32) : Fin cfg0.N := ⟨a.val, by rw [N32]; exact a.isLt⟩

/-- What grid point `t` leaves in its output block. -/
@[irreducible] def outRow (c : Dev nD) (t : Fin cfg0.N) : S1x1x128.Idx → EReal :=
  out0_3 (F := Ideal) (iblk m c 0 t) (iblk m c 1 t) (iblk m c 2 t)

theorem outRow_def (c : Dev nD) (t : Fin cfg0.N) :
    outRow m c t = out0_3 (F := Ideal) (iblk m c 0 t) (iblk m c 1 t) (iblk m c 2 t) := by
  unfold outRow; rfl

/-- The whole output array: block `a` is what point `a` leaves. -/
@[irreducible] def outArr (c : Dev nD) : S32x1x128.Idx → EReal := fun i => outRow m c (pt (i 0)) (ix3 0 0 (i 2))

theorem outArr_apply (c : Dev nD) (i : S32x1x128.Idx) : outArr m c i = outRow m c (pt (i 0)) (ix3 0 0 (i 2)) := by
  unfold outArr; rfl

/-- What the body leaves in the output window's buffer at point `t`. -/
theorem after_row (c : Dev nD) (t : Fin cfg0.N) : (dats m 0 c).after 3 t = outRow m c t := by
  rw [outRow_def]; exact after0_3 m c t

/-- What point `t` writes back is block `t` of the output array. -/
theorem flushed_eq (c : Dev nD) (t : Fin cfg0.N) :
    (dats m 0 c).flushed 3 t = ((cfg0.win 3).blk t).view.read (Elt Ideal) (outArr m c) := by
  show (cfg0.win 3).cut (grid0.coords t) ((dats m 0 c).after 3 t) = _
  rw [after_row]
  obtain ⟨-, -, -, -, -, -, -, e0, e1, e2⟩ := idx_facts t
  funext j
  rw [View.read_apply]
  show outRow m c t ((cfg0.win 3).xinj (grid0.coords t) j) = outArr m c (((cfg0.win 3).blk t).view.emb j)
  rw [outArr_apply]
  have hj0 : (j 0).val = 0 := by have : (j 0).val < 1 := (j 0).isLt; omega
  have hj1 : (j 1).val = 0 := by have : (j 1).val < 1 := (j 1).isLt; omega
  have hp : pt ((((cfg0.win 3).blk t).view.emb j) 0) = t := by
    apply Fin.ext
    show win0_3.index t 0 * 1 + 1 * (j 0).val = t.val
    rw [e0, hj0]; omega
  have hx : (cfg0.win 3).xinj (grid0.coords t) j = ix3 0 0 ((((cfg0.win 3).blk t).view.emb j) 2) := by
    funext a
    apply Fin.ext
    match a with
    | ⟨0, _⟩ => exact hj0
    | ⟨1, _⟩ => exact hj1
    | ⟨2, _⟩ => show (j 2).val = win0_3.index t 2 * 128 + 1 * (j 2).val; rw [e2]; omega
  rw [hp]
  exact congrArg (outRow m c t) hx

/-- An index of the output array is in point `t`'s block iff each coordinate is in the block's range on its axis. -/
theorem mem_blk (t : Fin cfg0.N) (i : S32x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v11).slice (win0_3.rect t)).set ↔ _
  rw [View.set_slice_whole, Rect.mem_set_unit]
  exact Iff.rfl

/-- Every index of the output array is in the block of the point its first coordinate names. -/
theorem cover (i : S32x1x128.Idx) : ∃ t : Fin cfg0.N, (cfg0.win 3).flush t = true ∧ i ∈ ((cfg0.win 3).blk t).view.set := by
  refine ⟨pt (i 0), flush0_3 _, ?_⟩
  rw [mem_blk]
  obtain ⟨-, -, -, -, -, -, -, e0, e1, e2⟩ := idx_facts (pt (i 0))
  have hi1 : (i 1).val < 1 := (i 1).isLt
  have hi2 : (i 2).val < 128 := (i 2).isLt
  have hp : (pt (i 0)).val = (i 0).val := rfl
  intro a
  match a with
  | ⟨0, _⟩ => show win0_3.index (pt (i 0)) 0 * 1 ≤ (i 0).val ∧ (i 0).val < win0_3.index (pt (i 0)) 0 * 1 + 1; rw [e0, hp]; omega
  | ⟨1, _⟩ => show win0_3.index (pt (i 0)) 1 * 1 ≤ (i 1).val ∧ (i 1).val < win0_3.index (pt (i 0)) 1 * 1 + 1; rw [e1]; omega
  | ⟨2, _⟩ => show win0_3.index (pt (i 0)) 2 * 128 ≤ (i 2).val ∧ (i 2).val < win0_3.index (pt (i 0)) 2 * 128 + 128; rw [e2]; omega

/-- The output array after the region. -/
theorem final (c : Dev nD) : (dats m 0 c).arrAt 3 cfg0.N = outArr m c :=
  (dats m 0 c).arrAt_eq_of_cover 3 (outArr m c) (fun t _ => flushed_eq m c t) cover

/-! ## The blocks as the specification's rows, labels and anchor box -/

/-- The prediction array as the region finds it: the argument with its 20 × 20 grid flattened. -/
theorem V_v0 (c : Dev nD) : (V m c main_v0 : S8192x25x400.Idx → EReal)
    = shapeCast S8192x25x400 (m ((c.tc : Thread nD τ).loc main_arg0) : S8192x25x20x20.Idx → EReal) shapeCasts_S8192x25x20x20_S8192x25x400 := by
  show StableHlo.after hostOps0 (fun b => m (c, b)) (Proc.devRef .tc main_v0) = _
  after_results
  rfl

/-- The flattened array at row `b`, channel `k`, cell `cc`: the cell is 20 * (grid row) + (grid column). -/
theorem pred_read (P : S8192x25x20x20.Idx → EReal) (b : Fin 8192) (k : Fin 25) (cc : Fin 400) :
    shapeCast S8192x25x400 P shapeCasts_S8192x25x20x20_S8192x25x400 (ix3 b k cc) = predChan P b k cc := by
  unfold predChan
  refine shapeCast_apply P _ (ix3 b k cc) _ ?_
  rw [Shape.rowMajor_val_four, Shape.rowMajor_val_three]
  show ((b.val * 25 + k.val) * 20 + cc.val / 20) * 20 + cc.val % 20 = (b.val * 25 + k.val) * 400 + cc.val
  omega

/-- The row of the batch that is row `r` of block `t`. -/
abbrev rowOf (t : Fin 32) (r : Fin 256) : Fin 8192 := ⟨256 * t.val + r.val, by omega⟩

/-- The prediction block at point `t`, as channels of cells of rows, is the batch's rows `256 t …`. -/
theorem tch_blk (c : Dev nD) (t : Fin 32) :
    tch (iblk m c 1 (pt t)) = fun r k cc => predChan (m ((c.tc : Thread nD τ).loc main_arg0)) (rowOf t r) k cc := by
  funext r k cc
  show (iblk m c 1 (pt t) : Vec Ideal S256x25x400 .f32) (ix3 r k cc) = _
  rw [blk1_apply m c (pt t) (ix3 r k cc) (ix3 (rowOf t r) k cc) rfl rfl rfl, V_v0]
  exact pred_read _ _ _ _

/-- The label block at point `t` is the batch's labels of rows `256 t …`. -/
theorem tlab_blk (c : Dev nD) (t : Fin 32) :
    tlab (iblk m c 2 (pt t)) = fun r k => labRow (m ((c.tc : Thread nD τ).loc main_arg1)) (rowOf t r) k := by
  funext r k
  show (iblk m c 2 (pt t) : Vec Ideal S256x4 .f32) (ix2 r k) = _
  exact blk2_apply m c (pt t) (ix2 r k) (ix2 (rowOf t r) k) rfl rfl

/-- Anchor box 0 scaled to pixels, as the [1, 2] array the host hands the region: the two entries of row 0 of the anchors,
    each times 640, put side by side. -/
def ancArr (A : S5x2.Idx → EReal) : S1x2.Idx → EReal :=
  shapeCast S1x2 (concatenate S2 0
    [⟨S1, broadcastInDim S1 ![] bcast_S_S1 (mulf (F := Ideal) (φ := .f32)
        (shapeCast S_ (extractStridedSlice S1x1 ![0, 0] A slices_S5x2_S1x1_0_0) shapeCasts_S1x1_S_)
        (constant (F := Ideal) S_ .f32 0x44200000#32))⟩,
     ⟨S1, broadcastInDim S1 ![] bcast_S_S1 (mulf (F := Ideal) (φ := .f32)
        (shapeCast S_ (extractStridedSlice S1x1 ![0, 1] A slices_S5x2_S1x1_0_1) shapeCasts_S1x1_S_)
        (constant (F := Ideal) S_ .f32 0x44200000#32))⟩]
    concatenates_S1_S1_S2_d0) shapeCasts_S2_S1x2

/-- The anchor array as the region finds it. -/
theorem V_v10 (c : Dev nD) : (V m c main_v10 : S1x2.Idx → EReal) = ancArr (m ((c.tc : Thread nD τ).loc main_arg2)) := by
  show StableHlo.after hostOps0 (fun b => m (c, b)) (Proc.devRef .tc main_v10) = _
  after_results
  rfl

/-- One entry of row 0 of the anchors, sliced out, made a scalar and scaled. -/
theorem scaled_read (A : S5x2.Idx → EReal) (o : Fin 2 → Nat) (hs : S5x2.Slices o S1x1) (k : Fin 2) (ho0 : o 0 = 0)
    (ho1 : o 1 = k.val) (i : S_.Idx) :
    mulf (F := Ideal) (φ := .f32) (shapeCast S_ (extractStridedSlice S1x1 o A hs) shapeCasts_S1x1_S_)
      (constant (F := Ideal) S_ .f32 0x44200000#32) i = A (ix2 0 k) * wd 0x44200000#32 := by
  show shapeCast S_ (extractStridedSlice S1x1 o A hs) shapeCasts_S1x1_S_ i * wd 0x44200000#32 = _
  refine congrArg (fun s : EReal => s * wd 0x44200000#32) ?_
  refine (shapeCast_apply _ _ i (ix2 0 0) ?_).trans ?_
  · exact (rowMajor_unit (s := S1x1) (by decide) _).trans (rowMajor_unit (s := S_) (by decide) _).symm
  refine extractStridedSlice_apply o A hs (ix2 0 0) (ix2 0 k) ?_
  intro a
  fin_cases a
  · show 0 = o 0 + 0
    omega
  · show k.val = o 1 + 0
    omega

/-- Its first entry is the anchor's width in pixels. -/
theorem ancArr_0 (A : S5x2.Idx → EReal) : ancArr A (ix2 0 0) = ancW A := by
  unfold ancArr ancW
  refine (shapeCast_apply _ _ (ix2 0 0) (ix1 0) ?_).trans ?_
  · rw [Shape.rowMajor_val_one, Shape.rowMajor_val_two]; rfl
  refine (concatenate_pair_apply_left 0 _ _ concatenates_S1_S1_S2_d0 (ix1 0) rfl (ix1 0) ?_).trans ?_
  · intro b; fin_cases b; rfl
  rw [broadcastInDim_scalar_apply]
  exact scaled_read A ![0, 0] _ 0 rfl rfl ix0

/-- Its second entry is the anchor's height in pixels. -/
theorem ancArr_1 (A : S5x2.Idx → EReal) : ancArr A (ix2 0 1) = ancH A := by
  unfold ancArr ancH
  refine (shapeCast_apply _ _ (ix2 0 1) (ix1 1) ?_).trans ?_
  · rw [Shape.rowMajor_val_one, Shape.rowMajor_val_two]; rfl
  refine (concatenate_pair_apply_right 0 _ _ concatenates_S1_S1_S2_d0 (ix1 1) rfl rfl (ix1 0) ?_ ?_).trans ?_
  · intro b hb; fin_cases b; exact absurd rfl hb
  · rfl
  rw [broadcastInDim_scalar_apply]
  exact scaled_read A ![0, 1] _ 1 rfl rfl ix0

/-- The anchor width every point receives. -/
theorem taw_blk (c : Dev nD) (t : Fin 32) : taw (iblk m c 0 (pt t)) = ancW (m ((c.tc : Thread nD τ).loc main_arg2)) := by
  show (iblk m c 0 (pt t) : Vec Ideal S1x2 .f32) (ix2 0 0) = _
  rw [blk0_apply, V_v10]
  exact ancArr_0 _

/-- The anchor height every point receives. -/
theorem tah_blk (c : Dev nD) (t : Fin 32) : tah (iblk m c 0 (pt t)) = ancH (m ((c.tc : Thread nD τ).loc main_arg2)) := by
  show (iblk m c 0 (pt t) : Vec Ideal S1x2 .f32) (ix2 0 1) = _
  rw [blk0_apply, V_v10]
  exact ancArr_1 _

/-! ## The host's operations after the region -/

/-- One total as the host reads it off the region's output array [32, 1, 128]: the array flattened to [32, 128], its
    first seven lanes kept, summed over the 32 blocks from the initial word 0, lane `o` taken as a scalar. -/
def laneTotal (A : S32x1x128.Idx → EReal) (o : Fin 1 → Nat) (hs : S7.Slices o S1) : S_.Idx → EReal :=
  shapeCast S_ (extractStridedSlice S1 o
    (Host.reduceAdd (F := Ideal) (φ := .f32)
      (extractStridedSlice S32x7 ![0, 0] (shapeCast S32x128 A shapeCasts_S32x1x128_S32x128) slices_S32x128_S32x7_0_0)
      (constant (F := Ideal) S_ .f32 0x00000000#32) reducesTo_S32x7_S7_d0 h_S_) hs) shapeCasts_S1_S_

/-- The host's scalar arithmetic on the seven totals. -/
def tailOf (A : S32x1x128.Idx → EReal) : S_.Idx → EReal :=
  addf (F := Ideal) (φ := .f32)
    (addf (F := Ideal) (φ := .f32)
      (addf (F := Ideal) (φ := .f32)
        (mulf (F := Ideal) (φ := .f32)
          (addf (F := Ideal) (φ := .f32)
            (Host.divf (F := Ideal) (φ := .f32) (laneTotal A ![0] slices_S7_S1_0) (constant (F := Ideal) S_ .f32 0x46800000#32))
            (Host.divf (F := Ideal) (φ := .f32) (laneTotal A ![1] slices_S7_S1_1) (constant (F := Ideal) S_ .f32 0x46800000#32)))
          (constant (F := Ideal) S_ .f32 0x40000000#32))
        (mulf (F := Ideal) (φ := .f32)
          (Host.divf (F := Ideal) (φ := .f32)
            (subf (F := Ideal) (φ := .f32) (laneTotal A ![3] slices_S7_S1_3) (laneTotal A ![5] slices_S7_S1_5))
            (constant (F := Ideal) S_ .f32 0x4B478000#32))
          (constant (F := Ideal) S_ .f32 0x3F800000#32)))
      (mulf (F := Ideal) (φ := .f32)
        (Host.divf (F := Ideal) (φ := .f32) (laneTotal A ![2] slices_S7_S1_2) (constant (F := Ideal) S_ .f32 0x46000000#32))
        (constant (F := Ideal) S_ .f32 0x40A00000#32)))
    (mulf (F := Ideal) (φ := .f32)
      (Host.divf (F := Ideal) (φ := .f32)
        (subf (F := Ideal) (φ := .f32) (laneTotal A ![4] slices_S7_S1_4) (laneTotal A ![6] slices_S7_S1_6))
        (constant (F := Ideal) S_ .f32 0x4A478000#32))
      (constant (F := Ideal) S_ .f32 0x3F800000#32))

set_option maxHeartbeats 4000000 in
/-- The result buffer after the host's operations that follow the region, from the region's output array. -/
theorem tail_eq (c : Dev nD) :
    Pipeline.afterTail₀ cfgs (dats m) 0 (V0 m) [hostOps1] c main_v43
      = tailOf (Pipeline.withArrays (cfgs 0).spec c (V0 m c) (fun w => (dats m 0 c).arrAt w (cfgs 0).N) (Proc.devRef .tc main_v11)) := by
  unfold Pipeline.afterTail₀
  show StableHlo.after hostOps1 _ (Proc.devRef .tc main_v43) = _
  after_results_simp
  rfl

/-- A total read: the initial word plus the sum over the 32 blocks of lane `j`. -/
theorem laneTotal_apply (A : S32x1x128.Idx → EReal) (o : Fin 1 → Nat) (hs : S7.Slices o S1) (j : Fin 128) (hj : j.val < 7)
    (ho : o 0 = j.val) (i : S_.Idx) :
    laneTotal A o hs i = wd 0x00000000#32 + ∑ t : Fin 32, A (ix3 t 0 j) := by
  unfold laneTotal
  refine (shapeCast_apply _ _ i (ix1 0) ?_).trans ?_
  · exact (rowMajor_unit (s := S1) (by decide) _).trans (rowMajor_unit (s := S_) (by decide) _).symm
  refine (extractStridedSlice_apply o _ hs (ix1 0) (ix1 ⟨j.val, hj⟩) ?_).trans ?_
  · intro a
    fin_cases a
    show j.val = o 0 + 0
    omega
  rw [hostReduceAdd_apply, Ideal.hostReduceAdd_single reducesTo_S32x7_S7_d0 (by decide : S32x7.Reduces [0] S7)]
  refine congrArg (fun s : EReal => wd 0x00000000#32 + s) ?_
  refine Finset.sum_congr rfl fun t _ => ?_
  refine (extractStridedSlice_apply ![0, 0] _ slices_S32x128_S32x7_0_0 _ (ix2 t ⟨j.val, by omega⟩) ?_).trans ?_
  · intro a
    fin_cases a
    · show t.val = 0 + t.val
      omega
    · show j.val = 0 + j.val
      omega
  refine shapeCast_apply A _ (ix2 t ⟨j.val, by omega⟩) (ix3 t 0 j) ?_
  rw [Shape.rowMajor_val_three, Shape.rowMajor_val_two]
  show (t.val * 1 + 0) * 128 + j.val = t.val * 128 + j.val
  omega

/-- The host's arithmetic is the specification's combination of the totals. -/
theorem tailOf_apply (A : S32x1x128.Idx → EReal) (i : S_.Idx) :
    tailOf A i = combine
      (wd 0x00000000#32 + ∑ t : Fin 32, A (ix3 t 0 (0 : Fin 128)))
      (wd 0x00000000#32 + ∑ t : Fin 32, A (ix3 t 0 (1 : Fin 128)))
      ((wd 0x00000000#32 + ∑ t : Fin 32, A (ix3 t 0 (3 : Fin 128))) - (wd 0x00000000#32 + ∑ t : Fin 32, A (ix3 t 0 (5 : Fin 128))))
      (wd 0x00000000#32 + ∑ t : Fin 32, A (ix3 t 0 (2 : Fin 128)))
      ((wd 0x00000000#32 + ∑ t : Fin 32, A (ix3 t 0 (4 : Fin 128))) - (wd 0x00000000#32 + ∑ t : Fin 32, A (ix3 t 0 (6 : Fin 128)))) := by
  rw [← laneTotal_apply A ![0] slices_S7_S1_0 0 (by decide) rfl i, ← laneTotal_apply A ![1] slices_S7_S1_1 1 (by decide) rfl i,
    ← laneTotal_apply A ![2] slices_S7_S1_2 2 (by decide) rfl i, ← laneTotal_apply A ![3] slices_S7_S1_3 3 (by decide) rfl i,
    ← laneTotal_apply A ![4] slices_S7_S1_4 4 (by decide) rfl i, ← laneTotal_apply A ![5] slices_S7_S1_5 5 (by decide) rfl i,
    ← laneTotal_apply A ![6] slices_S7_S1_6 6 (by decide) rfl i]
  rfl

/-! ## The seven lanes of a block, and their totals over the 32 blocks -/

section Lanes

variable (κ : Dev nD → Fin 8192 → Fin 400)
  (hκ : ∀ (c : Dev nD) (b : Fin 8192),
    kerCellWord (labRow (m ((c.tc : Thread nD τ).loc main_arg1))) b = BitVec.ofNat 32 (κ c b).val)

include hκ in
/-- The object cells of a block's rows are the batch's, row by row. -/
theorem cell_blk (c : Dev nD) (t : Fin 32) (r : Fin 256) :
    kerCellWord (tlab (iblk m c 2 (pt t))) r = BitVec.ofNat 32 (κ c (rowOf t r)).val := by
  rw [tlab_blk]
  exact hκ c (rowOf t r)

/-- Lane `j` of block `t` of the output array is lane `j` of what point `t` leaves. -/
theorem outArr_lane (c : Dev nD) (t : Fin 32) (j : Fin 128) :
    outArr m c (ix3 t 0 j) = out0_3 (F := Ideal) (iblk m c 0 (pt t)) (iblk m c 1 (pt t)) (iblk m c 2 (pt t)) (ix3 0 0 j) := by
  rw [outArr_apply]
  show outRow m c (pt t) (ix3 0 0 j) = _
  rw [outRow_def]

include hκ in
/-- Lane 0 over the blocks: the centre errors of every row. -/
theorem total_xy (c : Dev nD) : (∑ t : Fin 32, outArr m c (ix3 t 0 (0 : Fin 128)))
    = sumXY (predChan (m ((c.tc : Thread nD τ).loc main_arg0))) (labRow (m ((c.tc : Thread nD τ).loc main_arg1))) (κ c) := by
  rw [Finset.sum_congr rfl fun t _ => (outArr_lane m c t 0).trans
    (tile_xy (iblk m c 0 (pt t)) (iblk m c 1 (pt t)) (iblk m c 2 (pt t)) (fun r => κ c (rowOf t r)) (cell_blk m κ hκ c t))]
  simp only [tch_blk, tlab_blk]
  exact sum_blocks fun b => rowXY (predChan (m ((c.tc : Thread nD τ).loc main_arg0))) (labRow (m ((c.tc : Thread nD τ).loc main_arg1))) (κ c) b

include hκ in
/-- Lane 1: the size errors. -/
theorem total_wh (c : Dev nD) : (∑ t : Fin 32, outArr m c (ix3 t 0 (1 : Fin 128)))
    = sumWH (predChan (m ((c.tc : Thread nD τ).loc main_arg0))) (labRow (m ((c.tc : Thread nD τ).loc main_arg1))) (ancW (m ((c.tc : Thread nD τ).loc main_arg2))) (ancH (m ((c.tc : Thread nD τ).loc main_arg2))) (κ c) := by
  rw [Finset.sum_congr rfl fun t _ => (outArr_lane m c t 1).trans
    (tile_wh (iblk m c 0 (pt t)) (iblk m c 1 (pt t)) (iblk m c 2 (pt t)) (fun r => κ c (rowOf t r)) (cell_blk m κ hκ c t))]
  simp only [tch_blk, tlab_blk, taw_blk, tah_blk]
  exact sum_blocks fun b => rowWH (predChan (m ((c.tc : Thread nD τ).loc main_arg0))) (labRow (m ((c.tc : Thread nD τ).loc main_arg1))) (ancW (m ((c.tc : Thread nD τ).loc main_arg2))) (ancH (m ((c.tc : Thread nD τ).loc main_arg2))) (κ c) b

include hκ in
/-- Lane 2: the confidence errors. -/
theorem total_conf (c : Dev nD) : (∑ t : Fin 32, outArr m c (ix3 t 0 (2 : Fin 128)))
    = sumConf (predChan (m ((c.tc : Thread nD τ).loc main_arg0))) (labRow (m ((c.tc : Thread nD τ).loc main_arg1))) (ancW (m ((c.tc : Thread nD τ).loc main_arg2))) (ancH (m ((c.tc : Thread nD τ).loc main_arg2))) (κ c) := by
  rw [Finset.sum_congr rfl fun t _ => (outArr_lane m c t 2).trans
    (tile_conf (iblk m c 0 (pt t)) (iblk m c 1 (pt t)) (iblk m c 2 (pt t)) (fun r => κ c (rowOf t r)) (cell_blk m κ hκ c t))]
  simp only [tch_blk, tlab_blk, taw_blk, tah_blk]
  exact sum_blocks fun b => rowConf (predChan (m ((c.tc : Thread nD τ).loc main_arg0))) (labRow (m ((c.tc : Thread nD τ).loc main_arg1))) (ancW (m ((c.tc : Thread nD τ).loc main_arg2))) (ancH (m ((c.tc : Thread nD τ).loc main_arg2))) (κ c) b

/-- Lane 3: every cell's distance from the default box. -/
theorem total_offAll (c : Dev nD) : (∑ t : Fin 32, outArr m c (ix3 t 0 (3 : Fin 128)))
    = sumOffAll (predChan (m ((c.tc : Thread nD τ).loc main_arg0))) (ancW (m ((c.tc : Thread nD τ).loc main_arg2))) (ancH (m ((c.tc : Thread nD τ).loc main_arg2))) := by
  rw [Finset.sum_congr rfl fun t _ => (outArr_lane m c t 3).trans
    (tile_offAll (iblk m c 0 (pt t)) (iblk m c 1 (pt t)) (iblk m c 2 (pt t)))]
  simp only [tch_blk, taw_blk, tah_blk]
  exact sum_blocks fun b => ∑ cc : Fin 400, cellOff (predChan (m ((c.tc : Thread nD τ).loc main_arg0))) (ancW (m ((c.tc : Thread nD τ).loc main_arg2))) (ancH (m ((c.tc : Thread nD τ).loc main_arg2))) b cc

/-- Lane 4: every cell's squared confidence. -/
theorem total_confSqAll (c : Dev nD) : (∑ t : Fin 32, outArr m c (ix3 t 0 (4 : Fin 128)))
    = sumConfSqAll (predChan (m ((c.tc : Thread nD τ).loc main_arg0))) := by
  rw [Finset.sum_congr rfl fun t _ => (outArr_lane m c t 4).trans
    (tile_confSqAll (iblk m c 0 (pt t)) (iblk m c 1 (pt t)) (iblk m c 2 (pt t)))]
  simp only [tch_blk]
  exact sum_blocks fun b => ∑ cc : Fin 400, cellConfSq (predChan (m ((c.tc : Thread nD τ).loc main_arg0))) b cc

include hκ in
/-- Lane 5: the object cells' distance from the default box. -/
theorem total_offObj (c : Dev nD) : (∑ t : Fin 32, outArr m c (ix3 t 0 (5 : Fin 128)))
    = sumOffObj (predChan (m ((c.tc : Thread nD τ).loc main_arg0))) (ancW (m ((c.tc : Thread nD τ).loc main_arg2))) (ancH (m ((c.tc : Thread nD τ).loc main_arg2))) (κ c) := by
  rw [Finset.sum_congr rfl fun t _ => (outArr_lane m c t 5).trans
    (tile_offObj (iblk m c 0 (pt t)) (iblk m c 1 (pt t)) (iblk m c 2 (pt t)) (fun r => κ c (rowOf t r)) (cell_blk m κ hκ c t))]
  simp only [tch_blk, taw_blk, tah_blk]
  exact sum_blocks fun b => cellOff (predChan (m ((c.tc : Thread nD τ).loc main_arg0))) (ancW (m ((c.tc : Thread nD τ).loc main_arg2))) (ancH (m ((c.tc : Thread nD τ).loc main_arg2))) b (κ c b)

include hκ in
/-- Lane 6: the object cells' squared confidence. -/
theorem total_confSqObj (c : Dev nD) : (∑ t : Fin 32, outArr m c (ix3 t 0 (6 : Fin 128)))
    = sumConfSqObj (predChan (m ((c.tc : Thread nD τ).loc main_arg0))) (κ c) := by
  rw [Finset.sum_congr rfl fun t _ => (outArr_lane m c t 6).trans
    (tile_confSqObj (iblk m c 0 (pt t)) (iblk m c 1 (pt t)) (iblk m c 2 (pt t)) (fun r => κ c (rowOf t r)) (cell_blk m κ hκ c t))]
  simp only [tch_blk]
  exact sum_blocks fun b => cellConfSq (predChan (m ((c.tc : Thread nD τ).loc main_arg0))) b (κ c b)

include hκ in
/-- The host's operations on the output array give the loss of the argument arrays. -/
theorem tailOf_outArr (c : Dev nD) : tailOf (outArr m c) = fun _ => lossOf (m ((c.tc : Thread nD τ).loc main_arg0)) (m ((c.tc : Thread nD τ).loc main_arg1)) (m ((c.tc : Thread nD τ).loc main_arg2)) (κ c) := by
  funext i
  rw [tailOf_apply, total_xy m κ hκ c, total_wh m κ hκ c, total_conf m κ hκ c, total_offAll m c, total_confSqAll m c,
    total_offObj m κ hκ c, total_confSqObj m κ hκ c, wd_zero]
  simp only [zero_add]
  rfl

end Lanes

end Run

open Run

/-! ## The run -/

theorem kernel_run (m : (ℓ : Loc nD τ sig) → Buf (Elt Ideal) ℓ) (ρ : Dev nD → PrngReg) (κ : Dev nD → Fin 8192 → Fin 400)
    (hκ : ∀ (c : Dev nD) (b : Fin 8192),
      kerCellWord (labRow (m ((c.tc : Thread nD τ).loc main_arg1))) b = BitVec.ofNat 32 (κ c b).val) :
    θ_run (defs (F := Ideal)) (onTc (τ := τ) (main (F := Ideal))) ⟨m, fun _ => 0, ρ⟩ fun r => ∀ c : Dev nD,
      r.2.mem ((c.tc : Thread nD τ).loc main_v43)
        = (fun _ => lossOf (m ((c.tc : Thread nD τ).loc main_arg0)) (m ((c.tc : Thread nD τ).loc main_arg1))
            (m ((c.tc : Thread nD τ).loc main_arg2)) (κ c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (run_main m ρ)
  · refine ((h c).2 main_v43 (Pipeline.mem_restRefs_of main_v43 (by decide) (by decide))).trans ?_
    rw [tail_eq, (Pipeline.withArrays_arr spec0 launch0.win.arr_inj c _ _ 3).trans (final m c)]
    exact tailOf_outArr m κ hκ c
  · exact ((h c).2 main_arg0 (Pipeline.mem_restRefs_of main_arg0 (by decide) (by decide))).trans (W_main_arg0 m (dats m) c)
  · exact ((h c).1 2).trans (((dats m 0 c).arrAt_in 2 rfl _).trans ((A_eq m c 2).trans (V_main_arg1 m c)))
  · exact ((h c).2 main_arg2 (Pipeline.mem_restRefs_of main_arg2 (by decide) (by decide))).trans (W_main_arg2 m (dats m) c)

end Cert.GridLoss.Ker

end
-- ==== Proof.RefTable.lean ====
/-
  The reference multiplies the label by the constant row (20, 20, 640, 640): grid units for the centre, pixels for the size.
  The printed program spells that table as a function of the position; here the same function has a name.
-/
import proofs.«403400_j21895743275785_4_alg».proof.ReferenceIdeal

noncomputable section

namespace Cert.GridLoss.RefTable

open Cert.ReferenceIdeal Idealize.ShloMosaic

/-- The four words of the label scale, by position. -/
abbrev denseTable0 {F : FTy → Type} [FloatOps F] : (⟨S4, .f32⟩ : BufTy).Contents (Elt F) :=
  fun i => FloatOps.ofBits .f32 (lit0 (S4.rowMajor i))

end Cert.GridLoss.RefTable

end
-- ==== Proof.RefOps.lean ====
/- @main's operations, window by window. -/
import proofs.«403400_j21895743275785_4_alg».proof.Proof.Gen.ReferenceIdeal
import proofs.«403400_j21895743275785_4_alg».proof.Proof.RefTable
import Idealize.ShloMosaic.Lib.StableHlo.Run

noncomputable section

namespace Cert.ReferenceIdeal.Terms

open Cert.ReferenceIdeal Cert.ReferenceIdeal.Gen Cert.GridLoss.RefTable Idealize.ShloMosaic Idealize.ShloMosaic.TcCoe Idealize.SL.Sem Idealize.ShloMosaic.StableHlo

variable {F : FTy → Type} [FloatOps F]

/-- Window `main_part0`: operations 1 … 60 of 363. -/
abbrev ops_part0 : List (HloOp τ sig (Elt F)) :=
  [ nullary main_cst denseTable0,
    nullary main_cst_0 (constant S2 .f32 0x41A00000#32),
    nullary main_cst_1 (constant S2 .f32 0x44200000#32),
    nullary main_cst_2 (constant S2 .f32 0x3F000000#32),
    unary main_arg1 main_v0 ((extractStridedSlice S8192x1 ![0, 0] · slices_S8192x4_S8192x1_0_0) : (⟨S8192x4, .f32⟩ : BufTy).Contents (Elt F) → (⟨S8192x1, .f32⟩ : BufTy).Contents (Elt F)),
    reshape main_v0 main_v1 rfl shapeCasts_S8192x1_S8192,
    nullary main_cst_3 (constant S_ .f32 0x41A00000#32),
    unary main_cst_3 main_v2 (broadcastInDim S8192 ![] bcast_S_S8192 : (⟨S_, .f32⟩ : BufTy).Contents (Elt F) → (⟨S8192, .f32⟩ : BufTy).Contents (Elt F)),
    binary main_v1 main_v2 main_v3 (mulf : (⟨S8192, .f32⟩ : BufTy).Contents (Elt F) → (⟨S8192, .f32⟩ : BufTy).Contents (Elt F) → (⟨S8192, .f32⟩ : BufTy).Contents (Elt F)),
    unary main_v3 main_v4 (Host.floor : (⟨S8192, .f32⟩ : BufTy).Contents (Elt F) → (⟨S8192, .f32⟩ : BufTy).Contents (Elt F)),
    nullary main_cst_4 (constant S_ .f32 0x41A00000#32),
    unary main_cst_4 main_v5 (broadcastInDim S8192 ![] bcast_S_S8192 : (⟨S_, .f32⟩ : BufTy).Contents (Elt F) → (⟨S8192, .f32⟩ : BufTy).Contents (Elt F)),
    binary main_v4 main_v5 main_v6 (mulf : (⟨S8192, .f32⟩ : BufTy).Contents (Elt F) → (⟨S8192, .f32⟩ : BufTy).Contents (Elt F) → (⟨S8192, .f32⟩ : BufTy).Contents (Elt F)),
    unary main_arg1 main_v7 ((extractStridedSlice S8192x1 ![0, 1] · slices_S8192x4_S8192x1_0_1) : (⟨S8192x4, .f32⟩ : BufTy).Contents (Elt F) → (⟨S8192x1, .f32⟩ : BufTy).Contents (Elt F)),
    reshape main_v7 main_v8 rfl shapeCasts_S8192x1_S8192,
    nullary main_cst_5 (constant S_ .f32 0x41A00000#32),
    unary main_cst_5 main_v9 (broadcastInDim S8192 ![] bcast_S_S8192 : (⟨S_, .f32⟩ : BufTy).Contents (Elt F) → (⟨S8192, .f32⟩ : BufTy).Contents (Elt F)),
    binary main_v8 main_v9 main_v10 (mulf : (⟨S8192, .f32⟩ : BufTy).Contents (Elt F) → (⟨S8192, .f32⟩ : BufTy).Contents (Elt F) → (⟨S8192, .f32⟩ : BufTy).Contents (Elt F)),
    unary main_v10 main_v11 (Host.floor : (⟨S8192, .f32⟩ : BufTy).Contents (Elt F) → (⟨S8192, .f32⟩ : BufTy).Contents (Elt F)),
    binary main_v6 main_v11 main_v12 (addf : (⟨S8192, .f32⟩ : BufTy).Contents (Elt F) → (⟨S8192, .f32⟩ : BufTy).Contents (Elt F) → (⟨S8192, .f32⟩ : BufTy).Contents (Elt F)),
    unary main_v12 main_v13 (fptosi 32 : (⟨S8192, .f32⟩ : BufTy).Contents (Elt F) → (⟨S8192, .i32⟩ : BufTy).Contents (Elt F)),
    reshape main_arg0 main_v14 rfl shapeCasts_S8192x25x20x20_S8192x25x400,
    unary main_v14 main_v15 ((transpose S8192x400x25 [0, 2, 1] · transposes_S8192x25x400_S8192x400x25_0_2_1) : (⟨S8192x25x400, .f32⟩ : BufTy).Contents (Elt F) → (⟨S8192x400x25, .f32⟩ : BufTy).Contents (Elt F)),
    reshape main_v15 main_v16 rfl shapeCasts_S8192x400x25_S8192x400x5x5,
    unary main_v16 main_v17 ((extractStridedSlice S8192x400x5x1 ![0, 0, 0, 4] · slices_S8192x400x5x5_S8192x400x5x1_0_0_0_4) : (⟨S8192x400x5x5, .f32⟩ : BufTy).Contents (Elt F) → (⟨S8192x400x5x1, .f32⟩ : BufTy).Contents (Elt F)),
    reshape main_v17 main_v18 rfl shapeCasts_S8192x400x5x1_S8192x400x5,
    unary main_v18 main_v19 (Host.negf : (⟨S8192x400x5, .f32⟩ : BufTy).Contents (Elt F) → (⟨S8192x400x5, .f32⟩ : BufTy).Contents (Elt F)),
    unary main_v19 main_v20 (Host.exp : (⟨S8192x400x5, .f32⟩ : BufTy).Contents (Elt F) → (⟨S8192x400x5, .f32⟩ : BufTy).Contents (Elt F)),
    nullary main_cst_6 (constant S_ .f32 0x3F800000#32),
    unary main_cst_6 main_v21 (broadcastInDim S8192x400x5 ![] bcast_S_S8192x400x5 : (⟨S_, .f32⟩ : BufTy).Contents (Elt F) → (⟨S8192x400x5, .f32⟩ : BufTy).Contents (Elt F)),
    binary main_v21 main_v20 main_v22 (addf : (⟨S8192x400x5, .f32⟩ : BufTy).Contents (Elt F) → (⟨S8192x400x5, .f32⟩ : BufTy).Contents (Elt F) → (⟨S8192x400x5, .f32⟩ : BufTy).Contents (Elt F)),
    nullary main_cst_7 (constant S_ .f32 0x3F800000#32),
    unary main_cst_7 main_v23 (broadcastInDim S8192x400x5 ![] bcast_S_S8192x400x5 : (⟨S_, .f32⟩ : BufTy).Contents (Elt F) → (⟨S8192x400x5, .f32⟩ : BufTy).Contents (Elt F)),
    binary main_v23 main_v22 main_v24 (Host.divf : (⟨S8192x400x5, .f32⟩ : BufTy).Contents (Elt F) → (⟨S8192x400x5, .f32⟩ : BufTy).Contents (Elt F) → (⟨S8192x400x5, .f32⟩ : BufTy).Contents (Elt F)),
    nullary main_cst_8 (constant S_ .f32 0x00000000#32),
    binary main_v24 main_cst_8 main_v25 ((fun x v => Host.reduceAdd x v reducesTo_S8192x400x5_S8192x400_d2 h_S_) : (⟨S8192x400x5, .f32⟩ : BufTy).Contents (Elt F) → (⟨S_, .f32⟩ : BufTy).Contents (Elt F) → (⟨S8192x400, .f32⟩ : BufTy).Contents (Elt F)),
    nullary main_cst_9 (constant S_ .f32 0x40A00000#32),
    unary main_cst_9 main_v26 (broadcastInDim S8192x400 ![] bcast_S_S8192x400 : (⟨S_, .f32⟩ : BufTy).Contents (Elt F) → (⟨S8192x400, .f32⟩ : BufTy).Contents (Elt F)),
    binary main_v25 main_v26 main_v27 (Host.divf : (⟨S8192x400, .f32⟩ : BufTy).Contents (Elt F) → (⟨S8192x400, .f32⟩ : BufTy).Contents (Elt F) → (⟨S8192x400, .f32⟩ : BufTy).Contents (Elt F)),
    unary main_v16 main_v28 ((extractStridedSlice S8192x400x5x4 ![0, 0, 0, 0] · slices_S8192x400x5x5_S8192x400x5x4_0_0_0_0) : (⟨S8192x400x5x5, .f32⟩ : BufTy).Contents (Elt F) → (⟨S8192x400x5x4, .f32⟩ : BufTy).Contents (Elt F)),
    nullary main_cst_10 (constant S_ .f32 0x00000000#32),
    binary main_v28 main_cst_10 main_v29 ((fun x v => Host.reduceAdd x v reducesTo_S8192x400x5x4_S8192x400x4_d2 h_S_) : (⟨S8192x400x5x4, .f32⟩ : BufTy).Contents (Elt F) → (⟨S_, .f32⟩ : BufTy).Contents (Elt F) → (⟨S8192x400x4, .f32⟩ : BufTy).Contents (Elt F)),
    nullary main_cst_11 (constant S_ .f32 0x40A00000#32),
    unary main_cst_11 main_v30 (broadcastInDim S8192x400x4 ![] bcast_S_S8192x400x4 : (⟨S_, .f32⟩ : BufTy).Contents (Elt F) → (⟨S8192x400x4, .f32⟩ : BufTy).Contents (Elt F)),
    binary main_v29 main_v30 main_v31 (Host.divf : (⟨S8192x400x4, .f32⟩ : BufTy).Contents (Elt F) → (⟨S8192x400x4, .f32⟩ : BufTy).Contents (Elt F) → (⟨S8192x400x4, .f32⟩ : BufTy).Contents (Elt F)),
    unary main_v31 main_v32 ((extractStridedSlice S8192x400x1 ![0, 0, 0] · slices_S8192x400x4_S8192x400x1_0_0_0) : (⟨S8192x400x4, .f32⟩ : BufTy).Contents (Elt F) → (⟨S8192x400x1, .f32⟩ : BufTy).Contents (Elt F)),
    reshape main_v32 main_v33 rfl shapeCasts_S8192x400x1_S8192x400,
    unary main_v33 main_v34 (Host.negf : (⟨S8192x400, .f32⟩ : BufTy).Contents (Elt F) → (⟨S8192x400, .f32⟩ : BufTy).Contents (Elt F)),
    unary main_v34 main_v35 (Host.exp : (⟨S8192x400, .f32⟩ : BufTy).Contents (Elt F) → (⟨S8192x400, .f32⟩ : BufTy).Contents (Elt F)),
    nullary main_cst_12 (constant S_ .f32 0x3F800000#32),
    unary main_cst_12 main_v36 (broadcastInDim S8192x400 ![] bcast_S_S8192x400 : (⟨S_, .f32⟩ : BufTy).Contents (Elt F) → (⟨S8192x400, .f32⟩ : BufTy).Contents (Elt F)),
    binary main_v36 main_v35 main_v37 (addf : (⟨S8192x400, .f32⟩ : BufTy).Contents (Elt F) → (⟨S8192x400, .f32⟩ : BufTy).Contents (Elt F) → (⟨S8192x400, .f32⟩ : BufTy).Contents (Elt F)),
    nullary main_cst_13 (constant S_ .f32 0x3F800000#32),
    unary main_cst_13 main_v38 (broadcastInDim S8192x400 ![] bcast_S_S8192x400 : (⟨S_, .f32⟩ : BufTy).Contents (Elt F) → (⟨S8192x400, .f32⟩ : BufTy).Contents (Elt F)),
    binary main_v38 main_v37 main_v39 (Host.divf : (⟨S8192x400, .f32⟩ : BufTy).Contents (Elt F) → (⟨S8192x400, .f32⟩ : BufTy).Contents (Elt F) → (⟨S8192x400, .f32⟩ : BufTy).Contents (Elt F)),
    unary main_v31 main_v40 ((extractStridedSlice S8192x400x1 ![0, 0, 1] · slices_S8192x400x4_S8192x400x1_0_0_1) : (⟨S8192x400x4, .f32⟩ : BufTy).Contents (Elt F) → (⟨S8192x400x1, .f32⟩ : BufTy).Contents (Elt F)),
    reshape main_v40 main_v41 rfl shapeCasts_S8192x400x1_S8192x400,
    unary main_v41 main_v42 (Host.negf : (⟨S8192x400, .f32⟩ : BufTy).Contents (Elt F) → (⟨S8192x400, .f32⟩ : BufTy).Contents (Elt F)),
    unary main_v42 main_v43 (Host.exp : (⟨S8192x400, .f32⟩ : BufTy).Contents (Elt F) → (⟨S8192x400, .f32⟩ : BufTy).Contents (Elt F)),
    nullary main_cst_14 (constant S_ .f32 0x3F800000#32) ]

/-- Window `main_part1`: operations 61 … 146 of 363. -/
abbrev ops_part1 : List (HloOp τ sig (Elt F)) :=
  [ unary main_cst_14 main_v44 (broadcastInDim S8192x400 ![] bcast_S_S8192x400 : (⟨S_, .f32⟩ : BufTy).Contents (Elt F) → (⟨S8192x400, .f32⟩ : BufTy).Contents (Elt F)),
    binary main_v44 main_v43 main_v45 (addf : (⟨S8192x400, .f32⟩ : BufTy).Contents (Elt F) → (⟨S8192x400, .f32⟩ : BufTy).Contents (Elt F) → (⟨S8192x400, .f32⟩ : BufTy).Contents (Elt F)),
    nullary main_cst_15 (constant S_ .f32 0x3F800000#32),
    unary main_cst_15 main_v46 (broadcastInDim S8192x400 ![] bcast_S_S8192x400 : (⟨S_, .f32⟩ : BufTy).Contents (Elt F) → (⟨S8192x400, .f32⟩ : BufTy).Contents (Elt F)),
    binary main_v46 main_v45 main_v47 (Host.divf : (⟨S8192x400, .f32⟩ : BufTy).Contents (Elt F) → (⟨S8192x400, .f32⟩ : BufTy).Contents (Elt F) → (⟨S8192x400, .f32⟩ : BufTy).Contents (Elt F)),
    unary main_v31 main_v48 ((extractStridedSlice S8192x400x1 ![0, 0, 2] · slices_S8192x400x4_S8192x400x1_0_0_2) : (⟨S8192x400x4, .f32⟩ : BufTy).Contents (Elt F) → (⟨S8192x400x1, .f32⟩ : BufTy).Contents (Elt F)),
    reshape main_v48 main_v49 rfl shapeCasts_S8192x400x1_S8192x400,
    unary main_v49 main_v50 (Host.exp : (⟨S8192x400, .f32⟩ : BufTy).Contents (Elt F) → (⟨S8192x400, .f32⟩ : BufTy).Contents (Elt F)),
    unary main_arg2 main_v51 ((extractStridedSlice S1x1 ![0, 0] · slices_S5x2_S1x1_0_0) : (⟨S5x2, .f32⟩ : BufTy).Contents (Elt F) → (⟨S1x1, .f32⟩ : BufTy).Contents (Elt F)),
    reshape main_v51 main_v52 rfl shapeCasts_S1x1_S_,
    unary main_v52 main_v53 (broadcastInDim S8192x400 ![] bcast_S_S8192x400 : (⟨S_, .f32⟩ : BufTy).Contents (Elt F) → (⟨S8192x400, .f32⟩ : BufTy).Contents (Elt F)),
    binary main_v50 main_v53 main_v54 (mulf : (⟨S8192x400, .f32⟩ : BufTy).Contents (Elt F) → (⟨S8192x400, .f32⟩ : BufTy).Contents (Elt F) → (⟨S8192x400, .f32⟩ : BufTy).Contents (Elt F)),
    nullary main_cst_16 (constant S_ .f32 0x44200000#32),
    unary main_cst_16 main_v55 (broadcastInDim S8192x400 ![] bcast_S_S8192x400 : (⟨S_, .f32⟩ : BufTy).Contents (Elt F) → (⟨S8192x400, .f32⟩ : BufTy).Contents (Elt F)),
    binary main_v54 main_v55 main_v56 (mulf : (⟨S8192x400, .f32⟩ : BufTy).Contents (Elt F) → (⟨S8192x400, .f32⟩ : BufTy).Contents (Elt F) → (⟨S8192x400, .f32⟩ : BufTy).Contents (Elt F)),
    unary main_v31 main_v57 ((extractStridedSlice S8192x400x1 ![0, 0, 3] · slices_S8192x400x4_S8192x400x1_0_0_3) : (⟨S8192x400x4, .f32⟩ : BufTy).Contents (Elt F) → (⟨S8192x400x1, .f32⟩ : BufTy).Contents (Elt F)),
    reshape main_v57 main_v58 rfl shapeCasts_S8192x400x1_S8192x400,
    unary main_v58 main_v59 (Host.exp : (⟨S8192x400, .f32⟩ : BufTy).Contents (Elt F) → (⟨S8192x400, .f32⟩ : BufTy).Contents (Elt F)),
    unary main_arg2 main_v60 ((extractStridedSlice S1x1 ![0, 1] · slices_S5x2_S1x1_0_1) : (⟨S5x2, .f32⟩ : BufTy).Contents (Elt F) → (⟨S1x1, .f32⟩ : BufTy).Contents (Elt F)),
    reshape main_v60 main_v61 rfl shapeCasts_S1x1_S_,
    unary main_v61 main_v62 (broadcastInDim S8192x400 ![] bcast_S_S8192x400 : (⟨S_, .f32⟩ : BufTy).Contents (Elt F) → (⟨S8192x400, .f32⟩ : BufTy).Contents (Elt F)),
    binary main_v59 main_v62 main_v63 (mulf : (⟨S8192x400, .f32⟩ : BufTy).Contents (Elt F) → (⟨S8192x400, .f32⟩ : BufTy).Contents (Elt F) → (⟨S8192x400, .f32⟩ : BufTy).Contents (Elt F)),
    nullary main_cst_17 (constant S_ .f32 0x44200000#32),
    unary main_cst_17 main_v64 (broadcastInDim S8192x400 ![] bcast_S_S8192x400 : (⟨S_, .f32⟩ : BufTy).Contents (Elt F) → (⟨S8192x400, .f32⟩ : BufTy).Contents (Elt F)),
    binary main_v63 main_v64 main_v65 (mulf : (⟨S8192x400, .f32⟩ : BufTy).Contents (Elt F) → (⟨S8192x400, .f32⟩ : BufTy).Contents (Elt F) → (⟨S8192x400, .f32⟩ : BufTy).Contents (Elt F)),
    unary main_v39 main_v66 (broadcastInDim S8192x400x1 ![0, 1] bcast_S8192x400_S8192x400x1_0_1 : (⟨S8192x400, .f32⟩ : BufTy).Contents (Elt F) → (⟨S8192x400x1, .f32⟩ : BufTy).Contents (Elt F)),
    unary main_v47 main_v67 (broadcastInDim S8192x400x1 ![0, 1] bcast_S8192x400_S8192x400x1_0_1 : (⟨S8192x400, .f32⟩ : BufTy).Contents (Elt F) → (⟨S8192x400x1, .f32⟩ : BufTy).Contents (Elt F)),
    unary main_v56 main_v68 (broadcastInDim S8192x400x1 ![0, 1] bcast_S8192x400_S8192x400x1_0_1 : (⟨S8192x400, .f32⟩ : BufTy).Contents (Elt F) → (⟨S8192x400x1, .f32⟩ : BufTy).Contents (Elt F)),
    unary main_v65 main_v69 (broadcastInDim S8192x400x1 ![0, 1] bcast_S8192x400_S8192x400x1_0_1 : (⟨S8192x400, .f32⟩ : BufTy).Contents (Elt F) → (⟨S8192x400x1, .f32⟩ : BufTy).Contents (Elt F)),
    unary main_v27 main_v70 (broadcastInDim S8192x400x1 ![0, 1] bcast_S8192x400_S8192x400x1_0_1 : (⟨S8192x400, .f32⟩ : BufTy).Contents (Elt F) → (⟨S8192x400x1, .f32⟩ : BufTy).Contents (Elt F)),
    nary ![main_v66, main_v67, main_v68, main_v69, main_v70] main_v71 (fun u => concatenate S8192x400x5 2 [⟨S8192x400x1, u 0⟩, ⟨S8192x400x1, u 1⟩, ⟨S8192x400x1, u 2⟩, ⟨S8192x400x1, u 3⟩, ⟨S8192x400x1, u 4⟩] concatenates_S8192x400x1_S8192x400x1_S8192x400x1_S8192x400x1_S8192x400x1_S8192x400x5_d2),
    unary main_v13 main_v72 (broadcastInDim S8192x1x1 ![0] bcast_S8192_S8192x1x1_0 : (⟨S8192, .i32⟩ : BufTy).Contents (Elt F) → (⟨S8192x1x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S8192x1x1, .i32⟩) main_call0_v0) (broadcastInDim S8192x1x1 ![] bcast_S_S8192x1x1),
    TRef.binary (TRef.of (T := ⟨S8192x1x1, .i32⟩) main_v72) (TRef.of (T := ⟨S8192x1x1, .i32⟩) main_call0_v0) (TRef.of (T := ⟨S8192x1x1, .i1⟩) main_call0_v1) (cmpi .slt),
    TRef.nullary (TRef.of (T := ⟨S_, .i32⟩) main_call0_c_0) (constantI S_ 32 400#32),
    TRef.unary (TRef.of (T := ⟨S_, .i32⟩) main_call0_c_0) (TRef.of (T := ⟨S8192x1x1, .i32⟩) main_call0_v2) (broadcastInDim S8192x1x1 ![] bcast_S_S8192x1x1),
    TRef.binary (TRef.of (T := ⟨S8192x1x1, .i32⟩) main_v72) (TRef.of (T := ⟨S8192x1x1, .i32⟩) main_call0_v2) (TRef.of (T := ⟨S8192x1x1, .i32⟩) main_call0_v3) addi,
    TRef.ternary (TRef.of (T := ⟨S8192x1x1, .i1⟩) main_call0_v1) (TRef.of (T := ⟨S8192x1x1, .i32⟩) main_call0_v3) (TRef.of (T := ⟨S8192x1x1, .i32⟩) main_v72) (TRef.of (T := ⟨S8192x1x1, .i32⟩) main_call0_v4) select,
    TRef.nullary (TRef.of (T := ⟨S1, .i32⟩) main_call0_c_1) (constantI S1 32 399#32),
    TRef.nullary (TRef.of (T := ⟨S_, .i32⟩) main_call0_c_2) (constantI S_ 32 0#32),
    TRef.unary (TRef.of (T := ⟨S_, .i32⟩) main_call0_c_2) (TRef.of (T := ⟨S8192x1x1, .i32⟩) main_call0_v5) (broadcastInDim S8192x1x1 ![] bcast_S_S8192x1x1),
    TRef.binary (TRef.of (T := ⟨S8192x1x1, .i32⟩) main_call0_v4) (TRef.of (T := ⟨S8192x1x1, .i32⟩) main_call0_v5) (TRef.of (T := ⟨S8192x1x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S8192x1x1, .i32⟩) main_call0_v8) (broadcastInDim S8192x1x1 ![0, 1, 2] bcast_S1x1x1_S8192x1x1_0_1_2),
    TRef.binary (TRef.of (T := ⟨S8192x1x1, .i32⟩) main_call0_v4) (TRef.of (T := ⟨S8192x1x1, .i32⟩) main_call0_v8) (TRef.of (T := ⟨S8192x1x1, .i1⟩) main_call0_v9) (cmpi .sle),
    TRef.binary (TRef.of (T := ⟨S8192x1x1, .i1⟩) main_call0_v6) (TRef.of (T := ⟨S8192x1x1, .i1⟩) main_call0_v9) (TRef.of (T := ⟨S8192x1x1, .i1⟩) main_call0_v10) andi,
    TRef.nullary (TRef.of (T := ⟨S_, .i1⟩) main_call0_c_3) (constantI S_ 1 1#1),
    TRef.binary (TRef.of (T := ⟨S8192x1x1, .i1⟩) main_call0_v10) (TRef.of (T := ⟨S_, .i1⟩) main_call0_c_3) (TRef.of (T := ⟨S8192x1, .i1⟩) main_call0_v11) (fun x v => Host.reduce IntOp.andi x v reducesTo_S8192x1x1_S8192x1_d2 h_S_),
    TRef.binary (TRef.of (T := ⟨S8192x400x5, .f32⟩) main_v71) (TRef.of (T := ⟨S8192x1x1, .i32⟩) main_call0_v4) (TRef.of (T := ⟨S8192x1x5, .f32⟩) main_call0_v12) (fun x i => Host.gather gather_S8192x400x5_S8192x1x1_S8192x1x5_2_1_0_0_1_2_115 x i),
    TRef.unary (TRef.of (T := ⟨S8192x1, .i1⟩) main_call0_v11) (TRef.of (T := ⟨S8192x1x5, .i1⟩) main_call0_v13) (broadcastInDim S8192x1x5 ![0, 1] bcast_S8192x1_S8192x1x5_0_1),
    TRef.nullary (TRef.of (T := ⟨S_, .f32⟩) main_call0_cst) (constant S_ .f32 0x7FC00000#32),
    TRef.unary (TRef.of (T := ⟨S_, .f32⟩) main_call0_cst) (TRef.of (T := ⟨S8192x1x5, .f32⟩) main_call0_v14) (broadcastInDim S8192x1x5 ![] bcast_S_S8192x1x5),
    TRef.ternary (TRef.of (T := ⟨S8192x1x5, .i1⟩) main_call0_v13) (TRef.of (T := ⟨S8192x1x5, .f32⟩) main_call0_v12) (TRef.of (T := ⟨S8192x1x5, .f32⟩) main_call0_v14) (TRef.of (T := ⟨S8192x1x5, .f32⟩) main_v73) select,
    reshape main_v73 main_v74 rfl shapeCasts_S8192x1x5_S8192x5,
    TRef.unary (TRef.of (T := ⟨S8192, .i32⟩) main_v13) (TRef.of (T := ⟨S8192x1, .i32⟩) main_call1_v0) (broadcastInDim S8192x1 ![0] bcast_S8192_S8192x1_0),
    TRef.nullary (TRef.of (T := ⟨S1x400, .i32⟩) main_call1_v1) (iotaInDim S1x400 32 1),
    TRef.unary (TRef.of (T := ⟨S8192x1, .i32⟩) main_call1_v0) (TRef.of (T := ⟨S8192x400, .i32⟩) main_call1_v2) (broadcastInDim S8192x400 ![0, 1] bcast_S8192x1_S8192x400_0_1),
    TRef.unary (TRef.of (T := ⟨S1x400, .i32⟩) main_call1_v1) (TRef.of (T := ⟨S8192x400, .i32⟩) main_call1_v3) (broadcastInDim S8192x400 ![0, 1] bcast_S1x400_S8192x400_0_1),
    TRef.binary (TRef.of (T := ⟨S8192x400, .i32⟩) main_call1_v2) (TRef.of (T := ⟨S8192x400, .i32⟩) main_call1_v3) (TRef.of (T := ⟨S8192x400, .i1⟩) main_call1_v4) (cmpi .eq),
    TRef.unary (TRef.of (T := ⟨S8192x400, .i1⟩) main_call1_v4) (TRef.of (T := ⟨S8192x400, .f32⟩) main_v75) (uitofp .f32),
    nullary main_cst_18 (constant S_ .f32 0x3F800000#32),
    unary main_cst_18 main_v76 (broadcastInDim S8192x400 ![] bcast_S_S8192x400 : (⟨S_, .f32⟩ : BufTy).Contents (Elt F) → (⟨S8192x400, .f32⟩ : BufTy).Contents (Elt F)),
    binary main_v76 main_v75 main_v77 (subf : (⟨S8192x400, .f32⟩ : BufTy).Contents (Elt F) → (⟨S8192x400, .f32⟩ : BufTy).Contents (Elt F) → (⟨S8192x400, .f32⟩ : BufTy).Contents (Elt F)),
    unary main_cst main_v78 (broadcastInDim S1x4 ![1] bcast_S4_S1x4_1 : (⟨S4, .f32⟩ : BufTy).Contents (Elt F) → (⟨S1x4, .f32⟩ : BufTy).Contents (Elt F)),
    unary main_v78 main_v79 (broadcastInDim S8192x4 ![0, 1] bcast_S1x4_S8192x4_0_1 : (⟨S1x4, .f32⟩ : BufTy).Contents (Elt F) → (⟨S8192x4, .f32⟩ : BufTy).Contents (Elt F)),
    binary main_arg1 main_v79 main_v80 (mulf : (⟨S8192x4, .f32⟩ : BufTy).Contents (Elt F) → (⟨S8192x4, .f32⟩ : BufTy).Contents (Elt F) → (⟨S8192x4, .f32⟩ : BufTy).Contents (Elt F)),
    unary main_v80 main_v81 ((extractStridedSlice S8192x1 ![0, 0] · slices_S8192x4_S8192x1_0_0) : (⟨S8192x4, .f32⟩ : BufTy).Contents (Elt F) → (⟨S8192x1, .f32⟩ : BufTy).Contents (Elt F)),
    reshape main_v81 main_v82 rfl shapeCasts_S8192x1_S8192,
    nullary main_cst_19 (constant S_ .f32 0x42000000#32),
    unary main_cst_19 main_v83 (broadcastInDim S8192 ![] bcast_S_S8192 : (⟨S_, .f32⟩ : BufTy).Contents (Elt F) → (⟨S8192, .f32⟩ : BufTy).Contents (Elt F)),
    binary main_v82 main_v83 main_v84 (mulf : (⟨S8192, .f32⟩ : BufTy).Contents (Elt F) → (⟨S8192, .f32⟩ : BufTy).Contents (Elt F) → (⟨S8192, .f32⟩ : BufTy).Contents (Elt F)),
    unary main_v80 main_v85 ((extractStridedSlice S8192x1 ![0, 2] · slices_S8192x4_S8192x1_0_2) : (⟨S8192x4, .f32⟩ : BufTy).Contents (Elt F) → (⟨S8192x1, .f32⟩ : BufTy).Contents (Elt F)),
    reshape main_v85 main_v86 rfl shapeCasts_S8192x1_S8192,
    nullary main_cst_20 (constant S_ .f32 0x40000000#32),
    unary main_cst_20 main_v87 (broadcastInDim S8192 ![] bcast_S_S8192 : (⟨S_, .f32⟩ : BufTy).Contents (Elt F) → (⟨S8192, .f32⟩ : BufTy).Contents (Elt F)),
    binary main_v86 main_v87 main_v88 (Host.divf : (⟨S8192, .f32⟩ : BufTy).Contents (Elt F) → (⟨S8192, .f32⟩ : BufTy).Contents (Elt F) → (⟨S8192, .f32⟩ : BufTy).Contents (Elt F)),
    binary main_v84 main_v88 main_v89 (subf : (⟨S8192, .f32⟩ : BufTy).Contents (Elt F) → (⟨S8192, .f32⟩ : BufTy).Contents (Elt F) → (⟨S8192, .f32⟩ : BufTy).Contents (Elt F)),
    nullary main_cst_21 (constant S_ .f32 0x00000000#32),
    unary main_cst_21 main_v90 (broadcastInDim S8192 ![] bcast_S_S8192 : (⟨S_, .f32⟩ : BufTy).Contents (Elt F) → (⟨S8192, .f32⟩ : BufTy).Contents (Elt F)),
    binary main_v89 main_v90 main_v91 (maximumf : (⟨S8192, .f32⟩ : BufTy).Contents (Elt F) → (⟨S8192, .f32⟩ : BufTy).Contents (Elt F) → (⟨S8192, .f32⟩ : BufTy).Contents (Elt F)),
    unary main_v80 main_v92 ((extractStridedSlice S8192x1 ![0, 1] · slices_S8192x4_S8192x1_0_1) : (⟨S8192x4, .f32⟩ : BufTy).Contents (Elt F) → (⟨S8192x1, .f32⟩ : BufTy).Contents (Elt F)),
    reshape main_v92 main_v93 rfl shapeCasts_S8192x1_S8192,
    nullary main_cst_22 (constant S_ .f32 0x42000000#32),
    unary main_cst_22 main_v94 (broadcastInDim S8192 ![] bcast_S_S8192 : (⟨S_, .f32⟩ : BufTy).Contents (Elt F) → (⟨S8192, .f32⟩ : BufTy).Contents (Elt F)),
    binary main_v93 main_v94 main_v95 (mulf : (⟨S8192, .f32⟩ : BufTy).Contents (Elt F) → (⟨S8192, .f32⟩ : BufTy).Contents (Elt F) → (⟨S8192, .f32⟩ : BufTy).Contents (Elt F)) ]

/-- Window `main_part2`: operations 147 … 206 of 363. -/
abbrev ops_part2 : List (HloOp τ sig (Elt F)) :=
  [ unary main_v80 main_v96 ((extractStridedSlice S8192x1 ![0, 3] · slices_S8192x4_S8192x1_0_3) : (⟨S8192x4, .f32⟩ : BufTy).Contents (Elt F) → (⟨S8192x1, .f32⟩ : BufTy).Contents (Elt F)),
    reshape main_v96 main_v97 rfl shapeCasts_S8192x1_S8192,
    nullary main_cst_23 (constant S_ .f32 0x40000000#32),
    unary main_cst_23 main_v98 (broadcastInDim S8192 ![] bcast_S_S8192 : (⟨S_, .f32⟩ : BufTy).Contents (Elt F) → (⟨S8192, .f32⟩ : BufTy).Contents (Elt F)),
    binary main_v97 main_v98 main_v99 (Host.divf : (⟨S8192, .f32⟩ : BufTy).Contents (Elt F) → (⟨S8192, .f32⟩ : BufTy).Contents (Elt F) → (⟨S8192, .f32⟩ : BufTy).Contents (Elt F)),
    binary main_v95 main_v99 main_v100 (subf : (⟨S8192, .f32⟩ : BufTy).Contents (Elt F) → (⟨S8192, .f32⟩ : BufTy).Contents (Elt F) → (⟨S8192, .f32⟩ : BufTy).Contents (Elt F)),
    nullary main_cst_24 (constant S_ .f32 0x00000000#32),
    unary main_cst_24 main_v101 (broadcastInDim S8192 ![] bcast_S_S8192 : (⟨S_, .f32⟩ : BufTy).Contents (Elt F) → (⟨S8192, .f32⟩ : BufTy).Contents (Elt F)),
    binary main_v100 main_v101 main_v102 (maximumf : (⟨S8192, .f32⟩ : BufTy).Contents (Elt F) → (⟨S8192, .f32⟩ : BufTy).Contents (Elt F) → (⟨S8192, .f32⟩ : BufTy).Contents (Elt F)),
    unary main_v80 main_v103 ((extractStridedSlice S8192x1 ![0, 0] · slices_S8192x4_S8192x1_0_0) : (⟨S8192x4, .f32⟩ : BufTy).Contents (Elt F) → (⟨S8192x1, .f32⟩ : BufTy).Contents (Elt F)),
    reshape main_v103 main_v104 rfl shapeCasts_S8192x1_S8192,
    nullary main_cst_25 (constant S_ .f32 0x42000000#32),
    unary main_cst_25 main_v105 (broadcastInDim S8192 ![] bcast_S_S8192 : (⟨S_, .f32⟩ : BufTy).Contents (Elt F) → (⟨S8192, .f32⟩ : BufTy).Contents (Elt F)),
    binary main_v104 main_v105 main_v106 (mulf : (⟨S8192, .f32⟩ : BufTy).Contents (Elt F) → (⟨S8192, .f32⟩ : BufTy).Contents (Elt F) → (⟨S8192, .f32⟩ : BufTy).Contents (Elt F)),
    unary main_v80 main_v107 ((extractStridedSlice S8192x1 ![0, 2] · slices_S8192x4_S8192x1_0_2) : (⟨S8192x4, .f32⟩ : BufTy).Contents (Elt F) → (⟨S8192x1, .f32⟩ : BufTy).Contents (Elt F)),
    reshape main_v107 main_v108 rfl shapeCasts_S8192x1_S8192,
    nullary main_cst_26 (constant S_ .f32 0x40000000#32),
    unary main_cst_26 main_v109 (broadcastInDim S8192 ![] bcast_S_S8192 : (⟨S_, .f32⟩ : BufTy).Contents (Elt F) → (⟨S8192, .f32⟩ : BufTy).Contents (Elt F)),
    binary main_v108 main_v109 main_v110 (Host.divf : (⟨S8192, .f32⟩ : BufTy).Contents (Elt F) → (⟨S8192, .f32⟩ : BufTy).Contents (Elt F) → (⟨S8192, .f32⟩ : BufTy).Contents (Elt F)),
    binary main_v106 main_v110 main_v111 (addf : (⟨S8192, .f32⟩ : BufTy).Contents (Elt F) → (⟨S8192, .f32⟩ : BufTy).Contents (Elt F) → (⟨S8192, .f32⟩ : BufTy).Contents (Elt F)),
    nullary main_cst_27 (constant S_ .f32 0x44200000#32),
    unary main_cst_27 main_v112 (broadcastInDim S8192 ![] bcast_S_S8192 : (⟨S_, .f32⟩ : BufTy).Contents (Elt F) → (⟨S8192, .f32⟩ : BufTy).Contents (Elt F)),
    binary main_v111 main_v112 main_v113 (minimumf : (⟨S8192, .f32⟩ : BufTy).Contents (Elt F) → (⟨S8192, .f32⟩ : BufTy).Contents (Elt F) → (⟨S8192, .f32⟩ : BufTy).Contents (Elt F)),
    unary main_v80 main_v114 ((extractStridedSlice S8192x1 ![0, 1] · slices_S8192x4_S8192x1_0_1) : (⟨S8192x4, .f32⟩ : BufTy).Contents (Elt F) → (⟨S8192x1, .f32⟩ : BufTy).Contents (Elt F)),
    reshape main_v114 main_v115 rfl shapeCasts_S8192x1_S8192,
    nullary main_cst_28 (constant S_ .f32 0x42000000#32),
    unary main_cst_28 main_v116 (broadcastInDim S8192 ![] bcast_S_S8192 : (⟨S_, .f32⟩ : BufTy).Contents (Elt F) → (⟨S8192, .f32⟩ : BufTy).Contents (Elt F)),
    binary main_v115 main_v116 main_v117 (mulf : (⟨S8192, .f32⟩ : BufTy).Contents (Elt F) → (⟨S8192, .f32⟩ : BufTy).Contents (Elt F) → (⟨S8192, .f32⟩ : BufTy).Contents (Elt F)),
    unary main_v80 main_v118 ((extractStridedSlice S8192x1 ![0, 3] · slices_S8192x4_S8192x1_0_3) : (⟨S8192x4, .f32⟩ : BufTy).Contents (Elt F) → (⟨S8192x1, .f32⟩ : BufTy).Contents (Elt F)),
    reshape main_v118 main_v119 rfl shapeCasts_S8192x1_S8192,
    nullary main_cst_29 (constant S_ .f32 0x40000000#32),
    unary main_cst_29 main_v120 (broadcastInDim S8192 ![] bcast_S_S8192 : (⟨S_, .f32⟩ : BufTy).Contents (Elt F) → (⟨S8192, .f32⟩ : BufTy).Contents (Elt F)),
    binary main_v119 main_v120 main_v121 (Host.divf : (⟨S8192, .f32⟩ : BufTy).Contents (Elt F) → (⟨S8192, .f32⟩ : BufTy).Contents (Elt F) → (⟨S8192, .f32⟩ : BufTy).Contents (Elt F)),
    binary main_v117 main_v121 main_v122 (addf : (⟨S8192, .f32⟩ : BufTy).Contents (Elt F) → (⟨S8192, .f32⟩ : BufTy).Contents (Elt F) → (⟨S8192, .f32⟩ : BufTy).Contents (Elt F)),
    nullary main_cst_30 (constant S_ .f32 0x44200000#32),
    unary main_cst_30 main_v123 (broadcastInDim S8192 ![] bcast_S_S8192 : (⟨S_, .f32⟩ : BufTy).Contents (Elt F) → (⟨S8192, .f32⟩ : BufTy).Contents (Elt F)),
    binary main_v122 main_v123 main_v124 (minimumf : (⟨S8192, .f32⟩ : BufTy).Contents (Elt F) → (⟨S8192, .f32⟩ : BufTy).Contents (Elt F) → (⟨S8192, .f32⟩ : BufTy).Contents (Elt F)),
    unary main_v91 main_v125 (broadcastInDim S8192x1 ![0] bcast_S8192_S8192x1_0 : (⟨S8192, .f32⟩ : BufTy).Contents (Elt F) → (⟨S8192x1, .f32⟩ : BufTy).Contents (Elt F)),
    unary main_v102 main_v126 (broadcastInDim S8192x1 ![0] bcast_S8192_S8192x1_0 : (⟨S8192, .f32⟩ : BufTy).Contents (Elt F) → (⟨S8192x1, .f32⟩ : BufTy).Contents (Elt F)),
    unary main_v113 main_v127 (broadcastInDim S8192x1 ![0] bcast_S8192_S8192x1_0 : (⟨S8192, .f32⟩ : BufTy).Contents (Elt F) → (⟨S8192x1, .f32⟩ : BufTy).Contents (Elt F)),
    unary main_v124 main_v128 (broadcastInDim S8192x1 ![0] bcast_S8192_S8192x1_0 : (⟨S8192, .f32⟩ : BufTy).Contents (Elt F) → (⟨S8192x1, .f32⟩ : BufTy).Contents (Elt F)),
    nary ![main_v125, main_v126, main_v127, main_v128] main_v129 (fun u => concatenate S8192x4 1 [⟨S8192x1, u 0⟩, ⟨S8192x1, u 1⟩, ⟨S8192x1, u 2⟩, ⟨S8192x1, u 3⟩] concatenates_S8192x1_S8192x1_S8192x1_S8192x1_S8192x4_d1),
    unary main_v74 main_v130 ((extractStridedSlice S8192x1 ![0, 0] · slices_S8192x5_S8192x1_0_0) : (⟨S8192x5, .f32⟩ : BufTy).Contents (Elt F) → (⟨S8192x1, .f32⟩ : BufTy).Contents (Elt F)),
    reshape main_v130 main_v131 rfl shapeCasts_S8192x1_S8192,
    nullary main_cst_31 (constant S_ .f32 0x42000000#32),
    unary main_cst_31 main_v132 (broadcastInDim S8192 ![] bcast_S_S8192 : (⟨S_, .f32⟩ : BufTy).Contents (Elt F) → (⟨S8192, .f32⟩ : BufTy).Contents (Elt F)),
    binary main_v131 main_v132 main_v133 (mulf : (⟨S8192, .f32⟩ : BufTy).Contents (Elt F) → (⟨S8192, .f32⟩ : BufTy).Contents (Elt F) → (⟨S8192, .f32⟩ : BufTy).Contents (Elt F)),
    unary main_v74 main_v134 ((extractStridedSlice S8192x1 ![0, 2] · slices_S8192x5_S8192x1_0_2) : (⟨S8192x5, .f32⟩ : BufTy).Contents (Elt F) → (⟨S8192x1, .f32⟩ : BufTy).Contents (Elt F)),
    reshape main_v134 main_v135 rfl shapeCasts_S8192x1_S8192,
    nullary main_cst_32 (constant S_ .f32 0x40000000#32),
    unary main_cst_32 main_v136 (broadcastInDim S8192 ![] bcast_S_S8192 : (⟨S_, .f32⟩ : BufTy).Contents (Elt F) → (⟨S8192, .f32⟩ : BufTy).Contents (Elt F)),
    binary main_v135 main_v136 main_v137 (Host.divf : (⟨S8192, .f32⟩ : BufTy).Contents (Elt F) → (⟨S8192, .f32⟩ : BufTy).Contents (Elt F) → (⟨S8192, .f32⟩ : BufTy).Contents (Elt F)),
    binary main_v133 main_v137 main_v138 (subf : (⟨S8192, .f32⟩ : BufTy).Contents (Elt F) → (⟨S8192, .f32⟩ : BufTy).Contents (Elt F) → (⟨S8192, .f32⟩ : BufTy).Contents (Elt F)),
    nullary main_cst_33 (constant S_ .f32 0x00000000#32),
    unary main_cst_33 main_v139 (broadcastInDim S8192 ![] bcast_S_S8192 : (⟨S_, .f32⟩ : BufTy).Contents (Elt F) → (⟨S8192, .f32⟩ : BufTy).Contents (Elt F)),
    binary main_v138 main_v139 main_v140 (maximumf : (⟨S8192, .f32⟩ : BufTy).Contents (Elt F) → (⟨S8192, .f32⟩ : BufTy).Contents (Elt F) → (⟨S8192, .f32⟩ : BufTy).Contents (Elt F)),
    unary main_v74 main_v141 ((extractStridedSlice S8192x1 ![0, 1] · slices_S8192x5_S8192x1_0_1) : (⟨S8192x5, .f32⟩ : BufTy).Contents (Elt F) → (⟨S8192x1, .f32⟩ : BufTy).Contents (Elt F)),
    reshape main_v141 main_v142 rfl shapeCasts_S8192x1_S8192,
    nullary main_cst_34 (constant S_ .f32 0x42000000#32),
    unary main_cst_34 main_v143 (broadcastInDim S8192 ![] bcast_S_S8192 : (⟨S_, .f32⟩ : BufTy).Contents (Elt F) → (⟨S8192, .f32⟩ : BufTy).Contents (Elt F)) ]

/-- Window `main_part3`: operations 207 … 266 of 363. -/
abbrev ops_part3 : List (HloOp τ sig (Elt F)) :=
  [ binary main_v142 main_v143 main_v144 (mulf : (⟨S8192, .f32⟩ : BufTy).Contents (Elt F) → (⟨S8192, .f32⟩ : BufTy).Contents (Elt F) → (⟨S8192, .f32⟩ : BufTy).Contents (Elt F)),
    unary main_v74 main_v145 ((extractStridedSlice S8192x1 ![0, 3] · slices_S8192x5_S8192x1_0_3) : (⟨S8192x5, .f32⟩ : BufTy).Contents (Elt F) → (⟨S8192x1, .f32⟩ : BufTy).Contents (Elt F)),
    reshape main_v145 main_v146 rfl shapeCasts_S8192x1_S8192,
    nullary main_cst_35 (constant S_ .f32 0x40000000#32),
    unary main_cst_35 main_v147 (broadcastInDim S8192 ![] bcast_S_S8192 : (⟨S_, .f32⟩ : BufTy).Contents (Elt F) → (⟨S8192, .f32⟩ : BufTy).Contents (Elt F)),
    binary main_v146 main_v147 main_v148 (Host.divf : (⟨S8192, .f32⟩ : BufTy).Contents (Elt F) → (⟨S8192, .f32⟩ : BufTy).Contents (Elt F) → (⟨S8192, .f32⟩ : BufTy).Contents (Elt F)),
    binary main_v144 main_v148 main_v149 (subf : (⟨S8192, .f32⟩ : BufTy).Contents (Elt F) → (⟨S8192, .f32⟩ : BufTy).Contents (Elt F) → (⟨S8192, .f32⟩ : BufTy).Contents (Elt F)),
    nullary main_cst_36 (constant S_ .f32 0x00000000#32),
    unary main_cst_36 main_v150 (broadcastInDim S8192 ![] bcast_S_S8192 : (⟨S_, .f32⟩ : BufTy).Contents (Elt F) → (⟨S8192, .f32⟩ : BufTy).Contents (Elt F)),
    binary main_v149 main_v150 main_v151 (maximumf : (⟨S8192, .f32⟩ : BufTy).Contents (Elt F) → (⟨S8192, .f32⟩ : BufTy).Contents (Elt F) → (⟨S8192, .f32⟩ : BufTy).Contents (Elt F)),
    unary main_v74 main_v152 ((extractStridedSlice S8192x1 ![0, 0] · slices_S8192x5_S8192x1_0_0) : (⟨S8192x5, .f32⟩ : BufTy).Contents (Elt F) → (⟨S8192x1, .f32⟩ : BufTy).Contents (Elt F)),
    reshape main_v152 main_v153 rfl shapeCasts_S8192x1_S8192,
    nullary main_cst_37 (constant S_ .f32 0x42000000#32),
    unary main_cst_37 main_v154 (broadcastInDim S8192 ![] bcast_S_S8192 : (⟨S_, .f32⟩ : BufTy).Contents (Elt F) → (⟨S8192, .f32⟩ : BufTy).Contents (Elt F)),
    binary main_v153 main_v154 main_v155 (mulf : (⟨S8192, .f32⟩ : BufTy).Contents (Elt F) → (⟨S8192, .f32⟩ : BufTy).Contents (Elt F) → (⟨S8192, .f32⟩ : BufTy).Contents (Elt F)),
    unary main_v74 main_v156 ((extractStridedSlice S8192x1 ![0, 2] · slices_S8192x5_S8192x1_0_2) : (⟨S8192x5, .f32⟩ : BufTy).Contents (Elt F) → (⟨S8192x1, .f32⟩ : BufTy).Contents (Elt F)),
    reshape main_v156 main_v157 rfl shapeCasts_S8192x1_S8192,
    nullary main_cst_38 (constant S_ .f32 0x40000000#32),
    unary main_cst_38 main_v158 (broadcastInDim S8192 ![] bcast_S_S8192 : (⟨S_, .f32⟩ : BufTy).Contents (Elt F) → (⟨S8192, .f32⟩ : BufTy).Contents (Elt F)),
    binary main_v157 main_v158 main_v159 (Host.divf : (⟨S8192, .f32⟩ : BufTy).Contents (Elt F) → (⟨S8192, .f32⟩ : BufTy).Contents (Elt F) → (⟨S8192, .f32⟩ : BufTy).Contents (Elt F)),
    binary main_v155 main_v159 main_v160 (addf : (⟨S8192, .f32⟩ : BufTy).Contents (Elt F) → (⟨S8192, .f32⟩ : BufTy).Contents (Elt F) → (⟨S8192, .f32⟩ : BufTy).Contents (Elt F)),
    nullary main_cst_39 (constant S_ .f32 0x44200000#32),
    unary main_cst_39 main_v161 (broadcastInDim S8192 ![] bcast_S_S8192 : (⟨S_, .f32⟩ : BufTy).Contents (Elt F) → (⟨S8192, .f32⟩ : BufTy).Contents (Elt F)),
    binary main_v160 main_v161 main_v162 (minimumf : (⟨S8192, .f32⟩ : BufTy).Contents (Elt F) → (⟨S8192, .f32⟩ : BufTy).Contents (Elt F) → (⟨S8192, .f32⟩ : BufTy).Contents (Elt F)),
    unary main_v74 main_v163 ((extractStridedSlice S8192x1 ![0, 1] · slices_S8192x5_S8192x1_0_1) : (⟨S8192x5, .f32⟩ : BufTy).Contents (Elt F) → (⟨S8192x1, .f32⟩ : BufTy).Contents (Elt F)),
    reshape main_v163 main_v164 rfl shapeCasts_S8192x1_S8192,
    nullary main_cst_40 (constant S_ .f32 0x42000000#32),
    unary main_cst_40 main_v165 (broadcastInDim S8192 ![] bcast_S_S8192 : (⟨S_, .f32⟩ : BufTy).Contents (Elt F) → (⟨S8192, .f32⟩ : BufTy).Contents (Elt F)),
    binary main_v164 main_v165 main_v166 (mulf : (⟨S8192, .f32⟩ : BufTy).Contents (Elt F) → (⟨S8192, .f32⟩ : BufTy).Contents (Elt F) → (⟨S8192, .f32⟩ : BufTy).Contents (Elt F)),
    unary main_v74 main_v167 ((extractStridedSlice S8192x1 ![0, 3] · slices_S8192x5_S8192x1_0_3) : (⟨S8192x5, .f32⟩ : BufTy).Contents (Elt F) → (⟨S8192x1, .f32⟩ : BufTy).Contents (Elt F)),
    reshape main_v167 main_v168 rfl shapeCasts_S8192x1_S8192,
    nullary main_cst_41 (constant S_ .f32 0x40000000#32),
    unary main_cst_41 main_v169 (broadcastInDim S8192 ![] bcast_S_S8192 : (⟨S_, .f32⟩ : BufTy).Contents (Elt F) → (⟨S8192, .f32⟩ : BufTy).Contents (Elt F)),
    binary main_v168 main_v169 main_v170 (Host.divf : (⟨S8192, .f32⟩ : BufTy).Contents (Elt F) → (⟨S8192, .f32⟩ : BufTy).Contents (Elt F) → (⟨S8192, .f32⟩ : BufTy).Contents (Elt F)),
    binary main_v166 main_v170 main_v171 (addf : (⟨S8192, .f32⟩ : BufTy).Contents (Elt F) → (⟨S8192, .f32⟩ : BufTy).Contents (Elt F) → (⟨S8192, .f32⟩ : BufTy).Contents (Elt F)),
    nullary main_cst_42 (constant S_ .f32 0x44200000#32),
    unary main_cst_42 main_v172 (broadcastInDim S8192 ![] bcast_S_S8192 : (⟨S_, .f32⟩ : BufTy).Contents (Elt F) → (⟨S8192, .f32⟩ : BufTy).Contents (Elt F)),
    binary main_v171 main_v172 main_v173 (minimumf : (⟨S8192, .f32⟩ : BufTy).Contents (Elt F) → (⟨S8192, .f32⟩ : BufTy).Contents (Elt F) → (⟨S8192, .f32⟩ : BufTy).Contents (Elt F)),
    unary main_v140 main_v174 (broadcastInDim S8192x1 ![0] bcast_S8192_S8192x1_0 : (⟨S8192, .f32⟩ : BufTy).Contents (Elt F) → (⟨S8192x1, .f32⟩ : BufTy).Contents (Elt F)),
    unary main_v151 main_v175 (broadcastInDim S8192x1 ![0] bcast_S8192_S8192x1_0 : (⟨S8192, .f32⟩ : BufTy).Contents (Elt F) → (⟨S8192x1, .f32⟩ : BufTy).Contents (Elt F)),
    unary main_v162 main_v176 (broadcastInDim S8192x1 ![0] bcast_S8192_S8192x1_0 : (⟨S8192, .f32⟩ : BufTy).Contents (Elt F) → (⟨S8192x1, .f32⟩ : BufTy).Contents (Elt F)),
    unary main_v173 main_v177 (broadcastInDim S8192x1 ![0] bcast_S8192_S8192x1_0 : (⟨S8192, .f32⟩ : BufTy).Contents (Elt F) → (⟨S8192x1, .f32⟩ : BufTy).Contents (Elt F)),
    nary ![main_v174, main_v175, main_v176, main_v177] main_v178 (fun u => concatenate S8192x4 1 [⟨S8192x1, u 0⟩, ⟨S8192x1, u 1⟩, ⟨S8192x1, u 2⟩, ⟨S8192x1, u 3⟩] concatenates_S8192x1_S8192x1_S8192x1_S8192x1_S8192x4_d1),
    unary main_v129 main_v179 ((extractStridedSlice S8192x1 ![0, 2] · slices_S8192x4_S8192x1_0_2) : (⟨S8192x4, .f32⟩ : BufTy).Contents (Elt F) → (⟨S8192x1, .f32⟩ : BufTy).Contents (Elt F)),
    reshape main_v179 main_v180 rfl shapeCasts_S8192x1_S8192,
    unary main_v178 main_v181 ((extractStridedSlice S8192x1 ![0, 2] · slices_S8192x4_S8192x1_0_2) : (⟨S8192x4, .f32⟩ : BufTy).Contents (Elt F) → (⟨S8192x1, .f32⟩ : BufTy).Contents (Elt F)),
    reshape main_v181 main_v182 rfl shapeCasts_S8192x1_S8192,
    binary main_v180 main_v182 main_v183 (minimumf : (⟨S8192, .f32⟩ : BufTy).Contents (Elt F) → (⟨S8192, .f32⟩ : BufTy).Contents (Elt F) → (⟨S8192, .f32⟩ : BufTy).Contents (Elt F)),
    unary main_v129 main_v184 ((extractStridedSlice S8192x1 ![0, 0] · slices_S8192x4_S8192x1_0_0) : (⟨S8192x4, .f32⟩ : BufTy).Contents (Elt F) → (⟨S8192x1, .f32⟩ : BufTy).Contents (Elt F)),
    reshape main_v184 main_v185 rfl shapeCasts_S8192x1_S8192,
    unary main_v178 main_v186 ((extractStridedSlice S8192x1 ![0, 0] · slices_S8192x4_S8192x1_0_0) : (⟨S8192x4, .f32⟩ : BufTy).Contents (Elt F) → (⟨S8192x1, .f32⟩ : BufTy).Contents (Elt F)),
    reshape main_v186 main_v187 rfl shapeCasts_S8192x1_S8192,
    binary main_v185 main_v187 main_v188 (maximumf : (⟨S8192, .f32⟩ : BufTy).Contents (Elt F) → (⟨S8192, .f32⟩ : BufTy).Contents (Elt F) → (⟨S8192, .f32⟩ : BufTy).Contents (Elt F)),
    binary main_v183 main_v188 main_v189 (subf : (⟨S8192, .f32⟩ : BufTy).Contents (Elt F) → (⟨S8192, .f32⟩ : BufTy).Contents (Elt F) → (⟨S8192, .f32⟩ : BufTy).Contents (Elt F)),
    nullary main_cst_43 (constant S_ .f32 0x00000000#32),
    unary main_cst_43 main_v190 (broadcastInDim S8192 ![] bcast_S_S8192 : (⟨S_, .f32⟩ : BufTy).Contents (Elt F) → (⟨S8192, .f32⟩ : BufTy).Contents (Elt F)),
    binary main_v189 main_v190 main_v191 (maximumf : (⟨S8192, .f32⟩ : BufTy).Contents (Elt F) → (⟨S8192, .f32⟩ : BufTy).Contents (Elt F) → (⟨S8192, .f32⟩ : BufTy).Contents (Elt F)),
    unary main_v129 main_v192 ((extractStridedSlice S8192x1 ![0, 3] · slices_S8192x4_S8192x1_0_3) : (⟨S8192x4, .f32⟩ : BufTy).Contents (Elt F) → (⟨S8192x1, .f32⟩ : BufTy).Contents (Elt F)),
    reshape main_v192 main_v193 rfl shapeCasts_S8192x1_S8192,
    unary main_v178 main_v194 ((extractStridedSlice S8192x1 ![0, 3] · slices_S8192x4_S8192x1_0_3) : (⟨S8192x4, .f32⟩ : BufTy).Contents (Elt F) → (⟨S8192x1, .f32⟩ : BufTy).Contents (Elt F)) ]

/-- Window `main_part4`: operations 267 … 326 of 363. -/
abbrev ops_part4 : List (HloOp τ sig (Elt F)) :=
  [ reshape main_v194 main_v195 rfl shapeCasts_S8192x1_S8192,
    binary main_v193 main_v195 main_v196 (minimumf : (⟨S8192, .f32⟩ : BufTy).Contents (Elt F) → (⟨S8192, .f32⟩ : BufTy).Contents (Elt F) → (⟨S8192, .f32⟩ : BufTy).Contents (Elt F)),
    unary main_v129 main_v197 ((extractStridedSlice S8192x1 ![0, 1] · slices_S8192x4_S8192x1_0_1) : (⟨S8192x4, .f32⟩ : BufTy).Contents (Elt F) → (⟨S8192x1, .f32⟩ : BufTy).Contents (Elt F)),
    reshape main_v197 main_v198 rfl shapeCasts_S8192x1_S8192,
    unary main_v178 main_v199 ((extractStridedSlice S8192x1 ![0, 1] · slices_S8192x4_S8192x1_0_1) : (⟨S8192x4, .f32⟩ : BufTy).Contents (Elt F) → (⟨S8192x1, .f32⟩ : BufTy).Contents (Elt F)),
    reshape main_v199 main_v200 rfl shapeCasts_S8192x1_S8192,
    binary main_v198 main_v200 main_v201 (maximumf : (⟨S8192, .f32⟩ : BufTy).Contents (Elt F) → (⟨S8192, .f32⟩ : BufTy).Contents (Elt F) → (⟨S8192, .f32⟩ : BufTy).Contents (Elt F)),
    binary main_v196 main_v201 main_v202 (subf : (⟨S8192, .f32⟩ : BufTy).Contents (Elt F) → (⟨S8192, .f32⟩ : BufTy).Contents (Elt F) → (⟨S8192, .f32⟩ : BufTy).Contents (Elt F)),
    nullary main_cst_44 (constant S_ .f32 0x00000000#32),
    unary main_cst_44 main_v203 (broadcastInDim S8192 ![] bcast_S_S8192 : (⟨S_, .f32⟩ : BufTy).Contents (Elt F) → (⟨S8192, .f32⟩ : BufTy).Contents (Elt F)),
    binary main_v202 main_v203 main_v204 (maximumf : (⟨S8192, .f32⟩ : BufTy).Contents (Elt F) → (⟨S8192, .f32⟩ : BufTy).Contents (Elt F) → (⟨S8192, .f32⟩ : BufTy).Contents (Elt F)),
    binary main_v191 main_v204 main_v205 (mulf : (⟨S8192, .f32⟩ : BufTy).Contents (Elt F) → (⟨S8192, .f32⟩ : BufTy).Contents (Elt F) → (⟨S8192, .f32⟩ : BufTy).Contents (Elt F)),
    unary main_v80 main_v206 ((extractStridedSlice S8192x1 ![0, 2] · slices_S8192x4_S8192x1_0_2) : (⟨S8192x4, .f32⟩ : BufTy).Contents (Elt F) → (⟨S8192x1, .f32⟩ : BufTy).Contents (Elt F)),
    reshape main_v206 main_v207 rfl shapeCasts_S8192x1_S8192,
    unary main_v80 main_v208 ((extractStridedSlice S8192x1 ![0, 3] · slices_S8192x4_S8192x1_0_3) : (⟨S8192x4, .f32⟩ : BufTy).Contents (Elt F) → (⟨S8192x1, .f32⟩ : BufTy).Contents (Elt F)),
    reshape main_v208 main_v209 rfl shapeCasts_S8192x1_S8192,
    binary main_v207 main_v209 main_v210 (mulf : (⟨S8192, .f32⟩ : BufTy).Contents (Elt F) → (⟨S8192, .f32⟩ : BufTy).Contents (Elt F) → (⟨S8192, .f32⟩ : BufTy).Contents (Elt F)),
    unary main_v74 main_v211 ((extractStridedSlice S8192x1 ![0, 2] · slices_S8192x5_S8192x1_0_2) : (⟨S8192x5, .f32⟩ : BufTy).Contents (Elt F) → (⟨S8192x1, .f32⟩ : BufTy).Contents (Elt F)),
    reshape main_v211 main_v212 rfl shapeCasts_S8192x1_S8192,
    unary main_v74 main_v213 ((extractStridedSlice S8192x1 ![0, 3] · slices_S8192x5_S8192x1_0_3) : (⟨S8192x5, .f32⟩ : BufTy).Contents (Elt F) → (⟨S8192x1, .f32⟩ : BufTy).Contents (Elt F)),
    reshape main_v213 main_v214 rfl shapeCasts_S8192x1_S8192,
    binary main_v212 main_v214 main_v215 (mulf : (⟨S8192, .f32⟩ : BufTy).Contents (Elt F) → (⟨S8192, .f32⟩ : BufTy).Contents (Elt F) → (⟨S8192, .f32⟩ : BufTy).Contents (Elt F)),
    binary main_v210 main_v215 main_v216 (addf : (⟨S8192, .f32⟩ : BufTy).Contents (Elt F) → (⟨S8192, .f32⟩ : BufTy).Contents (Elt F) → (⟨S8192, .f32⟩ : BufTy).Contents (Elt F)),
    binary main_v216 main_v205 main_v217 (subf : (⟨S8192, .f32⟩ : BufTy).Contents (Elt F) → (⟨S8192, .f32⟩ : BufTy).Contents (Elt F) → (⟨S8192, .f32⟩ : BufTy).Contents (Elt F)),
    binary main_v205 main_v217 main_v218 (Host.divf : (⟨S8192, .f32⟩ : BufTy).Contents (Elt F) → (⟨S8192, .f32⟩ : BufTy).Contents (Elt F) → (⟨S8192, .f32⟩ : BufTy).Contents (Elt F)),
    unary main_arg1 main_v219 ((extractStridedSlice S8192x2 ![0, 0] · slices_S8192x4_S8192x2_0_0) : (⟨S8192x4, .f32⟩ : BufTy).Contents (Elt F) → (⟨S8192x2, .f32⟩ : BufTy).Contents (Elt F)),
    unary main_cst_0 main_v220 (broadcastInDim S1x2 ![1] bcast_S2_S1x2_1 : (⟨S2, .f32⟩ : BufTy).Contents (Elt F) → (⟨S1x2, .f32⟩ : BufTy).Contents (Elt F)),
    unary main_v220 main_v221 (broadcastInDim S8192x2 ![0, 1] bcast_S1x2_S8192x2_0_1 : (⟨S1x2, .f32⟩ : BufTy).Contents (Elt F) → (⟨S8192x2, .f32⟩ : BufTy).Contents (Elt F)),
    binary main_v219 main_v221 main_v222 (mulf : (⟨S8192x2, .f32⟩ : BufTy).Contents (Elt F) → (⟨S8192x2, .f32⟩ : BufTy).Contents (Elt F) → (⟨S8192x2, .f32⟩ : BufTy).Contents (Elt F)),
    unary main_arg1 main_v223 ((extractStridedSlice S8192x2 ![0, 2] · slices_S8192x4_S8192x2_0_2) : (⟨S8192x4, .f32⟩ : BufTy).Contents (Elt F) → (⟨S8192x2, .f32⟩ : BufTy).Contents (Elt F)),
    unary main_cst_1 main_v224 (broadcastInDim S1x2 ![1] bcast_S2_S1x2_1 : (⟨S2, .f32⟩ : BufTy).Contents (Elt F) → (⟨S1x2, .f32⟩ : BufTy).Contents (Elt F)),
    unary main_v224 main_v225 (broadcastInDim S8192x2 ![0, 1] bcast_S1x2_S8192x2_0_1 : (⟨S1x2, .f32⟩ : BufTy).Contents (Elt F) → (⟨S8192x2, .f32⟩ : BufTy).Contents (Elt F)),
    binary main_v223 main_v225 main_v226 (mulf : (⟨S8192x2, .f32⟩ : BufTy).Contents (Elt F) → (⟨S8192x2, .f32⟩ : BufTy).Contents (Elt F) → (⟨S8192x2, .f32⟩ : BufTy).Contents (Elt F)),
    unary main_v74 main_v227 ((extractStridedSlice S8192x2 ![0, 0] · slices_S8192x5_S8192x2_0_0) : (⟨S8192x5, .f32⟩ : BufTy).Contents (Elt F) → (⟨S8192x2, .f32⟩ : BufTy).Contents (Elt F)),
    binary main_v227 main_v222 main_v228 (subf : (⟨S8192x2, .f32⟩ : BufTy).Contents (Elt F) → (⟨S8192x2, .f32⟩ : BufTy).Contents (Elt F) → (⟨S8192x2, .f32⟩ : BufTy).Contents (Elt F)),
    binary main_v228 main_v228 main_v229 (mulf : (⟨S8192x2, .f32⟩ : BufTy).Contents (Elt F) → (⟨S8192x2, .f32⟩ : BufTy).Contents (Elt F) → (⟨S8192x2, .f32⟩ : BufTy).Contents (Elt F)),
    nullary main_cst_45 (constant S_ .f32 0x00000000#32),
    binary main_v229 main_cst_45 main_v230 ((fun x v => Host.reduceAdd x v reducesTo_S8192x2_S_d0_1 h_S_) : (⟨S8192x2, .f32⟩ : BufTy).Contents (Elt F) → (⟨S_, .f32⟩ : BufTy).Contents (Elt F) → (⟨S_, .f32⟩ : BufTy).Contents (Elt F)),
    nullary main_cst_46 (constant S_ .f32 0x46800000#32),
    binary main_v230 main_cst_46 main_v231 (Host.divf : (⟨S_, .f32⟩ : BufTy).Contents (Elt F) → (⟨S_, .f32⟩ : BufTy).Contents (Elt F) → (⟨S_, .f32⟩ : BufTy).Contents (Elt F)),
    unary main_v74 main_v232 ((extractStridedSlice S8192x2 ![0, 2] · slices_S8192x5_S8192x2_0_2) : (⟨S8192x5, .f32⟩ : BufTy).Contents (Elt F) → (⟨S8192x2, .f32⟩ : BufTy).Contents (Elt F)),
    unary main_v232 main_v233 (Host.sqrt : (⟨S8192x2, .f32⟩ : BufTy).Contents (Elt F) → (⟨S8192x2, .f32⟩ : BufTy).Contents (Elt F)),
    unary main_v226 main_v234 (Host.sqrt : (⟨S8192x2, .f32⟩ : BufTy).Contents (Elt F) → (⟨S8192x2, .f32⟩ : BufTy).Contents (Elt F)),
    binary main_v233 main_v234 main_v235 (subf : (⟨S8192x2, .f32⟩ : BufTy).Contents (Elt F) → (⟨S8192x2, .f32⟩ : BufTy).Contents (Elt F) → (⟨S8192x2, .f32⟩ : BufTy).Contents (Elt F)),
    binary main_v235 main_v235 main_v236 (mulf : (⟨S8192x2, .f32⟩ : BufTy).Contents (Elt F) → (⟨S8192x2, .f32⟩ : BufTy).Contents (Elt F) → (⟨S8192x2, .f32⟩ : BufTy).Contents (Elt F)),
    nullary main_cst_47 (constant S_ .f32 0x00000000#32),
    binary main_v236 main_cst_47 main_v237 ((fun x v => Host.reduceAdd x v reducesTo_S8192x2_S_d0_1 h_S_) : (⟨S8192x2, .f32⟩ : BufTy).Contents (Elt F) → (⟨S_, .f32⟩ : BufTy).Contents (Elt F) → (⟨S_, .f32⟩ : BufTy).Contents (Elt F)),
    nullary main_cst_48 (constant S_ .f32 0x46800000#32),
    binary main_v237 main_cst_48 main_v238 (Host.divf : (⟨S_, .f32⟩ : BufTy).Contents (Elt F) → (⟨S_, .f32⟩ : BufTy).Contents (Elt F) → (⟨S_, .f32⟩ : BufTy).Contents (Elt F)),
    binary main_v231 main_v238 main_v239 (addf : (⟨S_, .f32⟩ : BufTy).Contents (Elt F) → (⟨S_, .f32⟩ : BufTy).Contents (Elt F) → (⟨S_, .f32⟩ : BufTy).Contents (Elt F)),
    unary main_arg2 main_v240 ((extractStridedSlice S1x2 ![0, 0] · slices_S5x2_S1x2_0_0) : (⟨S5x2, .f32⟩ : BufTy).Contents (Elt F) → (⟨S1x2, .f32⟩ : BufTy).Contents (Elt F)),
    reshape main_v240 main_v241 rfl shapeCasts_S1x2_S2,
    nullary main_cst_49 (constant S_ .f32 0x44200000#32),
    unary main_cst_49 main_v242 (broadcastInDim S2 ![] bcast_S_S2 : (⟨S_, .f32⟩ : BufTy).Contents (Elt F) → (⟨S2, .f32⟩ : BufTy).Contents (Elt F)),
    binary main_v241 main_v242 main_v243 (mulf : (⟨S2, .f32⟩ : BufTy).Contents (Elt F) → (⟨S2, .f32⟩ : BufTy).Contents (Elt F) → (⟨S2, .f32⟩ : BufTy).Contents (Elt F)),
    binary main_cst_2 main_v243 main_v244 ((fun a b => concatenate S4 0 [⟨S2, a⟩, ⟨S2, b⟩] concatenates_S2_S2_S4_d0) : (⟨S2, .f32⟩ : BufTy).Contents (Elt F) → (⟨S2, .f32⟩ : BufTy).Contents (Elt F) → (⟨S4, .f32⟩ : BufTy).Contents (Elt F)),
    unary main_v71 main_v245 ((extractStridedSlice S8192x400x4 ![0, 0, 0] · slices_S8192x400x5_S8192x400x4_0_0_0) : (⟨S8192x400x5, .f32⟩ : BufTy).Contents (Elt F) → (⟨S8192x400x4, .f32⟩ : BufTy).Contents (Elt F)),
    unary main_v244 main_v246 (broadcastInDim S1x1x4 ![2] bcast_S4_S1x1x4_2 : (⟨S4, .f32⟩ : BufTy).Contents (Elt F) → (⟨S1x1x4, .f32⟩ : BufTy).Contents (Elt F)),
    unary main_v246 main_v247 (broadcastInDim S8192x400x4 ![0, 1, 2] bcast_S1x1x4_S8192x400x4_0_1_2 : (⟨S1x1x4, .f32⟩ : BufTy).Contents (Elt F) → (⟨S8192x400x4, .f32⟩ : BufTy).Contents (Elt F)),
    binary main_v245 main_v247 main_v248 (subf : (⟨S8192x400x4, .f32⟩ : BufTy).Contents (Elt F) → (⟨S8192x400x4, .f32⟩ : BufTy).Contents (Elt F) → (⟨S8192x400x4, .f32⟩ : BufTy).Contents (Elt F)) ]

/-- Window `main_part5`: operations 327 … 363 of 363. -/
abbrev ops_part5 : List (HloOp τ sig (Elt F)) :=
  [ binary main_v248 main_v248 main_v249 (mulf : (⟨S8192x400x4, .f32⟩ : BufTy).Contents (Elt F) → (⟨S8192x400x4, .f32⟩ : BufTy).Contents (Elt F) → (⟨S8192x400x4, .f32⟩ : BufTy).Contents (Elt F)),
    unary main_v77 main_v250 (broadcastInDim S8192x400x1 ![0, 1] bcast_S8192x400_S8192x400x1_0_1 : (⟨S8192x400, .f32⟩ : BufTy).Contents (Elt F) → (⟨S8192x400x1, .f32⟩ : BufTy).Contents (Elt F)),
    unary main_v250 main_v251 (broadcastInDim S8192x400x4 ![0, 1, 2] bcast_S8192x400x1_S8192x400x4_0_1_2 : (⟨S8192x400x1, .f32⟩ : BufTy).Contents (Elt F) → (⟨S8192x400x4, .f32⟩ : BufTy).Contents (Elt F)),
    binary main_v249 main_v251 main_v252 (mulf : (⟨S8192x400x4, .f32⟩ : BufTy).Contents (Elt F) → (⟨S8192x400x4, .f32⟩ : BufTy).Contents (Elt F) → (⟨S8192x400x4, .f32⟩ : BufTy).Contents (Elt F)),
    nullary main_cst_50 (constant S_ .f32 0x00000000#32),
    binary main_v252 main_cst_50 main_v253 ((fun x v => Host.reduceAdd x v reducesTo_S8192x400x4_S_d0_1_2 h_S_) : (⟨S8192x400x4, .f32⟩ : BufTy).Contents (Elt F) → (⟨S_, .f32⟩ : BufTy).Contents (Elt F) → (⟨S_, .f32⟩ : BufTy).Contents (Elt F)),
    nullary main_cst_51 (constant S_ .f32 0x4A478000#32),
    nullary main_cst_52 (constant S_ .f32 0x40800000#32),
    binary main_cst_51 main_cst_52 main_v254 (mulf : (⟨S_, .f32⟩ : BufTy).Contents (Elt F) → (⟨S_, .f32⟩ : BufTy).Contents (Elt F) → (⟨S_, .f32⟩ : BufTy).Contents (Elt F)),
    binary main_v253 main_v254 main_v255 (Host.divf : (⟨S_, .f32⟩ : BufTy).Contents (Elt F) → (⟨S_, .f32⟩ : BufTy).Contents (Elt F) → (⟨S_, .f32⟩ : BufTy).Contents (Elt F)),
    unary main_v74 main_v256 ((extractStridedSlice S8192x1 ![0, 4] · slices_S8192x5_S8192x1_0_4) : (⟨S8192x5, .f32⟩ : BufTy).Contents (Elt F) → (⟨S8192x1, .f32⟩ : BufTy).Contents (Elt F)),
    reshape main_v256 main_v257 rfl shapeCasts_S8192x1_S8192,
    binary main_v257 main_v218 main_v258 (subf : (⟨S8192, .f32⟩ : BufTy).Contents (Elt F) → (⟨S8192, .f32⟩ : BufTy).Contents (Elt F) → (⟨S8192, .f32⟩ : BufTy).Contents (Elt F)),
    binary main_v258 main_v258 main_v259 (mulf : (⟨S8192, .f32⟩ : BufTy).Contents (Elt F) → (⟨S8192, .f32⟩ : BufTy).Contents (Elt F) → (⟨S8192, .f32⟩ : BufTy).Contents (Elt F)),
    nullary main_cst_53 (constant S_ .f32 0x00000000#32),
    binary main_v259 main_cst_53 main_v260 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_54 (constant S_ .f32 0x46000000#32),
    binary main_v260 main_cst_54 main_v261 (Host.divf : (⟨S_, .f32⟩ : BufTy).Contents (Elt F) → (⟨S_, .f32⟩ : BufTy).Contents (Elt F) → (⟨S_, .f32⟩ : BufTy).Contents (Elt F)),
    unary main_v71 main_v262 ((extractStridedSlice S8192x400x1 ![0, 0, 4] · slices_S8192x400x5_S8192x400x1_0_0_4) : (⟨S8192x400x5, .f32⟩ : BufTy).Contents (Elt F) → (⟨S8192x400x1, .f32⟩ : BufTy).Contents (Elt F)),
    reshape main_v262 main_v263 rfl shapeCasts_S8192x400x1_S8192x400,
    binary main_v263 main_v263 main_v264 (mulf : (⟨S8192x400, .f32⟩ : BufTy).Contents (Elt F) → (⟨S8192x400, .f32⟩ : BufTy).Contents (Elt F) → (⟨S8192x400, .f32⟩ : BufTy).Contents (Elt F)),
    binary main_v264 main_v77 main_v265 (mulf : (⟨S8192x400, .f32⟩ : BufTy).Contents (Elt F) → (⟨S8192x400, .f32⟩ : BufTy).Contents (Elt F) → (⟨S8192x400, .f32⟩ : BufTy).Contents (Elt F)),
    nullary main_cst_55 (constant S_ .f32 0x00000000#32),
    binary main_v265 main_cst_55 main_v266 ((fun x v => Host.reduceAdd x v reducesTo_S8192x400_S_d0_1 h_S_) : (⟨S8192x400, .f32⟩ : BufTy).Contents (Elt F) → (⟨S_, .f32⟩ : BufTy).Contents (Elt F) → (⟨S_, .f32⟩ : BufTy).Contents (Elt F)),
    nullary main_cst_56 (constant S_ .f32 0x4A478000#32),
    binary main_v266 main_cst_56 main_v267 (Host.divf : (⟨S_, .f32⟩ : BufTy).Contents (Elt F) → (⟨S_, .f32⟩ : BufTy).Contents (Elt F) → (⟨S_, .f32⟩ : BufTy).Contents (Elt F)),
    nullary main_cst_57 (constant S_ .f32 0x40000000#32),
    binary main_v239 main_cst_57 main_v268 (mulf : (⟨S_, .f32⟩ : BufTy).Contents (Elt F) → (⟨S_, .f32⟩ : BufTy).Contents (Elt F) → (⟨S_, .f32⟩ : BufTy).Contents (Elt F)),
    nullary main_cst_58 (constant S_ .f32 0x3F800000#32),
    binary main_v255 main_cst_58 main_v269 (mulf : (⟨S_, .f32⟩ : BufTy).Contents (Elt F) → (⟨S_, .f32⟩ : BufTy).Contents (Elt F) → (⟨S_, .f32⟩ : BufTy).Contents (Elt F)),
    binary main_v268 main_v269 main_v270 (addf : (⟨S_, .f32⟩ : BufTy).Contents (Elt F) → (⟨S_, .f32⟩ : BufTy).Contents (Elt F) → (⟨S_, .f32⟩ : BufTy).Contents (Elt F)),
    nullary main_cst_59 (constant S_ .f32 0x40A00000#32),
    binary main_v261 main_cst_59 main_v271 (mulf : (⟨S_, .f32⟩ : BufTy).Contents (Elt F) → (⟨S_, .f32⟩ : BufTy).Contents (Elt F) → (⟨S_, .f32⟩ : BufTy).Contents (Elt F)),
    binary main_v270 main_v271 main_v272 (addf : (⟨S_, .f32⟩ : BufTy).Contents (Elt F) → (⟨S_, .f32⟩ : BufTy).Contents (Elt F) → (⟨S_, .f32⟩ : BufTy).Contents (Elt F)),
    nullary main_cst_60 (constant S_ .f32 0x3F800000#32),
    binary main_v267 main_cst_60 main_v273 (mulf : (⟨S_, .f32⟩ : BufTy).Contents (Elt F) → (⟨S_, .f32⟩ : BufTy).Contents (Elt F) → (⟨S_, .f32⟩ : BufTy).Contents (Elt F)),
    binary main_v272 main_v273 main_v274 (addf : (⟨S_, .f32⟩ : BufTy).Contents (Elt F) → (⟨S_, .f32⟩ : BufTy).Contents (Elt F) → (⟨S_, .f32⟩ : BufTy).Contents (Elt F)) ]

abbrev ops : List (HloOp τ sig (Elt F)) :=
  ops_part0 ++ (ops_part1 ++ (ops_part2 ++ (ops_part3 ++ (ops_part4 ++ (ops_part5)))))

end Cert.ReferenceIdeal.Terms

end
-- ==== Proof.RefTerms.lean ====
/- The reference's buffers as terms of the argument arrays: a buffer read more than once, or with a long term, is a definition over the earlier ones. -/
import proofs.«403400_j21895743275785_4_alg».proof.Proof.Gen.ReferenceIdeal
import proofs.«403400_j21895743275785_4_alg».proof.Proof.RefTable
import Idealize.ShloMosaic.Lib.StableHlo.Run

noncomputable section

namespace Cert.ReferenceIdeal.Terms

open Cert.ReferenceIdeal Cert.ReferenceIdeal.Gen Cert.GridLoss.RefTable Idealize.ShloMosaic Idealize.ShloMosaic.TcCoe Idealize.SL.Sem Idealize.ShloMosaic.StableHlo

variable {F : FTy → Type} [FloatOps F]

/-- `main_v13` (2 uses). -/
def res_main_v13 (V0 : Valuation τ sig (Elt F)) : (Proc.devRef .tc main_v13 : DevRef τ sig).ty.Contents (Elt F) :=
  fptosi 32 (addf (mulf (Host.floor (mulf (shapeCast _ (extractStridedSlice S8192x1 ![0, 0] (V0 (Proc.devRef .tc main_arg1)) slices_S8192x4_S8192x1_0_0) shapeCasts_S8192x1_S8192) (broadcastInDim S8192 ![] bcast_S_S8192 (constant S_ .f32 0x41A00000#32)))) (broadcastInDim S8192 ![] bcast_S_S8192 (constant S_ .f32 0x41A00000#32))) (Host.floor (mulf (shapeCast _ (extractStridedSlice S8192x1 ![0, 1] (V0 (Proc.devRef .tc main_arg1)) slices_S8192x4_S8192x1_0_1) shapeCasts_S8192x1_S8192) (broadcastInDim S8192 ![] bcast_S_S8192 (constant S_ .f32 0x41A00000#32)))))

/-- `main_v16` (2 uses). -/
def res_main_v16 (V0 : Valuation τ sig (Elt F)) : (Proc.devRef .tc main_v16 : DevRef τ sig).ty.Contents (Elt F) :=
  shapeCast _ (transpose S8192x400x25 [0, 2, 1] (shapeCast _ (V0 (Proc.devRef .tc main_arg0)) shapeCasts_S8192x25x20x20_S8192x25x400) transposes_S8192x25x400_S8192x400x25_0_2_1) shapeCasts_S8192x400x25_S8192x400x5x5

/-- `main_v31` (4 uses). -/
def res_main_v31 (V0 : Valuation τ sig (Elt F)) : (Proc.devRef .tc main_v31 : DevRef τ sig).ty.Contents (Elt F) :=
  Host.divf (Host.reduceAdd (extractStridedSlice S8192x400x5x4 ![0, 0, 0, 0] (res_main_v16 V0) slices_S8192x400x5x5_S8192x400x5x4_0_0_0_0) (constant S_ .f32 0x00000000#32) reducesTo_S8192x400x5x4_S8192x400x4_d2 h_S_) (broadcastInDim S8192x400x4 ![] bcast_S_S8192x400x4 (constant S_ .f32 0x40A00000#32))

/-- `main_v71` (3 uses). -/
def res_main_v71 (V0 : Valuation τ sig (Elt F)) : (Proc.devRef .tc main_v71 : DevRef τ sig).ty.Contents (Elt F) :=
  concatenate S8192x400x5 2 [⟨S8192x400x1, (broadcastInDim S8192x400x1 ![0, 1] bcast_S8192x400_S8192x400x1_0_1 (Host.divf (broadcastInDim S8192x400 ![] bcast_S_S8192x400 (constant S_ .f32 0x3F800000#32)) (addf (broadcastInDim S8192x400 ![] bcast_S_S8192x400 (constant S_ .f32 0x3F800000#32)) (Host.exp (Host.negf (shapeCast _ (extractStridedSlice S8192x400x1 ![0, 0, 0] (res_main_v31 V0) slices_S8192x400x4_S8192x400x1_0_0_0) shapeCasts_S8192x400x1_S8192x400))))))⟩, ⟨S8192x400x1, (broadcastInDim S8192x400x1 ![0, 1] bcast_S8192x400_S8192x400x1_0_1 (Host.divf (broadcastInDim S8192x400 ![] bcast_S_S8192x400 (constant S_ .f32 0x3F800000#32)) (addf (broadcastInDim S8192x400 ![] bcast_S_S8192x400 (constant S_ .f32 0x3F800000#32)) (Host.exp (Host.negf (shapeCast _ (extractStridedSlice S8192x400x1 ![0, 0, 1] (res_main_v31 V0) slices_S8192x400x4_S8192x400x1_0_0_1) shapeCasts_S8192x400x1_S8192x400))))))⟩, ⟨S8192x400x1, (broadcastInDim S8192x400x1 ![0, 1] bcast_S8192x400_S8192x400x1_0_1 (mulf (mulf (Host.exp (shapeCast _ (extractStridedSlice S8192x400x1 ![0, 0, 2] (res_main_v31 V0) slices_S8192x400x4_S8192x400x1_0_0_2) shapeCasts_S8192x400x1_S8192x400)) (broadcastInDim S8192x400 ![] bcast_S_S8192x400 (shapeCast _ (extractStridedSlice S1x1 ![0, 0] (V0 (Proc.devRef .tc main_arg2)) slices_S5x2_S1x1_0_0) shapeCasts_S1x1_S_))) (broadcastInDim S8192x400 ![] bcast_S_S8192x400 (constant S_ .f32 0x44200000#32))))⟩, ⟨S8192x400x1, (broadcastInDim S8192x400x1 ![0, 1] bcast_S8192x400_S8192x400x1_0_1 (mulf (mulf (Host.exp (shapeCast _ (extractStridedSlice S8192x400x1 ![0, 0, 3] (res_main_v31 V0) slices_S8192x400x4_S8192x400x1_0_0_3) shapeCasts_S8192x400x1_S8192x400)) (broadcastInDim S8192x400 ![] bcast_S_S8192x400 (shapeCast _ (extractStridedSlice S1x1 ![0, 1] (V0 (Proc.devRef .tc main_arg2)) slices_S5x2_S1x1_0_1) shapeCasts_S1x1_S_))) (broadcastInDim S8192x400 ![] bcast_S_S8192x400 (constant S_ .f32 0x44200000#32))))⟩, ⟨S8192x400x1, (broadcastInDim S8192x400x1 ![0, 1] bcast_S8192x400_S8192x400x1_0_1 (Host.divf (Host.reduceAdd (Host.divf (broadcastInDim S8192x400x5 ![] bcast_S_S8192x400x5 (constant S_ .f32 0x3F800000#32)) (addf (broadcastInDim S8192x400x5 ![] bcast_S_S8192x400x5 (constant S_ .f32 0x3F800000#32)) (Host.exp (Host.negf (shapeCast _ (extractStridedSlice S8192x400x5x1 ![0, 0, 0, 4] (res_main_v16 V0) slices_S8192x400x5x5_S8192x400x5x1_0_0_0_4) shapeCasts_S8192x400x5x1_S8192x400x5))))) (constant S_ .f32 0x00000000#32) reducesTo_S8192x400x5_S8192x400_d2 h_S_) (broadcastInDim S8192x400 ![] bcast_S_S8192x400 (constant S_ .f32 0x40A00000#32))))⟩] concatenates_S8192x400x1_S8192x400x1_S8192x400x1_S8192x400x1_S8192x400x1_S8192x400x5_d2

/-- `main_v72` (3 uses). -/
def res_main_v72 (V0 : Valuation τ sig (Elt F)) : (Proc.devRef .tc main_v72 : DevRef τ sig).ty.Contents (Elt F) :=
  broadcastInDim S8192x1x1 ![0] bcast_S8192_S8192x1x1_0 (res_main_v13 V0)

/-- `main_call0_v4` (3 uses). -/
def res_main_call0_v4 (V0 : Valuation τ sig (Elt F)) : (Proc.devRef .tc main_call0_v4 : DevRef τ sig).ty.Contents (Elt F) :=
  select (cmpi .slt (res_main_v72 V0) (broadcastInDim S8192x1x1 ![] bcast_S_S8192x1x1 (constantI S_ 32 0#32))) (addi (res_main_v72 V0) (broadcastInDim S8192x1x1 ![] bcast_S_S8192x1x1 (constantI S_ 32 400#32))) (res_main_v72 V0)

/-- `main_v74` (13 uses). -/
def res_main_v74 (V0 : Valuation τ sig (Elt F)) : (Proc.devRef .tc main_v74 : DevRef τ sig).ty.Contents (Elt F) :=
  shapeCast _ (select (broadcastInDim S8192x1x5 ![0, 1] bcast_S8192x1_S8192x1x5_0_1 (Host.reduce IntOp.andi (andi (cmpi .sge (res_main_call0_v4 V0) (broadcastInDim S8192x1x1 ![] bcast_S_S8192x1x1 (constantI S_ 32 0#32))) (cmpi .sle (res_main_call0_v4 V0) (broadcastInDim S8192x1x1 ![0, 1, 2] bcast_S1x1x1_S8192x1x1_0_1_2 (broadcastInDim S1x1x1 ![2] bcast_S1_S1x1x1_2 (constantI S1 32 399#32))))) (constantI S_ 1 1#1) reducesTo_S8192x1x1_S8192x1_d2 h_S_)) (Host.gather gather_S8192x400x5_S8192x1x1_S8192x1x5_2_1_0_0_1_2_115 (res_main_v71 V0) (res_main_call0_v4 V0)) (broadcastInDim S8192x1x5 ![] bcast_S_S8192x1x5 (constant S_ .f32 0x7FC00000#32))) shapeCasts_S8192x1x5_S8192x5

/-- `main_v77` (2 uses). -/
def res_main_v77 (V0 : Valuation τ sig (Elt F)) : (Proc.devRef .tc main_v77 : DevRef τ sig).ty.Contents (Elt F) :=
  subf (broadcastInDim S8192x400 ![] bcast_S_S8192x400 (constant S_ .f32 0x3F800000#32)) (uitofp .f32 (cmpi .eq (broadcastInDim S8192x400 ![0, 1] bcast_S8192x1_S8192x400_0_1 (broadcastInDim S8192x1 ![0] bcast_S8192_S8192x1_0 (res_main_v13 V0))) (broadcastInDim S8192x400 ![0, 1] bcast_S1x400_S8192x400_0_1 (iotaInDim S1x400 32 1))))

/-- `main_v80` (10 uses). -/
def res_main_v80 (V0 : Valuation τ sig (Elt F)) : (Proc.devRef .tc main_v80 : DevRef τ sig).ty.Contents (Elt F) :=
  mulf (V0 (Proc.devRef .tc main_arg1)) (broadcastInDim S8192x4 ![0, 1] bcast_S1x4_S8192x4_0_1 (broadcastInDim S1x4 ![1] bcast_S4_S1x4_1 (denseTable0)))

/-- `main_v129` (4 uses). -/
def res_main_v129 (V0 : Valuation τ sig (Elt F)) : (Proc.devRef .tc main_v129 : DevRef τ sig).ty.Contents (Elt F) :=
  concatenate S8192x4 1 [⟨S8192x1, (broadcastInDim S8192x1 ![0] bcast_S8192_S8192x1_0 (maximumf (subf (mulf (shapeCast _ (extractStridedSlice S8192x1 ![0, 0] (res_main_v80 V0) slices_S8192x4_S8192x1_0_0) shapeCasts_S8192x1_S8192) (broadcastInDim S8192 ![] bcast_S_S8192 (constant S_ .f32 0x42000000#32))) (Host.divf (shapeCast _ (extractStridedSlice S8192x1 ![0, 2] (res_main_v80 V0) slices_S8192x4_S8192x1_0_2) shapeCasts_S8192x1_S8192) (broadcastInDim S8192 ![] bcast_S_S8192 (constant S_ .f32 0x40000000#32)))) (broadcastInDim S8192 ![] bcast_S_S8192 (constant S_ .f32 0x00000000#32))))⟩, ⟨S8192x1, (broadcastInDim S8192x1 ![0] bcast_S8192_S8192x1_0 (maximumf (subf (mulf (shapeCast _ (extractStridedSlice S8192x1 ![0, 1] (res_main_v80 V0) slices_S8192x4_S8192x1_0_1) shapeCasts_S8192x1_S8192) (broadcastInDim S8192 ![] bcast_S_S8192 (constant S_ .f32 0x42000000#32))) (Host.divf (shapeCast _ (extractStridedSlice S8192x1 ![0, 3] (res_main_v80 V0) slices_S8192x4_S8192x1_0_3) shapeCasts_S8192x1_S8192) (broadcastInDim S8192 ![] bcast_S_S8192 (constant S_ .f32 0x40000000#32)))) (broadcastInDim S8192 ![] bcast_S_S8192 (constant S_ .f32 0x00000000#32))))⟩, ⟨S8192x1, (broadcastInDim S8192x1 ![0] bcast_S8192_S8192x1_0 (minimumf (addf (mulf (shapeCast _ (extractStridedSlice S8192x1 ![0, 0] (res_main_v80 V0) slices_S8192x4_S8192x1_0_0) shapeCasts_S8192x1_S8192) (broadcastInDim S8192 ![] bcast_S_S8192 (constant S_ .f32 0x42000000#32))) (Host.divf (shapeCast _ (extractStridedSlice S8192x1 ![0, 2] (res_main_v80 V0) slices_S8192x4_S8192x1_0_2) shapeCasts_S8192x1_S8192) (broadcastInDim S8192 ![] bcast_S_S8192 (constant S_ .f32 0x40000000#32)))) (broadcastInDim S8192 ![] bcast_S_S8192 (constant S_ .f32 0x44200000#32))))⟩, ⟨S8192x1, (broadcastInDim S8192x1 ![0] bcast_S8192_S8192x1_0 (minimumf (addf (mulf (shapeCast _ (extractStridedSlice S8192x1 ![0, 1] (res_main_v80 V0) slices_S8192x4_S8192x1_0_1) shapeCasts_S8192x1_S8192) (broadcastInDim S8192 ![] bcast_S_S8192 (constant S_ .f32 0x42000000#32))) (Host.divf (shapeCast _ (extractStridedSlice S8192x1 ![0, 3] (res_main_v80 V0) slices_S8192x4_S8192x1_0_3) shapeCasts_S8192x1_S8192) (broadcastInDim S8192 ![] bcast_S_S8192 (constant S_ .f32 0x40000000#32)))) (broadcastInDim S8192 ![] bcast_S_S8192 (constant S_ .f32 0x44200000#32))))⟩] concatenates_S8192x1_S8192x1_S8192x1_S8192x1_S8192x4_d1

/-- `main_v178` (4 uses). -/
def res_main_v178 (V0 : Valuation τ sig (Elt F)) : (Proc.devRef .tc main_v178 : DevRef τ sig).ty.Contents (Elt F) :=
  concatenate S8192x4 1 [⟨S8192x1, (broadcastInDim S8192x1 ![0] bcast_S8192_S8192x1_0 (maximumf (subf (mulf (shapeCast _ (extractStridedSlice S8192x1 ![0, 0] (res_main_v74 V0) slices_S8192x5_S8192x1_0_0) shapeCasts_S8192x1_S8192) (broadcastInDim S8192 ![] bcast_S_S8192 (constant S_ .f32 0x42000000#32))) (Host.divf (shapeCast _ (extractStridedSlice S8192x1 ![0, 2] (res_main_v74 V0) slices_S8192x5_S8192x1_0_2) shapeCasts_S8192x1_S8192) (broadcastInDim S8192 ![] bcast_S_S8192 (constant S_ .f32 0x40000000#32)))) (broadcastInDim S8192 ![] bcast_S_S8192 (constant S_ .f32 0x00000000#32))))⟩, ⟨S8192x1, (broadcastInDim S8192x1 ![0] bcast_S8192_S8192x1_0 (maximumf (subf (mulf (shapeCast _ (extractStridedSlice S8192x1 ![0, 1] (res_main_v74 V0) slices_S8192x5_S8192x1_0_1) shapeCasts_S8192x1_S8192) (broadcastInDim S8192 ![] bcast_S_S8192 (constant S_ .f32 0x42000000#32))) (Host.divf (shapeCast _ (extractStridedSlice S8192x1 ![0, 3] (res_main_v74 V0) slices_S8192x5_S8192x1_0_3) shapeCasts_S8192x1_S8192) (broadcastInDim S8192 ![] bcast_S_S8192 (constant S_ .f32 0x40000000#32)))) (broadcastInDim S8192 ![] bcast_S_S8192 (constant S_ .f32 0x00000000#32))))⟩, ⟨S8192x1, (broadcastInDim S8192x1 ![0] bcast_S8192_S8192x1_0 (minimumf (addf (mulf (shapeCast _ (extractStridedSlice S8192x1 ![0, 0] (res_main_v74 V0) slices_S8192x5_S8192x1_0_0) shapeCasts_S8192x1_S8192) (broadcastInDim S8192 ![] bcast_S_S8192 (constant S_ .f32 0x42000000#32))) (Host.divf (shapeCast _ (extractStridedSlice S8192x1 ![0, 2] (res_main_v74 V0) slices_S8192x5_S8192x1_0_2) shapeCasts_S8192x1_S8192) (broadcastInDim S8192 ![] bcast_S_S8192 (constant S_ .f32 0x40000000#32)))) (broadcastInDim S8192 ![] bcast_S_S8192 (constant S_ .f32 0x44200000#32))))⟩, ⟨S8192x1, (broadcastInDim S8192x1 ![0] bcast_S8192_S8192x1_0 (minimumf (addf (mulf (shapeCast _ (extractStridedSlice S8192x1 ![0, 1] (res_main_v74 V0) slices_S8192x5_S8192x1_0_1) shapeCasts_S8192x1_S8192) (broadcastInDim S8192 ![] bcast_S_S8192 (constant S_ .f32 0x42000000#32))) (Host.divf (shapeCast _ (extractStridedSlice S8192x1 ![0, 3] (res_main_v74 V0) slices_S8192x5_S8192x1_0_3) shapeCasts_S8192x1_S8192) (broadcastInDim S8192 ![] bcast_S_S8192 (constant S_ .f32 0x40000000#32)))) (broadcastInDim S8192 ![] bcast_S_S8192 (constant S_ .f32 0x44200000#32))))⟩] concatenates_S8192x1_S8192x1_S8192x1_S8192x1_S8192x4_d1

/-- `main_v205` (2 uses). -/
def res_main_v205 (V0 : Valuation τ sig (Elt F)) : (Proc.devRef .tc main_v205 : DevRef τ sig).ty.Contents (Elt F) :=
  mulf (maximumf (subf (minimumf (shapeCast _ (extractStridedSlice S8192x1 ![0, 2] (res_main_v129 V0) slices_S8192x4_S8192x1_0_2) shapeCasts_S8192x1_S8192) (shapeCast _ (extractStridedSlice S8192x1 ![0, 2] (res_main_v178 V0) slices_S8192x4_S8192x1_0_2) shapeCasts_S8192x1_S8192)) (maximumf (shapeCast _ (extractStridedSlice S8192x1 ![0, 0] (res_main_v129 V0) slices_S8192x4_S8192x1_0_0) shapeCasts_S8192x1_S8192) (shapeCast _ (extractStridedSlice S8192x1 ![0, 0] (res_main_v178 V0) slices_S8192x4_S8192x1_0_0) shapeCasts_S8192x1_S8192))) (broadcastInDim S8192 ![] bcast_S_S8192 (constant S_ .f32 0x00000000#32))) (maximumf (subf (minimumf (shapeCast _ (extractStridedSlice S8192x1 ![0, 3] (res_main_v129 V0) slices_S8192x4_S8192x1_0_3) shapeCasts_S8192x1_S8192) (shapeCast _ (extractStridedSlice S8192x1 ![0, 3] (res_main_v178 V0) slices_S8192x4_S8192x1_0_3) shapeCasts_S8192x1_S8192)) (maximumf (shapeCast _ (extractStridedSlice S8192x1 ![0, 1] (res_main_v129 V0) slices_S8192x4_S8192x1_0_1) shapeCasts_S8192x1_S8192) (shapeCast _ (extractStridedSlice S8192x1 ![0, 1] (res_main_v178 V0) slices_S8192x4_S8192x1_0_1) shapeCasts_S8192x1_S8192))) (broadcastInDim S8192 ![] bcast_S_S8192 (constant S_ .f32 0x00000000#32)))

/-- `main_v228` (2 uses). -/
def res_main_v228 (V0 : Valuation τ sig (Elt F)) : (Proc.devRef .tc main_v228 : DevRef τ sig).ty.Contents (Elt F) :=
  subf (extractStridedSlice S8192x2 ![0, 0] (res_main_v74 V0) slices_S8192x5_S8192x2_0_0) (mulf (extractStridedSlice S8192x2 ![0, 0] (V0 (Proc.devRef .tc main_arg1)) slices_S8192x4_S8192x2_0_0) (broadcastInDim S8192x2 ![0, 1] bcast_S1x2_S8192x2_0_1 (broadcastInDim S1x2 ![1] bcast_S2_S1x2_1 (constant S2 .f32 0x41A00000#32))))

/-- `main_v235` (2 uses). -/
def res_main_v235 (V0 : Valuation τ sig (Elt F)) : (Proc.devRef .tc main_v235 : DevRef τ sig).ty.Contents (Elt F) :=
  subf (Host.sqrt (extractStridedSlice S8192x2 ![0, 2] (res_main_v74 V0) slices_S8192x5_S8192x2_0_2)) (Host.sqrt (mulf (extractStridedSlice S8192x2 ![0, 2] (V0 (Proc.devRef .tc main_arg1)) slices_S8192x4_S8192x2_0_2) (broadcastInDim S8192x2 ![0, 1] bcast_S1x2_S8192x2_0_1 (broadcastInDim S1x2 ![1] bcast_S2_S1x2_1 (constant S2 .f32 0x44200000#32)))))

/-- `main_v248` (2 uses). -/
def res_main_v248 (V0 : Valuation τ sig (Elt F)) : (Proc.devRef .tc main_v248 : DevRef τ sig).ty.Contents (Elt F) :=
  subf (extractStridedSlice S8192x400x4 ![0, 0, 0] (res_main_v71 V0) slices_S8192x400x5_S8192x400x4_0_0_0) (broadcastInDim S8192x400x4 ![0, 1, 2] bcast_S1x1x4_S8192x400x4_0_1_2 (broadcastInDim S1x1x4 ![2] bcast_S4_S1x1x4_2 (concatenate S4 0 [⟨S2, (constant S2 .f32 0x3F000000#32)⟩, ⟨S2, (mulf (shapeCast _ (extractStridedSlice S1x2 ![0, 0] (V0 (Proc.devRef .tc main_arg2)) slices_S5x2_S1x2_0_0) shapeCasts_S1x2_S2) (broadcastInDim S2 ![] bcast_S_S2 (constant S_ .f32 0x44200000#32)))⟩] concatenates_S2_S2_S4_d0)))

/-- `main_v258` (2 uses). -/
def res_main_v258 (V0 : Valuation τ sig (Elt F)) : (Proc.devRef .tc main_v258 : DevRef τ sig).ty.Contents (Elt F) :=
  subf (shapeCast _ (extractStridedSlice S8192x1 ![0, 4] (res_main_v74 V0) slices_S8192x5_S8192x1_0_4) shapeCasts_S8192x1_S8192) (Host.divf (res_main_v205 V0) (subf (addf (mulf (shapeCast _ (extractStridedSlice S8192x1 ![0, 2] (res_main_v80 V0) slices_S8192x4_S8192x1_0_2) shapeCasts_S8192x1_S8192) (shapeCast _ (extractStridedSlice S8192x1 ![0, 3] (res_main_v80 V0) slices_S8192x4_S8192x1_0_3) shapeCasts_S8192x1_S8192)) (mulf (shapeCast _ (extractStridedSlice S8192x1 ![0, 2] (res_main_v74 V0) slices_S8192x5_S8192x1_0_2) shapeCasts_S8192x1_S8192) (shapeCast _ (extractStridedSlice S8192x1 ![0, 3] (res_main_v74 V0) slices_S8192x5_S8192x1_0_3) shapeCasts_S8192x1_S8192))) (res_main_v205 V0)))

/-- `main_v263` (2 uses). -/
def res_main_v263 (V0 : Valuation τ sig (Elt F)) : (Proc.devRef .tc main_v263 : DevRef τ sig).ty.Contents (Elt F) :=
  shapeCast _ (extractStridedSlice S8192x400x1 ![0, 0, 4] (res_main_v71 V0) slices_S8192x400x5_S8192x400x1_0_0_4) shapeCasts_S8192x400x1_S8192x400

/-- The result `main_v274`. -/
def res_main_v274 (V0 : Valuation τ sig (Elt F)) : (Proc.devRef .tc main_v274 : DevRef τ sig).ty.Contents (Elt F) :=
  addf (addf (addf (mulf (addf (Host.divf (Host.reduceAdd (mulf (res_main_v228 V0) (res_main_v228 V0)) (constant S_ .f32 0x00000000#32) reducesTo_S8192x2_S_d0_1 h_S_) (constant S_ .f32 0x46800000#32)) (Host.divf (Host.reduceAdd (mulf (res_main_v235 V0) (res_main_v235 V0)) (constant S_ .f32 0x00000000#32) reducesTo_S8192x2_S_d0_1 h_S_) (constant S_ .f32 0x46800000#32))) (constant S_ .f32 0x40000000#32)) (mulf (Host.divf (Host.reduceAdd (mulf (mulf (res_main_v248 V0) (res_main_v248 V0)) (broadcastInDim S8192x400x4 ![0, 1, 2] bcast_S8192x400x1_S8192x400x4_0_1_2 (broadcastInDim S8192x400x1 ![0, 1] bcast_S8192x400_S8192x400x1_0_1 (res_main_v77 V0)))) (constant S_ .f32 0x00000000#32) reducesTo_S8192x400x4_S_d0_1_2 h_S_) (mulf (constant S_ .f32 0x4A478000#32) (constant S_ .f32 0x40800000#32))) (constant S_ .f32 0x3F800000#32))) (mulf (Host.divf (Host.reduceAdd (mulf (res_main_v258 V0) (res_main_v258 V0)) (constant S_ .f32 0x00000000#32) reducesTo_S8192_S_d0 h_S_) (constant S_ .f32 0x46000000#32)) (constant S_ .f32 0x40A00000#32))) (mulf (Host.divf (Host.reduceAdd (mulf (mulf (res_main_v263 V0) (res_main_v263 V0)) (res_main_v77 V0)) (constant S_ .f32 0x00000000#32) reducesTo_S8192x400_S_d0_1 h_S_) (constant S_ .f32 0x4A478000#32)) (constant S_ .f32 0x3F800000#32))

end Cert.ReferenceIdeal.Terms

end
-- ==== Proof.RefRun.lean ====
/-
  The reference program's run: every weakly fair execution ends with the result buffer at the result term of the launch contents
  and the three arguments unchanged.

  @main is the sequence of its operations, window by window (a called function's operations stand in its call's place). The buffers'
  contents after each window are read off the operations' results: a buffer that a later window or the result reads is given its term
  over the argument arrays, a buffer the window does not write keeps its contents. The last window's contents at the result buffer are
  the result term.
-/
import proofs.«403400_j21895743275785_4_alg».proof.Proof.RefOps
import proofs.«403400_j21895743275785_4_alg».proof.Proof.RefTerms
import Idealize.ShloMosaic.Lib.Pipeline.Frame

set_option Elab.async false

noncomputable section

namespace Cert.GridLoss.Ref

open Cert.ReferenceIdeal Cert.ReferenceIdeal.Gen Cert.ReferenceIdeal.Terms Cert.GridLoss.RefTable Idealize.ShloMosaic Idealize.ShloMosaic.TcCoe Idealize.SL.Sem Idealize.ShloMosaic.StableHlo

variable {F : FTy → Type} [FloatOps F]

/-! ## The joining operations' functions, named

A joining operation packs its operands into a list of pairs of a shape and an array, and the evidence that the shapes join depends on that
list: an operand cannot be rewritten where it stands. Under a name whose operands are plain arguments it can; each such operation equals the
one spelt with the name, by unfolding. -/

/-- The function of the operation that writes `main_v71`, its operands plain arguments. -/
def fn_main_v71 : (main_v66 : Ref sig .tc).ty.Contents (Elt F) → (main_v67 : Ref sig .tc).ty.Contents (Elt F) → (main_v68 : Ref sig .tc).ty.Contents (Elt F) → (main_v69 : Ref sig .tc).ty.Contents (Elt F) → (main_v70 : Ref sig .tc).ty.Contents (Elt F) → (main_v71 : Ref sig .tc).ty.Contents (Elt F) :=
  (fun u0 u1 u2 u3 u4 => concatenate S8192x400x5 2 [⟨S8192x400x1, u0⟩, ⟨S8192x400x1, u1⟩, ⟨S8192x400x1, u2⟩, ⟨S8192x400x1, u3⟩, ⟨S8192x400x1, u4⟩] concatenates_S8192x400x1_S8192x400x1_S8192x400x1_S8192x400x1_S8192x400x1_S8192x400x5_d2)

theorem op_main_v71_eq : ((nary ![main_v66, main_v67, main_v68, main_v69, main_v70] main_v71 (fun u => concatenate S8192x400x5 2 [⟨S8192x400x1, u 0⟩, ⟨S8192x400x1, u 1⟩, ⟨S8192x400x1, u 2⟩, ⟨S8192x400x1, u 3⟩, ⟨S8192x400x1, u 4⟩] concatenates_S8192x400x1_S8192x400x1_S8192x400x1_S8192x400x1_S8192x400x1_S8192x400x5_d2)) : HloOp τ sig (Elt F)) = nary ![main_v66, main_v67, main_v68, main_v69, main_v70] main_v71 (fun u => fn_main_v71 (F := F) (u 0) (u 1) (u 2) (u 3) (u 4)) := rfl

/-- The function of the operation that writes `main_v129`, its operands plain arguments. -/
def fn_main_v129 : (main_v125 : Ref sig .tc).ty.Contents (Elt F) → (main_v126 : Ref sig .tc).ty.Contents (Elt F) → (main_v127 : Ref sig .tc).ty.Contents (Elt F) → (main_v128 : Ref sig .tc).ty.Contents (Elt F) → (main_v129 : Ref sig .tc).ty.Contents (Elt F) :=
  (fun u0 u1 u2 u3 => concatenate S8192x4 1 [⟨S8192x1, u0⟩, ⟨S8192x1, u1⟩, ⟨S8192x1, u2⟩, ⟨S8192x1, u3⟩] concatenates_S8192x1_S8192x1_S8192x1_S8192x1_S8192x4_d1)

theorem op_main_v129_eq : ((nary ![main_v125, main_v126, main_v127, main_v128] main_v129 (fun u => concatenate S8192x4 1 [⟨S8192x1, u 0⟩, ⟨S8192x1, u 1⟩, ⟨S8192x1, u 2⟩, ⟨S8192x1, u 3⟩] concatenates_S8192x1_S8192x1_S8192x1_S8192x1_S8192x4_d1)) : HloOp τ sig (Elt F)) = nary ![main_v125, main_v126, main_v127, main_v128] main_v129 (fun u => fn_main_v129 (F := F) (u 0) (u 1) (u 2) (u 3)) := rfl

/-- The function of the operation that writes `main_v178`, its operands plain arguments. -/
def fn_main_v178 : (main_v174 : Ref sig .tc).ty.Contents (Elt F) → (main_v175 : Ref sig .tc).ty.Contents (Elt F) → (main_v176 : Ref sig .tc).ty.Contents (Elt F) → (main_v177 : Ref sig .tc).ty.Contents (Elt F) → (main_v178 : Ref sig .tc).ty.Contents (Elt F) :=
  (fun u0 u1 u2 u3 => concatenate S8192x4 1 [⟨S8192x1, u0⟩, ⟨S8192x1, u1⟩, ⟨S8192x1, u2⟩, ⟨S8192x1, u3⟩] concatenates_S8192x1_S8192x1_S8192x1_S8192x1_S8192x4_d1)

theorem op_main_v178_eq : ((nary ![main_v174, main_v175, main_v176, main_v177] main_v178 (fun u => concatenate S8192x4 1 [⟨S8192x1, u 0⟩, ⟨S8192x1, u 1⟩, ⟨S8192x1, u 2⟩, ⟨S8192x1, u 3⟩] concatenates_S8192x1_S8192x1_S8192x1_S8192x1_S8192x4_d1)) : HloOp τ sig (Elt F)) = nary ![main_v174, main_v175, main_v176, main_v177] main_v178 (fun u => fn_main_v178 (F := F) (u 0) (u 1) (u 2) (u 3)) := rfl

/-- The function of the operation that writes `main_v244`, its operands plain arguments. -/
def fn_main_v244 : (⟨S2, .f32⟩ : BufTy).Contents (Elt F) → (⟨S2, .f32⟩ : BufTy).Contents (Elt F) → (⟨S4, .f32⟩ : BufTy).Contents (Elt F) :=
  (fun a b => concatenate S4 0 [⟨S2, a⟩, ⟨S2, b⟩] concatenates_S2_S2_S4_d0)

theorem op_main_v244_eq : ((binary main_cst_2 main_v243 main_v244 ((fun a b => concatenate S4 0 [⟨S2, a⟩, ⟨S2, b⟩] concatenates_S2_S2_S4_d0) : (⟨S2, .f32⟩ : BufTy).Contents (Elt F) → (⟨S2, .f32⟩ : BufTy).Contents (Elt F) → (⟨S4, .f32⟩ : BufTy).Contents (Elt F))) : HloOp τ sig (Elt F)) = binary main_cst_2 main_v243 main_v244 (fn_main_v244 (F := F)) := rfl

/-! ## @main is the sequence of its operations -/

set_option maxRecDepth 8192 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_part5_eq (c : Dev nD) : main_part5 (F := F) c = seq ops_part5 := rfl
set_option maxRecDepth 8192 in
theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only -/

set_option maxRecDepth 8192 in
theorem ops_part0_sub : (ops_part0 : List (HloOp τ sig (Elt F))).Forall fun op => op.bufs ⊆ tcRefs τ sig :=
  ⟨nullary_bufs_sub .., nullary_bufs_sub .., nullary_bufs_sub .., nullary_bufs_sub .., unary_bufs_sub .., reshape_bufs_sub .., nullary_bufs_sub .., unary_bufs_sub .., binary_bufs_sub .., unary_bufs_sub .., nullary_bufs_sub .., unary_bufs_sub .., binary_bufs_sub .., unary_bufs_sub .., reshape_bufs_sub .., nullary_bufs_sub .., unary_bufs_sub .., binary_bufs_sub .., unary_bufs_sub .., binary_bufs_sub .., unary_bufs_sub .., reshape_bufs_sub .., unary_bufs_sub .., reshape_bufs_sub .., unary_bufs_sub .., reshape_bufs_sub .., unary_bufs_sub .., unary_bufs_sub .., nullary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., reshape_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., unary_bufs_sub .., nullary_bufs_sub ..⟩
set_option maxRecDepth 8192 in
theorem ops_part1_sub : (ops_part1 : List (HloOp τ sig (Elt F))).Forall fun op => op.bufs ⊆ tcRefs τ sig :=
  ⟨unary_bufs_sub .., binary_bufs_sub .., nullary_bufs_sub .., unary_bufs_sub .., binary_bufs_sub .., unary_bufs_sub .., reshape_bufs_sub .., unary_bufs_sub .., unary_bufs_sub .., reshape_bufs_sub .., unary_bufs_sub .., binary_bufs_sub .., nullary_bufs_sub .., unary_bufs_sub .., binary_bufs_sub .., unary_bufs_sub .., reshape_bufs_sub .., unary_bufs_sub .., unary_bufs_sub .., reshape_bufs_sub .., unary_bufs_sub .., binary_bufs_sub .., nullary_bufs_sub .., unary_bufs_sub .., binary_bufs_sub .., unary_bufs_sub .., unary_bufs_sub .., unary_bufs_sub .., unary_bufs_sub .., unary_bufs_sub .., nary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., nullary_bufs_sub .., unary_bufs_sub .., unary_bufs_sub .., binary_bufs_sub .., unary_bufs_sub .., nullary_bufs_sub .., unary_bufs_sub .., binary_bufs_sub .., unary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., nullary_bufs_sub .., unary_bufs_sub .., binary_bufs_sub .., unary_bufs_sub .., reshape_bufs_sub .., nullary_bufs_sub .., unary_bufs_sub .., binary_bufs_sub ..⟩
set_option maxRecDepth 8192 in
theorem ops_part2_sub : (ops_part2 : List (HloOp τ sig (Elt F))).Forall fun op => op.bufs ⊆ tcRefs τ sig :=
  ⟨unary_bufs_sub .., reshape_bufs_sub .., nullary_bufs_sub .., unary_bufs_sub .., binary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub .., nary_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., nullary_bufs_sub .., unary_bufs_sub .., binary_bufs_sub .., unary_bufs_sub .., reshape_bufs_sub .., nullary_bufs_sub .., unary_bufs_sub ..⟩
set_option maxRecDepth 8192 in
theorem ops_part3_sub : (ops_part3 : List (HloOp τ sig (Elt F))).Forall fun op => op.bufs ⊆ tcRefs τ sig :=
  ⟨binary_bufs_sub .., unary_bufs_sub .., reshape_bufs_sub .., nullary_bufs_sub .., unary_bufs_sub .., binary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., nullary_bufs_sub .., unary_bufs_sub .., binary_bufs_sub .., unary_bufs_sub .., reshape_bufs_sub .., nullary_bufs_sub .., unary_bufs_sub .., binary_bufs_sub .., unary_bufs_sub .., reshape_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub .., nary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., nullary_bufs_sub .., unary_bufs_sub .., binary_bufs_sub .., unary_bufs_sub .., reshape_bufs_sub .., unary_bufs_sub ..⟩
set_option maxRecDepth 8192 in
theorem ops_part4_sub : (ops_part4 : List (HloOp τ sig (Elt F))).Forall fun op => op.bufs ⊆ tcRefs τ sig :=
  ⟨reshape_bufs_sub .., binary_bufs_sub .., unary_bufs_sub .., reshape_bufs_sub .., unary_bufs_sub .., reshape_bufs_sub .., binary_bufs_sub .., binary_bufs_sub .., nullary_bufs_sub .., unary_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., binary_bufs_sub .., binary_bufs_sub .., unary_bufs_sub .., unary_bufs_sub .., unary_bufs_sub .., binary_bufs_sub .., unary_bufs_sub .., unary_bufs_sub .., unary_bufs_sub .., binary_bufs_sub .., unary_bufs_sub .., binary_bufs_sub .., binary_bufs_sub .., nullary_bufs_sub .., binary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., binary_bufs_sub .., unary_bufs_sub .., reshape_bufs_sub .., nullary_bufs_sub .., unary_bufs_sub .., binary_bufs_sub .., binary_bufs_sub .., unary_bufs_sub .., unary_bufs_sub .., unary_bufs_sub .., binary_bufs_sub ..⟩
set_option maxRecDepth 8192 in
theorem ops_part5_sub : (ops_part5 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., nullary_bufs_sub .., binary_bufs_sub .., binary_bufs_sub .., unary_bufs_sub .., reshape_bufs_sub .., binary_bufs_sub .., binary_bufs_sub .., nullary_bufs_sub .., binary_bufs_sub .., nullary_bufs_sub .., binary_bufs_sub .., unary_bufs_sub .., reshape_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h | h | h
    exacts [List.forall_iff_forall_mem.mp ops_part0_sub op h, List.forall_iff_forall_mem.mp ops_part1_sub op h, List.forall_iff_forall_mem.mp ops_part2_sub op h, List.forall_iff_forall_mem.mp ops_part3_sub op h, List.forall_iff_forall_mem.mp ops_part4_sub op h, List.forall_iff_forall_mem.mp ops_part5_sub op h]

/-! ## The buffers' contents, window by window

The window that holds the two calls is read in pieces, cut after each named buffer that the called function's operations read: each lemma's
two sides then differ by one name's unfolding and by the identity casts that the typed references of a called function put around an
operation's function. The reduction and the gather are kept folded while the two sides are compared: the comparison never looks inside them. -/

/-- Operations 61 … 91 of 363: a piece of window `main_part1`. -/
abbrev ops_part1a : List (HloOp τ sig (Elt F)) :=
  [ unary main_cst_14 main_v44 (broadcastInDim S8192x400 ![] bcast_S_S8192x400 : (⟨S_, .f32⟩ : BufTy).Contents (Elt F) → (⟨S8192x400, .f32⟩ : BufTy).Contents (Elt F)),
    binary main_v44 main_v43 main_v45 (addf : (⟨S8192x400, .f32⟩ : BufTy).Contents (Elt F) → (⟨S8192x400, .f32⟩ : BufTy).Contents (Elt F) → (⟨S8192x400, .f32⟩ : BufTy).Contents (Elt F)),
    nullary main_cst_15 (constant S_ .f32 0x3F800000#32),
    unary main_cst_15 main_v46 (broadcastInDim S8192x400 ![] bcast_S_S8192x400 : (⟨S_, .f32⟩ : BufTy).Contents (Elt F) → (⟨S8192x400, .f32⟩ : BufTy).Contents (Elt F)),
    binary main_v46 main_v45 main_v47 (Host.divf : (⟨S8192x400, .f32⟩ : BufTy).Contents (Elt F) → (⟨S8192x400, .f32⟩ : BufTy).Contents (Elt F) → (⟨S8192x400, .f32⟩ : BufTy).Contents (Elt F)),
    unary main_v31 main_v48 ((extractStridedSlice S8192x400x1 ![0, 0, 2] · slices_S8192x400x4_S8192x400x1_0_0_2) : (⟨S8192x400x4, .f32⟩ : BufTy).Contents (Elt F) → (⟨S8192x400x1, .f32⟩ : BufTy).Contents (Elt F)),
    reshape main_v48 main_v49 rfl shapeCasts_S8192x400x1_S8192x400,
    unary main_v49 main_v50 (Host.exp : (⟨S8192x400, .f32⟩ : BufTy).Contents (Elt F) → (⟨S8192x400, .f32⟩ : BufTy).Contents (Elt F)),
    unary main_arg2 main_v51 ((extractStridedSlice S1x1 ![0, 0] · slices_S5x2_S1x1_0_0) : (⟨S5x2, .f32⟩ : BufTy).Contents (Elt F) → (⟨S1x1, .f32⟩ : BufTy).Contents (Elt F)),
    reshape main_v51 main_v52 rfl shapeCasts_S1x1_S_,
    unary main_v52 main_v53 (broadcastInDim S8192x400 ![] bcast_S_S8192x400 : (⟨S_, .f32⟩ : BufTy).Contents (Elt F) → (⟨S8192x400, .f32⟩ : BufTy).Contents (Elt F)),
    binary main_v50 main_v53 main_v54 (mulf : (⟨S8192x400, .f32⟩ : BufTy).Contents (Elt F) → (⟨S8192x400, .f32⟩ : BufTy).Contents (Elt F) → (⟨S8192x400, .f32⟩ : BufTy).Contents (Elt F)),
    nullary main_cst_16 (constant S_ .f32 0x44200000#32),
    unary main_cst_16 main_v55 (broadcastInDim S8192x400 ![] bcast_S_S8192x400 : (⟨S_, .f32⟩ : BufTy).Contents (Elt F) → (⟨S8192x400, .f32⟩ : BufTy).Contents (Elt F)),
    binary main_v54 main_v55 main_v56 (mulf : (⟨S8192x400, .f32⟩ : BufTy).Contents (Elt F) → (⟨S8192x400, .f32⟩ : BufTy).Contents (Elt F) → (⟨S8192x400, .f32⟩ : BufTy).Contents (Elt F)),
    unary main_v31 main_v57 ((extractStridedSlice S8192x400x1 ![0, 0, 3] · slices_S8192x400x4_S8192x400x1_0_0_3) : (⟨S8192x400x4, .f32⟩ : BufTy).Contents (Elt F) → (⟨S8192x400x1, .f32⟩ : BufTy).Contents (Elt F)),
    reshape main_v57 main_v58 rfl shapeCasts_S8192x400x1_S8192x400,
    unary main_v58 main_v59 (Host.exp : (⟨S8192x400, .f32⟩ : BufTy).Contents (Elt F) → (⟨S8192x400, .f32⟩ : BufTy).Contents (Elt F)),
    unary main_arg2 main_v60 ((extractStridedSlice S1x1 ![0, 1] · slices_S5x2_S1x1_0_1) : (⟨S5x2, .f32⟩ : BufTy).Contents (Elt F) → (⟨S1x1, .f32⟩ : BufTy).Contents (Elt F)),
    reshape main_v60 main_v61 rfl shapeCasts_S1x1_S_,
    unary main_v61 main_v62 (broadcastInDim S8192x400 ![] bcast_S_S8192x400 : (⟨S_, .f32⟩ : BufTy).Contents (Elt F) → (⟨S8192x400, .f32⟩ : BufTy).Contents (Elt F)),
    binary main_v59 main_v62 main_v63 (mulf : (⟨S8192x400, .f32⟩ : BufTy).Contents (Elt F) → (⟨S8192x400, .f32⟩ : BufTy).Contents (Elt F) → (⟨S8192x400, .f32⟩ : BufTy).Contents (Elt F)),
    nullary main_cst_17 (constant S_ .f32 0x44200000#32),
    unary main_cst_17 main_v64 (broadcastInDim S8192x400 ![] bcast_S_S8192x400 : (⟨S_, .f32⟩ : BufTy).Contents (Elt F) → (⟨S8192x400, .f32⟩ : BufTy).Contents (Elt F)),
    binary main_v63 main_v64 main_v65 (mulf : (⟨S8192x400, .f32⟩ : BufTy).Contents (Elt F) → (⟨S8192x400, .f32⟩ : BufTy).Contents (Elt F) → (⟨S8192x400, .f32⟩ : BufTy).Contents (Elt F)),
    unary main_v39 main_v66 (broadcastInDim S8192x400x1 ![0, 1] bcast_S8192x400_S8192x400x1_0_1 : (⟨S8192x400, .f32⟩ : BufTy).Contents (Elt F) → (⟨S8192x400x1, .f32⟩ : BufTy).Contents (Elt F)),
    unary main_v47 main_v67 (broadcastInDim S8192x400x1 ![0, 1] bcast_S8192x400_S8192x400x1_0_1 : (⟨S8192x400, .f32⟩ : BufTy).Contents (Elt F) → (⟨S8192x400x1, .f32⟩ : BufTy).Contents (Elt F)),
    unary main_v56 main_v68 (broadcastInDim S8192x400x1 ![0, 1] bcast_S8192x400_S8192x400x1_0_1 : (⟨S8192x400, .f32⟩ : BufTy).Contents (Elt F) → (⟨S8192x400x1, .f32⟩ : BufTy).Contents (Elt F)),
    unary main_v65 main_v69 (broadcastInDim S8192x400x1 ![0, 1] bcast_S8192x400_S8192x400x1_0_1 : (⟨S8192x400, .f32⟩ : BufTy).Contents (Elt F) → (⟨S8192x400x1, .f32⟩ : BufTy).Contents (Elt F)),
    unary main_v27 main_v70 (broadcastInDim S8192x400x1 ![0, 1] bcast_S8192x400_S8192x400x1_0_1 : (⟨S8192x400, .f32⟩ : BufTy).Contents (Elt F) → (⟨S8192x400x1, .f32⟩ : BufTy).Contents (Elt F)),
    nary ![main_v66, main_v67, main_v68, main_v69, main_v70] main_v71 (fun u => concatenate S8192x400x5 2 [⟨S8192x400x1, u 0⟩, ⟨S8192x400x1, u 1⟩, ⟨S8192x400x1, u 2⟩, ⟨S8192x400x1, u 3⟩, ⟨S8192x400x1, u 4⟩] concatenates_S8192x400x1_S8192x400x1_S8192x400x1_S8192x400x1_S8192x400x1_S8192x400x5_d2) ]

/-- Operations 92 … 92 of 363: a piece of window `main_part1`. -/
abbrev ops_part1b : List (HloOp τ sig (Elt F)) :=
  [ unary main_v13 main_v72 (broadcastInDim S8192x1x1 ![0] bcast_S8192_S8192x1x1_0 : (⟨S8192, .i32⟩ : BufTy).Contents (Elt F) → (⟨S8192x1x1, .i32⟩ : BufTy).Contents (Elt F)) ]

/-- Operations 93 … 99 of 363: a piece of window `main_part1`. -/
abbrev ops_part1c : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S8192x1x1, .i32⟩) main_call0_v0) (broadcastInDim S8192x1x1 ![] bcast_S_S8192x1x1),
    TRef.binary (TRef.of (T := ⟨S8192x1x1, .i32⟩) main_v72) (TRef.of (T := ⟨S8192x1x1, .i32⟩) main_call0_v0) (TRef.of (T := ⟨S8192x1x1, .i1⟩) main_call0_v1) (cmpi .slt),
    TRef.nullary (TRef.of (T := ⟨S_, .i32⟩) main_call0_c_0) (constantI S_ 32 400#32),
    TRef.unary (TRef.of (T := ⟨S_, .i32⟩) main_call0_c_0) (TRef.of (T := ⟨S8192x1x1, .i32⟩) main_call0_v2) (broadcastInDim S8192x1x1 ![] bcast_S_S8192x1x1),
    TRef.binary (TRef.of (T := ⟨S8192x1x1, .i32⟩) main_v72) (TRef.of (T := ⟨S8192x1x1, .i32⟩) main_call0_v2) (TRef.of (T := ⟨S8192x1x1, .i32⟩) main_call0_v3) addi,
    TRef.ternary (TRef.of (T := ⟨S8192x1x1, .i1⟩) main_call0_v1) (TRef.of (T := ⟨S8192x1x1, .i32⟩) main_call0_v3) (TRef.of (T := ⟨S8192x1x1, .i32⟩) main_v72) (TRef.of (T := ⟨S8192x1x1, .i32⟩) main_call0_v4) select ]

/-- Operations 100 … 146 of 363: a piece of window `main_part1`. -/
abbrev ops_part1d : List (HloOp τ sig (Elt F)) :=
  [ TRef.nullary (TRef.of (T := ⟨S1, .i32⟩) main_call0_c_1) (constantI S1 32 399#32),
    TRef.nullary (TRef.of (T := ⟨S_, .i32⟩) main_call0_c_2) (constantI S_ 32 0#32),
    TRef.unary (TRef.of (T := ⟨S_, .i32⟩) main_call0_c_2) (TRef.of (T := ⟨S8192x1x1, .i32⟩) main_call0_v5) (broadcastInDim S8192x1x1 ![] bcast_S_S8192x1x1),
    TRef.binary (TRef.of (T := ⟨S8192x1x1, .i32⟩) main_call0_v4) (TRef.of (T := ⟨S8192x1x1, .i32⟩) main_call0_v5) (TRef.of (T := ⟨S8192x1x1, .i1⟩) main_call0_v6) (cmpi .sge),
    TRef.unary (TRef.of (T := ⟨S1, .i32⟩) main_call0_c_1) (TRef.of (T := ⟨S1x1x1, .i32⟩) main_call0_v7) (broadcastInDim S1x1x1 ![2] bcast_S1_S1x1x1_2),
    TRef.unary (TRef.of (T := ⟨S1x1x1, .i32⟩) main_call0_v7) (TRef.of (T := ⟨S8192x1x1, .i32⟩) main_call0_v8) (broadcastInDim S8192x1x1 ![0, 1, 2] bcast_S1x1x1_S8192x1x1_0_1_2),
    TRef.binary (TRef.of (T := ⟨S8192x1x1, .i32⟩) main_call0_v4) (TRef.of (T := ⟨S8192x1x1, .i32⟩) main_call0_v8) (TRef.of (T := ⟨S8192x1x1, .i1⟩) main_call0_v9) (cmpi .sle),
    TRef.binary (TRef.of (T := ⟨S8192x1x1, .i1⟩) main_call0_v6) (TRef.of (T := ⟨S8192x1x1, .i1⟩) main_call0_v9) (TRef.of (T := ⟨S8192x1x1, .i1⟩) main_call0_v10) andi,
    TRef.nullary (TRef.of (T := ⟨S_, .i1⟩) main_call0_c_3) (constantI S_ 1 1#1),
    TRef.binary (TRef.of (T := ⟨S8192x1x1, .i1⟩) main_call0_v10) (TRef.of (T := ⟨S_, .i1⟩) main_call0_c_3) (TRef.of (T := ⟨S8192x1, .i1⟩) main_call0_v11) (fun x v => Host.reduce IntOp.andi x v reducesTo_S8192x1x1_S8192x1_d2 h_S_),
    TRef.binary (TRef.of (T := ⟨S8192x400x5, .f32⟩) main_v71) (TRef.of (T := ⟨S8192x1x1, .i32⟩) main_call0_v4) (TRef.of (T := ⟨S8192x1x5, .f32⟩) main_call0_v12) (fun x i => Host.gather gather_S8192x400x5_S8192x1x1_S8192x1x5_2_1_0_0_1_2_115 x i),
    TRef.unary (TRef.of (T := ⟨S8192x1, .i1⟩) main_call0_v11) (TRef.of (T := ⟨S8192x1x5, .i1⟩) main_call0_v13) (broadcastInDim S8192x1x5 ![0, 1] bcast_S8192x1_S8192x1x5_0_1),
    TRef.nullary (TRef.of (T := ⟨S_, .f32⟩) main_call0_cst) (constant S_ .f32 0x7FC00000#32),
    TRef.unary (TRef.of (T := ⟨S_, .f32⟩) main_call0_cst) (TRef.of (T := ⟨S8192x1x5, .f32⟩) main_call0_v14) (broadcastInDim S8192x1x5 ![] bcast_S_S8192x1x5),
    TRef.ternary (TRef.of (T := ⟨S8192x1x5, .i1⟩) main_call0_v13) (TRef.of (T := ⟨S8192x1x5, .f32⟩) main_call0_v12) (TRef.of (T := ⟨S8192x1x5, .f32⟩) main_call0_v14) (TRef.of (T := ⟨S8192x1x5, .f32⟩) main_v73) select,
    reshape main_v73 main_v74 rfl shapeCasts_S8192x1x5_S8192x5,
    TRef.unary (TRef.of (T := ⟨S8192, .i32⟩) main_v13) (TRef.of (T := ⟨S8192x1, .i32⟩) main_call1_v0) (broadcastInDim S8192x1 ![0] bcast_S8192_S8192x1_0),
    TRef.nullary (TRef.of (T := ⟨S1x400, .i32⟩) main_call1_v1) (iotaInDim S1x400 32 1),
    TRef.unary (TRef.of (T := ⟨S8192x1, .i32⟩) main_call1_v0) (TRef.of (T := ⟨S8192x400, .i32⟩) main_call1_v2) (broadcastInDim S8192x400 ![0, 1] bcast_S8192x1_S8192x400_0_1),
    TRef.unary (TRef.of (T := ⟨S1x400, .i32⟩) main_call1_v1) (TRef.of (T := ⟨S8192x400, .i32⟩) main_call1_v3) (broadcastInDim S8192x400 ![0, 1] bcast_S1x400_S8192x400_0_1),
    TRef.binary (TRef.of (T := ⟨S8192x400, .i32⟩) main_call1_v2) (TRef.of (T := ⟨S8192x400, .i32⟩) main_call1_v3) (TRef.of (T := ⟨S8192x400, .i1⟩) main_call1_v4) (cmpi .eq),
    TRef.unary (TRef.of (T := ⟨S8192x400, .i1⟩) main_call1_v4) (TRef.of (T := ⟨S8192x400, .f32⟩) main_v75) (uitofp .f32),
    nullary main_cst_18 (constant S_ .f32 0x3F800000#32),
    unary main_cst_18 main_v76 (broadcastInDim S8192x400 ![] bcast_S_S8192x400 : (⟨S_, .f32⟩ : BufTy).Contents (Elt F) → (⟨S8192x400, .f32⟩ : BufTy).Contents (Elt F)),
    binary main_v76 main_v75 main_v77 (subf : (⟨S8192x400, .f32⟩ : BufTy).Contents (Elt F) → (⟨S8192x400, .f32⟩ : BufTy).Contents (Elt F) → (⟨S8192x400, .f32⟩ : BufTy).Contents (Elt F)),
    unary main_cst main_v78 (broadcastInDim S1x4 ![1] bcast_S4_S1x4_1 : (⟨S4, .f32⟩ : BufTy).Contents (Elt F) → (⟨S1x4, .f32⟩ : BufTy).Contents (Elt F)),
    unary main_v78 main_v79 (broadcastInDim S8192x4 ![0, 1] bcast_S1x4_S8192x4_0_1 : (⟨S1x4, .f32⟩ : BufTy).Contents (Elt F) → (⟨S8192x4, .f32⟩ : BufTy).Contents (Elt F)),
    binary main_arg1 main_v79 main_v80 (mulf : (⟨S8192x4, .f32⟩ : BufTy).Contents (Elt F) → (⟨S8192x4, .f32⟩ : BufTy).Contents (Elt F) → (⟨S8192x4, .f32⟩ : BufTy).Contents (Elt F)),
    unary main_v80 main_v81 ((extractStridedSlice S8192x1 ![0, 0] · slices_S8192x4_S8192x1_0_0) : (⟨S8192x4, .f32⟩ : BufTy).Contents (Elt F) → (⟨S8192x1, .f32⟩ : BufTy).Contents (Elt F)),
    reshape main_v81 main_v82 rfl shapeCasts_S8192x1_S8192,
    nullary main_cst_19 (constant S_ .f32 0x42000000#32),
    unary main_cst_19 main_v83 (broadcastInDim S8192 ![] bcast_S_S8192 : (⟨S_, .f32⟩ : BufTy).Contents (Elt F) → (⟨S8192, .f32⟩ : BufTy).Contents (Elt F)),
    binary main_v82 main_v83 main_v84 (mulf : (⟨S8192, .f32⟩ : BufTy).Contents (Elt F) → (⟨S8192, .f32⟩ : BufTy).Contents (Elt F) → (⟨S8192, .f32⟩ : BufTy).Contents (Elt F)),
    unary main_v80 main_v85 ((extractStridedSlice S8192x1 ![0, 2] · slices_S8192x4_S8192x1_0_2) : (⟨S8192x4, .f32⟩ : BufTy).Contents (Elt F) → (⟨S8192x1, .f32⟩ : BufTy).Contents (Elt F)),
    reshape main_v85 main_v86 rfl shapeCasts_S8192x1_S8192,
    nullary main_cst_20 (constant S_ .f32 0x40000000#32),
    unary main_cst_20 main_v87 (broadcastInDim S8192 ![] bcast_S_S8192 : (⟨S_, .f32⟩ : BufTy).Contents (Elt F) → (⟨S8192, .f32⟩ : BufTy).Contents (Elt F)),
    binary main_v86 main_v87 main_v88 (Host.divf : (⟨S8192, .f32⟩ : BufTy).Contents (Elt F) → (⟨S8192, .f32⟩ : BufTy).Contents (Elt F) → (⟨S8192, .f32⟩ : BufTy).Contents (Elt F)),
    binary main_v84 main_v88 main_v89 (subf : (⟨S8192, .f32⟩ : BufTy).Contents (Elt F) → (⟨S8192, .f32⟩ : BufTy).Contents (Elt F) → (⟨S8192, .f32⟩ : BufTy).Contents (Elt F)),
    nullary main_cst_21 (constant S_ .f32 0x00000000#32),
    unary main_cst_21 main_v90 (broadcastInDim S8192 ![] bcast_S_S8192 : (⟨S_, .f32⟩ : BufTy).Contents (Elt F) → (⟨S8192, .f32⟩ : BufTy).Contents (Elt F)),
    binary main_v89 main_v90 main_v91 (maximumf : (⟨S8192, .f32⟩ : BufTy).Contents (Elt F) → (⟨S8192, .f32⟩ : BufTy).Contents (Elt F) → (⟨S8192, .f32⟩ : BufTy).Contents (Elt F)),
    unary main_v80 main_v92 ((extractStridedSlice S8192x1 ![0, 1] · slices_S8192x4_S8192x1_0_1) : (⟨S8192x4, .f32⟩ : BufTy).Contents (Elt F) → (⟨S8192x1, .f32⟩ : BufTy).Contents (Elt F)),
    reshape main_v92 main_v93 rfl shapeCasts_S8192x1_S8192,
    nullary main_cst_22 (constant S_ .f32 0x42000000#32),
    unary main_cst_22 main_v94 (broadcastInDim S8192 ![] bcast_S_S8192 : (⟨S_, .f32⟩ : BufTy).Contents (Elt F) → (⟨S8192, .f32⟩ : BufTy).Contents (Elt F)),
    binary main_v93 main_v94 main_v95 (mulf : (⟨S8192, .f32⟩ : BufTy).Contents (Elt F) → (⟨S8192, .f32⟩ : BufTy).Contents (Elt F) → (⟨S8192, .f32⟩ : BufTy).Contents (Elt F)) ]

set_option maxRecDepth 8192 in
theorem ops_part1_after (V : Valuation τ sig (Elt F)) : after ops_part1 V = after ops_part1d (after ops_part1c (after ops_part1b (after ops_part1a V))) := by
  have h : (ops_part1 : List (HloOp τ sig (Elt F))) = ops_part1a ++ (ops_part1b ++ (ops_part1c ++ (ops_part1d))) := rfl
  rw [h]; simp only [after_append]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_cst, main_cst_0, main_cst_1, main_cst_2, main_v0, main_v1, main_cst_3, main_v2, main_v3, main_v4, main_cst_4, main_v5, main_v6, main_v7, main_v8, main_cst_5, main_v9, main_v10, main_v11, main_v12, main_v13, main_v14, main_v15, main_v16, main_v17, main_v18, main_v19, main_v20, main_cst_6, main_v21, main_v22, main_cst_7, main_v23, main_v24, main_cst_8, main_v25, main_cst_9, main_v26, main_v27, main_v28, main_cst_10, main_v29, main_cst_11, main_v30, main_v31, main_v32, main_v33, main_v34, main_v35, main_cst_12, main_v36, main_v37, main_cst_13, main_v38, main_v39, main_v40, main_v41, main_v42, main_v43, main_cst_14]
set_option maxRecDepth 8192 in
theorem ops_part0_writes : (ops_part0 : List (HloOp τ sig (Elt F))).Forall fun op => op.writes ⊆ (ops_part0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
set_option maxRecDepth 8192 in
set_option maxHeartbeats 2000000 in
theorem val1_main_cst (V0 : Valuation τ sig (Elt F)) : val1 V0 (no_index (Proc.devRef .tc main_cst)) = denseTable0 := by
  unfold val1
  simp only [ops_part0]
  after_results_simp
  all_goals rfl
set_option maxRecDepth 8192 in
set_option maxHeartbeats 2000000 in
theorem val1_main_cst_0 (V0 : Valuation τ sig (Elt F)) : val1 V0 (no_index (Proc.devRef .tc main_cst_0)) = constant S2 .f32 0x41A00000#32 := by
  unfold val1
  simp only [ops_part0]
  after_results_simp
  all_goals rfl
set_option maxRecDepth 8192 in
set_option maxHeartbeats 2000000 in
theorem val1_main_cst_1 (V0 : Valuation τ sig (Elt F)) : val1 V0 (no_index (Proc.devRef .tc main_cst_1)) = constant S2 .f32 0x44200000#32 := by
  unfold val1
  simp only [ops_part0]
  after_results_simp
  all_goals rfl
set_option maxRecDepth 8192 in
set_option maxHeartbeats 2000000 in
theorem val1_main_cst_2 (V0 : Valuation τ sig (Elt F)) : val1 V0 (no_index (Proc.devRef .tc main_cst_2)) = constant S2 .f32 0x3F000000#32 := by
  unfold val1
  simp only [ops_part0]
  after_results_simp
  all_goals rfl
set_option maxRecDepth 8192 in
set_option maxHeartbeats 2000000 in
theorem val1_main_v13 (V0 : Valuation τ sig (Elt F)) : val1 V0 (no_index (Proc.devRef .tc main_v13)) = res_main_v13 V0 := by
  unfold val1
  simp only [ops_part0]
  after_results_simp
  simp only [val0_main_arg1] <;> rfl
set_option maxRecDepth 8192 in
set_option maxHeartbeats 2000000 in
theorem val1_main_v27 (V0 : Valuation τ sig (Elt F)) : val1 V0 (no_index (Proc.devRef .tc main_v27)) = Host.divf (Host.reduceAdd (Host.divf (broadcastInDim S8192x400x5 ![] bcast_S_S8192x400x5 (constant S_ .f32 0x3F800000#32)) (addf (broadcastInDim S8192x400x5 ![] bcast_S_S8192x400x5 (constant S_ .f32 0x3F800000#32)) (Host.exp (Host.negf (shapeCast _ (extractStridedSlice S8192x400x5x1 ![0, 0, 0, 4] (res_main_v16 V0) slices_S8192x400x5x5_S8192x400x5x1_0_0_0_4) shapeCasts_S8192x400x5x1_S8192x400x5))))) (constant S_ .f32 0x00000000#32) reducesTo_S8192x400x5_S8192x400_d2 h_S_) (broadcastInDim S8192x400 ![] bcast_S_S8192x400 (constant S_ .f32 0x40A00000#32)) := by
  unfold val1
  simp only [ops_part0]
  after_results_simp
  simp only [val0_main_arg0] <;> rfl
set_option maxRecDepth 8192 in
set_option maxHeartbeats 2000000 in
theorem val1_main_v31 (V0 : Valuation τ sig (Elt F)) : val1 V0 (no_index (Proc.devRef .tc main_v31)) = res_main_v31 V0 := by
  unfold val1
  simp only [ops_part0]
  after_results_simp
  simp only [val0_main_arg0] <;> rfl
set_option maxRecDepth 8192 in
set_option maxHeartbeats 2000000 in
theorem val1_main_v39 (V0 : Valuation τ sig (Elt F)) : val1 V0 (no_index (Proc.devRef .tc main_v39)) = Host.divf (broadcastInDim S8192x400 ![] bcast_S_S8192x400 (constant S_ .f32 0x3F800000#32)) (addf (broadcastInDim S8192x400 ![] bcast_S_S8192x400 (constant S_ .f32 0x3F800000#32)) (Host.exp (Host.negf (shapeCast _ (extractStridedSlice S8192x400x1 ![0, 0, 0] (res_main_v31 V0) slices_S8192x400x4_S8192x400x1_0_0_0) shapeCasts_S8192x400x1_S8192x400)))) := by
  unfold val1
  simp only [ops_part0]
  after_results_simp
  simp only [val0_main_arg0] <;> rfl
set_option maxRecDepth 8192 in
set_option maxHeartbeats 2000000 in
theorem val1_main_v43 (V0 : Valuation τ sig (Elt F)) : val1 V0 (no_index (Proc.devRef .tc main_v43)) = Host.exp (Host.negf (shapeCast _ (extractStridedSlice S8192x400x1 ![0, 0, 1] (res_main_v31 V0) slices_S8192x400x4_S8192x400x1_0_0_1) shapeCasts_S8192x400x1_S8192x400)) := by
  unfold val1
  simp only [ops_part0]
  after_results_simp
  simp only [val0_main_arg0] <;> rfl
set_option maxRecDepth 8192 in
set_option maxHeartbeats 2000000 in
theorem val1_main_cst_14 (V0 : Valuation τ sig (Elt F)) : val1 V0 (no_index (Proc.devRef .tc main_cst_14)) = constant S_ .f32 0x3F800000#32 := by
  unfold val1
  simp only [ops_part0]
  after_results_simp
  all_goals rfl

/-- The device's buffer contents after @main's first 2 windows. -/
def val2 (V0 : Valuation τ sig (Elt F)) : Valuation τ sig (Elt F) := after ops_part1a (val1 V0)
/-- The buffers that window `main_part1a`'s operations write. -/
abbrev ops_part1a_W : List (Ref sig .tc) := [main_v44, main_v45, main_cst_15, main_v46, main_v47, main_v48, main_v49, main_v50, main_v51, main_v52, main_v53, main_v54, main_cst_16, main_v55, main_v56, main_v57, main_v58, main_v59, main_v60, main_v61, main_v62, main_v63, main_cst_17, main_v64, main_v65, main_v66, main_v67, main_v68, main_v69, main_v70, main_v71]
set_option maxRecDepth 8192 in
theorem ops_part1a_writes : (ops_part1a : List (HloOp τ sig (Elt F))).Forall fun op => op.writes ⊆ (ops_part1a_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1a` does not write keeps its contents through it. -/
theorem val2_keep (V0 : Valuation τ sig (Elt F)) (r : Ref sig .tc) (h : r ∉ ops_part1a_W) :
    val2 V0 (Proc.devRef .tc r) = val1 V0 (Proc.devRef .tc r) :=
  after_of_writes_sub ops_part1a _ ops_part1a_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_cst (V0 : Valuation τ sig (Elt F)) : val2 V0 (no_index (Proc.devRef .tc main_cst)) = denseTable0 :=
  (val2_keep V0 main_cst (by decide)).trans (val1_main_cst V0)
theorem val2_main_cst_0 (V0 : Valuation τ sig (Elt F)) : val2 V0 (no_index (Proc.devRef .tc main_cst_0)) = constant S2 .f32 0x41A00000#32 :=
  (val2_keep V0 main_cst_0 (by decide)).trans (val1_main_cst_0 V0)
theorem val2_main_cst_1 (V0 : Valuation τ sig (Elt F)) : val2 V0 (no_index (Proc.devRef .tc main_cst_1)) = constant S2 .f32 0x44200000#32 :=
  (val2_keep V0 main_cst_1 (by decide)).trans (val1_main_cst_1 V0)
theorem val2_main_cst_2 (V0 : Valuation τ sig (Elt F)) : val2 V0 (no_index (Proc.devRef .tc main_cst_2)) = constant S2 .f32 0x3F000000#32 :=
  (val2_keep V0 main_cst_2 (by decide)).trans (val1_main_cst_2 V0)
theorem val2_main_v13 (V0 : Valuation τ sig (Elt F)) : val2 V0 (no_index (Proc.devRef .tc main_v13)) = res_main_v13 V0 :=
  (val2_keep V0 main_v13 (by decide)).trans (val1_main_v13 V0)
attribute [local irreducible] Host.reduce Host.gather in
set_option maxRecDepth 8192 in
set_option maxHeartbeats 2000000 in
theorem val2_main_v71 (V0 : Valuation τ sig (Elt F)) : val2 V0 (no_index (Proc.devRef .tc main_v71)) = res_main_v71 V0 := by
  unfold val2
  simp only [ops_part1a, op_main_v71_eq]
  after_results_simp
  try dsimp only [Matrix.cons_val]
  try after_results_simp
  simp only [val1_main_v27, val1_main_arg2, val1_main_v31, val1_main_v43, val1_main_cst_14, val1_main_v39] <;> rfl

/-- The device's buffer contents after @main's first 3 windows. -/
def val3 (V0 : Valuation τ sig (Elt F)) : Valuation τ sig (Elt F) := after ops_part1b (val2 V0)
/-- The buffers that window `main_part1b`'s operations write. -/
abbrev ops_part1b_W : List (Ref sig .tc) := [main_v72]
set_option maxRecDepth 8192 in
theorem ops_part1b_writes : (ops_part1b : List (HloOp τ sig (Elt F))).Forall fun op => op.writes ⊆ (ops_part1b_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part1b` does not write keeps its contents through it. -/
theorem val3_keep (V0 : Valuation τ sig (Elt F)) (r : Ref sig .tc) (h : r ∉ ops_part1b_W) :
    val3 V0 (Proc.devRef .tc r) = val2 V0 (Proc.devRef .tc r) :=
  after_of_writes_sub ops_part1b _ ops_part1b_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_cst (V0 : Valuation τ sig (Elt F)) : val3 V0 (no_index (Proc.devRef .tc main_cst)) = denseTable0 :=
  (val3_keep V0 main_cst (by decide)).trans (val2_main_cst V0)
theorem val3_main_cst_0 (V0 : Valuation τ sig (Elt F)) : val3 V0 (no_index (Proc.devRef .tc main_cst_0)) = constant S2 .f32 0x41A00000#32 :=
  (val3_keep V0 main_cst_0 (by decide)).trans (val2_main_cst_0 V0)
theorem val3_main_cst_1 (V0 : Valuation τ sig (Elt F)) : val3 V0 (no_index (Proc.devRef .tc main_cst_1)) = constant S2 .f32 0x44200000#32 :=
  (val3_keep V0 main_cst_1 (by decide)).trans (val2_main_cst_1 V0)
theorem val3_main_cst_2 (V0 : Valuation τ sig (Elt F)) : val3 V0 (no_index (Proc.devRef .tc main_cst_2)) = constant S2 .f32 0x3F000000#32 :=
  (val3_keep V0 main_cst_2 (by decide)).trans (val2_main_cst_2 V0)
theorem val3_main_v13 (V0 : Valuation τ sig (Elt F)) : val3 V0 (no_index (Proc.devRef .tc main_v13)) = res_main_v13 V0 :=
  (val3_keep V0 main_v13 (by decide)).trans (val2_main_v13 V0)
theorem val3_main_v71 (V0 : Valuation τ sig (Elt F)) : val3 V0 (no_index (Proc.devRef .tc main_v71)) = res_main_v71 V0 :=
  (val3_keep V0 main_v71 (by decide)).trans (val2_main_v71 V0)
attribute [local irreducible] Host.reduce Host.gather in
set_option maxRecDepth 8192 in
theorem val3_main_v72 (V0 : Valuation τ sig (Elt F)) : val3 V0 (no_index (Proc.devRef .tc main_v72)) = res_main_v72 V0 := by
  unfold val3
  simp only [ops_part1b]
  after_results_simp
  simp only [val2_main_v13] <;> rfl

/-- The device's buffer contents after @main's first 4 windows. -/
def val4 (V0 : Valuation τ sig (Elt F)) : Valuation τ sig (Elt F) := after ops_part1c (val3 V0)
/-- The buffers that window `main_part1c`'s operations write. -/
abbrev ops_part1c_W : List (Ref sig .tc) := [main_call0_c, main_call0_v0, main_call0_v1, main_call0_c_0, main_call0_v2, main_call0_v3, main_call0_v4]
set_option maxRecDepth 8192 in
theorem ops_part1c_writes : (ops_part1c : List (HloOp τ sig (Elt F))).Forall fun op => op.writes ⊆ (ops_part1c_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1c` does not write keeps its contents through it. -/
theorem val4_keep (V0 : Valuation τ sig (Elt F)) (r : Ref sig .tc) (h : r ∉ ops_part1c_W) :
    val4 V0 (Proc.devRef .tc r) = val3 V0 (Proc.devRef .tc r) :=
  after_of_writes_sub ops_part1c _ ops_part1c_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_cst (V0 : Valuation τ sig (Elt F)) : val4 V0 (no_index (Proc.devRef .tc main_cst)) = denseTable0 :=
  (val4_keep V0 main_cst (by decide)).trans (val3_main_cst V0)
theorem val4_main_cst_0 (V0 : Valuation τ sig (Elt F)) : val4 V0 (no_index (Proc.devRef .tc main_cst_0)) = constant S2 .f32 0x41A00000#32 :=
  (val4_keep V0 main_cst_0 (by decide)).trans (val3_main_cst_0 V0)
theorem val4_main_cst_1 (V0 : Valuation τ sig (Elt F)) : val4 V0 (no_index (Proc.devRef .tc main_cst_1)) = constant S2 .f32 0x44200000#32 :=
  (val4_keep V0 main_cst_1 (by decide)).trans (val3_main_cst_1 V0)
theorem val4_main_cst_2 (V0 : Valuation τ sig (Elt F)) : val4 V0 (no_index (Proc.devRef .tc main_cst_2)) = constant S2 .f32 0x3F000000#32 :=
  (val4_keep V0 main_cst_2 (by decide)).trans (val3_main_cst_2 V0)
theorem val4_main_v13 (V0 : Valuation τ sig (Elt F)) : val4 V0 (no_index (Proc.devRef .tc main_v13)) = res_main_v13 V0 :=
  (val4_keep V0 main_v13 (by decide)).trans (val3_main_v13 V0)
theorem val4_main_v71 (V0 : Valuation τ sig (Elt F)) : val4 V0 (no_index (Proc.devRef .tc main_v71)) = res_main_v71 V0 :=
  (val4_keep V0 main_v71 (by decide)).trans (val3_main_v71 V0)
attribute [local irreducible] Host.reduce Host.gather in
set_option maxRecDepth 8192 in
theorem val4_main_call0_v4 (V0 : Valuation τ sig (Elt F)) : val4 V0 (no_index (Proc.devRef .tc main_call0_v4)) = res_main_call0_v4 V0 := by
  unfold val4
  simp only [ops_part1c]
  after_results_simp
  simp only [val3_main_v72] <;> rfl

/-- The device's buffer contents after @main's first 5 windows. -/
def val5 (V0 : Valuation τ sig (Elt F)) : Valuation τ sig (Elt F) := after ops_part1d (val4 V0)
/-- The buffers that window `main_part1d`'s operations write. -/
abbrev ops_part1d_W : List (Ref sig .tc) := [main_call0_c_1, main_call0_c_2, main_call0_v5, main_call0_v6, main_call0_v7, main_call0_v8, main_call0_v9, main_call0_v10, main_call0_c_3, main_call0_v11, main_call0_v12, main_call0_v13, main_call0_cst, main_call0_v14, main_v73, main_v74, main_call1_v0, main_call1_v1, main_call1_v2, main_call1_v3, main_call1_v4, main_v75, main_cst_18, main_v76, main_v77, main_v78, main_v79, main_v80, main_v81, main_v82, main_cst_19, main_v83, main_v84, main_v85, main_v86, main_cst_20, main_v87, main_v88, main_v89, main_cst_21, main_v90, main_v91, main_v92, main_v93, main_cst_22, main_v94, main_v95]
set_option maxRecDepth 8192 in
theorem ops_part1d_writes : (ops_part1d : List (HloOp τ sig (Elt F))).Forall fun op => op.writes ⊆ (ops_part1d_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1d` does not write keeps its contents through it. -/
theorem val5_keep (V0 : Valuation τ sig (Elt F)) (r : Ref sig .tc) (h : r ∉ ops_part1d_W) :
    val5 V0 (Proc.devRef .tc r) = val4 V0 (Proc.devRef .tc r) :=
  after_of_writes_sub ops_part1d _ ops_part1d_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_cst_0 (V0 : Valuation τ sig (Elt F)) : val5 V0 (no_index (Proc.devRef .tc main_cst_0)) = constant S2 .f32 0x41A00000#32 :=
  (val5_keep V0 main_cst_0 (by decide)).trans (val4_main_cst_0 V0)
theorem val5_main_cst_1 (V0 : Valuation τ sig (Elt F)) : val5 V0 (no_index (Proc.devRef .tc main_cst_1)) = constant S2 .f32 0x44200000#32 :=
  (val5_keep V0 main_cst_1 (by decide)).trans (val4_main_cst_1 V0)
theorem val5_main_cst_2 (V0 : Valuation τ sig (Elt F)) : val5 V0 (no_index (Proc.devRef .tc main_cst_2)) = constant S2 .f32 0x3F000000#32 :=
  (val5_keep V0 main_cst_2 (by decide)).trans (val4_main_cst_2 V0)
theorem val5_main_v71 (V0 : Valuation τ sig (Elt F)) : val5 V0 (no_index (Proc.devRef .tc main_v71)) = res_main_v71 V0 :=
  (val5_keep V0 main_v71 (by decide)).trans (val4_main_v71 V0)
attribute [local irreducible] Host.reduce Host.gather in
set_option maxRecDepth 8192 in
set_option maxHeartbeats 2000000 in
theorem val5_main_v74 (V0 : Valuation τ sig (Elt F)) : val5 V0 (no_index (Proc.devRef .tc main_v74)) = res_main_v74 V0 := by
  unfold val5
  simp only [ops_part1d]
  after_results_simp
  simp only [val4_main_call0_v4, val4_main_v71] <;> rfl
attribute [local irreducible] Host.reduce Host.gather in
set_option maxRecDepth 8192 in
set_option maxHeartbeats 2000000 in
theorem val5_main_v77 (V0 : Valuation τ sig (Elt F)) : val5 V0 (no_index (Proc.devRef .tc main_v77)) = res_main_v77 V0 := by
  unfold val5
  simp only [ops_part1d]
  after_results_simp
  simp only [val4_main_v13] <;> rfl
attribute [local irreducible] Host.reduce Host.gather in
set_option maxRecDepth 8192 in
set_option maxHeartbeats 2000000 in
theorem val5_main_v80 (V0 : Valuation τ sig (Elt F)) : val5 V0 (no_index (Proc.devRef .tc main_v80)) = res_main_v80 V0 := by
  unfold val5
  simp only [ops_part1d]
  after_results_simp
  simp only [val4_main_cst, val4_main_arg1] <;> rfl
attribute [local irreducible] Host.reduce Host.gather in
set_option maxRecDepth 8192 in
set_option maxHeartbeats 2000000 in
theorem val5_main_v91 (V0 : Valuation τ sig (Elt F)) : val5 V0 (no_index (Proc.devRef .tc main_v91)) = maximumf (subf (mulf (shapeCast _ (extractStridedSlice S8192x1 ![0, 0] (res_main_v80 V0) slices_S8192x4_S8192x1_0_0) shapeCasts_S8192x1_S8192) (broadcastInDim S8192 ![] bcast_S_S8192 (constant S_ .f32 0x42000000#32))) (Host.divf (shapeCast _ (extractStridedSlice S8192x1 ![0, 2] (res_main_v80 V0) slices_S8192x4_S8192x1_0_2) shapeCasts_S8192x1_S8192) (broadcastInDim S8192 ![] bcast_S_S8192 (constant S_ .f32 0x40000000#32)))) (broadcastInDim S8192 ![] bcast_S_S8192 (constant S_ .f32 0x00000000#32)) := by
  unfold val5
  simp only [ops_part1d]
  after_results_simp
  simp only [val4_main_cst, val4_main_arg1] <;> rfl
attribute [local irreducible] Host.reduce Host.gather in
set_option maxRecDepth 8192 in
set_option maxHeartbeats 2000000 in
theorem val5_main_v95 (V0 : Valuation τ sig (Elt F)) : val5 V0 (no_index (Proc.devRef .tc main_v95)) = mulf (shapeCast _ (extractStridedSlice S8192x1 ![0, 1] (res_main_v80 V0) slices_S8192x4_S8192x1_0_1) shapeCasts_S8192x1_S8192) (broadcastInDim S8192 ![] bcast_S_S8192 (constant S_ .f32 0x42000000#32)) := by
  unfold val5
  simp only [ops_part1d]
  after_results_simp
  simp only [val4_main_cst, val4_main_arg1] <;> rfl

/-- The device's buffer contents after @main's first 6 windows. -/
def val6 (V0 : Valuation τ sig (Elt F)) : Valuation τ sig (Elt F) := after ops_part2 (val5 V0)
/-- The buffers that window `main_part2`'s operations write. -/
abbrev ops_part2_W : List (Ref sig .tc) := [main_v96, main_v97, main_cst_23, main_v98, main_v99, main_v100, main_cst_24, main_v101, main_v102, main_v103, main_v104, main_cst_25, main_v105, main_v106, main_v107, main_v108, main_cst_26, main_v109, main_v110, main_v111, main_cst_27, main_v112, main_v113, main_v114, main_v115, main_cst_28, main_v116, main_v117, main_v118, main_v119, main_cst_29, main_v120, main_v121, main_v122, main_cst_30, main_v123, main_v124, main_v125, main_v126, main_v127, main_v128, main_v129, main_v130, main_v131, main_cst_31, main_v132, main_v133, main_v134, main_v135, main_cst_32, main_v136, main_v137, main_v138, main_cst_33, main_v139, main_v140, main_v141, main_v142, main_cst_34, main_v143]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val6_keep (V0 : Valuation τ sig (Elt F)) (r : Ref sig .tc) (h : r ∉ ops_part2_W) :
    val6 V0 (Proc.devRef .tc r) = val5 V0 (Proc.devRef .tc r) :=
  after_of_writes_sub ops_part2 _ ops_part2_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_cst_0 (V0 : Valuation τ sig (Elt F)) : val6 V0 (no_index (Proc.devRef .tc main_cst_0)) = constant S2 .f32 0x41A00000#32 :=
  (val6_keep V0 main_cst_0 (by decide)).trans (val5_main_cst_0 V0)
theorem val6_main_cst_1 (V0 : Valuation τ sig (Elt F)) : val6 V0 (no_index (Proc.devRef .tc main_cst_1)) = constant S2 .f32 0x44200000#32 :=
  (val6_keep V0 main_cst_1 (by decide)).trans (val5_main_cst_1 V0)
theorem val6_main_cst_2 (V0 : Valuation τ sig (Elt F)) : val6 V0 (no_index (Proc.devRef .tc main_cst_2)) = constant S2 .f32 0x3F000000#32 :=
  (val6_keep V0 main_cst_2 (by decide)).trans (val5_main_cst_2 V0)
theorem val6_main_v71 (V0 : Valuation τ sig (Elt F)) : val6 V0 (no_index (Proc.devRef .tc main_v71)) = res_main_v71 V0 :=
  (val6_keep V0 main_v71 (by decide)).trans (val5_main_v71 V0)
theorem val6_main_v74 (V0 : Valuation τ sig (Elt F)) : val6 V0 (no_index (Proc.devRef .tc main_v74)) = res_main_v74 V0 :=
  (val6_keep V0 main_v74 (by decide)).trans (val5_main_v74 V0)
theorem val6_main_v77 (V0 : Valuation τ sig (Elt F)) : val6 V0 (no_index (Proc.devRef .tc main_v77)) = res_main_v77 V0 :=
  (val6_keep V0 main_v77 (by decide)).trans (val5_main_v77 V0)
theorem val6_main_v80 (V0 : Valuation τ sig (Elt F)) : val6 V0 (no_index (Proc.devRef .tc main_v80)) = res_main_v80 V0 :=
  (val6_keep V0 main_v80 (by decide)).trans (val5_main_v80 V0)
set_option maxRecDepth 8192 in
set_option maxHeartbeats 2000000 in
theorem val6_main_v129 (V0 : Valuation τ sig (Elt F)) : val6 V0 (no_index (Proc.devRef .tc main_v129)) = res_main_v129 V0 := by
  unfold val6
  simp only [ops_part2, op_main_v129_eq]
  after_results_simp
  try dsimp only [Matrix.cons_val]
  try after_results_simp
  simp only [val5_main_v80, val5_main_v95, val5_main_v91] <;> rfl
set_option maxRecDepth 8192 in
set_option maxHeartbeats 2000000 in
theorem val6_main_v140 (V0 : Valuation τ sig (Elt F)) : val6 V0 (no_index (Proc.devRef .tc main_v140)) = maximumf (subf (mulf (shapeCast _ (extractStridedSlice S8192x1 ![0, 0] (res_main_v74 V0) slices_S8192x5_S8192x1_0_0) shapeCasts_S8192x1_S8192) (broadcastInDim S8192 ![] bcast_S_S8192 (constant S_ .f32 0x42000000#32))) (Host.divf (shapeCast _ (extractStridedSlice S8192x1 ![0, 2] (res_main_v74 V0) slices_S8192x5_S8192x1_0_2) shapeCasts_S8192x1_S8192) (broadcastInDim S8192 ![] bcast_S_S8192 (constant S_ .f32 0x40000000#32)))) (broadcastInDim S8192 ![] bcast_S_S8192 (constant S_ .f32 0x00000000#32)) := by
  unfold val6
  simp only [ops_part2, op_main_v129_eq]
  after_results_simp
  try dsimp only [Matrix.cons_val]
  try after_results_simp
  simp only [val5_main_v74] <;> rfl
set_option maxRecDepth 8192 in
set_option maxHeartbeats 2000000 in
theorem val6_main_v142 (V0 : Valuation τ sig (Elt F)) : val6 V0 (no_index (Proc.devRef .tc main_v142)) = shapeCast _ (extractStridedSlice S8192x1 ![0, 1] (res_main_v74 V0) slices_S8192x5_S8192x1_0_1) shapeCasts_S8192x1_S8192 := by
  unfold val6
  simp only [ops_part2, op_main_v129_eq]
  after_results_simp
  try dsimp only [Matrix.cons_val]
  try after_results_simp
  simp only [val5_main_v74] <;> rfl
set_option maxRecDepth 8192 in
set_option maxHeartbeats 2000000 in
theorem val6_main_v143 (V0 : Valuation τ sig (Elt F)) : val6 V0 (no_index (Proc.devRef .tc main_v143)) = broadcastInDim S8192 ![] bcast_S_S8192 (constant S_ .f32 0x42000000#32) := by
  unfold val6
  simp only [ops_part2, op_main_v129_eq]
  after_results_simp
  try dsimp only [Matrix.cons_val]
  try after_results_simp
  all_goals rfl

/-- The device's buffer contents after @main's first 7 windows. -/
def val7 (V0 : Valuation τ sig (Elt F)) : Valuation τ sig (Elt F) := after ops_part3 (val6 V0)
/-- The buffers that window `main_part3`'s operations write. -/
abbrev ops_part3_W : List (Ref sig .tc) := [main_v144, main_v145, main_v146, main_cst_35, main_v147, main_v148, main_v149, main_cst_36, main_v150, main_v151, main_v152, main_v153, main_cst_37, main_v154, main_v155, main_v156, main_v157, main_cst_38, main_v158, main_v159, main_v160, main_cst_39, main_v161, main_v162, main_v163, main_v164, main_cst_40, main_v165, main_v166, main_v167, main_v168, main_cst_41, main_v169, main_v170, main_v171, main_cst_42, main_v172, main_v173, main_v174, main_v175, main_v176, main_v177, main_v178, main_v179, main_v180, main_v181, main_v182, main_v183, main_v184, main_v185, main_v186, main_v187, main_v188, main_v189, main_cst_43, main_v190, main_v191, main_v192, main_v193, main_v194]
set_option maxRecDepth 8192 in
theorem ops_part3_writes : (ops_part3 : List (HloOp τ sig (Elt F))).Forall fun op => op.writes ⊆ (ops_part3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part3` does not write keeps its contents through it. -/
theorem val7_keep (V0 : Valuation τ sig (Elt F)) (r : Ref sig .tc) (h : r ∉ ops_part3_W) :
    val7 V0 (Proc.devRef .tc r) = val6 V0 (Proc.devRef .tc r) :=
  after_of_writes_sub ops_part3 _ ops_part3_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_cst_0 (V0 : Valuation τ sig (Elt F)) : val7 V0 (no_index (Proc.devRef .tc main_cst_0)) = constant S2 .f32 0x41A00000#32 :=
  (val7_keep V0 main_cst_0 (by decide)).trans (val6_main_cst_0 V0)
theorem val7_main_cst_1 (V0 : Valuation τ sig (Elt F)) : val7 V0 (no_index (Proc.devRef .tc main_cst_1)) = constant S2 .f32 0x44200000#32 :=
  (val7_keep V0 main_cst_1 (by decide)).trans (val6_main_cst_1 V0)
theorem val7_main_cst_2 (V0 : Valuation τ sig (Elt F)) : val7 V0 (no_index (Proc.devRef .tc main_cst_2)) = constant S2 .f32 0x3F000000#32 :=
  (val7_keep V0 main_cst_2 (by decide)).trans (val6_main_cst_2 V0)
theorem val7_main_v71 (V0 : Valuation τ sig (Elt F)) : val7 V0 (no_index (Proc.devRef .tc main_v71)) = res_main_v71 V0 :=
  (val7_keep V0 main_v71 (by decide)).trans (val6_main_v71 V0)
theorem val7_main_v74 (V0 : Valuation τ sig (Elt F)) : val7 V0 (no_index (Proc.devRef .tc main_v74)) = res_main_v74 V0 :=
  (val7_keep V0 main_v74 (by decide)).trans (val6_main_v74 V0)
theorem val7_main_v77 (V0 : Valuation τ sig (Elt F)) : val7 V0 (no_index (Proc.devRef .tc main_v77)) = res_main_v77 V0 :=
  (val7_keep V0 main_v77 (by decide)).trans (val6_main_v77 V0)
theorem val7_main_v80 (V0 : Valuation τ sig (Elt F)) : val7 V0 (no_index (Proc.devRef .tc main_v80)) = res_main_v80 V0 :=
  (val7_keep V0 main_v80 (by decide)).trans (val6_main_v80 V0)
theorem val7_main_v129 (V0 : Valuation τ sig (Elt F)) : val7 V0 (no_index (Proc.devRef .tc main_v129)) = res_main_v129 V0 :=
  (val7_keep V0 main_v129 (by decide)).trans (val6_main_v129 V0)
set_option maxRecDepth 8192 in
set_option maxHeartbeats 2000000 in
theorem val7_main_v178 (V0 : Valuation τ sig (Elt F)) : val7 V0 (no_index (Proc.devRef .tc main_v178)) = res_main_v178 V0 := by
  unfold val7
  simp only [ops_part3, op_main_v178_eq]
  after_results_simp
  try dsimp only [Matrix.cons_val]
  try after_results_simp
  simp only [val6_main_v74, val6_main_v143, val6_main_v142, val6_main_v140] <;> rfl
set_option maxRecDepth 8192 in
set_option maxHeartbeats 2000000 in
theorem val7_main_v191 (V0 : Valuation τ sig (Elt F)) : val7 V0 (no_index (Proc.devRef .tc main_v191)) = maximumf (subf (minimumf (shapeCast _ (extractStridedSlice S8192x1 ![0, 2] (res_main_v129 V0) slices_S8192x4_S8192x1_0_2) shapeCasts_S8192x1_S8192) (shapeCast _ (extractStridedSlice S8192x1 ![0, 2] (res_main_v178 V0) slices_S8192x4_S8192x1_0_2) shapeCasts_S8192x1_S8192)) (maximumf (shapeCast _ (extractStridedSlice S8192x1 ![0, 0] (res_main_v129 V0) slices_S8192x4_S8192x1_0_0) shapeCasts_S8192x1_S8192) (shapeCast _ (extractStridedSlice S8192x1 ![0, 0] (res_main_v178 V0) slices_S8192x4_S8192x1_0_0) shapeCasts_S8192x1_S8192))) (broadcastInDim S8192 ![] bcast_S_S8192 (constant S_ .f32 0x00000000#32)) := by
  unfold val7
  simp only [ops_part3, op_main_v178_eq]
  after_results_simp
  try dsimp only [Matrix.cons_val]
  try after_results_simp
  simp only [val6_main_v74, val6_main_v143, val6_main_v142, val6_main_v140, val6_main_v129] <;> rfl
set_option maxRecDepth 8192 in
set_option maxHeartbeats 2000000 in
theorem val7_main_v193 (V0 : Valuation τ sig (Elt F)) : val7 V0 (no_index (Proc.devRef .tc main_v193)) = shapeCast _ (extractStridedSlice S8192x1 ![0, 3] (res_main_v129 V0) slices_S8192x4_S8192x1_0_3) shapeCasts_S8192x1_S8192 := by
  unfold val7
  simp only [ops_part3, op_main_v178_eq]
  after_results_simp
  try dsimp only [Matrix.cons_val]
  try after_results_simp
  simp only [val6_main_v129] <;> rfl
set_option maxRecDepth 8192 in
set_option maxHeartbeats 2000000 in
theorem val7_main_v194 (V0 : Valuation τ sig (Elt F)) : val7 V0 (no_index (Proc.devRef .tc main_v194)) = extractStridedSlice S8192x1 ![0, 3] (res_main_v178 V0) slices_S8192x4_S8192x1_0_3 := by
  unfold val7
  simp only [ops_part3, op_main_v178_eq]
  after_results_simp
  try dsimp only [Matrix.cons_val]
  try after_results_simp
  simp only [val6_main_v74, val6_main_v143, val6_main_v142, val6_main_v140] <;> rfl

/-- The device's buffer contents after @main's first 8 windows. -/
def val8 (V0 : Valuation τ sig (Elt F)) : Valuation τ sig (Elt F) := after ops_part4 (val7 V0)
/-- The buffers that window `main_part4`'s operations write. -/
abbrev ops_part4_W : List (Ref sig .tc) := [main_v195, main_v196, main_v197, main_v198, main_v199, main_v200, main_v201, main_v202, main_cst_44, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_cst_45, main_v230, main_cst_46, main_v231, main_v232, main_v233, main_v234, main_v235, main_v236, main_cst_47, main_v237, main_cst_48, main_v238, main_v239, main_v240, main_v241, main_cst_49, main_v242, main_v243, main_v244, main_v245, main_v246, main_v247, main_v248]
set_option maxRecDepth 8192 in
theorem ops_part4_writes : (ops_part4 : List (HloOp τ sig (Elt F))).Forall fun op => op.writes ⊆ (ops_part4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part4` does not write keeps its contents through it. -/
theorem val8_keep (V0 : Valuation τ sig (Elt F)) (r : Ref sig .tc) (h : r ∉ ops_part4_W) :
    val8 V0 (Proc.devRef .tc r) = val7 V0 (Proc.devRef .tc r) :=
  after_of_writes_sub ops_part4 _ ops_part4_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_v71 (V0 : Valuation τ sig (Elt F)) : val8 V0 (no_index (Proc.devRef .tc main_v71)) = res_main_v71 V0 :=
  (val8_keep V0 main_v71 (by decide)).trans (val7_main_v71 V0)
theorem val8_main_v74 (V0 : Valuation τ sig (Elt F)) : val8 V0 (no_index (Proc.devRef .tc main_v74)) = res_main_v74 V0 :=
  (val8_keep V0 main_v74 (by decide)).trans (val7_main_v74 V0)
theorem val8_main_v77 (V0 : Valuation τ sig (Elt F)) : val8 V0 (no_index (Proc.devRef .tc main_v77)) = res_main_v77 V0 :=
  (val8_keep V0 main_v77 (by decide)).trans (val7_main_v77 V0)
set_option maxRecDepth 8192 in
set_option maxHeartbeats 2000000 in
theorem val8_main_v218 (V0 : Valuation τ sig (Elt F)) : val8 V0 (no_index (Proc.devRef .tc main_v218)) = Host.divf (res_main_v205 V0) (subf (addf (mulf (shapeCast _ (extractStridedSlice S8192x1 ![0, 2] (res_main_v80 V0) slices_S8192x4_S8192x1_0_2) shapeCasts_S8192x1_S8192) (shapeCast _ (extractStridedSlice S8192x1 ![0, 3] (res_main_v80 V0) slices_S8192x4_S8192x1_0_3) shapeCasts_S8192x1_S8192)) (mulf (shapeCast _ (extractStridedSlice S8192x1 ![0, 2] (res_main_v74 V0) slices_S8192x5_S8192x1_0_2) shapeCasts_S8192x1_S8192) (shapeCast _ (extractStridedSlice S8192x1 ![0, 3] (res_main_v74 V0) slices_S8192x5_S8192x1_0_3) shapeCasts_S8192x1_S8192))) (res_main_v205 V0)) := by
  unfold val8
  simp only [ops_part4, op_main_v244_eq]
  after_results_simp
  simp only [val7_main_v74, val7_main_v80, val7_main_v178, val7_main_v129, val7_main_v194, val7_main_v193, val7_main_v191] <;> rfl
set_option maxRecDepth 8192 in
set_option maxHeartbeats 2000000 in
theorem val8_main_v239 (V0 : Valuation τ sig (Elt F)) : val8 V0 (no_index (Proc.devRef .tc main_v239)) = addf (Host.divf (Host.reduceAdd (mulf (res_main_v228 V0) (res_main_v228 V0)) (constant S_ .f32 0x00000000#32) reducesTo_S8192x2_S_d0_1 h_S_) (constant S_ .f32 0x46800000#32)) (Host.divf (Host.reduceAdd (mulf (res_main_v235 V0) (res_main_v235 V0)) (constant S_ .f32 0x00000000#32) reducesTo_S8192x2_S_d0_1 h_S_) (constant S_ .f32 0x46800000#32)) := by
  unfold val8
  simp only [ops_part4, op_main_v244_eq]
  after_results_simp
  simp only [val7_main_cst_1, val7_main_arg1, val7_main_v74, val7_main_cst_0] <;> rfl
set_option maxRecDepth 8192 in
set_option maxHeartbeats 2000000 in
theorem val8_main_v248 (V0 : Valuation τ sig (Elt F)) : val8 V0 (no_index (Proc.devRef .tc main_v248)) = res_main_v248 V0 := by
  unfold val8
  simp only [ops_part4, op_main_v244_eq]
  after_results_simp
  simp only [val7_main_arg2, val7_main_cst_2, val7_main_v71] <;> rfl

/-- The device's buffer contents after @main's first 9 windows. -/
def val9 (V0 : Valuation τ sig (Elt F)) : Valuation τ sig (Elt F) := after ops_part5 (val8 V0)
/-- The buffers that window `main_part5`'s operations write. -/
abbrev ops_part5_W : List (Ref sig .tc) := [main_v249, main_v250, main_v251, main_v252, main_cst_50, main_v253, main_cst_51, main_cst_52, main_v254, main_v255, main_v256, main_v257, main_v258, main_v259, main_cst_53, main_v260, main_cst_54, main_v261, main_v262, main_v263, main_v264, main_v265, main_cst_55, main_v266, main_cst_56, main_v267, main_cst_57, main_v268, main_cst_58, main_v269, main_v270, main_cst_59, main_v271, main_v272, main_cst_60, main_v273, main_v274]
set_option maxRecDepth 8192 in
theorem ops_part5_writes : (ops_part5 : List (HloOp τ sig (Elt F))).Forall fun op => op.writes ⊆ (ops_part5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part5` does not write keeps its contents through it. -/
theorem val9_keep (V0 : Valuation τ sig (Elt F)) (r : Ref sig .tc) (h : r ∉ ops_part5_W) :
    val9 V0 (Proc.devRef .tc r) = val8 V0 (Proc.devRef .tc r) :=
  after_of_writes_sub ops_part5 _ ops_part5_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
set_option maxRecDepth 8192 in
set_option maxHeartbeats 2000000 in
theorem val9_main_v274 (V0 : Valuation τ sig (Elt F)) : val9 V0 (no_index (Proc.devRef .tc main_v274)) = res_main_v274 V0 := by
  unfold val9
  simp only [ops_part5]
  after_results_simp
  simp only [val8_main_v77, val8_main_v71, val8_main_v218, val8_main_v74, val8_main_v248, val8_main_v239] <;> rfl

theorem after_ops (V0 : Valuation τ sig (Elt F)) : after ops V0 = val9 V0 := by
  simp only [ops, after_append]
  rw [ops_part1_after]
  rfl

/-! ## The run -/

set_option maxRecDepth 8192 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v274) = res_main_v274 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v274).trans (by simp only [after_ops]; exact val9_main_v274 (launchContents m c)),
      (h c main_arg0).trans (by simp only [after_ops]; exact val9_main_arg0 (launchContents m c)),
      (h c main_arg1).trans (by simp only [after_ops]; exact val9_main_arg1 (launchContents m c)),
      (h c main_arg2).trans (by simp only [after_ops]; exact val9_main_arg2 (launchContents m c))⟩)
    (run_seq scopedRefs_eq scopedSems_eq defs main (fun _ => ops) main_eq (fun _ => ops_sub) m ρ)

end Cert.GridLoss.Ref

end
-- ==== Proof.RefArgs.lean ====
/-
  The reference's three argument arrays, read off the device's buffer contents at the types the specification takes.
-/
import proofs.«403400_j21895743275785_4_alg».proof.Proof.RefTerms
import proofs.«403400_j21895743275785_4_alg».proof.Proof.Spec

noncomputable section

namespace Cert.GridLoss.Ref

open Cert.ReferenceIdeal Cert.ReferenceIdeal.Terms Idealize.ShloMosaic Idealize.ShloMosaic.TcCoe Idealize.ShloMosaic.StableHlo

/-- The prediction array [8192, 25, 20, 20]. -/
abbrev argP (V0 : Valuation τ sig (Elt Ideal)) : PredIdx → EReal := V0 (Proc.devRef .tc main_arg0)
/-- The label array [8192, 4]. -/
abbrev argL (V0 : Valuation τ sig (Elt Ideal)) : LabIdx → EReal := V0 (Proc.devRef .tc main_arg1)
/-- The anchor array [5, 2]. -/
abbrev argA (V0 : Valuation τ sig (Elt Ideal)) : AncIdx → EReal := V0 (Proc.devRef .tc main_arg2)

end Cert.GridLoss.Ref

end
-- ==== Proof.RefCells.lean ====
/-
  The reference's decoded array [8192, 400, 5], read at an entry: the five cell quantities of the specification.

  The decoded array is five [8192, 400, 1] columns laid side by side. Each column is computed from the prediction array
  regrouped as [8192, 400, 5, 5] (cell, anchor, feature): entry (b, c, a, f) is channel 5a + f of cell c, because the
  row-major position of (b, 5a + f, c / 20, c % 20) in [8192, 25, 20, 20] is that of (b, 5a + f, c) in [8192, 25, 400].
  A mean over the anchor axis is the host's sum from the initial value 0, which is the finite sum over the five anchors,
  divided by the word 5.0, which is multiplication by the exact fifth. `1 / (1 + exp (-x))` with the word 1.0 is the
  logistic function by definition, and `(e * a) * w = e * (a * w)` puts the anchor's pixel size together.
-/
import proofs.«403400_j21895743275785_4_alg».proof.Proof.RefArgs
import proofs.«403400_j21895743275785_4_alg».proof.Proof.Consts
import Idealize.ShloMosaic.Lib.Pipeline.Value
import Idealize.ShloMosaic.Lib.ValueLayout
import Idealize.ShloMosaic.Lib.IdealHost
import Idealize.ShloMosaic.PureOps.Ideal.Laws

noncomputable section

namespace Cert.GridLoss.Ref

open Cert.ReferenceIdeal Cert.ReferenceIdeal.Terms Idealize.ShloMosaic Idealize.ShloMosaic.TcCoe Idealize.ShloMosaic.StableHlo Idealize.ShloMosaic.ValueIdx

/-- The prediction array regrouped: entry (b, c, a, f) of the [8192, 400, 5, 5] array is channel 5a + f of cell c. -/
theorem regroup_apply (P : PredIdx → EReal)
    (h1 : S8192x25x20x20.ShapeCasts S8192x25x400) (h2 : S8192x25x400.Transposes [0, 2, 1] S8192x400x25)
    (h3 : S8192x400x25.ShapeCasts S8192x400x5x5) (b : Fin 8192) (c : Fin 400) (a f : Fin 5) :
    shapeCast S8192x400x5x5 (transpose S8192x400x25 [0, 2, 1] (shapeCast S8192x25x400 P h1) h2) h3 (ix4 b c a f)
      = predChan P b (kof a f) c := by
  have hb := b.isLt
  have hc := c.isLt
  have ha := a.isLt
  have hf := f.isLt
  refine (shapeCast_apply _ h3 (ix4 b c a f) (ix3 b c (kof a f)) (by
    rw [Shape.rowMajor_val_three, Shape.rowMajor_val_four]
    show (b.val * 400 + c.val) * 25 + (5 * a.val + f.val) = ((b.val * 400 + c.val) * 5 + a.val) * 5 + f.val
    omega)).trans ?_
  refine (transpose_ix3_021_apply _ h2 b c (kof a f)).trans ?_
  refine (shapeCast_apply _ h1 (ix3 b (kof a f) c) (ix4 b (kof a f) ⟨c.val / 20, by omega⟩ ⟨c.val % 20, by omega⟩) (by
    rw [Shape.rowMajor_val_four, Shape.rowMajor_val_three]
    show ((b.val * 25 + (5 * a.val + f.val)) * 20 + c.val / 20) * 20 + c.val % 20 = (b.val * 25 + (5 * a.val + f.val)) * 400 + c.val
    omega)).trans ?_
  rfl

theorem v16_apply (V0 : Valuation τ sig (Elt Ideal)) (b : Fin 8192) (c : Fin 400) (a f : Fin 5) :
    res_main_v16 (F := Ideal) V0 (ix4 b c a f) = predChan (argP V0) b (kof a f) c :=
  regroup_apply (argP V0) _ _ _ b c a f

/-- The host's mean over the anchor axis of features 0 to 3, at one entry: the sum over the five anchors times the exact fifth. -/
theorem mean4_apply (X : FVec Ideal S8192x400x5x5 .f32)
    (hs : S8192x400x5x5.Slices ![0, 0, 0, 0] S8192x400x5x4)
    (hr : S8192x400x5x4.ReducesTo [2] S8192x400x4) (hu : 0 < S_.numel)
    (hb : S_.BroadcastsInDim S8192x400x4 (![] : Fin 0 → Fin S8192x400x4.rank))
    (b : Fin 8192) (c : Fin 400) (f : Fin 4) (f' : Fin 5) (hf : f'.val = f.val) :
    Host.divf (Host.reduceAdd (F := Ideal) (extractStridedSlice S8192x400x5x4 ![0, 0, 0, 0] X hs)
        (constant (F := Ideal) S_ .f32 0x00000000#32) hr hu)
      (broadcastInDim S8192x400x4 ![] hb (constant (F := Ideal) S_ .f32 0x40A00000#32)) (ix3 b c f)
      = (∑ a : Fin 5, X (ix4 b c a f')) * fifth := by
  have hR : S8192x400x5x4.Reduces [2] S8192x400x4 := by decide
  show Ideal.div (Ideal.hostReduceAdd hr (extractStridedSlice S8192x400x5x4 ![0, 0, 0, 0] X hs) (wd 0x00000000#32) (ix3 b c f))
      (broadcastInDim S8192x400x4 ![] hb (constant (F := Ideal) S_ .f32 0x40A00000#32) (ix3 b c f)) = _
  rw [Ideal.hostReduceAdd_single hr hR, broadcastInDim_scalar_apply]
  show Ideal.div (wd 0x00000000#32 + ∑ k : Fin 5, extractStridedSlice S8192x400x5x4 ![0, 0, 0, 0] X hs (hR.lift (ix3 b c f) k))
      (wd 0x40A00000#32) = _
  rw [wd_zero, zero_add, wd_five, Ideal.div_coe (by norm_num : (5 : ℝ) ≠ 0)]
  refine congrArg (· * fifth) (Finset.sum_congr rfl fun k _ => ?_)
  exact extractStridedSlice_apply _ X hs _ (ix4 b c k f') (fun a => match a with
    | ⟨0, _⟩ => by show b.val = 0 + b.val; omega
    | ⟨1, _⟩ => by show c.val = 0 + c.val; omega
    | ⟨2, _⟩ => by show k.val = 0 + k.val; omega
    | ⟨3, _⟩ => by show f'.val = 0 + f.val; omega)

theorem v31_apply (V0 : Valuation τ sig (Elt Ideal)) (b : Fin 8192) (c : Fin 400) (f : Fin 4) (f' : Fin 5)
    (hf : f'.val = f.val) :
    res_main_v31 (F := Ideal) V0 (ix3 b c f) = rawMean (predChan (argP V0)) f' b c := by
  unfold res_main_v31
  refine (mean4_apply (res_main_v16 (F := Ideal) V0) _ _ _ _ b c f f' hf).trans ?_
  unfold rawMean
  exact congrArg (· * fifth) (Finset.sum_congr rfl fun a _ => v16_apply V0 b c a f')

/-- Column `f` of a [8192, 400, 4] array, as the [8192, 400] array the host slices and reshapes it to, at one entry. -/
theorem column4_apply (X : FVec Ideal S8192x400x4 .f32) (o : Nat)
    (hs : S8192x400x4.Slices ![0, 0, o] S8192x400x1) (hc : S8192x400x1.ShapeCasts S8192x400)
    (b : Fin 8192) (c : Fin 400) (f : Fin 4) (hf : f.val = o) :
    shapeCast S8192x400 (extractStridedSlice S8192x400x1 ![0, 0, o] X hs) hc (ix2 b c) = X (ix3 b c f) := by
  refine (shapeCast_apply _ hc (ix2 b c) (ix3 b c (0 : Fin 1)) (by
    rw [Shape.rowMajor_val_three, Shape.rowMajor_val_two]
    show (b.val * 400 + c.val) * 1 + 0 = b.val * 400 + c.val
    omega)).trans ?_
  exact extractStridedSlice_apply _ X hs _ (ix3 b c f) (fun a => match a with
    | ⟨0, _⟩ => by show b.val = 0 + b.val; omega
    | ⟨1, _⟩ => by show c.val = 0 + c.val; omega
    | ⟨2, _⟩ => by show f.val = o + 0; omega)

/-- A [8192, 400] array given a trailing unit axis, at one entry. -/
theorem unitAxis_apply (Y : FVec Ideal S8192x400 .f32)
    (hb : S8192x400.BroadcastsInDim S8192x400x1 (![0, 1] : Fin 2 → Fin S8192x400x1.rank))
    (b : Fin 8192) (c : Fin 400) (u : Fin 1) :
    broadcastInDim S8192x400x1 ![0, 1] hb Y (ix3 b c u) = Y (ix2 b c) :=
  broadcastInDim_apply _ hb Y _ (ix2 b c) (fun a => match a with | ⟨0, _⟩ => rfl | ⟨1, _⟩ => rfl)

/-! Five [8192, 400, 1] columns laid side by side along the last axis: column `f` is read at last coordinate `f`. -/

theorem concat5_apply_0 (Y0 Y1 Y2 Y3 Y4 : FVec Ideal S8192x400x1 .f32)
    (h : Shape.Concatenates [S8192x400x1, S8192x400x1, S8192x400x1, S8192x400x1, S8192x400x1] S8192x400x5 2)
    (b : Fin 8192) (c : Fin 400) :
    concatenate S8192x400x5 2 [⟨S8192x400x1, Y0⟩, ⟨S8192x400x1, Y1⟩, ⟨S8192x400x1, Y2⟩, ⟨S8192x400x1, Y3⟩, ⟨S8192x400x1, Y4⟩] h
      (ix3 b c (0 : Fin 5)) = Y0 (ix3 b c (0 : Fin 1)) :=
  concatenate_apply_piece (2 : Fin S8192x400x5.rank)
    [⟨S8192x400x1, Y0⟩, ⟨S8192x400x1, Y1⟩, ⟨S8192x400x1, Y2⟩, ⟨S8192x400x1, Y3⟩, ⟨S8192x400x1, Y4⟩] h _ 0
    (by show 0 < 5; omega) S8192x400x1 Y0 rfl rfl 0 rfl
    (ix3 b c (0 : Fin 1))
    (fun a => match a with
      | ⟨0, _⟩ => fun _ => rfl
      | ⟨1, _⟩ => fun _ => rfl
      | ⟨2, _⟩ => fun hne => absurd rfl hne)
    rfl

theorem concat5_apply_1 (Y0 Y1 Y2 Y3 Y4 : FVec Ideal S8192x400x1 .f32)
    (h : Shape.Concatenates [S8192x400x1, S8192x400x1, S8192x400x1, S8192x400x1, S8192x400x1] S8192x400x5 2)
    (b : Fin 8192) (c : Fin 400) :
    concatenate S8192x400x5 2 [⟨S8192x400x1, Y0⟩, ⟨S8192x400x1, Y1⟩, ⟨S8192x400x1, Y2⟩, ⟨S8192x400x1, Y3⟩, ⟨S8192x400x1, Y4⟩] h
      (ix3 b c (1 : Fin 5)) = Y1 (ix3 b c (0 : Fin 1)) :=
  concatenate_apply_piece (2 : Fin S8192x400x5.rank)
    [⟨S8192x400x1, Y0⟩, ⟨S8192x400x1, Y1⟩, ⟨S8192x400x1, Y2⟩, ⟨S8192x400x1, Y3⟩, ⟨S8192x400x1, Y4⟩] h _ 1
    (by show 1 < 5; omega) S8192x400x1 Y1 rfl rfl 1 rfl
    (ix3 b c (0 : Fin 1))
    (fun a => match a with
      | ⟨0, _⟩ => fun _ => rfl
      | ⟨1, _⟩ => fun _ => rfl
      | ⟨2, _⟩ => fun hne => absurd rfl hne)
    rfl

theorem concat5_apply_2 (Y0 Y1 Y2 Y3 Y4 : FVec Ideal S8192x400x1 .f32)
    (h : Shape.Concatenates [S8192x400x1, S8192x400x1, S8192x400x1, S8192x400x1, S8192x400x1] S8192x400x5 2)
    (b : Fin 8192) (c : Fin 400) :
    concatenate S8192x400x5 2 [⟨S8192x400x1, Y0⟩, ⟨S8192x400x1, Y1⟩, ⟨S8192x400x1, Y2⟩, ⟨S8192x400x1, Y3⟩, ⟨S8192x400x1, Y4⟩] h
      (ix3 b c (2 : Fin 5)) = Y2 (ix3 b c (0 : Fin 1)) :=
  concatenate_apply_piece (2 : Fin S8192x400x5.rank)
    [⟨S8192x400x1, Y0⟩, ⟨S8192x400x1, Y1⟩, ⟨S8192x400x1, Y2⟩, ⟨S8192x400x1, Y3⟩, ⟨S8192x400x1, Y4⟩] h _ 2
    (by show 2 < 5; omega) S8192x400x1 Y2 rfl rfl 2 rfl
    (ix3 b c (0 : Fin 1))
    (fun a => match a with
      | ⟨0, _⟩ => fun _ => rfl
      | ⟨1, _⟩ => fun _ => rfl
      | ⟨2, _⟩ => fun hne => absurd rfl hne)
    rfl

theorem concat5_apply_3 (Y0 Y1 Y2 Y3 Y4 : FVec Ideal S8192x400x1 .f32)
    (h : Shape.Concatenates [S8192x400x1, S8192x400x1, S8192x400x1, S8192x400x1, S8192x400x1] S8192x400x5 2)
    (b : Fin 8192) (c : Fin 400) :
    concatenate S8192x400x5 2 [⟨S8192x400x1, Y0⟩, ⟨S8192x400x1, Y1⟩, ⟨S8192x400x1, Y2⟩, ⟨S8192x400x1, Y3⟩, ⟨S8192x400x1, Y4⟩] h
      (ix3 b c (3 : Fin 5)) = Y3 (ix3 b c (0 : Fin 1)) :=
  concatenate_apply_piece (2 : Fin S8192x400x5.rank)
    [⟨S8192x400x1, Y0⟩, ⟨S8192x400x1, Y1⟩, ⟨S8192x400x1, Y2⟩, ⟨S8192x400x1, Y3⟩, ⟨S8192x400x1, Y4⟩] h _ 3
    (by show 3 < 5; omega) S8192x400x1 Y3 rfl rfl 3 rfl
    (ix3 b c (0 : Fin 1))
    (fun a => match a with
      | ⟨0, _⟩ => fun _ => rfl
      | ⟨1, _⟩ => fun _ => rfl
      | ⟨2, _⟩ => fun hne => absurd rfl hne)
    rfl

theorem concat5_apply_4 (Y0 Y1 Y2 Y3 Y4 : FVec Ideal S8192x400x1 .f32)
    (h : Shape.Concatenates [S8192x400x1, S8192x400x1, S8192x400x1, S8192x400x1, S8192x400x1] S8192x400x5 2)
    (b : Fin 8192) (c : Fin 400) :
    concatenate S8192x400x5 2 [⟨S8192x400x1, Y0⟩, ⟨S8192x400x1, Y1⟩, ⟨S8192x400x1, Y2⟩, ⟨S8192x400x1, Y3⟩, ⟨S8192x400x1, Y4⟩] h
      (ix3 b c (4 : Fin 5)) = Y4 (ix3 b c (0 : Fin 1)) :=
  concatenate_apply_piece (2 : Fin S8192x400x5.rank)
    [⟨S8192x400x1, Y0⟩, ⟨S8192x400x1, Y1⟩, ⟨S8192x400x1, Y2⟩, ⟨S8192x400x1, Y3⟩, ⟨S8192x400x1, Y4⟩] h _ 4
    (by show 4 < 5; omega) S8192x400x1 Y4 rfl rfl 4 rfl
    (ix3 b c (0 : Fin 1))
    (fun a => match a with
      | ⟨0, _⟩ => fun _ => rfl
      | ⟨1, _⟩ => fun _ => rfl
      | ⟨2, _⟩ => fun hne => absurd rfl hne)
    rfl

/-- `1 / (1 + exp (-y))` written with the word 1.0 twice is the logistic function, at every entry of an array of any shape. -/
theorem logistic_apply {T : Shape} (Y : FVec Ideal T .f32)
    (hb : S_.BroadcastsInDim T (![] : Fin 0 → Fin T.rank)) (j : T.Idx) :
    Host.divf (broadcastInDim T ![] hb (constant (F := Ideal) S_ .f32 0x3F800000#32))
        (addf (broadcastInDim T ![] hb (constant (F := Ideal) S_ .f32 0x3F800000#32)) (Host.exp (Host.negf Y))) j
      = Ideal.logistic (Y j) := by
  show Ideal.div (broadcastInDim T ![] hb (constant (F := Ideal) S_ .f32 0x3F800000#32) j)
      (broadcastInDim T ![] hb (constant (F := Ideal) S_ .f32 0x3F800000#32) j + Ideal.exp (-(Y j))) = _
  rw [broadcastInDim_scalar_apply]
  show Ideal.div (wd 0x3F800000#32) (wd 0x3F800000#32 + Ideal.exp (-(Y j))) = _
  rw [wd_one]
  rfl

/-- Entry `(0, g)` of the anchor array, as the scalar the host slices and reshapes it to. -/
theorem anchor_apply (A : FVec Ideal S5x2 .f32) (o : Nat) (hs : S5x2.Slices ![0, o] S1x1) (hc : S1x1.ShapeCasts S_)
    (g : Fin 2) (hg : g.val = o) :
    shapeCast S_ (extractStridedSlice S1x1 ![0, o] A hs) hc ix0 = A (ix2 (0 : Fin 5) g) := by
  refine (shapeCast_apply _ hc ix0 (ix2 (0 : Fin 1) (0 : Fin 1)) (by
    rw [Shape.rowMajor_val_two]
    exact (Shape.rowMajorPi_zero _ _).symm)).trans ?_
  exact extractStridedSlice_apply _ A hs _ (ix2 (0 : Fin 5) g) (fun a => match a with
    | ⟨0, _⟩ => by show 0 = 0 + 0; omega
    | ⟨1, _⟩ => by show g.val = o + 0; omega)

/-- `exp y` times a broadcast anchor entry times the word 640, at one entry. -/
theorem scaled_apply (Y : FVec Ideal S8192x400 .f32) (s : FVec Ideal S_ .f32)
    (hb : S_.BroadcastsInDim S8192x400 (![] : Fin 0 → Fin S8192x400.rank)) (b : Fin 8192) (c : Fin 400) :
    mulf (mulf (Host.exp Y) (broadcastInDim S8192x400 ![] hb s))
        (broadcastInDim S8192x400 ![] hb (constant (F := Ideal) S_ .f32 0x44200000#32)) (ix2 b c)
      = Ideal.exp (Y (ix2 b c)) * (s ix0 * wd 0x44200000#32) := by
  show Ideal.exp (Y (ix2 b c)) * broadcastInDim S8192x400 ![] hb s (ix2 b c)
      * broadcastInDim S8192x400 ![] hb (constant (F := Ideal) S_ .f32 0x44200000#32) (ix2 b c) = _
  rw [broadcastInDim_scalar_apply, broadcastInDim_scalar_apply, mul_assoc]
  rfl

/-- The host's mean over the anchor axis of the logistic of feature 4, at one entry. -/
theorem meanLogistic_apply (X : FVec Ideal S8192x400x5x5 .f32)
    (hs : S8192x400x5x5.Slices ![0, 0, 0, 4] S8192x400x5x1) (hc : S8192x400x5x1.ShapeCasts S8192x400x5)
    (hb1 : S_.BroadcastsInDim S8192x400x5 (![] : Fin 0 → Fin S8192x400x5.rank))
    (hr : S8192x400x5.ReducesTo [2] S8192x400) (hu : 0 < S_.numel)
    (hb : S_.BroadcastsInDim S8192x400 (![] : Fin 0 → Fin S8192x400.rank)) (b : Fin 8192) (c : Fin 400) :
    Host.divf (Host.reduceAdd (F := Ideal)
        (Host.divf (broadcastInDim S8192x400x5 ![] hb1 (constant (F := Ideal) S_ .f32 0x3F800000#32))
          (addf (broadcastInDim S8192x400x5 ![] hb1 (constant (F := Ideal) S_ .f32 0x3F800000#32))
            (Host.exp (Host.negf (shapeCast S8192x400x5 (extractStridedSlice S8192x400x5x1 ![0, 0, 0, 4] X hs) hc)))))
        (constant (F := Ideal) S_ .f32 0x00000000#32) hr hu)
      (broadcastInDim S8192x400 ![] hb (constant (F := Ideal) S_ .f32 0x40A00000#32)) (ix2 b c)
      = (∑ a : Fin 5, Ideal.logistic (X (ix4 b c a (4 : Fin 5)))) * fifth := by
  have hR : S8192x400x5.Reduces [2] S8192x400 := by decide
  show Ideal.div (Ideal.hostReduceAdd hr _ (wd 0x00000000#32) (ix2 b c))
      (broadcastInDim S8192x400 ![] hb (constant (F := Ideal) S_ .f32 0x40A00000#32) (ix2 b c)) = _
  rw [Ideal.hostReduceAdd_single hr hR, broadcastInDim_scalar_apply]
  show Ideal.div (wd 0x00000000#32 + ∑ k : Fin 5, _) (wd 0x40A00000#32) = _
  rw [wd_zero, zero_add, wd_five, Ideal.div_coe (by norm_num : (5 : ℝ) ≠ 0)]
  refine congrArg (· * fifth) (Finset.sum_congr rfl fun k _ => ?_)
  refine (logistic_apply _ hb1 _).trans (congrArg Ideal.logistic ?_)
  refine (shapeCast_apply _ hc _ (ix4 b c k (0 : Fin 1)) (by
    rw [Shape.rowMajor_val_four, Shape.rowMajor_val_three]
    show ((b.val * 400 + c.val) * 5 + k.val) * 1 + 0 = (b.val * 400 + c.val) * 5 + k.val
    omega)).trans ?_
  exact extractStridedSlice_apply _ X hs _ (ix4 b c k (4 : Fin 5)) (fun a => match a with
    | ⟨0, _⟩ => by show b.val = 0 + b.val; omega
    | ⟨1, _⟩ => by show c.val = 0 + c.val; omega
    | ⟨2, _⟩ => by show k.val = 0 + k.val; omega
    | ⟨3, _⟩ => by show 4 = 4 + 0; omega)

/-! ## The five quantities of a cell -/

variable (V0 : Valuation τ sig (Elt Ideal)) (b : Fin 8192) (c : Fin 400)

theorem pred_x : res_main_v71 (F := Ideal) V0 (ix3 b c (0 : Fin 5)) = cellX (predChan (argP V0)) b c := by
  unfold res_main_v71
  refine (concat5_apply_0 _ _ _ _ _ _ b c).trans ?_
  refine (unitAxis_apply _ _ b c 0).trans ?_
  refine (logistic_apply _ _ _).trans (congrArg Ideal.logistic ?_)
  refine (column4_apply _ 0 _ _ b c (0 : Fin 4) rfl).trans ?_
  exact v31_apply V0 b c (0 : Fin 4) (0 : Fin 5) rfl

theorem pred_y : res_main_v71 (F := Ideal) V0 (ix3 b c (1 : Fin 5)) = cellY (predChan (argP V0)) b c := by
  unfold res_main_v71
  refine (concat5_apply_1 _ _ _ _ _ _ b c).trans ?_
  refine (unitAxis_apply _ _ b c 0).trans ?_
  refine (logistic_apply _ _ _).trans (congrArg Ideal.logistic ?_)
  refine (column4_apply _ 1 _ _ b c (1 : Fin 4) rfl).trans ?_
  exact v31_apply V0 b c (1 : Fin 4) (1 : Fin 5) rfl

theorem pred_w : res_main_v71 (F := Ideal) V0 (ix3 b c (2 : Fin 5)) = cellW (predChan (argP V0)) (ancW (argA V0)) b c := by
  unfold res_main_v71
  refine (concat5_apply_2 _ _ _ _ _ _ b c).trans ?_
  refine (unitAxis_apply _ _ b c 0).trans ?_
  refine (scaled_apply _ _ _ b c).trans ?_
  unfold cellW ancW
  refine congrArg₂ (fun m a => Ideal.exp m * (a * wd 0x44200000#32)) ?_ ?_
  · refine (column4_apply _ 2 _ _ b c (2 : Fin 4) rfl).trans ?_
    exact v31_apply V0 b c (2 : Fin 4) (2 : Fin 5) rfl
  · exact anchor_apply (argA V0) 0 _ _ (0 : Fin 2) rfl

theorem pred_h : res_main_v71 (F := Ideal) V0 (ix3 b c (3 : Fin 5)) = cellH (predChan (argP V0)) (ancH (argA V0)) b c := by
  unfold res_main_v71
  refine (concat5_apply_3 _ _ _ _ _ _ b c).trans ?_
  refine (unitAxis_apply _ _ b c 0).trans ?_
  refine (scaled_apply _ _ _ b c).trans ?_
  unfold cellH ancH
  refine congrArg₂ (fun m a => Ideal.exp m * (a * wd 0x44200000#32)) ?_ ?_
  · refine (column4_apply _ 3 _ _ b c (3 : Fin 4) rfl).trans ?_
    exact v31_apply V0 b c (3 : Fin 4) (3 : Fin 5) rfl
  · exact anchor_apply (argA V0) 1 _ _ (1 : Fin 2) rfl

theorem pred_conf : res_main_v71 (F := Ideal) V0 (ix3 b c (4 : Fin 5)) = cellConf (predChan (argP V0)) b c := by
  unfold res_main_v71
  refine (concat5_apply_4 _ _ _ _ _ _ b c).trans ?_
  refine (unitAxis_apply _ _ b c 0).trans ?_
  refine (meanLogistic_apply (res_main_v16 (F := Ideal) V0) _ _ _ _ _ _ b c).trans ?_
  unfold cellConf
  exact congrArg (· * fifth) (Finset.sum_congr rfl fun a _ => congrArg Ideal.logistic (v16_apply V0 b c a (4 : Fin 5)))

end Cert.GridLoss.Ref

end
-- ==== Proof.RefRows.lean ====
/-
  The reference's per-row arrays read at a row: the object cell's gathered entries, the mask of the other cells, the scaled label,
  the two boxes' clipped edges and the shared area.
-/
import proofs.«403400_j21895743275785_4_alg».proof.Proof.RefCells
import Idealize.ShloMosaic.Lib.ValueLayout

noncomputable section

namespace Cert.GridLoss.Ref

open Cert.ReferenceIdeal Cert.ReferenceIdeal.Gen Cert.ReferenceIdeal.Terms Idealize.ShloMosaic Idealize.ShloMosaic.TcCoe Idealize.ShloMosaic.StableHlo Idealize.ShloMosaic.ValueIdx

/-! ## Layout: a column of a two-axis array, a column vector, four columns side by side -/
section Layout
variable {α : Type}

/-- Column `k` of a two-axis array, sliced out and flattened to a vector, read at row `b`. -/
theorem col_apply {n : Nat} (X : (⟨2, ![8192, n]⟩ : Shape).Idx → α) (o : Nat)
    (h : (⟨2, ![8192, n]⟩ : Shape).Slices ![0, o] S8192x1) (h' : S8192x1.ShapeCasts S8192) (b : Fin 8192) (k : Fin n)
    (hk : k.val = o) :
    shapeCast S8192 (extractStridedSlice S8192x1 ![0, o] X h) h' (ix1 b) = X (ix2 b k) := by
  refine (shapeCast_apply _ h' (ix1 b) (ix2 b (0 : Fin 1)) ?_).trans ?_
  · rw [Shape.rowMajor_val_two, Shape.rowMajor_val_one]
    show b.val * 1 + 0 = b.val
    omega
  · exact slice2_axis1_apply o X h b 0 k (by simp [hk])

end Layout

section Boxes
variable {α : Type}

/-- A vector broadcast to a one-column array, read at `(b, 0)`. -/
theorem bcastCol_apply (v : S8192.Idx → α) (b : Fin 8192) :
    broadcastInDim S8192x1 ![0] bcast_S8192_S8192x1_0 v (ix2 b (0 : Fin 1)) = v (ix1 b) := by
  refine broadcastInDim_apply _ bcast_S8192_S8192x1_0 _ (ix2 b (0 : Fin 1)) (ix1 b) fun a => ?_
  match a with
  | ⟨0, _⟩ => rfl

/-- Four one-column pieces side by side, read at `(b, j)`: piece `j` at `(b, 0)`. -/
theorem concat4_apply (p0 p1 p2 p3 : S8192x1.Idx → α)
    (h : Shape.Concatenates [S8192x1, S8192x1, S8192x1, S8192x1] S8192x4 1)
    (b : Fin 8192) :
    concatenate S8192x4 1 [⟨S8192x1, p0⟩, ⟨S8192x1, p1⟩, ⟨S8192x1, p2⟩, ⟨S8192x1, p3⟩] h (ix2 b (0 : Fin 4)) = p0 (ix2 b (0 : Fin 1))
    ∧ concatenate S8192x4 1 [⟨S8192x1, p0⟩, ⟨S8192x1, p1⟩, ⟨S8192x1, p2⟩, ⟨S8192x1, p3⟩] h (ix2 b (1 : Fin 4)) = p1 (ix2 b (0 : Fin 1))
    ∧ concatenate S8192x4 1 [⟨S8192x1, p0⟩, ⟨S8192x1, p1⟩, ⟨S8192x1, p2⟩, ⟨S8192x1, p3⟩] h (ix2 b (2 : Fin 4)) = p2 (ix2 b (0 : Fin 1))
    ∧ concatenate S8192x4 1 [⟨S8192x1, p0⟩, ⟨S8192x1, p1⟩, ⟨S8192x1, p2⟩, ⟨S8192x1, p3⟩] h (ix2 b (3 : Fin 4)) = p3 (ix2 b (0 : Fin 1)) := by
  refine ⟨?_, ?_, ?_, ?_⟩
  · refine concatenate_apply_piece (t := S8192x4) (1 : Fin 2) [⟨S8192x1, p0⟩, ⟨S8192x1, p1⟩, ⟨S8192x1, p2⟩, ⟨S8192x1, p3⟩] h (ix2 b (0 : Fin 4)) 0 (by show 0 < 4; omega) S8192x1 p0 rfl rfl 0 rfl (ix2 b (0 : Fin 1)) (fun a ha => ?_) rfl
    match a with
    | ⟨0, _⟩ => rfl
    | ⟨1, _⟩ => exact absurd rfl ha
  · refine concatenate_apply_piece (t := S8192x4) (1 : Fin 2) [⟨S8192x1, p0⟩, ⟨S8192x1, p1⟩, ⟨S8192x1, p2⟩, ⟨S8192x1, p3⟩] h (ix2 b (1 : Fin 4)) 1 (by show 1 < 4; omega) S8192x1 p1 rfl rfl 1 rfl (ix2 b (0 : Fin 1)) (fun a ha => ?_) rfl
    match a with
    | ⟨0, _⟩ => rfl
    | ⟨1, _⟩ => exact absurd rfl ha
  · refine concatenate_apply_piece (t := S8192x4) (1 : Fin 2) [⟨S8192x1, p0⟩, ⟨S8192x1, p1⟩, ⟨S8192x1, p2⟩, ⟨S8192x1, p3⟩] h (ix2 b (2 : Fin 4)) 2 (by show 2 < 4; omega) S8192x1 p2 rfl rfl 2 rfl (ix2 b (0 : Fin 1)) (fun a ha => ?_) rfl
    match a with
    | ⟨0, _⟩ => rfl
    | ⟨1, _⟩ => exact absurd rfl ha
  · refine concatenate_apply_piece (t := S8192x4) (1 : Fin 2) [⟨S8192x1, p0⟩, ⟨S8192x1, p1⟩, ⟨S8192x1, p2⟩, ⟨S8192x1, p3⟩] h (ix2 b (3 : Fin 4)) 3 (by show 3 < 4; omega) S8192x1 p3 rfl rfl 3 rfl (ix2 b (0 : Fin 1)) (fun a ha => ?_) rfl
    match a with
    | ⟨0, _⟩ => rfl
    | ⟨1, _⟩ => exact absurd rfl ha

end Boxes

/-! ## The row gather and the reduction by "and" -/
section Gather
variable {α : Type}

local notation "gD" => gather_S8192x400x5_S8192x1x1_S8192x1x5_2_1_0_0_1_2_115

/-- The row gather read at `(b, 0, f)`: the operand at row `b`, feature `f`, and the cell the start index names,
    read signed and clamped into `[0, 399]`. -/
theorem gather_row_apply {w : Nat} (x : S8192x400x5.Idx → α) (idx : IVec S8192x1x1 w) (b : Fin 8192) (f : Fin 5) :
    Host.gather gD x idx (ix3 b (0 : Fin 1) f)
      = x (ix3 b ⟨min (idx (ix3 b (0 : Fin 1) (0 : Fin 1))).toInt.toNat 399, by omega⟩ f) := by
  have h0 : GatherDims.start gD (ix3 b (0 : Fin 1) f) idx (0 : Fin 3) + GatherDims.batchCoord gD (ix3 b (0 : Fin 1) f) (0 : Fin 3)
      + GatherDims.offCoord gD (ix3 b (0 : Fin 1) f) (0 : Fin 3) = b.val := by
    rw [GatherDims.start_batching _ _ _ _ (show (0 : Fin 3) ∈ GatherDims.operandBatchingDims gD from List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 3) ∈ GatherDims.operandBatchingDims gD from List.mem_singleton.mpr rfl)]
    rfl
  have h1 : GatherDims.start gD (ix3 b (0 : Fin 1) f) idx (1 : Fin 3) + GatherDims.batchCoord gD (ix3 b (0 : Fin 1) f) (1 : Fin 3)
      + GatherDims.offCoord gD (ix3 b (0 : Fin 1) f) (1 : Fin 3) = min (idx (ix3 b (0 : Fin 1) (0 : Fin 1))).toInt.toNat 399 := by
    rw [GatherDims.batchCoord_eq_zero _ _ _ (show (1 : Fin 3) ∉ GatherDims.operandBatchingDims gD from by decide),
      GatherDims.offCoord_eq_zero _ _ _ (fun h => ((GatherDims.mem_sKept _ _).mp h).1 (List.mem_singleton.mpr rfl))]
    unfold GatherDims.start
    rw [dif_pos (show (1 : Fin 3) ∈ GatherDims.startIndexMap gD from List.mem_singleton.mpr rfl)]
    have hsi : GatherDims.siIdx gD (ix3 b (0 : Fin 1) f) ⟨List.idxOf (1 : Fin 3) (GatherDims.startIndexMap gD),
        List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl
  have h2 : GatherDims.start gD (ix3 b (0 : Fin 1) f) idx (2 : Fin 3) + GatherDims.batchCoord gD (ix3 b (0 : Fin 1) f) (2 : Fin 3)
      + GatherDims.offCoord gD (ix3 b (0 : Fin 1) f) (2 : Fin 3) = f.val := by
    rw [GatherDims.batchCoord_eq_zero _ _ _ (show (2 : Fin 3) ∉ GatherDims.operandBatchingDims gD from by decide)]
    unfold GatherDims.start
    rw [dif_neg (show (2 : Fin 3) ∉ GatherDims.startIndexMap gD from by decide), Nat.zero_add]
    unfold GatherDims.offCoord
    rw [dif_pos (show (2 : Fin 3) ∈ GatherDims.sKept gD from (GatherDims.mem_sKept _ _).mpr ⟨by decide, by decide⟩)]
    rfl
  unfold Host.gather
  congr 1
  funext a
  refine Fin.ext ?_
  match a with
  | ⟨0, _⟩ => exact h0
  | ⟨1, _⟩ => exact h1
  | ⟨2, _⟩ => exact h2

end Gather
section Gather2
variable {α : Type}

/-- The same, with the cell given as any index whose value is the clamped start index. -/
theorem gather_row_apply' {w : Nat} (x : S8192x400x5.Idx → α) (idx : IVec S8192x1x1 w) (b : Fin 8192) (f : Fin 5) (k : Fin 400)
    (hk : k.val = min (idx (ix3 b (0 : Fin 1) (0 : Fin 1))).toInt.toNat 399) :
    Host.gather gather_S8192x400x5_S8192x1x1_S8192x1x5_2_1_0_0_1_2_115 x idx (ix3 b (0 : Fin 1) f) = x (ix3 b k f) := by
  rw [gather_row_apply]
  exact congrArg (fun c => x (ix3 b c f)) (Fin.ext hk.symm)

/-- A reduction by "and" of an array whose every bit is set, from a set bit, is the set bit. -/
theorem reduce_and_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons a l ih =>
    rw [List.foldl_cons, hx]
    exact ih

end Gather2

/-! ## Words of small naturals -/

theorem toInt_small (n : Nat) (hn : n < 400) : (BitVec.ofNat 32 n).toInt = (n : Int) := by
  rw [BitVec.toInt_eq_toNat_cond, BitVec.toNat_ofNat, Nat.mod_eq_of_lt (by omega), if_pos (by omega)]

theorem slt_zero_small (n : Nat) (hn : n < 400) : IntOp.cmpi .slt (BitVec.ofNat 32 n) 0#32 = 0#1 := by
  show BitVec.ofBool ((BitVec.ofNat 32 n).slt 0#32) = 0#1
  have : (BitVec.ofNat 32 n).slt 0#32 = false := by
    unfold BitVec.slt
    rw [toInt_small n hn]
    have : (0#32 : BitVec 32).toInt = 0 := by decide
    rw [this]
    exact decide_eq_false (by omega)
  rw [this]; rfl

theorem sge_zero_small (n : Nat) (hn : n < 400) : IntOp.cmpi .sge (BitVec.ofNat 32 n) 0#32 = 1#1 := by
  show BitVec.ofBool ((0#32 : BitVec 32).sle (BitVec.ofNat 32 n)) = 1#1
  have : (0#32 : BitVec 32).sle (BitVec.ofNat 32 n) = true := by
    unfold BitVec.sle
    rw [toInt_small n hn]
    have : (0#32 : BitVec 32).toInt = 0 := by decide
    rw [this]
    exact decide_eq_true (by omega)
  rw [this]; rfl

theorem sle_399_small (n : Nat) (hn : n < 400) : IntOp.cmpi .sle (BitVec.ofNat 32 n) 399#32 = 1#1 := by
  show BitVec.ofBool ((BitVec.ofNat 32 n).sle 399#32) = 1#1
  have : (BitVec.ofNat 32 n).sle 399#32 = true := by
    unfold BitVec.sle
    rw [toInt_small n hn]
    have : (399#32 : BitVec 32).toInt = 399 := by decide
    rw [this]
    exact decide_eq_true (by omega)
  rw [this]; rfl

/-- The unsigned value of the bit "word `m` equals word `n`", for naturals below `2 ^ 32`: the indicator of `n = m`. -/
theorem uitofp_eq_word (m n : Nat) (hm : m < 2 ^ 32) (hn : n < 2 ^ 32) :
    (FloatOps.uitofp (F := Ideal) .f32 (IntOp.cmpi .eq (BitVec.ofNat 32 m) (BitVec.ofNat 32 n)) : EReal)
      = if n = m then (1 : EReal) else 0 := by
  show (((IntOp.cmpi .eq (BitVec.ofNat 32 m) (BitVec.ofNat 32 n)).toNat : ℝ) : EReal) = _
  unfold IntOp.cmpi
  by_cases h : n = m
  · subst h
    simp
  · have hne : BitVec.ofNat 32 m ≠ BitVec.ofNat 32 n := fun e => h (by
      have := congrArg BitVec.toNat e
      simp only [BitVec.toNat_ofNat, Nat.mod_eq_of_lt hm, Nat.mod_eq_of_lt hn] at this
      exact this.symm)
    simp [hne, h]

/-! ## Clipped edges and the shared area, from columns -/
/-- The clipped low edge computed from two columns of an array, read at row `b`. -/
theorem lowEdge_apply {n : Nat} (X : FVec Ideal (⟨2, ![8192, n]⟩ : Shape) .f32) (oc ow : Nat)
    (hc : (⟨2, ![8192, n]⟩ : Shape).Slices ![0, oc] S8192x1) (hw : (⟨2, ![8192, n]⟩ : Shape).Slices ![0, ow] S8192x1)
    (b : Fin 8192) (kc kw : Fin n) (hkc : kc.val = oc) (hkw : kw.val = ow) :
    maximumf (subf (mulf (shapeCast S8192 (extractStridedSlice S8192x1 ![0, oc] X hc) shapeCasts_S8192x1_S8192)
          (broadcastInDim S8192 ![] bcast_S_S8192 (constant (F := Ideal) S_ .f32 0x42000000#32)))
        (Host.divf (shapeCast S8192 (extractStridedSlice S8192x1 ![0, ow] X hw) shapeCasts_S8192x1_S8192)
          (broadcastInDim S8192 ![] bcast_S_S8192 (constant (F := Ideal) S_ .f32 0x40000000#32))))
      (broadcastInDim S8192 ![] bcast_S_S8192 (constant (F := Ideal) S_ .f32 0x00000000#32)) (ix1 b)
      = lowEdge (X (ix2 b kc)) (X (ix2 b kw)) := by
  show max (shapeCast S8192 (extractStridedSlice S8192x1 ![0, oc] X hc) shapeCasts_S8192x1_S8192 (ix1 b) * wd 0x42000000#32
      - Ideal.div (shapeCast S8192 (extractStridedSlice S8192x1 ![0, ow] X hw) shapeCasts_S8192x1_S8192 (ix1 b)) (wd 0x40000000#32))
    (wd 0x00000000#32) = _
  rw [col_apply X oc hc _ b kc hkc, col_apply X ow hw _ b kw hkw]
  rfl

/-- The clipped high edge computed from two columns of an array, read at row `b`. -/
theorem highEdge_apply {n : Nat} (X : FVec Ideal (⟨2, ![8192, n]⟩ : Shape) .f32) (oc ow : Nat)
    (hc : (⟨2, ![8192, n]⟩ : Shape).Slices ![0, oc] S8192x1) (hw : (⟨2, ![8192, n]⟩ : Shape).Slices ![0, ow] S8192x1)
    (b : Fin 8192) (kc kw : Fin n) (hkc : kc.val = oc) (hkw : kw.val = ow) :
    minimumf (addf (mulf (shapeCast S8192 (extractStridedSlice S8192x1 ![0, oc] X hc) shapeCasts_S8192x1_S8192)
          (broadcastInDim S8192 ![] bcast_S_S8192 (constant (F := Ideal) S_ .f32 0x42000000#32)))
        (Host.divf (shapeCast S8192 (extractStridedSlice S8192x1 ![0, ow] X hw) shapeCasts_S8192x1_S8192)
          (broadcastInDim S8192 ![] bcast_S_S8192 (constant (F := Ideal) S_ .f32 0x40000000#32))))
      (broadcastInDim S8192 ![] bcast_S_S8192 (constant (F := Ideal) S_ .f32 0x44200000#32)) (ix1 b)
      = highEdge (X (ix2 b kc)) (X (ix2 b kw)) := by
  show min (shapeCast S8192 (extractStridedSlice S8192x1 ![0, oc] X hc) shapeCasts_S8192x1_S8192 (ix1 b) * wd 0x42000000#32
      + Ideal.div (shapeCast S8192 (extractStridedSlice S8192x1 ![0, ow] X hw) shapeCasts_S8192x1_S8192 (ix1 b)) (wd 0x40000000#32))
    (wd 0x44200000#32) = _
  rw [col_apply X oc hc _ b kc hkc, col_apply X ow hw _ b kw hkw]
  rfl
/-- The shared area computed from two arrays of clipped edges, read at row `b`. -/
theorem interOf_apply (A B : FVec Ideal S8192x4 .f32) (b : Fin 8192) :
    mulf (maximumf (subf (minimumf (shapeCast S8192 (extractStridedSlice S8192x1 ![0, 2] A slices_S8192x4_S8192x1_0_2) shapeCasts_S8192x1_S8192)
            (shapeCast S8192 (extractStridedSlice S8192x1 ![0, 2] B slices_S8192x4_S8192x1_0_2) shapeCasts_S8192x1_S8192))
          (maximumf (shapeCast S8192 (extractStridedSlice S8192x1 ![0, 0] A slices_S8192x4_S8192x1_0_0) shapeCasts_S8192x1_S8192)
            (shapeCast S8192 (extractStridedSlice S8192x1 ![0, 0] B slices_S8192x4_S8192x1_0_0) shapeCasts_S8192x1_S8192)))
        (broadcastInDim S8192 ![] bcast_S_S8192 (constant (F := Ideal) S_ .f32 0x00000000#32)))
      (maximumf (subf (minimumf (shapeCast S8192 (extractStridedSlice S8192x1 ![0, 3] A slices_S8192x4_S8192x1_0_3) shapeCasts_S8192x1_S8192)
            (shapeCast S8192 (extractStridedSlice S8192x1 ![0, 3] B slices_S8192x4_S8192x1_0_3) shapeCasts_S8192x1_S8192))
          (maximumf (shapeCast S8192 (extractStridedSlice S8192x1 ![0, 1] A slices_S8192x4_S8192x1_0_1) shapeCasts_S8192x1_S8192)
            (shapeCast S8192 (extractStridedSlice S8192x1 ![0, 1] B slices_S8192x4_S8192x1_0_1) shapeCasts_S8192x1_S8192)))
        (broadcastInDim S8192 ![] bcast_S_S8192 (constant (F := Ideal) S_ .f32 0x00000000#32))) (ix1 b)
      = max (min (A (ix2 b (2 : Fin 4))) (B (ix2 b (2 : Fin 4))) - max (A (ix2 b (0 : Fin 4))) (B (ix2 b (0 : Fin 4)))) (wd 0x00000000#32)
        * max (min (A (ix2 b (3 : Fin 4))) (B (ix2 b (3 : Fin 4))) - max (A (ix2 b (1 : Fin 4))) (B (ix2 b (1 : Fin 4)))) (wd 0x00000000#32) := by
  have c := fun (X : FVec Ideal S8192x4 .f32) (o : Nat) (h : S8192x4.Slices ![0, o] S8192x1) (k : Fin 4) (hk : k.val = o) =>
    col_apply X o h shapeCasts_S8192x1_S8192 b k hk
  rw [← c A 0 slices_S8192x4_S8192x1_0_0 0 rfl, ← c A 1 slices_S8192x4_S8192x1_0_1 1 rfl, ← c A 2 slices_S8192x4_S8192x1_0_2 2 rfl,
    ← c A 3 slices_S8192x4_S8192x1_0_3 3 rfl, ← c B 0 slices_S8192x4_S8192x1_0_0 0 rfl, ← c B 1 slices_S8192x4_S8192x1_0_1 1 rfl,
    ← c B 2 slices_S8192x4_S8192x1_0_2 2 rfl, ← c B 3 slices_S8192x4_S8192x1_0_3 3 rfl]
  rfl

/-! ## The reference's arrays -/
variable (V0 : Valuation τ sig (Elt Ideal)) (κ : Fin 8192 → Fin 400)
  (hκ : ∀ b : Fin 8192, refCellWord (labRow (argL V0)) b = BitVec.ofNat 32 (κ b).val)

/-- The index word of row `b`. -/
theorem idx_apply (b : Fin 8192) : res_main_v13 (F := Ideal) V0 (ix1 b) = refCellWord (labRow (argL V0)) b := by
  have h0 := col_apply (V0 (Proc.devRef .tc main_arg1)) 0 slices_S8192x4_S8192x1_0_0 shapeCasts_S8192x1_S8192 b (0 : Fin 4) rfl
  have h1 := col_apply (V0 (Proc.devRef .tc main_arg1)) 1 slices_S8192x4_S8192x1_0_1 shapeCasts_S8192x1_S8192 b (1 : Fin 4) rfl
  show Ideal.fptosi 32 (Ideal.liftRound Int.floor (shapeCast S8192 _ _ (ix1 b) * wd 0x41A00000#32) * wd 0x41A00000#32 + Ideal.liftRound Int.floor (shapeCast S8192 _ _ (ix1 b) * wd 0x41A00000#32)) = _
  rw [h0, h1]
  rfl

/-- The index word broadcast over the cells, read at `(b, c)`. -/
theorem idxBcast_apply (b : Fin 8192) (c : Fin 400) :
    broadcastInDim S8192x400 ![0, 1] bcast_S8192x1_S8192x400_0_1 (broadcastInDim S8192x1 ![0] bcast_S8192_S8192x1_0 (res_main_v13 (F := Ideal) V0)) (ix2 b c)
      = res_main_v13 (F := Ideal) V0 (ix1 b) := by
  refine (broadcastInDim_apply _ bcast_S8192x1_S8192x400_0_1 _ (ix2 b c) (ix2 b (0 : Fin 1)) fun a => ?_).trans ?_
  · match a with
    | ⟨0, _⟩ => rfl
    | ⟨1, _⟩ => rfl
  refine (broadcastInDim_apply _ bcast_S8192_S8192x1_0 _ (ix2 b (0 : Fin 1)) (ix1 b) fun a => ?_).trans rfl
  match a with
  | ⟨0, _⟩ => rfl

/-- The cell counter broadcast over the rows, read at `(b, c)`: the word of `c`. -/
theorem iotaBcast_apply (b : Fin 8192) (c : Fin 400) :
    broadcastInDim S8192x400 ![0, 1] bcast_S1x400_S8192x400_0_1 (iotaInDim S1x400 32 1) (ix2 b c) = BitVec.ofNat 32 c.val := by
  refine (broadcastInDim_apply _ bcast_S1x400_S8192x400_0_1 _ (ix2 b c) (ix2 (0 : Fin 1) c) fun a => ?_).trans rfl
  match a with
  | ⟨0, _⟩ => rfl
  | ⟨1, _⟩ => rfl

include hκ in
/-- One minus the object cell's indicator. -/
theorem noobj_apply (b : Fin 8192) (c : Fin 400) :
    res_main_v77 (F := Ideal) V0 (ix2 b c) = wd 0x3F800000#32 - (if c = κ b then (1 : EReal) else 0) := by
  show wd 0x3F800000#32 - (FloatOps.uitofp (F := Ideal) .f32 (IntOp.cmpi .eq
      (broadcastInDim S8192x400 ![0, 1] bcast_S8192x1_S8192x400_0_1 (broadcastInDim S8192x1 ![0] bcast_S8192_S8192x1_0 (res_main_v13 (F := Ideal) V0)) (ix2 b c))
      (broadcastInDim S8192x400 ![0, 1] bcast_S1x400_S8192x400_0_1 (iotaInDim S1x400 32 1) (ix2 b c))) : EReal) = _
  rw [idxBcast_apply, iotaBcast_apply, idx_apply, hκ,
    uitofp_eq_word _ _ (by have := (κ b).isLt; omega) (by have := c.isLt; omega)]
  congr 1
  by_cases h : c = κ b
  · rw [if_pos h, if_pos (congrArg Fin.val h)]
  · rw [if_neg h, if_neg (fun e => h (Fin.ext e))]

/-- The label-scale table broadcast over the rows, read at `(b, k)`: the table's word at position `k`. -/
theorem table_apply (b : Fin 8192) (k : Fin 4) :
    broadcastInDim S8192x4 ![0, 1] bcast_S1x4_S8192x4_0_1 (broadcastInDim S1x4 ![1] bcast_S4_S1x4_1 (RefTable.denseTable0 (F := Ideal))) (ix2 b k)
      = wd (lit0 k) := by
  refine (broadcastInDim_apply _ bcast_S1x4_S8192x4_0_1 _ (ix2 b k) (ix2 (0 : Fin 1) k) fun a => ?_).trans ?_
  · match a with
    | ⟨0, _⟩ => rfl
    | ⟨1, _⟩ => rfl
  refine (broadcastInDim_apply _ bcast_S4_S1x4_1 _ (ix2 (0 : Fin 1) k) (ix1 k) fun a => ?_).trans ?_
  · match a with
    | ⟨0, _⟩ => rfl
  show Ideal.ofBits .f32 (lit0 (S4.rowMajor (ix1 k))) = _
  have : S4.rowMajor (ix1 k) = k := Fin.ext (Shape.rowMajor_val_one _)
  rw [this]

theorem lbl_x (b : Fin 8192) : res_main_v80 (F := Ideal) V0 (ix2 b (0 : Fin 4)) = labX (labRow (argL V0)) b :=
  congrArg (fun t : EReal => argL V0 (ix2 b (0 : Fin 4)) * t) (table_apply b 0)
theorem lbl_y (b : Fin 8192) : res_main_v80 (F := Ideal) V0 (ix2 b (1 : Fin 4)) = labY (labRow (argL V0)) b :=
  congrArg (fun t : EReal => argL V0 (ix2 b (1 : Fin 4)) * t) (table_apply b 1)
theorem lbl_w (b : Fin 8192) : res_main_v80 (F := Ideal) V0 (ix2 b (2 : Fin 4)) = labW (labRow (argL V0)) b :=
  congrArg (fun t : EReal => argL V0 (ix2 b (2 : Fin 4)) * t) (table_apply b 2)
theorem lbl_h (b : Fin 8192) : res_main_v80 (F := Ideal) V0 (ix2 b (3 : Fin 4)) = labH (labRow (argL V0)) b :=
  congrArg (fun t : EReal => argL V0 (ix2 b (3 : Fin 4)) * t) (table_apply b 3)

include hκ in
/-- The index word broadcast to `[8192, 1, 1]`, read anywhere: the word of the row's object cell. -/
theorem idx3_apply (i : S8192x1x1.Idx) : res_main_v72 (F := Ideal) V0 i = BitVec.ofNat 32 (κ (i 0)).val := by
  refine (broadcastInDim_apply _ bcast_S8192_S8192x1x1_0 _ i (ix1 (i 0)) fun a => ?_).trans ((idx_apply V0 (i 0)).trans (hκ (i 0)))
  match a with
  | ⟨0, _⟩ => rfl

include hκ in
/-- The normalised index (a negative word moved up by 400) is the same word: it is not negative. -/
theorem normIdx_apply (i : S8192x1x1.Idx) : res_main_call0_v4 (F := Ideal) V0 i = BitVec.ofNat 32 (κ (i 0)).val := by
  show Scalar.select (IntOp.cmpi .slt (res_main_v72 (F := Ideal) V0 i) 0#32)
    (IntOp.addi (res_main_v72 (F := Ideal) V0 i) 400#32) (res_main_v72 (F := Ideal) V0 i) = _
  rw [idx3_apply V0 κ hκ, slt_zero_small _ (κ (i 0)).isLt, select_zero]

include hκ in
/-- Every normalised index is in `[0, 399]`. -/
theorem inRange_apply (i : S8192x1x1.Idx) :
    andi (cmpi .sge (res_main_call0_v4 (F := Ideal) V0) (broadcastInDim S8192x1x1 ![] bcast_S_S8192x1x1 (constantI S_ 32 0#32)))
      (cmpi .sle (res_main_call0_v4 (F := Ideal) V0) (broadcastInDim S8192x1x1 ![0, 1, 2] bcast_S1x1x1_S8192x1x1_0_1_2
        (broadcastInDim S1x1x1 ![2] bcast_S1_S1x1x1_2 (constantI S1 32 399#32)))) i = 1#1 := by
  show IntOp.andi (IntOp.cmpi .sge (res_main_call0_v4 (F := Ideal) V0 i) 0#32)
    (IntOp.cmpi .sle (res_main_call0_v4 (F := Ideal) V0 i) 399#32) = 1#1
  rw [normIdx_apply V0 κ hκ, sge_zero_small _ (κ (i 0)).isLt, sle_399_small _ (κ (i 0)).isLt]
  rfl

include hκ in
/-- The gathered row: entry `f` of the object cell. -/
theorem obj_apply (b : Fin 8192) (f : Fin 5) : res_main_v74 (F := Ideal) V0 (ix2 b f) = res_main_v71 (F := Ideal) V0 (ix3 b (κ b) f) := by
  refine (shapeCast_apply _ shapeCasts_S8192x1x5_S8192x5 (ix2 b f) (ix3 b (0 : Fin 1) f) ?_).trans ?_
  · rw [Shape.rowMajor_val_three, Shape.rowMajor_val_two]
    show (b.val * 1 + 0) * 5 + f.val = b.val * 5 + f.val
    omega
  have hM : broadcastInDim S8192x1x5 ![0, 1] bcast_S8192x1_S8192x1x5_0_1
      (Host.reduce IntOp.andi
        (andi (cmpi .sge (res_main_call0_v4 (F := Ideal) V0) (broadcastInDim S8192x1x1 ![] bcast_S_S8192x1x1 (constantI S_ 32 0#32)))
          (cmpi .sle (res_main_call0_v4 (F := Ideal) V0) (broadcastInDim S8192x1x1 ![0, 1, 2] bcast_S1x1x1_S8192x1x1_0_1_2
            (broadcastInDim S1x1x1 ![2] bcast_S1_S1x1x1_2 (constantI S1 32 399#32)))))
        (constantI S_ 1 1#1) reducesTo_S8192x1x1_S8192x1_d2 h_S_) (ix3 b (0 : Fin 1) f) = 1#1 := by
    refine (broadcastInDim_apply _ bcast_S8192x1_S8192x1x5_0_1 _ (ix3 b (0 : Fin 1) f) (ix2 b (0 : Fin 1)) fun a => ?_).trans ?_
    · match a with
      | ⟨0, _⟩ => rfl
      | ⟨1, _⟩ => rfl
    exact reduce_and_all_one _ _ _ _ (inRange_apply V0 κ hκ) rfl _
  show Scalar.select (broadcastInDim S8192x1x5 _ bcast_S8192x1_S8192x1x5_0_1 _ (ix3 b (0 : Fin 1) f))
    (Host.gather gather_S8192x400x5_S8192x1x1_S8192x1x5_2_1_0_0_1_2_115 (res_main_v71 (F := Ideal) V0) (res_main_call0_v4 (F := Ideal) V0) (ix3 b (0 : Fin 1) f))
    _ = _
  rw [hM, select_one]
  refine gather_row_apply' _ _ b f (κ b) ?_
  rw [normIdx_apply V0 κ hκ, toInt_small _ (κ b).isLt]
  show (κ b).val = min (κ b).val 399
  have := (κ b).isLt
  omega

/-- The label's box: its four clipped edges. -/
theorem box_lab (b : Fin 8192) :
    res_main_v129 (F := Ideal) V0 (ix2 b (0 : Fin 4)) = lowEdge (labX (labRow (argL V0)) b) (labW (labRow (argL V0)) b)
    ∧ res_main_v129 (F := Ideal) V0 (ix2 b (1 : Fin 4)) = lowEdge (labY (labRow (argL V0)) b) (labH (labRow (argL V0)) b)
    ∧ res_main_v129 (F := Ideal) V0 (ix2 b (2 : Fin 4)) = highEdge (labX (labRow (argL V0)) b) (labW (labRow (argL V0)) b)
    ∧ res_main_v129 (F := Ideal) V0 (ix2 b (3 : Fin 4)) = highEdge (labY (labRow (argL V0)) b) (labH (labRow (argL V0)) b) := by
  obtain ⟨e0, e1, e2, e3⟩ := concat4_apply _ _ _ _ concatenates_S8192x1_S8192x1_S8192x1_S8192x1_S8192x4_d1 b
  refine ⟨?_, ?_, ?_, ?_⟩
  · refine e0.trans ((bcastCol_apply _ b).trans ?_)
    refine (lowEdge_apply (res_main_v80 (F := Ideal) V0) 0 2 slices_S8192x4_S8192x1_0_0 slices_S8192x4_S8192x1_0_2 b 0 2 rfl rfl).trans ?_
    rw [lbl_x, lbl_w]
  · refine e1.trans ((bcastCol_apply _ b).trans ?_)
    refine (lowEdge_apply (res_main_v80 (F := Ideal) V0) 1 3 slices_S8192x4_S8192x1_0_1 slices_S8192x4_S8192x1_0_3 b 1 3 rfl rfl).trans ?_
    rw [lbl_y, lbl_h]
  · refine e2.trans ((bcastCol_apply _ b).trans ?_)
    refine (highEdge_apply (res_main_v80 (F := Ideal) V0) 0 2 slices_S8192x4_S8192x1_0_0 slices_S8192x4_S8192x1_0_2 b 0 2 rfl rfl).trans ?_
    rw [lbl_x, lbl_w]
  · refine e3.trans ((bcastCol_apply _ b).trans ?_)
    refine (highEdge_apply (res_main_v80 (F := Ideal) V0) 1 3 slices_S8192x4_S8192x1_0_1 slices_S8192x4_S8192x1_0_3 b 1 3 rfl rfl).trans ?_
    rw [lbl_y, lbl_h]

include hκ in
/-- The object cell's box: its four clipped edges. -/
theorem box_obj (b : Fin 8192) :
    res_main_v178 (F := Ideal) V0 (ix2 b (0 : Fin 4))
      = lowEdge (cellX (predChan (argP V0)) b (κ b)) (cellW (predChan (argP V0)) (ancW (argA V0)) b (κ b))
    ∧ res_main_v178 (F := Ideal) V0 (ix2 b (1 : Fin 4))
      = lowEdge (cellY (predChan (argP V0)) b (κ b)) (cellH (predChan (argP V0)) (ancH (argA V0)) b (κ b))
    ∧ res_main_v178 (F := Ideal) V0 (ix2 b (2 : Fin 4))
      = highEdge (cellX (predChan (argP V0)) b (κ b)) (cellW (predChan (argP V0)) (ancW (argA V0)) b (κ b))
    ∧ res_main_v178 (F := Ideal) V0 (ix2 b (3 : Fin 4))
      = highEdge (cellY (predChan (argP V0)) b (κ b)) (cellH (predChan (argP V0)) (ancH (argA V0)) b (κ b)) := by
  obtain ⟨e0, e1, e2, e3⟩ := concat4_apply _ _ _ _ concatenates_S8192x1_S8192x1_S8192x1_S8192x1_S8192x4_d1 b
  refine ⟨?_, ?_, ?_, ?_⟩
  · refine e0.trans ((bcastCol_apply _ b).trans ?_)
    refine (lowEdge_apply (res_main_v74 (F := Ideal) V0) 0 2 slices_S8192x5_S8192x1_0_0 slices_S8192x5_S8192x1_0_2 b 0 2 rfl rfl).trans ?_
    rw [obj_apply V0 κ hκ, obj_apply V0 κ hκ, pred_x, pred_w]
  · refine e1.trans ((bcastCol_apply _ b).trans ?_)
    refine (lowEdge_apply (res_main_v74 (F := Ideal) V0) 1 3 slices_S8192x5_S8192x1_0_1 slices_S8192x5_S8192x1_0_3 b 1 3 rfl rfl).trans ?_
    rw [obj_apply V0 κ hκ, obj_apply V0 κ hκ, pred_y, pred_h]
  · refine e2.trans ((bcastCol_apply _ b).trans ?_)
    refine (highEdge_apply (res_main_v74 (F := Ideal) V0) 0 2 slices_S8192x5_S8192x1_0_0 slices_S8192x5_S8192x1_0_2 b 0 2 rfl rfl).trans ?_
    rw [obj_apply V0 κ hκ, obj_apply V0 κ hκ, pred_x, pred_w]
  · refine e3.trans ((bcastCol_apply _ b).trans ?_)
    refine (highEdge_apply (res_main_v74 (F := Ideal) V0) 1 3 slices_S8192x5_S8192x1_0_1 slices_S8192x5_S8192x1_0_3 b 1 3 rfl rfl).trans ?_
    rw [obj_apply V0 κ hκ, obj_apply V0 κ hκ, pred_y, pred_h]

include hκ in
/-- The shared area of the label's box and the object cell's box. -/
theorem inter_apply (b : Fin 8192) :
    res_main_v205 (F := Ideal) V0 (ix1 b)
      = overlap (labX (labRow (argL V0)) b) (labW (labRow (argL V0)) b)
            (cellX (predChan (argP V0)) b (κ b)) (cellW (predChan (argP V0)) (ancW (argA V0)) b (κ b))
        * overlap (labY (labRow (argL V0)) b) (labH (labRow (argL V0)) b)
            (cellY (predChan (argP V0)) b (κ b)) (cellH (predChan (argP V0)) (ancH (argA V0)) b (κ b)) := by
  obtain ⟨l0, l1, l2, l3⟩ := box_lab V0 b
  obtain ⟨o0, o1, o2, o3⟩ := box_obj V0 κ hκ b
  refine (interOf_apply (res_main_v129 (F := Ideal) V0) (res_main_v178 (F := Ideal) V0) b).trans ?_
  rw [l0, l1, l2, l3, o0, o1, o2, o3]
  rfl

end Cert.GridLoss.Ref

end
-- ==== Proof.Reals.lean ====
/-
  Real numbers among the extended reals are closed under the operations the decoded cells are built from.
-/
import proofs.«403400_j21895743275785_4_alg».proof.Proof.Consts
import Mathlib.Data.EReal.Operations

noncomputable section

namespace Cert.GridLoss

open Idealize.ShloMosaic

/-! ## Closure of the reals -/

theorem isReal_coe (r : ℝ) : IsReal ((r : ℝ) : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sq {x : EReal} (hx : IsReal x) : IsReal (sq x) := hx.mul hx

theorem IsReal.exp {x : EReal} (hx : IsReal x) : IsReal (Ideal.exp x) := by
  obtain ⟨a, rfl⟩ := hx
  exact ⟨Real.exp a, Ideal.exp_coe a⟩

theorem IsReal.logistic {x : EReal} (hx : IsReal x) : IsReal (Ideal.logistic x) := by
  obtain ⟨a, rfl⟩ := hx
  exact ⟨(1 + Real.exp (-a))⁻¹, Ideal.logistic_coe a⟩

/-- A finite sum of reals is real. -/
theorem isReal_sum {ι : Type} (s : Finset ι) (x : ι → EReal) (hx : ∀ i, IsReal (x i)) : IsReal (∑ i ∈ s, x i) := by
  classical
  induction s using Finset.induction_on with
  | empty => exact ⟨0, by rw [Finset.sum_empty, EReal.coe_zero]⟩
  | insert a s ha ih =>
    rw [Finset.sum_insert ha]
    exact (hx a).add ih

theorem isReal_fifth : IsReal fifth := ⟨1 / 5, rfl⟩

theorem isReal_half : IsReal (wd 0x3F000000#32) := ⟨1 / 2, wd_half⟩

theorem isReal_640 : IsReal (wd 0x44200000#32) := ⟨640, wd_640⟩

/-! ## The decoded cells -/

section
variable {B : Type} [Fintype B]
variable (ch : B → Fin 25 → Fin 400 → EReal) (aw ah : EReal)

theorem isReal_rawMean (hch : ∀ b k c, IsReal (ch b k c)) (f : Fin 5) (b : B) (c : Fin 400) :
    IsReal (rawMean ch f b c) :=
  (isReal_sum _ _ (fun a => hch b (kof a f) c)).mul isReal_fifth

theorem isReal_cellConf (hch : ∀ b k c, IsReal (ch b k c)) (b : B) (c : Fin 400) : IsReal (cellConf ch b c) :=
  (isReal_sum _ _ (fun a => (hch b (kof a 4) c).logistic)).mul isReal_fifth

/-- With real channels and a real anchor box, a cell's squared distance from the default box is real. -/
theorem isReal_cellOff (hch : ∀ b k c, IsReal (ch b k c)) (haw : IsReal aw) (hah : IsReal ah) (b : B) (c : Fin 400) :
    IsReal (cellOff ch aw ah b c) := by
  have hX : IsReal (cellX ch b c) := (isReal_rawMean ch hch 0 b c).logistic
  have hY : IsReal (cellY ch b c) := (isReal_rawMean ch hch 1 b c).logistic
  have hW : IsReal (cellW ch aw b c) := (isReal_rawMean ch hch 2 b c).exp.mul haw
  have hH : IsReal (cellH ch ah b c) := (isReal_rawMean ch hch 3 b c).exp.mul hah
  exact ((((hX.sub isReal_half).sq).add ((hY.sub isReal_half).sq)).add ((hW.sub haw).sq)).add ((hH.sub hah).sq)

/-- With real channels a cell's squared confidence is real. -/
theorem isReal_cellConfSq (hch : ∀ b k c, IsReal (ch b k c)) (b : B) (c : Fin 400) :
    IsReal (cellConfSq ch b c) := (isReal_cellConf ch hch b c).sq
end

theorem isReal_predChan (P : PredIdx → EReal) (h : ∀ i, IsReal (P i)) (b : Fin 8192) (k : Fin 25) (c : Fin 400) :
    IsReal (predChan P b k c) := h _
theorem isReal_ancW (A : AncIdx → EReal) (h : ∀ i, IsReal (A i)) : IsReal (ancW A) := (h _).mul isReal_640
theorem isReal_ancH (A : AncIdx → EReal) (h : ∀ i, IsReal (A i)) : IsReal (ancH A) := (h _).mul isReal_640

end Cert.GridLoss

end
-- ==== Proof.RefValue.lean ====
/-
  The reference's result is the loss of its argument arrays.

  The result term adds five quotients. Each numerator is the sum, over a whole array, of squares (two of them weighted by the
  array that is 0 at a row's object cell and 1 at the others). Reading each array at coordinates gives, per row or per cell, the
  specification's summand; regrouping the index set by coordinates gives the specification's totals; the weighted ones are
  "all cells minus the object cell" because the object cell's term is a real number. The two denominators the reference
  multiplies out, 3268608 * 4, are the one word 13074432 of the specification.
-/
import proofs.«403400_j21895743275785_4_alg».proof.Proof.RefRows
import proofs.«403400_j21895743275785_4_alg».proof.Proof.Sums
import proofs.«403400_j21895743275785_4_alg».proof.Proof.Reals
import Idealize.ShloMosaic.PureOps.Ideal.Laws
import Idealize.ShloMosaic.Lib.Pipeline.Value
import Idealize.ShloMosaic.Lib.ValueLayout
import Mathlib.Algebra.BigOperators.Fin
import Mathlib.Data.EReal.Operations
import Mathlib.Tactic.NormNum

noncomputable section

namespace Cert.GridLoss.Ref

open Cert.ReferenceIdeal Cert.ReferenceIdeal.Gen Cert.ReferenceIdeal.Terms Idealize.ShloMosaic Idealize.ShloMosaic.TcCoe Idealize.ShloMosaic.StableHlo Idealize.ShloMosaic.ValueIdx

namespace Value

/-! ## Layout operations of the reference read at coordinates -/

section Layout
variable {α : Type}

/-- One column of a matrix of 8192 rows, as a vector: entry `b` is the matrix at `(b, k)`. -/
theorem col_apply {n : Nat} (o : Nat) (X : (⟨2, ![8192, n]⟩ : Shape).Idx → α)
    (h : (⟨2, ![8192, n]⟩ : Shape).Slices ![0, o] S8192x1) (h2 : S8192x1.ShapeCasts S8192)
    (b : Fin 8192) (k : Fin n) (hk : k.val = o) :
    shapeCast S8192 (extractStridedSlice S8192x1 ![0, o] X h) h2 (ix1 b) = X (ix2 b k) := by
  refine (shapeCast_apply _ _ _ (ix2 b (0 : Fin 1)) ?_).trans (slice2_axis1_apply o X h b 0 k (by simp [hk]))
  rw [Shape.rowMajor_val_two, Shape.rowMajor_val_one]
  show b.val * 1 + 0 = b.val
  omega

/-- The first four features of every cell. -/
theorem feat4_apply (X : S8192x400x5.Idx → α) (h : S8192x400x5.Slices ![0, 0, 0] S8192x400x4)
    (b : Fin 8192) (c : Fin 400) (f : Fin 4) (k : Fin 5) (hk : k.val = f.val) :
    extractStridedSlice S8192x400x4 ![0, 0, 0] X h (ix3 b c f) = X (ix3 b c k) :=
  extractStridedSlice_apply _ _ _ _ _ (fun ax => by
    match ax with
    | ⟨0, _⟩ => exact (Nat.zero_add _).symm
    | ⟨1, _⟩ => exact (Nat.zero_add _).symm
    | ⟨2, _⟩ => show k.val = 0 + f.val; omega)

/-- The fifth feature of every cell, as a matrix. -/
theorem feat5_apply (X : S8192x400x5.Idx → α) (h : S8192x400x5.Slices ![0, 0, 4] S8192x400x1)
    (h2 : S8192x400x1.ShapeCasts S8192x400) (b : Fin 8192) (c : Fin 400) :
    shapeCast S8192x400 (extractStridedSlice S8192x400x1 ![0, 0, 4] X h) h2 (ix2 b c) = X (ix3 b c (4 : Fin 5)) := by
  refine (shapeCast_apply _ _ _ (ix3 b c (0 : Fin 1)) ?_).trans (extractStridedSlice_apply _ _ _ _ _ (fun ax => by
    match ax with
    | ⟨0, _⟩ => exact (Nat.zero_add _).symm
    | ⟨1, _⟩ => exact (Nat.zero_add _).symm
    | ⟨2, _⟩ => rfl))
  rw [Shape.rowMajor_val_three, Shape.rowMajor_val_two]
  show (b.val * 400 + c.val) * 1 + 0 = b.val * 400 + c.val
  omega

/-- A matrix repeated along a new last axis of length four. -/
theorem rep4_apply (N : S8192x400.Idx → α) (h : S8192x400x1.BroadcastsInDim S8192x400x4 ![0, 1, 2])
    (h2 : S8192x400.BroadcastsInDim S8192x400x1 ![0, 1]) (b : Fin 8192) (c : Fin 400) (f : Fin 4) :
    broadcastInDim S8192x400x4 ![0, 1, 2] h (broadcastInDim S8192x400x1 ![0, 1] h2 N) (ix3 b c f) = N (ix2 b c) := by
  refine (broadcastInDim_apply _ _ _ _ (ix3 b c (0 : Fin 1)) (fun a => ?_)).trans
    (broadcastInDim_apply _ _ _ _ (ix2 b c) (fun a => ?_))
  · match a with
    | ⟨0, _⟩ => rfl
    | ⟨1, _⟩ => rfl
    | ⟨2, _⟩ => rfl
  · match a with
    | ⟨0, _⟩ => rfl
    | ⟨1, _⟩ => rfl

/-- A vector of four repeated over every cell. -/
theorem row4_apply (T : S4.Idx → α) (h : S1x1x4.BroadcastsInDim S8192x400x4 ![0, 1, 2])
    (h2 : S4.BroadcastsInDim S1x1x4 ![2]) (b : Fin 8192) (c : Fin 400) (f : Fin 4) :
    broadcastInDim S8192x400x4 ![0, 1, 2] h (broadcastInDim S1x1x4 ![2] h2 T) (ix3 b c f) = T (ix1 f) := by
  refine (broadcastInDim_apply _ _ _ _ (ix3 (0 : Fin 1) (0 : Fin 1) f) (fun a => ?_)).trans
    (broadcastInDim_apply _ _ _ _ (ix1 f) (fun a => ?_))
  · match a with
    | ⟨0, _⟩ => rfl
    | ⟨1, _⟩ => rfl
    | ⟨2, _⟩ => rfl
  · match a with
    | ⟨0, _⟩ => rfl

/-- The first row of the anchor table, as a vector of two. -/
theorem anc_apply (A : S5x2.Idx → α) (h : S5x2.Slices ![0, 0] S1x2) (h2 : S1x2.ShapeCasts S2) (g : Fin 2) :
    shapeCast S2 (extractStridedSlice S1x2 ![0, 0] A h) h2 (ix1 g) = A (ix2 (0 : Fin 5) g) :=
  (shapeCast_1a_a_apply _ h2 g).trans (slice2_axis0_apply 0 A h (0 : Fin 1) g (0 : Fin 5) rfl)

/-- Two vectors of two joined: the first two entries. -/
theorem join_left (x y : S2.Idx → α) (h : Shape.Concatenates [S2, S2] S4 0) (f : Fin 4) (g : Fin 2) (hg : g.val = f.val) :
    concatenate S4 0 [⟨S2, x⟩, ⟨S2, y⟩] h (ix1 f) = x (ix1 g) :=
  concatenate_pair_apply_left 0 x y h (ix1 f) rfl (ix1 g) (fun a => by
    match a with
    | ⟨0, _⟩ => exact hg)

/-- Two vectors of two joined: the last two entries. -/
theorem join_right (x y : S2.Idx → α) (h : Shape.Concatenates [S2, S2] S4 0) (f : Fin 4) (g : Fin 2) (hg : g.val + 2 = f.val) :
    concatenate S4 0 [⟨S2, x⟩, ⟨S2, y⟩] h (ix1 f) = y (ix1 g) :=
  concatenate_pair_apply_right 0 x y h (ix1 f) rfl rfl (ix1 g) (fun a ha => by
    match a with
    | ⟨0, _⟩ => exact absurd rfl ha) hg

end Layout

/-! ## The reference's arrays, at the type of arrays of extended reals -/

variable (V0 : Valuation τ sig (Elt Ideal)) (κ : Fin 8192 → Fin 400)

/-- The object cell's gathered entries. -/
abbrev tObj : S8192x5.Idx → EReal := res_main_v74 (F := Ideal) V0
/-- The decoded cells. -/
abbrev tCell : S8192x400x5.Idx → EReal := res_main_v71 (F := Ideal) V0
/-- The weight of the cells that hold no object. -/
abbrev tRest : S8192x400.Idx → EReal := res_main_v77 (F := Ideal) V0
/-- The scaled label. -/
abbrev tLbl : S8192x4.Idx → EReal := res_main_v80 (F := Ideal) V0
/-- The shared area. -/
abbrev tInter : S8192.Idx → EReal := res_main_v205 (F := Ideal) V0
/-- The centre error of every row. -/
abbrev tXY : S8192x2.Idx → EReal := res_main_v228 (F := Ideal) V0
/-- The size error of every row. -/
abbrev tWH : S8192x2.Idx → EReal := res_main_v235 (F := Ideal) V0
/-- Every cell's distance from the default box, by feature. -/
abbrev tOff : S8192x400x4.Idx → EReal := res_main_v248 (F := Ideal) V0
/-- The confidence error of every row. -/
abbrev tConf : S8192.Idx → EReal := res_main_v258 (F := Ideal) V0
/-- Every cell's confidence. -/
abbrev tConfAll : S8192x400.Idx → EReal := res_main_v263 (F := Ideal) V0

/-- The default box every cell is compared with: centre (1/2, 1/2), size the first anchor's in pixels. -/
abbrev tTarget : S4.Idx → EReal :=
  concatenate S4 0 [⟨S2, (constant (F := Ideal) S2 .f32 0x3F000000#32)⟩, ⟨S2, (mulf (F := Ideal) (φ := .f32) (shapeCast _ (extractStridedSlice S1x2 ![0, 0] (argA V0) slices_S5x2_S1x2_0_0) shapeCasts_S1x2_S2) (broadcastInDim S2 ![] bcast_S_S2 (constant S_ .f32 0x44200000#32)))⟩] concatenates_S2_S2_S4_d0

/-! ## The five differences read at coordinates -/

/-- The centre error: gathered entry minus the label scaled to grid units. -/
theorem xy_apply (b : Fin 8192) (f : Fin 2) (k5 : Fin 5) (k4 : Fin 4) (h5 : k5.val = 0 + f.val) (h4 : k4.val = 0 + f.val) :
    tXY V0 (ix2 b f) = tObj V0 (ix2 b k5) - argL V0 (ix2 b k4) * wd 0x41A00000#32 :=
  congrArg₂ (fun x y : EReal => x - y * wd 0x41A00000#32)
    (slice2_axis1_apply 0 (tObj V0) _ b f k5 h5) (slice2_axis1_apply 0 (argL V0) _ b f k4 h4)

/-- The size error: root of the gathered entry minus root of the label scaled to pixels. -/
theorem wh_apply (b : Fin 8192) (f : Fin 2) (k5 : Fin 5) (k4 : Fin 4) (h5 : k5.val = 2 + f.val) (h4 : k4.val = 2 + f.val) :
    tWH V0 (ix2 b f) = Ideal.sqrt (tObj V0 (ix2 b k5)) - Ideal.sqrt (argL V0 (ix2 b k4) * wd 0x44200000#32) :=
  congrArg₂ (fun x y : EReal => Ideal.sqrt x - Ideal.sqrt (y * wd 0x44200000#32))
    (slice2_axis1_apply 2 (tObj V0) _ b f k5 h5) (slice2_axis1_apply 2 (argL V0) _ b f k4 h4)

/-- The default box's four entries. -/
theorem target_x : tTarget V0 (ix1 (0 : Fin 4)) = wd 0x3F000000#32 :=
  join_left _ _ _ (0 : Fin 4) (0 : Fin 2) rfl
theorem target_y : tTarget V0 (ix1 (1 : Fin 4)) = wd 0x3F000000#32 :=
  join_left _ _ _ (1 : Fin 4) (1 : Fin 2) rfl
theorem target_w : tTarget V0 (ix1 (2 : Fin 4)) = ancW (argA V0) :=
  (join_right _ _ _ (2 : Fin 4) (0 : Fin 2) rfl).trans
    (congrArg (fun x : EReal => x * wd 0x44200000#32) (anc_apply (argA V0) _ _ (0 : Fin 2)))
theorem target_h : tTarget V0 (ix1 (3 : Fin 4)) = ancH (argA V0) :=
  (join_right _ _ _ (3 : Fin 4) (1 : Fin 2) rfl).trans
    (congrArg (fun x : EReal => x * wd 0x44200000#32) (anc_apply (argA V0) _ _ (1 : Fin 2)))

/-- A cell's distance from the default box, one feature at a time. -/
theorem off_apply (b : Fin 8192) (c : Fin 400) (f : Fin 4) (k : Fin 5) (hk : k.val = f.val) :
    tOff V0 (ix3 b c f) = tCell V0 (ix3 b c k) - tTarget V0 (ix1 f) :=
  congrArg₂ (fun x y : EReal => x - y) (feat4_apply (tCell V0) _ b c f k hk) (row4_apply (tTarget V0) _ _ b c f)

/-- Every cell's confidence. -/
theorem confAll_apply (b : Fin 8192) (c : Fin 400) : tConfAll V0 (ix2 b c) = cellConf (predChan (argP V0)) b c :=
  (feat5_apply (tCell V0) _ _ b c).trans (pred_conf V0 b c)

/-- The decoded cell's first four features are the specification's box. -/
theorem cell_x (b : Fin 8192) (c : Fin 400) : tCell V0 (ix3 b c (0 : Fin 5)) = cellX (predChan (argP V0)) b c := pred_x V0 b c
theorem cell_y (b : Fin 8192) (c : Fin 400) : tCell V0 (ix3 b c (1 : Fin 5)) = cellY (predChan (argP V0)) b c := pred_y V0 b c
theorem cell_w (b : Fin 8192) (c : Fin 400) :
    tCell V0 (ix3 b c (2 : Fin 5)) = cellW (predChan (argP V0)) (ancW (argA V0)) b c := pred_w V0 b c
theorem cell_h (b : Fin 8192) (c : Fin 400) :
    tCell V0 (ix3 b c (3 : Fin 5)) = cellH (predChan (argP V0)) (ancH (argA V0)) b c := pred_h V0 b c

/-! ## One row's and one cell's share of each total -/

section Rows
variable (hκ : ∀ b : Fin 8192, refCellWord (labRow (argL V0)) b = BitVec.ofNat 32 (κ b).val)

include hκ in
/-- The gathered entries are the object cell's five quantities. -/
theorem obj_x (b : Fin 8192) : tObj V0 (ix2 b (0 : Fin 5)) = cellX (predChan (argP V0)) b (κ b) :=
  (obj_apply V0 κ hκ b 0).trans (pred_x V0 b (κ b))
include hκ in
theorem obj_y (b : Fin 8192) : tObj V0 (ix2 b (1 : Fin 5)) = cellY (predChan (argP V0)) b (κ b) :=
  (obj_apply V0 κ hκ b 1).trans (pred_y V0 b (κ b))
include hκ in
theorem obj_w (b : Fin 8192) : tObj V0 (ix2 b (2 : Fin 5)) = cellW (predChan (argP V0)) (ancW (argA V0)) b (κ b) :=
  (obj_apply V0 κ hκ b 2).trans (pred_w V0 b (κ b))
include hκ in
theorem obj_h (b : Fin 8192) : tObj V0 (ix2 b (3 : Fin 5)) = cellH (predChan (argP V0)) (ancH (argA V0)) b (κ b) :=
  (obj_apply V0 κ hκ b 3).trans (pred_h V0 b (κ b))
include hκ in
theorem obj_conf (b : Fin 8192) : tObj V0 (ix2 b (4 : Fin 5)) = cellConf (predChan (argP V0)) b (κ b) :=
  (obj_apply V0 κ hκ b 4).trans (pred_conf V0 b (κ b))

include hκ in
/-- A row's squared centre error. -/
theorem xy_row (b : Fin 8192) :
    (∑ f : Fin 2, tXY V0 (ix2 b f) * tXY V0 (ix2 b f)) = rowXY (predChan (argP V0)) (labRow (argL V0)) κ b := by
  rw [Fin.sum_univ_two, xy_apply V0 b 0 0 0 rfl rfl, xy_apply V0 b 1 1 1 rfl rfl, obj_x V0 κ hκ, obj_y V0 κ hκ]
  rfl

include hκ in
/-- A row's squared size error. -/
theorem wh_row (b : Fin 8192) :
    (∑ f : Fin 2, tWH V0 (ix2 b f) * tWH V0 (ix2 b f))
      = rowWH (predChan (argP V0)) (labRow (argL V0)) (ancW (argA V0)) (ancH (argA V0)) κ b := by
  rw [Fin.sum_univ_two, wh_apply V0 b 0 2 2 rfl rfl, wh_apply V0 b 1 3 3 rfl rfl, obj_w V0 κ hκ, obj_h V0 κ hκ]
  rfl

include hκ in
/-- A row's confidence error: the object cell's confidence minus the overlap ratio. -/
theorem conf_row (b : Fin 8192) :
    tConf V0 (ix1 b) * tConf V0 (ix1 b)
      = rowConf (predChan (argP V0)) (labRow (argL V0)) (ancW (argA V0)) (ancH (argA V0)) κ b := by
  have e1 := (col_apply 4 (tObj V0) slices_S8192x5_S8192x1_0_4 shapeCasts_S8192x1_S8192 b (4 : Fin 5) rfl).trans (obj_conf V0 κ hκ b)
  have e2 := (col_apply 2 (tLbl V0) slices_S8192x4_S8192x1_0_2 shapeCasts_S8192x1_S8192 b (2 : Fin 4) rfl).trans (lbl_w V0 b)
  have e3 := (col_apply 3 (tLbl V0) slices_S8192x4_S8192x1_0_3 shapeCasts_S8192x1_S8192 b (3 : Fin 4) rfl).trans (lbl_h V0 b)
  have e4 := (col_apply 2 (tObj V0) slices_S8192x5_S8192x1_0_2 shapeCasts_S8192x1_S8192 b (2 : Fin 5) rfl).trans (obj_w V0 κ hκ b)
  have e5 := (col_apply 3 (tObj V0) slices_S8192x5_S8192x1_0_3 shapeCasts_S8192x1_S8192 b (3 : Fin 5) rfl).trans (obj_h V0 κ hκ b)
  have key : ∀ (I J a1 a2 a3 a4 a5 b1 b2 b3 b4 b5 : EReal), I = J → a1 = b1 → a2 = b2 → a3 = b3 → a4 = b4 → a5 = b5 →
      a1 - Ideal.div I (a2 * a3 + a4 * a5 - I) = b1 - Ideal.div J (b2 * b3 + b4 * b5 - J) := by
    intro I J a1 a2 a3 a4 a5 b1 b2 b3 b4 b5 h0 h1 h2 h3 h4 h5
    rw [h0, h1, h2, h3, h4, h5]
  have hd : tConf V0 (ix1 b)
      = cellConf (predChan (argP V0)) b (κ b) - rowIou (predChan (argP V0)) (labRow (argL V0)) (ancW (argA V0)) (ancH (argA V0)) κ b :=
    key _ _ _ _ _ _ _ _ _ _ _ _ (inter_apply V0 κ hκ b) e1 e2 e3 e4 e5
  rw [hd]
  rfl

/-- The weight of a cell is 0 at the row's object cell and 1 elsewhere. -/
theorem weight_cases (c k : Fin 400) :
    ((1 : EReal) - (if c = k then (1 : EReal) else 0)) = 0 ∨ ((1 : EReal) - (if c = k then (1 : EReal) else 0)) = 1 := by
  by_cases h : c = k
  · left
    rw [if_pos h, ← EReal.coe_one, ← EReal.coe_sub, sub_self, EReal.coe_zero]
  · right
    rw [if_neg h, sub_zero]

/-- Four terms with a common weight 0 or 1: the weight comes out of the sum. -/
theorem weight_out (a b c d w : EReal) (hw : w = 0 ∨ w = 1) : a * w + b * w + c * w + d * w = (a + b + c + d) * w := by
  rcases hw with h | h
  · rw [h, mul_zero, mul_zero, mul_zero, mul_zero, mul_zero, add_zero, add_zero, add_zero]
  · rw [h, mul_one, mul_one, mul_one, mul_one, mul_one]

include hκ in
/-- The weight array at a cell. -/
theorem rest_apply (b : Fin 8192) (c : Fin 400) :
    tRest V0 (ix2 b c) = (1 : EReal) - (if c = κ b then (1 : EReal) else 0) :=
  (noobj_apply V0 κ hκ b c).trans (congrArg (fun x : EReal => x - (if c = κ b then (1 : EReal) else 0)) wd_one)

include hκ in
/-- A cell's weighted squared distance from the default box. -/
theorem off_cell (h1 : S8192x400x1.BroadcastsInDim S8192x400x4 ![0, 1, 2]) (h2 : S8192x400.BroadcastsInDim S8192x400x1 ![0, 1])
    (b : Fin 8192) (c : Fin 400) :
    (∑ f : Fin 4, tOff V0 (ix3 b c f) * tOff V0 (ix3 b c f)
        * broadcastInDim S8192x400x4 ![0, 1, 2] h1 (broadcastInDim S8192x400x1 ![0, 1] h2 (tRest V0)) (ix3 b c f))
      = cellOff (predChan (argP V0)) (ancW (argA V0)) (ancH (argA V0)) b c
          * ((1 : EReal) - (if c = κ b then (1 : EReal) else 0)) := by
  rw [Fin.sum_univ_four, rep4_apply, rep4_apply, rep4_apply, rep4_apply, rest_apply V0 κ hκ,
    off_apply V0 b c 0 0 rfl, off_apply V0 b c 1 1 rfl, off_apply V0 b c 2 2 rfl, off_apply V0 b c 3 3 rfl,
    target_x, target_y, target_w, target_h, cell_x, cell_y, cell_w, cell_h]
  exact weight_out _ _ _ _ _ (weight_cases c (κ b))

include hκ in
/-- A cell's weighted squared confidence. -/
theorem confSq_cell (b : Fin 8192) (c : Fin 400) :
    tConfAll V0 (ix2 b c) * tConfAll V0 (ix2 b c) * tRest V0 (ix2 b c)
      = cellConfSq (predChan (argP V0)) b c * ((1 : EReal) - (if c = κ b then (1 : EReal) else 0)) := by
  rw [confAll_apply, rest_apply V0 κ hκ]
  rfl

end Rows

/-! ## The five totals -/

/-- The reference's sum of a whole array into a scalar, from the word 0: the sum over the array's index set. -/
theorem sumAll_apply {s : Shape} {axes : List (Fin s.rank)} (x : s.Idx → EReal) (h : s.ReducesTo axes S_) (j : S_.Idx) :
    Host.reduceAdd (F := Ideal) (φ := .f32) x (constant S_ .f32 0x00000000#32) h h_S_ j = ∑ i, x i := by
  refine (Ideal.hostReduceAdd_total h (fun a => a.elim0) x _ j).trans ?_
  show Ideal.ofBits .f32 0x00000000#32 + _ = _
  rw [Ideal.ofBits_zero_f32, zero_add]

section Totals
variable (hκ : ∀ b : Fin 8192, refCellWord (labRow (argL V0)) b = BitVec.ofNat 32 (κ b).val)

include hκ in
/-- The centre total. -/
theorem total_xy (j : S_.Idx) :
    Host.reduceAdd (F := Ideal) (φ := .f32) (mulf (F := Ideal) (φ := .f32) (tXY V0) (tXY V0))
        (constant S_ .f32 0x00000000#32) reducesTo_S8192x2_S_d0_1 h_S_ j
      = sumXY (predChan (argP V0)) (labRow (argL V0)) κ := by
  rw [sumAll_apply, sum_idx2']
  exact Finset.sum_congr rfl fun b _ => xy_row V0 κ hκ b

include hκ in
/-- The size total. -/
theorem total_wh (j : S_.Idx) :
    Host.reduceAdd (F := Ideal) (φ := .f32) (mulf (F := Ideal) (φ := .f32) (tWH V0) (tWH V0))
        (constant S_ .f32 0x00000000#32) reducesTo_S8192x2_S_d0_1 h_S_ j
      = sumWH (predChan (argP V0)) (labRow (argL V0)) (ancW (argA V0)) (ancH (argA V0)) κ := by
  rw [sumAll_apply, sum_idx2']
  exact Finset.sum_congr rfl fun b _ => wh_row V0 κ hκ b

include hκ in
/-- The confidence total. -/
theorem total_conf (j : S_.Idx) :
    Host.reduceAdd (F := Ideal) (φ := .f32) (mulf (F := Ideal) (φ := .f32) (tConf V0) (tConf V0))
        (constant S_ .f32 0x00000000#32) reducesTo_S8192_S_d0 h_S_ j
      = sumConf (predChan (argP V0)) (labRow (argL V0)) (ancW (argA V0)) (ancH (argA V0)) κ := by
  rw [sumAll_apply, sum_idx1]
  exact Finset.sum_congr rfl fun b _ => conf_row V0 κ hκ b

include hκ in
/-- The other cells' distance from the default box: all cells minus the object cells. -/
theorem total_off (hreal : AllReal (argP V0) (argL V0) (argA V0)) (j : S_.Idx) :
    Host.reduceAdd (F := Ideal) (φ := .f32)
        (mulf (F := Ideal) (φ := .f32) (mulf (F := Ideal) (φ := .f32) (tOff V0) (tOff V0))
          (broadcastInDim S8192x400x4 ![0, 1, 2] bcast_S8192x400x1_S8192x400x4_0_1_2
            (broadcastInDim S8192x400x1 ![0, 1] bcast_S8192x400_S8192x400x1_0_1 (tRest V0))))
        (constant S_ .f32 0x00000000#32) reducesTo_S8192x400x4_S_d0_1_2 h_S_ j
      = sumOffAll (predChan (argP V0)) (ancW (argA V0)) (ancH (argA V0))
          - sumOffObj (predChan (argP V0)) (ancW (argA V0)) (ancH (argA V0)) κ := by
  rw [sumAll_apply, sum_idx3]
  refine (Finset.sum_congr rfl fun b _ => Finset.sum_congr rfl fun c _ => off_cell V0 κ hκ _ _ b c).trans ?_
  exact sum_others (cellOff (predChan (argP V0)) (ancW (argA V0)) (ancH (argA V0))) κ fun b =>
    isReal_cellOff _ _ _ (isReal_predChan _ hreal.pred) (isReal_ancW _ hreal.anc) (isReal_ancH _ hreal.anc) b (κ b)

include hκ in
/-- The other cells' squared confidence: all cells minus the object cells. -/
theorem total_confSq (hreal : AllReal (argP V0) (argL V0) (argA V0)) (j : S_.Idx) :
    Host.reduceAdd (F := Ideal) (φ := .f32)
        (mulf (F := Ideal) (φ := .f32) (mulf (F := Ideal) (φ := .f32) (tConfAll V0) (tConfAll V0)) (tRest V0))
        (constant S_ .f32 0x00000000#32) reducesTo_S8192x400_S_d0_1 h_S_ j
      = sumConfSqAll (predChan (argP V0)) - sumConfSqObj (predChan (argP V0)) κ := by
  rw [sumAll_apply, sum_idx2']
  refine (Finset.sum_congr rfl fun b _ => Finset.sum_congr rfl fun c _ => confSq_cell V0 κ hκ b c).trans ?_
  exact sum_others (cellConfSq (predChan (argP V0))) κ fun b =>
    isReal_cellConfSq _ (isReal_predChan _ hreal.pred) b (κ b)

end Totals

/-! ## The result -/

/-- The count 8192 * 399 times 4, as one word. -/
theorem others_mul_four : wd 0x4A478000#32 * wd 0x40800000#32 = wd 0x4B478000#32 := by
  rw [wd_others, wd_four, wd_others4, ← EReal.coe_mul]
  norm_num

end Value

open Value

/-- With every entry real and `κ` the object cell of every row, the reference's result term is the loss. -/
theorem out_eq (V0 : Valuation τ sig (Elt Ideal)) (κ : Fin 8192 → Fin 400)
    (hreal : AllReal (argP V0) (argL V0) (argA V0))
    (hκ : ∀ b : Fin 8192, refCellWord (labRow (argL V0)) b = BitVec.ofNat 32 (κ b).val) :
    res_main_v274 (F := Ideal) V0 = fun _ => lossOf (argP V0) (argL V0) (argA V0) κ := by
  funext j
  -- the result at its one index is the specification's combination of the five sums, operand for operand
  have key : ∀ (r1 r2 r3 r4 r5 s1 s2 s3 s4 s5 n : EReal), r1 = s1 → r2 = s2 → r3 = s3 → r4 = s4 → r5 = s5 →
      n = wd 0x4B478000#32 →
      (Ideal.div r1 (wd 0x46800000#32) + Ideal.div r2 (wd 0x46800000#32)) * wd 0x40000000#32
          + Ideal.div r3 n * wd 0x3F800000#32
          + Ideal.div r4 (wd 0x46000000#32) * wd 0x40A00000#32
          + Ideal.div r5 (wd 0x4A478000#32) * wd 0x3F800000#32
        = combine s1 s2 s3 s4 s5 := by
    intro r1 r2 r3 r4 r5 s1 s2 s3 s4 s5 n h1 h2 h3 h4 h5 hn
    rw [h1, h2, h3, h4, h5, hn]
    rfl
  exact key _ _ _ _ _ _ _ _ _ _ _ (total_xy V0 κ hκ j) (total_wh V0 κ hκ j) (total_off V0 κ hκ hreal j)
    (total_conf V0 κ hκ j) (total_confSq V0 κ hκ hreal j) others_mul_four

end Cert.GridLoss.Ref

end
-- ==== Proof.lean ====
/-
  The certificate: under the precondition — every entry of the three arrays a real number, and every label's two cell
  coordinates inside the 20 × 20 grid — the kernel program and the reference program both run to the end, leave their arguments as
  they were, and end at one value: the loss of `Proof/Spec.lean`, with each row's object cell the one both programs compute.
  The kernel's side is `Proof/KerRun.lean` (one grid point's seven sums over its 256 rows, summed over the 32 points), the
  reference's `Proof/RefRun.lean` (its run) and `Proof/RefValue.lean` (its result term is the loss); `Proof/PreFacts.lean` reads
  the precondition.
-/
import proofs.«403400_j21895743275785_4_alg».proof.Defs
import proofs.«403400_j21895743275785_4_alg».proof.Proof.Gen.Kernel
import proofs.«403400_j21895743275785_4_alg».proof.Proof.Gen.Kernel.Frame
import proofs.«403400_j21895743275785_4_alg».proof.Proof.Gen.KernelIdeal
import proofs.«403400_j21895743275785_4_alg».proof.Proof.Gen.KernelIdeal.Frame
import proofs.«403400_j21895743275785_4_alg».proof.Proof.Gen.ReferenceIdeal
import proofs.«403400_j21895743275785_4_alg».proof.Proof.Gen.Pre_finite_inputs
import proofs.«403400_j21895743275785_4_alg».proof.Proof.PreFacts
import proofs.«403400_j21895743275785_4_alg».proof.Proof.KerRun
import proofs.«403400_j21895743275785_4_alg».proof.Proof.RefRun
import proofs.«403400_j21895743275785_4_alg».proof.Proof.RefValue
import Idealize.ShloMosaic.Adequacy
import Idealize.ShloMosaic.Init

noncomputable section

namespace Cert.Proof

open Idealize.ShloMosaic Idealize.ShloMosaic.TcCoe Idealize.SL.Sem Cert.GridLoss

section Claims

variable [hK : Cert.Kernel.Facts] [hKI : Cert.KernelIdeal.Facts] [hR : Cert.ReferenceIdeal.Facts] [hP : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.GridLoss.Ref.run (F := Ideal) m ρ)

/-- The kernel's averaging constant 0.2 is read as the exact fifth at each of its five sites. -/
theorem fifth_named : IdealRules.named_const.Statement Cert.KernelIdeal.κ "inv_5" .f32 0x3E4CCCCD#32 ((1 / 5 : ℝ) : EReal) :=
  IdealRules.named_const.statement Cert.KernelIdeal.κ "inv_5" .f32 0x3E4CCCCD#32 ((1 / 5 : ℝ) : EReal) rfl

theorem preserves : Cert.preserves_Kernel_KernelIdeal :=
  ⟨fifth_named, fifth_named, fifth_named, fifth_named, fifth_named⟩

/-- Both programs end at the loss of the (shared) argument arrays, with the object cells the precondition provides. -/
theorem algebraic : Cert.algebraic_KernelIdeal_ReferenceIdeal := by
  intro m ρ m' ρ' hpre hagree
  have H := fun c => of_pre _ _ _ (hpre c)
  choose hreal κ hκ using H
  refine ⟨fun c _ => lossOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (κ c),
    Cert.GridLoss.Ker.kernel_run m ρ κ (fun c b => (hκ c).ker b), ?_⟩
  refine (θ_run Cert.ReferenceIdeal.defs _ _).mono (fun _ h c => ⟨(h c).1.trans ?_, (h c).2⟩)
    (Cert.GridLoss.Ref.run (F := Ideal) m' ρ')
  have e0 := (hagree c).1
  have e1 := (hagree c).2.1
  have e2 := (hagree c).2.2
  have hr : AllReal (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) := by
    rw [e0, e1, e2]; exact hreal c
  have hk : ∀ b : Fin 8192, refCellWord (labRow (m' ((c.tc : Thread Cert.ReferenceIdeal.nD Cert.ReferenceIdeal.τ).loc Cert.ReferenceIdeal.main_arg1))) b
      = BitVec.ofNat 32 (κ c b).val := by
    rw [e1]; exact (hκ c).ref
  refine (Cert.GridLoss.Ref.out_eq (StableHlo.launchContents m' c) (κ c) hr hk).trans ?_
  show (fun _ => lossOf (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (κ c)) = _
  rw [e0, e1, e2]
  rfl

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
